-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S131072 : Shape := ⟨1, ![131072]⟩
abbrev S200000x8 : Shape := ⟨2, ![200000, 8]⟩
abbrev S200000x64 : Shape := ⟨2, ![200000, 64]⟩
abbrev S500000x16 : Shape := ⟨2, ![500000, 16]⟩
abbrev S500000x128 : Shape := ⟨2, ![500000, 128]⟩
abbrev S8x50000x64 : Shape := ⟨3, ![8, 50000, 64]⟩
abbrev S16x50000x64 : Shape := ⟨3, ![16, 50000, 64]⟩
abbrev S32x1152 : Shape := ⟨2, ![32, 1152]⟩
abbrev S32 : Shape := ⟨1, ![32]⟩
abbrev S64 : Shape := ⟨1, ![64]⟩
abbrev S128 : Shape := ⟨1, ![128]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S8x50000x64 : S_.BroadcastsInDim S8x50000x64 (![] : Fin 0 → Fin S8x50000x64.rank)
  reducesTo_S8x50000x64_S_d0_1_2 : S8x50000x64.ReducesTo [0, 1, 2] S_
  bcast_S_S16x50000x64 : S_.BroadcastsInDim S16x50000x64 (![] : Fin 0 → Fin S16x50000x64.rank)
  reducesTo_S16x50000x64_S_d0_1_2 : S16x50000x64.ReducesTo [0, 1, 2] S_
  bcast_S_S32x1152 : S_.BroadcastsInDim S32x1152 (![] : Fin 0 → Fin S32x1152.rank)
  reducesTo_S32x1152_S_d0_1 : S32x1152.ReducesTo [0, 1] S_
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_
  bcast_S_S8192 : S_.BroadcastsInDim S8192 (![] : Fin 0 → Fin S8192.rank)
  reducesTo_S8192_S_d0 : S8192.ReducesTo [0] S_
  bcast_S_S131072 : S_.BroadcastsInDim S131072 (![] : Fin 0 → Fin S131072.rank)
  reducesTo_S131072_S_d0 : S131072.ReducesTo [0] S_
  bcast_S_S200000x8 : S_.BroadcastsInDim S200000x8 (![] : Fin 0 → Fin S200000x8.rank)
  reducesTo_S200000x8_S_d0_1 : S200000x8.ReducesTo [0, 1] S_
  bcast_S_S500000x16 : S_.BroadcastsInDim S500000x16 (![] : Fin 0 → Fin S500000x16.rank)
  reducesTo_S500000x16_S_d0_1 : S500000x16.ReducesTo [0, 1] S_

variable [Facts]

def fn_part4 {F : FTy → Type} [FloatOps F] (main_arg4 : IVec S500000x16 32) (main_v62 : IVec S_ 1) (main_v67 : IVec S200000x8 1) : IVec S_ 1 :=
  let main_c_26 : IVec S_ 1 := constantI S_ 1 1#1
  let main_v68 : IVec S_ 1 := (fun x v => Host.reduce IntOp.andi x v reducesTo_S200000x8_S_d0_1 h_S_) main_v67 main_c_26
  let main_v69 : IVec S_ 1 := andi main_v62 main_v68
  let main_c_27 : IVec S_ 32 := constantI S_ 32 0#32
  let main_v70 : IVec S500000x16 32 := broadcastInDim S500000x16 ![] bcast_S_S500000x16 main_c_27
  let main_v71 : IVec S500000x16 1 := cmpi .sge main_arg4 main_v70
  let main_c_28 : IVec S_ 32 := constantI S_ 32 50000#32
  let main_v72 : IVec S500000x16 32 := broadcastInDim S500000x16 ![] bcast_S_S500000x16 main_c_28
  let main_v73 : IVec S500000x16 1 := cmpi .slt main_arg4 main_v72
  let main_v74 : IVec S500000x16 1 := andi main_v71 main_v73
  let main_c_29 : IVec S_ 1 := constantI S_ 1 1#1
  let main_v75 : IVec S_ 1 := (fun x v => Host.reduce IntOp.andi x v reducesTo_S500000x16_S_d0_1 h_S_) main_v74 main_c_29
  let main_v76 : IVec S_ 1 := andi main_v69 main_v75
  main_v76

def fn_part3 {F : FTy → Type} [FloatOps F] (main_arg0 : IVec S8192 32) (main_arg1 : IVec S131072 32) (main_arg2 : IVec S200000x8 32) (main_arg4 : IVec S500000x16 32) (main_v48 : IVec S_ 1) (main_v50 : IVec S8192 1) : IVec S_ 1 :=
  let main_c_19 : IVec S_ 32 := constantI S_ 32 200000#32
  let main_v51 : IVec S8192 32 := broadcastInDim S8192 ![] bcast_S_S8192 main_c_19
  let main_v52 : IVec S8192 1 := cmpi .slt main_arg0 main_v51
  let main_v53 : IVec S8192 1 := andi main_v50 main_v52
  let main_c_20 : IVec S_ 1 := constantI S_ 1 1#1
  let main_v54 : IVec S_ 1 := (fun x v => Host.reduce IntOp.andi x v reducesTo_S8192_S_d0 h_S_) main_v53 main_c_20
  let main_v55 : IVec S_ 1 := andi main_v48 main_v54
  let main_c_21 : IVec S_ 32 := constantI S_ 32 0#32
  let main_v56 : IVec S131072 32 := broadcastInDim S131072 ![] bcast_S_S131072 main_c_21
  let main_v57 : IVec S131072 1 := cmpi .sge main_arg1 main_v56
  let main_c_22 : IVec S_ 32 := constantI S_ 32 500000#32
  let main_v58 : IVec S131072 32 := broadcastInDim S131072 ![] bcast_S_S131072 main_c_22
  let main_v59 : IVec S131072 1 := cmpi .slt main_arg1 main_v58
  let main_v60 : IVec S131072 1 := andi main_v57 main_v59
  let main_c_23 : IVec S_ 1 := constantI S_ 1 1#1
  let main_v61 : IVec S_ 1 := (fun x v => Host.reduce IntOp.andi x v reducesTo_S131072_S_d0 h_S_) main_v60 main_c_23
  let main_v62 : IVec S_ 1 := andi main_v55 main_v61
  let main_c_24 : IVec S_ 32 := constantI S_ 32 0#32
  let main_v63 : IVec S200000x8 32 := broadcastInDim S200000x8 ![] bcast_S_S200000x8 main_c_24
  let main_v64 : IVec S200000x8 1 := cmpi .sge main_arg2 main_v63
  let main_c_25 : IVec S_ 32 := constantI S_ 32 50000#32
  let main_v65 : IVec S200000x8 32 := broadcastInDim S200000x8 ![] bcast_S_S200000x8 main_c_25
  let main_v66 : IVec S200000x8 1 := cmpi .slt main_arg2 main_v65
  let main_v67 : IVec S200000x8 1 := andi main_v64 main_v66
  fn_part4 (F := F) main_arg4 main_v62 main_v67

def fn_part2 {F : FTy → Type} [FloatOps F] (main_arg0 : IVec S8192 32) (main_arg1 : IVec S131072 32) (main_arg2 : IVec S200000x8 32) (main_arg4 : IVec S500000x16 32) (main_arg11 : FVec F S64 .f32) (main_arg12 : FVec F S128 .f32) (main_arg13 : FVec F S128 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S8192 32 := broadcastInDim S8192 ![] bcast_S_S8192 main_c_18
  let main_v50 : IVec S8192 1 := cmpi .sge main_arg0 main_v49
  fn_part3 (F := F) main_arg0 main_arg1 main_arg2 main_arg4 main_v48 main_v50

def fn_part1 {F : FTy → Type} [FloatOps F] (main_arg0 : IVec S8192 32) (main_arg1 : IVec S131072 32) (main_arg2 : IVec S200000x8 32) (main_arg4 : IVec S500000x16 32) (main_arg8 : FVec F S32x1152 .f32) (main_arg9 : FVec F S32 .f32) (main_arg10 : FVec F S64 .f32) (main_arg11 : FVec F S64 .f32) (main_arg12 : FVec F S128 .f32) (main_arg13 : FVec F S128 .f32) (main_v13 : IVec S_ 1) (main_v16 : IVec S16x50000x64 1) : IVec S_ 1 :=
  let main_c_5 : IVec S_ 1 := constantI S_ 1 1#1
  let main_v17 : IVec S_ 1 := (fun x v => Host.reduce IntOp.andi x v reducesTo_S16x50000x64_S_d0_1_2 h_S_) main_v16 main_c_5
  let main_v18 : IVec S_ 1 := andi main_v13 main_v17
  let main_v19 : FVec F S32x1152 .f32 := Host.absf main_arg8
  let main_cst_6 : FVec F S_ .f32 := constant S_ .f32 0x7F800000#32
  let main_v20 : FVec F S32x1152 .f32 := broadcastInDim S32x1152 ![] bcast_S_S32x1152 main_cst_6
  let main_v21 : IVec S32x1152 1 := cmpf .olt main_v19 main_v20
  let main_c_7 : IVec S_ 1 := constantI S_ 1 1#1
  let main_v22 : IVec S_ 1 := (fun x v => Host.reduce IntOp.andi x v reducesTo_S32x1152_S_d0_1 h_S_) main_v21 main_c_7
  let main_v23 : IVec S_ 1 := andi main_v18 main_v22
  let main_v24 : FVec F S32 .f32 := Host.absf main_arg9
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg2 main_arg4 main_arg11 main_arg12 main_arg13 main_v33

def fn {F : FTy → Type} [FloatOps F] (main_arg0 : IVec S8192 32) (main_arg1 : IVec S131072 32) (main_arg2 : IVec S200000x8 32) (main_arg3 : FVec F S200000x64 .f32) (main_arg4 : IVec S500000x16 32) (main_arg5 : FVec F S500000x128 .f32) (main_arg6 : FVec F S8x50000x64 .f32) (main_arg7 : FVec F S16x50000x64 .f32) (main_arg8 : FVec F S32x1152 .f32) (main_arg9 : FVec F S32 .f32) (main_arg10 : FVec F S64 .f32) (main_arg11 : FVec F S64 .f32) (main_arg12 : FVec F S128 .f32) (main_arg13 : FVec F S128 .f32) : IVec S_ 1 :=
  let main_v0 : FVec F S200000x64 .f32 := Host.absf main_arg3
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S500000x128 .f32 := Host.absf main_arg5
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S8x50000x64 .f32 := Host.absf main_arg6
  let main_cst_2 : FVec F S_ .f32 := constant S_ .f32 0x7F800000#32
  let main_v10 : FVec F S8x50000x64 .f32 := broadcastInDim S8x50000x64 ![] bcast_S_S8x50000x64 main_cst_2
  let main_v11 : IVec S8x50000x64 1 := cmpf .olt main_v9 main_v10
  let main_c_3 : IVec S_ 1 := constantI S_ 1 1#1
  let main_v12 : IVec S_ 1 := (fun x v => Host.reduce IntOp.andi x v reducesTo_S8x50000x64_S_d0_1_2 h_S_) main_v11 main_c_3
  let main_v13 : IVec S_ 1 := andi main_v8 main_v12
  let main_v14 : FVec F S16x50000x64 .f32 := Host.absf main_arg7
  let main_cst_4 : FVec F S_ .f32 := constant S_ .f32 0x7F800000#32
  let main_v15 : FVec F S16x50000x64 .f32 := broadcastInDim S16x50000x64 ![] bcast_S_S16x50000x64 main_cst_4
  let main_v16 : IVec S16x50000x64 1 := cmpf .olt main_v14 main_v15
  fn_part1 (F := F) main_arg0 main_arg1 main_arg2 main_arg4 main_arg8 main_arg9 main_arg10 main_arg11 main_arg12 main_arg13 main_v13 main_v16
-- ==== Kernel.lean ====
abbrev S8192 : Shape := ⟨1, ![8192]⟩
abbrev S131072 : Shape := ⟨1, ![131072]⟩
abbrev S200000x8 : Shape := ⟨2, ![200000, 8]⟩
abbrev S200000x64 : Shape := ⟨2, ![200000, 64]⟩
abbrev S500000x16 : Shape := ⟨2, ![500000, 16]⟩
abbrev S500000x128 : Shape := ⟨2, ![500000, 128]⟩
abbrev S8x50000x64 : Shape := ⟨3, ![8, 50000, 64]⟩
abbrev S16x50000x64 : Shape := ⟨3, ![16, 50000, 64]⟩
abbrev S32x1152 : Shape := ⟨2, ![32, 1152]⟩
abbrev S32 : Shape := ⟨1, ![32]⟩
abbrev S64 : Shape := ⟨1, ![64]⟩
abbrev S128 : Shape := ⟨1, ![128]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x8 : Shape := ⟨2, ![8192, 8]⟩
abbrev S1x50000x64 : Shape := ⟨3, ![1, 50000, 64]⟩
abbrev S50000x64 : Shape := ⟨2, ![50000, 64]⟩
abbrev S8192x64 : Shape := ⟨2, ![8192, 64]⟩
abbrev S8192x512 : Shape := ⟨2, ![8192, 512]⟩
abbrev S1x64 : Shape := ⟨2, ![1, 64]⟩
abbrev S131072x1 : Shape := ⟨2, ![131072, 1]⟩
abbrev S131072x16 : Shape := ⟨2, ![131072, 16]⟩
abbrev S131072x64 : Shape := ⟨2, ![131072, 64]⟩
abbrev S131072x1024 : Shape := ⟨2, ![131072, 1024]⟩
abbrev S131072x128 : Shape := ⟨2, ![131072, 128]⟩
abbrev S1x128 : Shape := ⟨2, ![1, 128]⟩
abbrev S1x32 : Shape := ⟨2, ![1, 32]⟩
abbrev S8192x32 : Shape := ⟨2, ![8192, 32]⟩
abbrev S4096x1024 : Shape := ⟨2, ![4096, 1024]⟩
abbrev S4096x128 : Shape := ⟨2, ![4096, 128]⟩
abbrev S256x32 : Shape := ⟨2, ![256, 32]⟩
abbrev S4096x1152 : Shape := ⟨2, ![4096, 1152]⟩
abbrev S1152x32 : Shape := ⟨2, ![1152, 32]⟩
abbrev S4096x32 : Shape := ⟨2, ![4096, 32]⟩
abbrev S256x16x32 : Shape := ⟨3, ![256, 16, 32]⟩
abbrev S8192x608 : Shape := ⟨2, ![8192, 608]⟩

abbrev nBuf : Space → Nat
  | .hbm => 842
  | .vmem => 10
  | .smem => 0
  | _ => 0

abbrev hbmTy0_0 (i : Nat) : BufTy := match i % 128 with
  | 0 => ⟨S8192, .i32⟩
  | 1 => ⟨S131072, .i32⟩
  | 2 => ⟨S200000x8, .i32⟩
  | 3 => ⟨S200000x64, .f32⟩
  | 4 => ⟨S500000x16, .i32⟩
  | 5 => ⟨S500000x128, .f32⟩
  | 6 => ⟨S8x50000x64, .f32⟩
  | 7 => ⟨S16x50000x64, .f32⟩
  | 8 => ⟨S32x1152, .f32⟩
  | 9 => ⟨S32, .f32⟩
  | 10 => ⟨S64, .f32⟩
  | 11 => ⟨S64, .f32⟩
  | 12 => ⟨S128, .f32⟩
  | 13 => ⟨S128, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S1, .i32⟩
  | 23 => ⟨S_, .i32⟩
  | 24 => ⟨S8192x1, .i32⟩
  | 25 => ⟨S8192x1, .i1⟩
  | 26 => ⟨S1x1, .i32⟩
  | 27 => ⟨S8192x1, .i32⟩
  | 28 => ⟨S8192x1, .i1⟩
  | 29 => ⟨S8192x1, .i1⟩
  | 30 => ⟨S_, .i1⟩
  | 31 => ⟨S8192, .i1⟩
  | 32 => ⟨S8192x8, .i32⟩
  | 33 => ⟨S8192x8, .i1⟩
  | 34 => ⟨S_, .i32⟩
  | 35 => ⟨S8192x8, .i32⟩
  | 36 => ⟨S8192x8, .i32⟩
  | 37 => ⟨S1x50000x64, .f32⟩
  | 38 => ⟨S50000x64, .f32⟩
  | 39 => ⟨S8192x1, .i32⟩
  | 40 => ⟨S8192, .i32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S8192x1, .i32⟩
  | 49 => ⟨S1, .i32⟩
  | 50 => ⟨S_, .i32⟩
  | 51 => ⟨S8192x1, .i32⟩
  | 52 => ⟨S8192x1, .i1⟩
  | 53 => ⟨S1x1, .i32⟩
  | 54 => ⟨S8192x1, .i32⟩
  | 55 => ⟨S8192x1, .i1⟩
  | 56 => ⟨S8192x1, .i1⟩
  | 57 => ⟨S_, .i1⟩
  | 58 => ⟨S8192, .i1⟩
  | 59 => ⟨S8192x64, .f32⟩
  | 60 => ⟨S8192x64, .i1⟩
  | 61 => ⟨S_, .f32⟩
  | 62 => ⟨S8192x64, .f32⟩
  | 63 => ⟨S8192x64, .f32⟩
  | 64 => ⟨S1x50000x64, .f32⟩
  | 65 => ⟨S50000x64, .f32⟩
  | 66 => ⟨S8192x1, .i32⟩
  | 67 => ⟨S8192, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S1, .i32⟩
  | 77 => ⟨S_, .i32⟩
  | 78 => ⟨S8192x1, .i32⟩
  | 79 => ⟨S8192x1, .i1⟩
  | 80 => ⟨S1x1, .i32⟩
  | 81 => ⟨S8192x1, .i32⟩
  | 82 => ⟨S8192x1, .i1⟩
  | 83 => ⟨S8192x1, .i1⟩
  | 84 => ⟨S_, .i1⟩
  | 85 => ⟨S8192, .i1⟩
  | 86 => ⟨S8192x64, .f32⟩
  | 87 => ⟨S8192x64, .i1⟩
  | 88 => ⟨S_, .f32⟩
  | 89 => ⟨S8192x64, .f32⟩
  | 90 => ⟨S8192x64, .f32⟩
  | 91 => ⟨S1x50000x64, .f32⟩
  | 92 => ⟨S50000x64, .f32⟩
  | 93 => ⟨S8192x1, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S1, .i32⟩
  | 104 => ⟨S_, .i32⟩
  | 105 => ⟨S8192x1, .i32⟩
  | 106 => ⟨S8192x1, .i1⟩
  | 107 => ⟨S1x1, .i32⟩
  | 108 => ⟨S8192x1, .i32⟩
  | 109 => ⟨S8192x1, .i1⟩
  | 110 => ⟨S8192x1, .i1⟩
  | 111 => ⟨S_, .i1⟩
  | 112 => ⟨S8192, .i1⟩
  | 113 => ⟨S8192x64, .f32⟩
  | 114 => ⟨S8192x64, .i1⟩
  | 115 => ⟨S_, .f32⟩
  | 116 => ⟨S8192x64, .f32⟩
  | 117 => ⟨S8192x64, .f32⟩
  | 118 => ⟨S1x50000x64, .f32⟩
  | 119 => ⟨S50000x64, .f32⟩
  | 120 => ⟨S8192x1, .i32⟩
  | 121 => ⟨S8192, .i32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192, .i32⟩

abbrev hbmTy0_1 (i : Nat) : BufTy := match i % 128 with
  | 0 => ⟨S8192, .i32⟩
  | 1 => ⟨S8192x1, .i32⟩
  | 2 => ⟨S1, .i32⟩
  | 3 => ⟨S_, .i32⟩
  | 4 => ⟨S8192x1, .i32⟩
  | 5 => ⟨S8192x1, .i1⟩
  | 6 => ⟨S1x1, .i32⟩
  | 7 => ⟨S8192x1, .i32⟩
  | 8 => ⟨S8192x1, .i1⟩
  | 9 => ⟨S8192x1, .i1⟩
  | 10 => ⟨S_, .i1⟩
  | 11 => ⟨S8192, .i1⟩
  | 12 => ⟨S8192x64, .f32⟩
  | 13 => ⟨S8192x64, .i1⟩
  | 14 => ⟨S_, .f32⟩
  | 15 => ⟨S8192x64, .f32⟩
  | 16 => ⟨S8192x64, .f32⟩
  | 17 => ⟨S1x50000x64, .f32⟩
  | 18 => ⟨S50000x64, .f32⟩
  | 19 => ⟨S8192x1, .i32⟩
  | 20 => ⟨S8192, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S1, .i32⟩
  | 30 => ⟨S_, .i32⟩
  | 31 => ⟨S8192x1, .i32⟩
  | 32 => ⟨S8192x1, .i1⟩
  | 33 => ⟨S1x1, .i32⟩
  | 34 => ⟨S8192x1, .i32⟩
  | 35 => ⟨S8192x1, .i1⟩
  | 36 => ⟨S8192x1, .i1⟩
  | 37 => ⟨S_, .i1⟩
  | 38 => ⟨S8192, .i1⟩
  | 39 => ⟨S8192x64, .f32⟩
  | 40 => ⟨S8192x64, .i1⟩
  | 41 => ⟨S_, .f32⟩
  | 42 => ⟨S8192x64, .f32⟩
  | 43 => ⟨S8192x64, .f32⟩
  | 44 => ⟨S1x50000x64, .f32⟩
  | 45 => ⟨S50000x64, .f32⟩
  | 46 => ⟨S8192x1, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S1, .i32⟩
  | 57 => ⟨S_, .i32⟩
  | 58 => ⟨S8192x1, .i32⟩
  | 59 => ⟨S8192x1, .i1⟩
  | 60 => ⟨S1x1, .i32⟩
  | 61 => ⟨S8192x1, .i32⟩
  | 62 => ⟨S8192x1, .i1⟩
  | 63 => ⟨S8192x1, .i1⟩
  | 64 => ⟨S_, .i1⟩
  | 65 => ⟨S8192, .i1⟩
  | 66 => ⟨S8192x64, .f32⟩
  | 67 => ⟨S8192x64, .i1⟩
  | 68 => ⟨S_, .f32⟩
  | 69 => ⟨S8192x64, .f32⟩
  | 70 => ⟨S8192x64, .f32⟩
  | 71 => ⟨S1x50000x64, .f32⟩
  | 72 => ⟨S50000x64, .f32⟩
  | 73 => ⟨S8192x1, .i32⟩
  | 74 => ⟨S8192, .i32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S8192x1, .i32⟩
  | 83 => ⟨S1, .i32⟩
  | 84 => ⟨S_, .i32⟩
  | 85 => ⟨S8192x1, .i32⟩
  | 86 => ⟨S8192x1, .i1⟩
  | 87 => ⟨S1x1, .i32⟩
  | 88 => ⟨S8192x1, .i32⟩
  | 89 => ⟨S8192x1, .i1⟩
  | 90 => ⟨S8192x1, .i1⟩
  | 91 => ⟨S_, .i1⟩
  | 92 => ⟨S8192, .i1⟩
  | 93 => ⟨S8192x64, .f32⟩
  | 94 => ⟨S8192x64, .i1⟩
  | 95 => ⟨S_, .f32⟩
  | 96 => ⟨S8192x64, .f32⟩
  | 97 => ⟨S8192x64, .f32⟩
  | 98 => ⟨S1x50000x64, .f32⟩
  | 99 => ⟨S50000x64, .f32⟩
  | 100 => ⟨S8192x1, .i32⟩
  | 101 => ⟨S8192, .i32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S1, .i32⟩
  | 111 => ⟨S_, .i32⟩
  | 112 => ⟨S8192x1, .i32⟩
  | 113 => ⟨S8192x1, .i1⟩
  | 114 => ⟨S1x1, .i32⟩
  | 115 => ⟨S8192x1, .i32⟩
  | 116 => ⟨S8192x1, .i1⟩
  | 117 => ⟨S8192x1, .i1⟩
  | 118 => ⟨S_, .i1⟩
  | 119 => ⟨S8192, .i1⟩
  | 120 => ⟨S8192x64, .f32⟩
  | 121 => ⟨S8192x64, .i1⟩
  | 122 => ⟨S_, .f32⟩
  | 123 => ⟨S8192x64, .f32⟩
  | 124 => ⟨S8192x64, .f32⟩
  | 125 => ⟨S8192x512, .f32⟩
  | 126 => ⟨S_, .i32⟩
  | 127 => ⟨S8192, .i32⟩
  | _ => ⟨S8192, .i32⟩

abbrev hbmTy0_2 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S1, .i32⟩
  | 7 => ⟨S_, .i32⟩
  | 8 => ⟨S8192x1, .i32⟩
  | 9 => ⟨S8192x1, .i1⟩
  | 10 => ⟨S1x1, .i32⟩
  | 11 => ⟨S8192x1, .i32⟩
  | 12 => ⟨S8192x1, .i1⟩
  | 13 => ⟨S8192x1, .i1⟩
  | 14 => ⟨S_, .i1⟩
  | 15 => ⟨S8192, .i1⟩
  | 16 => ⟨S8192x64, .f32⟩
  | 17 => ⟨S8192x64, .i1⟩
  | 18 => ⟨S_, .f32⟩
  | 19 => ⟨S8192x64, .f32⟩
  | 20 => ⟨S8192x64, .f32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S8192x64, .f32⟩
  | 35 => ⟨S8192x64, .f32⟩
  | 36 => ⟨S8192x64, .f32⟩
  | 37 => ⟨S_, .f32⟩
  | 38 => ⟨S_, .f32⟩
  | 39 => ⟨S_, .f32⟩
  | 40 => ⟨S_, .f32⟩
  | 41 => ⟨S64, .f32⟩
  | 42 => ⟨S1x64, .f32⟩
  | 43 => ⟨S1x64, .f32⟩
  | 44 => ⟨S1x64, .f32⟩
  | 45 => ⟨S_, .f32⟩
  | 46 => ⟨S_, .i1⟩
  | 47 => ⟨S_, .f32⟩
  | 48 => ⟨S_, .f32⟩
  | 49 => ⟨S1x64, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S1x64, .f32⟩
  | 56 => ⟨S1x64, .f32⟩
  | 57 => ⟨S1x64, .f32⟩
  | 58 => ⟨S1x64, .f32⟩
  | 59 => ⟨S1x64, .f32⟩
  | 60 => ⟨S8192x64, .f32⟩
  | 61 => ⟨S8192x64, .f32⟩
  | 62 => ⟨S8192x64, .f32⟩
  | 63 => ⟨S8192x64, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S131072x1, .i32⟩
  | 72 => ⟨S1, .i32⟩
  | 73 => ⟨S_, .i32⟩
  | 74 => ⟨S131072x1, .i32⟩
  | 75 => ⟨S131072x1, .i1⟩
  | 76 => ⟨S1x1, .i32⟩
  | 77 => ⟨S131072x1, .i32⟩
  | 78 => ⟨S131072x1, .i1⟩
  | 79 => ⟨S131072x1, .i1⟩
  | 80 => ⟨S_, .i1⟩
  | 81 => ⟨S131072, .i1⟩
  | 82 => ⟨S131072x16, .i32⟩
  | 83 => ⟨S131072x16, .i1⟩
  | 84 => ⟨S_, .i32⟩
  | 85 => ⟨S131072x16, .i32⟩
  | 86 => ⟨S131072x16, .i32⟩
  | 87 => ⟨S1x50000x64, .f32⟩
  | 88 => ⟨S50000x64, .f32⟩
  | 89 => ⟨S131072x1, .i32⟩
  | 90 => ⟨S131072, .i32⟩
  | 91 => ⟨S_, .i32⟩
  | 92 => ⟨S131072, .i32⟩
  | 93 => ⟨S131072, .i1⟩
  | 94 => ⟨S_, .i32⟩
  | 95 => ⟨S131072, .i32⟩
  | 96 => ⟨S131072, .i32⟩
  | 97 => ⟨S131072, .i32⟩
  | 98 => ⟨S131072x1, .i32⟩
  | 99 => ⟨S1, .i32⟩
  | 100 => ⟨S_, .i32⟩
  | 101 => ⟨S131072x1, .i32⟩
  | 102 => ⟨S131072x1, .i1⟩
  | 103 => ⟨S1x1, .i32⟩
  | 104 => ⟨S131072x1, .i32⟩
  | 105 => ⟨S131072x1, .i1⟩
  | 106 => ⟨S131072x1, .i1⟩
  | 107 => ⟨S_, .i1⟩
  | 108 => ⟨S131072, .i1⟩
  | 109 => ⟨S131072x64, .f32⟩
  | 110 => ⟨S131072x64, .i1⟩
  | 111 => ⟨S_, .f32⟩
  | 112 => ⟨S131072x64, .f32⟩
  | 113 => ⟨S131072x64, .f32⟩
  | 114 => ⟨S1x50000x64, .f32⟩
  | 115 => ⟨S50000x64, .f32⟩
  | 116 => ⟨S131072x1, .i32⟩
  | 117 => ⟨S131072, .i32⟩
  | 118 => ⟨S_, .i32⟩
  | 119 => ⟨S131072, .i32⟩
  | 120 => ⟨S131072, .i1⟩
  | 121 => ⟨S_, .i32⟩
  | 122 => ⟨S131072, .i32⟩
  | 123 => ⟨S131072, .i32⟩
  | 124 => ⟨S131072, .i32⟩
  | 125 => ⟨S131072x1, .i32⟩
  | 126 => ⟨S1, .i32⟩
  | 127 => ⟨S_, .i32⟩
  | _ => ⟨S8192, .i32⟩

abbrev hbmTy0_3 (i : Nat) : BufTy := match i % 128 with
  | 0 => ⟨S131072x1, .i32⟩
  | 1 => ⟨S131072x1, .i1⟩
  | 2 => ⟨S1x1, .i32⟩
  | 3 => ⟨S131072x1, .i32⟩
  | 4 => ⟨S131072x1, .i1⟩
  | 5 => ⟨S131072x1, .i1⟩
  | 6 => ⟨S_, .i1⟩
  | 7 => ⟨S131072, .i1⟩
  | 8 => ⟨S131072x64, .f32⟩
  | 9 => ⟨S131072x64, .i1⟩
  | 10 => ⟨S_, .f32⟩
  | 11 => ⟨S131072x64, .f32⟩
  | 12 => ⟨S131072x64, .f32⟩
  | 13 => ⟨S1x50000x64, .f32⟩
  | 14 => ⟨S50000x64, .f32⟩
  | 15 => ⟨S131072x1, .i32⟩
  | 16 => ⟨S131072, .i32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S131072x1, .i32⟩
  | 25 => ⟨S1, .i32⟩
  | 26 => ⟨S_, .i32⟩
  | 27 => ⟨S131072x1, .i32⟩
  | 28 => ⟨S131072x1, .i1⟩
  | 29 => ⟨S1x1, .i32⟩
  | 30 => ⟨S131072x1, .i32⟩
  | 31 => ⟨S131072x1, .i1⟩
  | 32 => ⟨S131072x1, .i1⟩
  | 33 => ⟨S_, .i1⟩
  | 34 => ⟨S131072, .i1⟩
  | 35 => ⟨S131072x64, .f32⟩
  | 36 => ⟨S131072x64, .i1⟩
  | 37 => ⟨S_, .f32⟩
  | 38 => ⟨S131072x64, .f32⟩
  | 39 => ⟨S131072x64, .f32⟩
  | 40 => ⟨S1x50000x64, .f32⟩
  | 41 => ⟨S50000x64, .f32⟩
  | 42 => ⟨S131072x1, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S1, .i32⟩
  | 53 => ⟨S_, .i32⟩
  | 54 => ⟨S131072x1, .i32⟩
  | 55 => ⟨S131072x1, .i1⟩
  | 56 => ⟨S1x1, .i32⟩
  | 57 => ⟨S131072x1, .i32⟩
  | 58 => ⟨S131072x1, .i1⟩
  | 59 => ⟨S131072x1, .i1⟩
  | 60 => ⟨S_, .i1⟩
  | 61 => ⟨S131072, .i1⟩
  | 62 => ⟨S131072x64, .f32⟩
  | 63 => ⟨S131072x64, .i1⟩
  | 64 => ⟨S_, .f32⟩
  | 65 => ⟨S131072x64, .f32⟩
  | 66 => ⟨S131072x64, .f32⟩
  | 67 => ⟨S1x50000x64, .f32⟩
  | 68 => ⟨S50000x64, .f32⟩
  | 69 => ⟨S131072x1, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S1, .i32⟩
  | 80 => ⟨S_, .i32⟩
  | 81 => ⟨S131072x1, .i32⟩
  | 82 => ⟨S131072x1, .i1⟩
  | 83 => ⟨S1x1, .i32⟩
  | 84 => ⟨S131072x1, .i32⟩
  | 85 => ⟨S131072x1, .i1⟩
  | 86 => ⟨S131072x1, .i1⟩
  | 87 => ⟨S_, .i1⟩
  | 88 => ⟨S131072, .i1⟩
  | 89 => ⟨S131072x64, .f32⟩
  | 90 => ⟨S131072x64, .i1⟩
  | 91 => ⟨S_, .f32⟩
  | 92 => ⟨S131072x64, .f32⟩
  | 93 => ⟨S131072x64, .f32⟩
  | 94 => ⟨S1x50000x64, .f32⟩
  | 95 => ⟨S50000x64, .f32⟩
  | 96 => ⟨S131072x1, .i32⟩
  | 97 => ⟨S131072, .i32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S1, .i32⟩
  | 107 => ⟨S_, .i32⟩
  | 108 => ⟨S131072x1, .i32⟩
  | 109 => ⟨S131072x1, .i1⟩
  | 110 => ⟨S1x1, .i32⟩
  | 111 => ⟨S131072x1, .i32⟩
  | 112 => ⟨S131072x1, .i1⟩
  | 113 => ⟨S131072x1, .i1⟩
  | 114 => ⟨S_, .i1⟩
  | 115 => ⟨S131072, .i1⟩
  | 116 => ⟨S131072x64, .f32⟩
  | 117 => ⟨S131072x64, .i1⟩
  | 118 => ⟨S_, .f32⟩
  | 119 => ⟨S131072x64, .f32⟩
  | 120 => ⟨S131072x64, .f32⟩
  | 121 => ⟨S1x50000x64, .f32⟩
  | 122 => ⟨S50000x64, .f32⟩
  | 123 => ⟨S131072x1, .i32⟩
  | 124 => ⟨S131072, .i32⟩
  | 125 => ⟨S_, .i32⟩
  | 126 => ⟨S131072, .i32⟩
  | 127 => ⟨S131072, .i1⟩
  | _ => ⟨S8192, .i32⟩

abbrev hbmTy0_4 (i : Nat) : BufTy := match i % 128 with
  | 0 => ⟨S_, .i32⟩
  | 1 => ⟨S131072, .i32⟩
  | 2 => ⟨S131072, .i32⟩
  | 3 => ⟨S131072, .i32⟩
  | 4 => ⟨S131072x1, .i32⟩
  | 5 => ⟨S1, .i32⟩
  | 6 => ⟨S_, .i32⟩
  | 7 => ⟨S131072x1, .i32⟩
  | 8 => ⟨S131072x1, .i1⟩
  | 9 => ⟨S1x1, .i32⟩
  | 10 => ⟨S131072x1, .i32⟩
  | 11 => ⟨S131072x1, .i1⟩
  | 12 => ⟨S131072x1, .i1⟩
  | 13 => ⟨S_, .i1⟩
  | 14 => ⟨S131072, .i1⟩
  | 15 => ⟨S131072x64, .f32⟩
  | 16 => ⟨S131072x64, .i1⟩
  | 17 => ⟨S_, .f32⟩
  | 18 => ⟨S131072x64, .f32⟩
  | 19 => ⟨S131072x64, .f32⟩
  | 20 => ⟨S1x50000x64, .f32⟩
  | 21 => ⟨S50000x64, .f32⟩
  | 22 => ⟨S131072x1, .i32⟩
  | 23 => ⟨S131072, .i32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S131072x1, .i32⟩
  | 32 => ⟨S1, .i32⟩
  | 33 => ⟨S_, .i32⟩
  | 34 => ⟨S131072x1, .i32⟩
  | 35 => ⟨S131072x1, .i1⟩
  | 36 => ⟨S1x1, .i32⟩
  | 37 => ⟨S131072x1, .i32⟩
  | 38 => ⟨S131072x1, .i1⟩
  | 39 => ⟨S131072x1, .i1⟩
  | 40 => ⟨S_, .i1⟩
  | 41 => ⟨S131072, .i1⟩
  | 42 => ⟨S131072x64, .f32⟩
  | 43 => ⟨S131072x64, .i1⟩
  | 44 => ⟨S_, .f32⟩
  | 45 => ⟨S131072x64, .f32⟩
  | 46 => ⟨S131072x64, .f32⟩
  | 47 => ⟨S1x50000x64, .f32⟩
  | 48 => ⟨S50000x64, .f32⟩
  | 49 => ⟨S131072x1, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S1, .i32⟩
  | 60 => ⟨S_, .i32⟩
  | 61 => ⟨S131072x1, .i32⟩
  | 62 => ⟨S131072x1, .i1⟩
  | 63 => ⟨S1x1, .i32⟩
  | 64 => ⟨S131072x1, .i32⟩
  | 65 => ⟨S131072x1, .i1⟩
  | 66 => ⟨S131072x1, .i1⟩
  | 67 => ⟨S_, .i1⟩
  | 68 => ⟨S131072, .i1⟩
  | 69 => ⟨S131072x64, .f32⟩
  | 70 => ⟨S131072x64, .i1⟩
  | 71 => ⟨S_, .f32⟩
  | 72 => ⟨S131072x64, .f32⟩
  | 73 => ⟨S131072x64, .f32⟩
  | 74 => ⟨S1x50000x64, .f32⟩
  | 75 => ⟨S50000x64, .f32⟩
  | 76 => ⟨S131072x1, .i32⟩
  | 77 => ⟨S131072, .i32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S131072x1, .i32⟩
  | 86 => ⟨S1, .i32⟩
  | 87 => ⟨S_, .i32⟩
  | 88 => ⟨S131072x1, .i32⟩
  | 89 => ⟨S131072x1, .i1⟩
  | 90 => ⟨S1x1, .i32⟩
  | 91 => ⟨S131072x1, .i32⟩
  | 92 => ⟨S131072x1, .i1⟩
  | 93 => ⟨S131072x1, .i1⟩
  | 94 => ⟨S_, .i1⟩
  | 95 => ⟨S131072, .i1⟩
  | 96 => ⟨S131072x64, .f32⟩
  | 97 => ⟨S131072x64, .i1⟩
  | 98 => ⟨S_, .f32⟩
  | 99 => ⟨S131072x64, .f32⟩
  | 100 => ⟨S131072x64, .f32⟩
  | 101 => ⟨S1x50000x64, .f32⟩
  | 102 => ⟨S50000x64, .f32⟩
  | 103 => ⟨S131072x1, .i32⟩
  | 104 => ⟨S131072, .i32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S131072x1, .i32⟩
  | 113 => ⟨S1, .i32⟩
  | 114 => ⟨S_, .i32⟩
  | 115 => ⟨S131072x1, .i32⟩
  | 116 => ⟨S131072x1, .i1⟩
  | 117 => ⟨S1x1, .i32⟩
  | 118 => ⟨S131072x1, .i32⟩
  | 119 => ⟨S131072x1, .i1⟩
  | 120 => ⟨S131072x1, .i1⟩
  | 121 => ⟨S_, .i1⟩
  | 122 => ⟨S131072, .i1⟩
  | 123 => ⟨S131072x64, .f32⟩
  | 124 => ⟨S131072x64, .i1⟩
  | 125 => ⟨S_, .f32⟩
  | 126 => ⟨S131072x64, .f32⟩
  | 127 => ⟨S131072x64, .f32⟩
  | _ => ⟨S8192, .i32⟩

abbrev hbmTy0_5 (i : Nat) : BufTy := match i % 128 with
  | 0 => ⟨S1x50000x64, .f32⟩
  | 1 => ⟨S50000x64, .f32⟩
  | 2 => ⟨S131072x1, .i32⟩
  | 3 => ⟨S131072, .i32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S1, .i32⟩
  | 13 => ⟨S_, .i32⟩
  | 14 => ⟨S131072x1, .i32⟩
  | 15 => ⟨S131072x1, .i1⟩
  | 16 => ⟨S1x1, .i32⟩
  | 17 => ⟨S131072x1, .i32⟩
  | 18 => ⟨S131072x1, .i1⟩
  | 19 => ⟨S131072x1, .i1⟩
  | 20 => ⟨S_, .i1⟩
  | 21 => ⟨S131072, .i1⟩
  | 22 => ⟨S131072x64, .f32⟩
  | 23 => ⟨S131072x64, .i1⟩
  | 24 => ⟨S_, .f32⟩
  | 25 => ⟨S131072x64, .f32⟩
  | 26 => ⟨S131072x64, .f32⟩
  | 27 => ⟨S1x50000x64, .f32⟩
  | 28 => ⟨S50000x64, .f32⟩
  | 29 => ⟨S131072x1, .i32⟩
  | 30 => ⟨S131072, .i32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S1, .i32⟩
  | 40 => ⟨S_, .i32⟩
  | 41 => ⟨S131072x1, .i32⟩
  | 42 => ⟨S131072x1, .i1⟩
  | 43 => ⟨S1x1, .i32⟩
  | 44 => ⟨S131072x1, .i32⟩
  | 45 => ⟨S131072x1, .i1⟩
  | 46 => ⟨S131072x1, .i1⟩
  | 47 => ⟨S_, .i1⟩
  | 48 => ⟨S131072, .i1⟩
  | 49 => ⟨S131072x64, .f32⟩
  | 50 => ⟨S131072x64, .i1⟩
  | 51 => ⟨S_, .f32⟩
  | 52 => ⟨S131072x64, .f32⟩
  | 53 => ⟨S131072x64, .f32⟩
  | 54 => ⟨S1x50000x64, .f32⟩
  | 55 => ⟨S50000x64, .f32⟩
  | 56 => ⟨S131072x1, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S1, .i32⟩
  | 67 => ⟨S_, .i32⟩
  | 68 => ⟨S131072x1, .i32⟩
  | 69 => ⟨S131072x1, .i1⟩
  | 70 => ⟨S1x1, .i32⟩
  | 71 => ⟨S131072x1, .i32⟩
  | 72 => ⟨S131072x1, .i1⟩
  | 73 => ⟨S131072x1, .i1⟩
  | 74 => ⟨S_, .i1⟩
  | 75 => ⟨S131072, .i1⟩
  | 76 => ⟨S131072x64, .f32⟩
  | 77 => ⟨S131072x64, .i1⟩
  | 78 => ⟨S_, .f32⟩
  | 79 => ⟨S131072x64, .f32⟩
  | 80 => ⟨S131072x64, .f32⟩
  | 81 => ⟨S1x50000x64, .f32⟩
  | 82 => ⟨S50000x64, .f32⟩
  | 83 => ⟨S131072x1, .i32⟩
  | 84 => ⟨S131072, .i32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S131072x1, .i32⟩
  | 93 => ⟨S1, .i32⟩
  | 94 => ⟨S_, .i32⟩
  | 95 => ⟨S131072x1, .i32⟩
  | 96 => ⟨S131072x1, .i1⟩
  | 97 => ⟨S1x1, .i32⟩
  | 98 => ⟨S131072x1, .i32⟩
  | 99 => ⟨S131072x1, .i1⟩
  | 100 => ⟨S131072x1, .i1⟩
  | 101 => ⟨S_, .i1⟩
  | 102 => ⟨S131072, .i1⟩
  | 103 => ⟨S131072x64, .f32⟩
  | 104 => ⟨S131072x64, .i1⟩
  | 105 => ⟨S_, .f32⟩
  | 106 => ⟨S131072x64, .f32⟩
  | 107 => ⟨S131072x64, .f32⟩
  | 108 => ⟨S1x50000x64, .f32⟩
  | 109 => ⟨S50000x64, .f32⟩
  | 110 => ⟨S131072x1, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S1, .i32⟩
  | 121 => ⟨S_, .i32⟩
  | 122 => ⟨S131072x1, .i32⟩
  | 123 => ⟨S131072x1, .i1⟩
  | 124 => ⟨S1x1, .i32⟩
  | 125 => ⟨S131072x1, .i32⟩
  | 126 => ⟨S131072x1, .i1⟩
  | 127 => ⟨S131072x1, .i1⟩
  | _ => ⟨S8192, .i32⟩

abbrev hbmTy0_6 (i : Nat) : BufTy := match i % 128 with
  | 0 => ⟨S_, .i1⟩
  | 1 => ⟨S131072, .i1⟩
  | 2 => ⟨S131072x64, .f32⟩
  | 3 => ⟨S131072x64, .i1⟩
  | 4 => ⟨S_, .f32⟩
  | 5 => ⟨S131072x64, .f32⟩
  | 6 => ⟨S131072x64, .f32⟩
  | 7 => ⟨S131072x1024, .f32⟩
  | 8 => ⟨S131072x1024, .bf16⟩
  | 9 => ⟨S_, .i32⟩
  | 10 => ⟨S131072, .i32⟩
  | 11 => ⟨S131072, .i1⟩
  | 12 => ⟨S_, .i32⟩
  | 13 => ⟨S131072, .i32⟩
  | 14 => ⟨S131072, .i32⟩
  | 15 => ⟨S131072, .i32⟩
  | 16 => ⟨S131072x1, .i32⟩
  | 17 => ⟨S1, .i32⟩
  | 18 => ⟨S_, .i32⟩
  | 19 => ⟨S131072x1, .i32⟩
  | 20 => ⟨S131072x1, .i1⟩
  | 21 => ⟨S1x1, .i32⟩
  | 22 => ⟨S131072x1, .i32⟩
  | 23 => ⟨S131072x1, .i1⟩
  | 24 => ⟨S131072x1, .i1⟩
  | 25 => ⟨S_, .i1⟩
  | 26 => ⟨S131072, .i1⟩
  | 27 => ⟨S131072x128, .f32⟩
  | 28 => ⟨S131072x128, .i1⟩
  | 29 => ⟨S_, .f32⟩
  | 30 => ⟨S131072x128, .f32⟩
  | 31 => ⟨S131072x128, .f32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S131072x128, .f32⟩
  | 46 => ⟨S131072x128, .f32⟩
  | 47 => ⟨S131072x128, .f32⟩
  | 48 => ⟨S_, .f32⟩
  | 49 => ⟨S_, .f32⟩
  | 50 => ⟨S_, .f32⟩
  | 51 => ⟨S_, .f32⟩
  | 52 => ⟨S128, .f32⟩
  | 53 => ⟨S1x128, .f32⟩
  | 54 => ⟨S1x128, .f32⟩
  | 55 => ⟨S1x128, .f32⟩
  | 56 => ⟨S_, .f32⟩
  | 57 => ⟨S_, .i1⟩
  | 58 => ⟨S_, .f32⟩
  | 59 => ⟨S_, .f32⟩
  | 60 => ⟨S1x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S1x32, .f32⟩
  | 72 => ⟨S8192x32, .f32⟩
  | 73 => ⟨S8192x608, .f32⟩
  | _ => ⟨S8192, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192, .i32⟩

abbrev bufTy : (tb : Table) → Fin (tcTables nBuf tb) → BufTy
  | .hbm, ⟨i, _⟩ => hbmTy i
  | .local _ .vmem, ⟨0, _⟩ => ⟨S4096x1024, .bf16⟩
  | .local _ .vmem, ⟨1, _⟩ => ⟨S4096x1024, .bf16⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S1x128, .f32⟩
  | .local _ .vmem, ⟨6, _⟩ => ⟨S32x1152, .f32⟩
  | .local _ .vmem, ⟨7, _⟩ => ⟨S1x32, .f32⟩
  | .local _ .vmem, ⟨8, _⟩ => ⟨S256x32, .f32⟩
  | .local _ .vmem, ⟨9, _⟩ => ⟨S256x32, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_c_4 : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_call4_cst : Ref sig .tc := ⟨.hbm, 142, rfl⟩
abbrev main_call4_v15 : Ref sig .tc := ⟨.hbm, 143, rfl⟩
abbrev main_v20 : Ref sig .tc := ⟨.hbm, 144, rfl⟩
abbrev main_v21 : Ref sig .tc := ⟨.hbm, 145, rfl⟩
abbrev main_v22 : Ref sig .tc := ⟨.hbm, 146, rfl⟩
abbrev main_v23 : Ref sig .tc := ⟨.hbm, 147, rfl⟩
abbrev main_v24 : Ref sig .tc := ⟨.hbm, 148, rfl⟩
abbrev main_call5_c : Ref sig .tc := ⟨.hbm, 149, rfl⟩
abbrev main_call5_v0 : Ref sig .tc := ⟨.hbm, 150, rfl⟩
abbrev main_call5_v1 : Ref sig .tc := ⟨.hbm, 151, rfl⟩
abbrev main_call5_c_0 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_c_1 : Ref sig .tc := ⟨.hbm, 157, rfl⟩
abbrev main_call5_c_2 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_call5_v11 : Ref sig .tc := ⟨.hbm, 164, rfl⟩
abbrev main_call5_c_3 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_call5_cst : Ref sig .tc := ⟨.hbm, 169, rfl⟩
abbrev main_call5_v15 : Ref sig .tc := ⟨.hbm, 170, rfl⟩
abbrev main_v25 : Ref sig .tc := ⟨.hbm, 171, rfl⟩
abbrev main_v26 : Ref sig .tc := ⟨.hbm, 172, rfl⟩
abbrev main_v27 : Ref sig .tc := ⟨.hbm, 173, rfl⟩
abbrev main_v28 : Ref sig .tc := ⟨.hbm, 174, rfl⟩
abbrev main_v29 : Ref sig .tc := ⟨.hbm, 175, rfl⟩
abbrev main_call6_c : Ref sig .tc := ⟨.hbm, 176, rfl⟩
abbrev main_call6_v0 : Ref sig .tc := ⟨.hbm, 177, rfl⟩
abbrev main_call6_v1 : Ref sig .tc := ⟨.hbm, 178, rfl⟩
abbrev main_call6_c_0 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_call6_v5 : Ref sig .tc := ⟨.hbm, 183, rfl⟩
abbrev main_call6_c_1 : Ref sig .tc := ⟨.hbm, 184, rfl⟩
abbrev main_call6_c_2 : Ref sig .tc := ⟨.hbm, 185, rfl⟩
abbrev main_call6_v6 : Ref sig .tc := ⟨.hbm, 186, rfl⟩
abbrev main_call6_v7 : Ref sig .tc := ⟨.hbm, 187, rfl⟩
abbrev main_call6_v8 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_c_3 : Ref sig .tc := ⟨.hbm, 192, rfl⟩
abbrev main_call6_v12 : Ref sig .tc := ⟨.hbm, 193, rfl⟩
abbrev main_call6_v13 : Ref sig .tc := ⟨.hbm, 194, rfl⟩
abbrev main_call6_v14 : Ref sig .tc := ⟨.hbm, 195, rfl⟩
abbrev main_call6_cst : Ref sig .tc := ⟨.hbm, 196, rfl⟩
abbrev main_call6_v15 : Ref sig .tc := ⟨.hbm, 197, rfl⟩
abbrev main_v30 : Ref sig .tc := ⟨.hbm, 198, rfl⟩
abbrev main_v31 : Ref sig .tc := ⟨.hbm, 199, rfl⟩
abbrev main_v32 : Ref sig .tc := ⟨.hbm, 200, rfl⟩
abbrev main_v33 : Ref sig .tc := ⟨.hbm, 201, rfl⟩
abbrev main_v34 : Ref sig .tc := ⟨.hbm, 202, rfl⟩
abbrev main_call7_c : Ref sig .tc := ⟨.hbm, 203, rfl⟩
abbrev main_call7_v0 : Ref sig .tc := ⟨.hbm, 204, rfl⟩
abbrev main_call7_v1 : Ref sig .tc := ⟨.hbm, 205, rfl⟩
abbrev main_call7_c_0 : Ref sig .tc := ⟨.hbm, 206, rfl⟩
abbrev main_call7_v2 : Ref sig .tc := ⟨.hbm, 207, rfl⟩
abbrev main_call7_v3 : Ref sig .tc := ⟨.hbm, 208, rfl⟩
abbrev main_call7_v4 : Ref sig .tc := ⟨.hbm, 209, rfl⟩
abbrev main_call7_v5 : Ref sig .tc := ⟨.hbm, 210, rfl⟩
abbrev main_call7_c_1 : Ref sig .tc := ⟨.hbm, 211, rfl⟩
abbrev main_call7_c_2 : Ref sig .tc := ⟨.hbm, 212, rfl⟩
abbrev main_call7_v6 : Ref sig .tc := ⟨.hbm, 213, rfl⟩
abbrev main_call7_v7 : Ref sig .tc := ⟨.hbm, 214, rfl⟩
abbrev main_call7_v8 : Ref sig .tc := ⟨.hbm, 215, rfl⟩
abbrev main_call7_v9 : Ref sig .tc := ⟨.hbm, 216, rfl⟩
abbrev main_call7_v10 : Ref sig .tc := ⟨.hbm, 217, rfl⟩
abbrev main_call7_v11 : Ref sig .tc := ⟨.hbm, 218, rfl⟩
abbrev main_call7_c_3 : Ref sig .tc := ⟨.hbm, 219, rfl⟩
abbrev main_call7_v12 : Ref sig .tc := ⟨.hbm, 220, rfl⟩
abbrev main_call7_v13 : Ref sig .tc := ⟨.hbm, 221, rfl⟩
abbrev main_call7_v14 : Ref sig .tc := ⟨.hbm, 222, rfl⟩
abbrev main_call7_cst : Ref sig .tc := ⟨.hbm, 223, rfl⟩
abbrev main_call7_v15 : Ref sig .tc := ⟨.hbm, 224, rfl⟩
abbrev main_v35 : Ref sig .tc := ⟨.hbm, 225, rfl⟩
abbrev main_v36 : Ref sig .tc := ⟨.hbm, 226, rfl⟩
abbrev main_v37 : Ref sig .tc := ⟨.hbm, 227, rfl⟩
abbrev main_v38 : Ref sig .tc := ⟨.hbm, 228, rfl⟩
abbrev main_v39 : Ref sig .tc := ⟨.hbm, 229, rfl⟩
abbrev main_call8_c : Ref sig .tc := ⟨.hbm, 230, rfl⟩
abbrev main_call8_v0 : Ref sig .tc := ⟨.hbm, 231, rfl⟩
abbrev main_call8_v1 : Ref sig .tc := ⟨.hbm, 232, rfl⟩
abbrev main_call8_c_0 : Ref sig .tc := ⟨.hbm, 233, rfl⟩
abbrev main_call8_v2 : Ref sig .tc := ⟨.hbm, 234, rfl⟩
abbrev main_call8_v3 : Ref sig .tc := ⟨.hbm, 235, rfl⟩
abbrev main_call8_v4 : Ref sig .tc := ⟨.hbm, 236, rfl⟩
abbrev main_call8_v5 : Ref sig .tc := ⟨.hbm, 237, rfl⟩
abbrev main_call8_c_1 : Ref sig .tc := ⟨.hbm, 238, rfl⟩
abbrev main_call8_c_2 : Ref sig .tc := ⟨.hbm, 239, rfl⟩
abbrev main_call8_v6 : Ref sig .tc := ⟨.hbm, 240, rfl⟩
abbrev main_call8_v7 : Ref sig .tc := ⟨.hbm, 241, rfl⟩
abbrev main_call8_v8 : Ref sig .tc := ⟨.hbm, 242, rfl⟩
abbrev main_call8_v9 : Ref sig .tc := ⟨.hbm, 243, rfl⟩
abbrev main_call8_v10 : Ref sig .tc := ⟨.hbm, 244, rfl⟩
abbrev main_call8_v11 : Ref sig .tc := ⟨.hbm, 245, rfl⟩
abbrev main_call8_c_3 : Ref sig .tc := ⟨.hbm, 246, rfl⟩
abbrev main_call8_v12 : Ref sig .tc := ⟨.hbm, 247, rfl⟩
abbrev main_call8_v13 : Ref sig .tc := ⟨.hbm, 248, rfl⟩
abbrev main_call8_v14 : Ref sig .tc := ⟨.hbm, 249, rfl⟩
abbrev main_call8_cst : Ref sig .tc := ⟨.hbm, 250, rfl⟩
abbrev main_call8_v15 : Ref sig .tc := ⟨.hbm, 251, rfl⟩
abbrev main_v40 : Ref sig .tc := ⟨.hbm, 252, rfl⟩
abbrev main_v41 : Ref sig .tc := ⟨.hbm, 253, rfl⟩
abbrev main_call9_c : Ref sig .tc := ⟨.hbm, 254, rfl⟩
abbrev main_call9_v0 : Ref sig .tc := ⟨.hbm, 255, rfl⟩
abbrev main_call9_v1 : Ref sig .tc := ⟨.hbm, 256, rfl⟩
abbrev main_call9_c_0 : Ref sig .tc := ⟨.hbm, 257, rfl⟩
abbrev main_call9_v2 : Ref sig .tc := ⟨.hbm, 258, rfl⟩
abbrev main_call9_v3 : Ref sig .tc := ⟨.hbm, 259, rfl⟩
abbrev main_call9_v4 : Ref sig .tc := ⟨.hbm, 260, rfl⟩
abbrev main_call9_v5 : Ref sig .tc := ⟨.hbm, 261, rfl⟩
abbrev main_call9_c_1 : Ref sig .tc := ⟨.hbm, 262, rfl⟩
abbrev main_call9_c_2 : Ref sig .tc := ⟨.hbm, 263, rfl⟩
abbrev main_call9_v6 : Ref sig .tc := ⟨.hbm, 264, rfl⟩
abbrev main_call9_v7 : Ref sig .tc := ⟨.hbm, 265, rfl⟩
abbrev main_call9_v8 : Ref sig .tc := ⟨.hbm, 266, rfl⟩
abbrev main_call9_v9 : Ref sig .tc := ⟨.hbm, 267, rfl⟩
abbrev main_call9_v10 : Ref sig .tc := ⟨.hbm, 268, rfl⟩
abbrev main_call9_v11 : Ref sig .tc := ⟨.hbm, 269, rfl⟩
abbrev main_call9_c_3 : Ref sig .tc := ⟨.hbm, 270, rfl⟩
abbrev main_call9_v12 : Ref sig .tc := ⟨.hbm, 271, rfl⟩
abbrev main_call9_v13 : Ref sig .tc := ⟨.hbm, 272, rfl⟩
abbrev main_call9_v14 : Ref sig .tc := ⟨.hbm, 273, rfl⟩
abbrev main_call9_cst : Ref sig .tc := ⟨.hbm, 274, rfl⟩
abbrev main_call9_v15 : Ref sig .tc := ⟨.hbm, 275, rfl⟩
abbrev main_v42 : Ref sig .tc := ⟨.hbm, 276, rfl⟩
abbrev main_cst : Ref sig .tc := ⟨.hbm, 277, rfl⟩
abbrev main_v43 : Ref sig .tc := ⟨.hbm, 278, rfl⟩
abbrev main_v44 : Ref sig .tc := ⟨.hbm, 279, rfl⟩
abbrev main_cst_0 : Ref sig .tc := ⟨.hbm, 280, rfl⟩
abbrev main_v45 : Ref sig .tc := ⟨.hbm, 281, rfl⟩
abbrev main_v46 : Ref sig .tc := ⟨.hbm, 282, rfl⟩
abbrev main_c : Ref sig .tc := ⟨.hbm, 283, rfl⟩
abbrev main_call10_cst : Ref sig .tc := ⟨.hbm, 284, rfl⟩
abbrev main_call10_v0 : Ref sig .tc := ⟨.hbm, 285, rfl⟩
abbrev main_call10_v1 : Ref sig .tc := ⟨.hbm, 286, rfl⟩
abbrev main_call10_cst_0 : Ref sig .tc := ⟨.hbm, 287, rfl⟩
abbrev main_call10_v2 : Ref sig .tc := ⟨.hbm, 288, rfl⟩
abbrev main_call10_v3 : Ref sig .tc := ⟨.hbm, 289, rfl⟩
abbrev main_call10_v4 : Ref sig .tc := ⟨.hbm, 290, rfl⟩
abbrev main_call10_v5 : Ref sig .tc := ⟨.hbm, 291, rfl⟩
abbrev main_call10_v6 : Ref sig .tc := ⟨.hbm, 292, rfl⟩
abbrev main_call10_v7 : Ref sig .tc := ⟨.hbm, 293, rfl⟩
abbrev main_call10_cst_1 : Ref sig .tc := ⟨.hbm, 294, rfl⟩
abbrev main_call10_v8 : Ref sig .tc := ⟨.hbm, 295, rfl⟩
abbrev main_call10_cst_2 : Ref sig .tc := ⟨.hbm, 296, rfl⟩
abbrev main_call10_v9 : Ref sig .tc := ⟨.hbm, 297, rfl⟩
abbrev main_call10_v10 : Ref sig .tc := ⟨.hbm, 298, rfl⟩
abbrev main_call10_v11 : Ref sig .tc := ⟨.hbm, 299, rfl⟩
abbrev main_call10_v12 : Ref sig .tc := ⟨.hbm, 300, rfl⟩
abbrev main_call10_cst_3 : Ref sig .tc := ⟨.hbm, 301, rfl⟩
abbrev main_call10_v13 : Ref sig .tc := ⟨.hbm, 302, rfl⟩
abbrev main_call10_cst_4 : Ref sig .tc := ⟨.hbm, 303, rfl⟩
abbrev main_call10_call0_v0 : Ref sig .tc := ⟨.hbm, 304, rfl⟩
abbrev main_call10_call0_v1 : Ref sig .tc := ⟨.hbm, 305, rfl⟩
abbrev main_v47 : Ref sig .tc := ⟨.hbm, 306, rfl⟩
abbrev main_v48 : Ref sig .tc := ⟨.hbm, 307, rfl⟩
abbrev main_cst_1 : Ref sig .tc := ⟨.hbm, 308, rfl⟩
abbrev main_v49 : Ref sig .tc := ⟨.hbm, 309, rfl⟩
abbrev main_v50 : Ref sig .tc := ⟨.hbm, 310, rfl⟩
abbrev main_v51 : Ref sig .tc := ⟨.hbm, 311, rfl⟩
abbrev main_v52 : Ref sig .tc := ⟨.hbm, 312, rfl⟩
abbrev main_v53 : Ref sig .tc := ⟨.hbm, 313, rfl⟩
abbrev main_v54 : Ref sig .tc := ⟨.hbm, 314, rfl⟩
abbrev main_v55 : Ref sig .tc := ⟨.hbm, 315, rfl⟩
abbrev main_v56 : Ref sig .tc := ⟨.hbm, 316, rfl⟩
abbrev main_v57 : Ref sig .tc := ⟨.hbm, 317, rfl⟩
abbrev main_v58 : Ref sig .tc := ⟨.hbm, 318, rfl⟩
abbrev main_v59 : Ref sig .tc := ⟨.hbm, 319, rfl⟩
abbrev main_call11_c : Ref sig .tc := ⟨.hbm, 320, rfl⟩
abbrev main_call11_v0 : Ref sig .tc := ⟨.hbm, 321, rfl⟩
abbrev main_call11_v1 : Ref sig .tc := ⟨.hbm, 322, rfl⟩
abbrev main_call11_c_0 : Ref sig .tc := ⟨.hbm, 323, rfl⟩
abbrev main_call11_v2 : Ref sig .tc := ⟨.hbm, 324, rfl⟩
abbrev main_call11_v3 : Ref sig .tc := ⟨.hbm, 325, rfl⟩
abbrev main_call11_v4 : Ref sig .tc := ⟨.hbm, 326, rfl⟩
abbrev main_call11_v5 : Ref sig .tc := ⟨.hbm, 327, rfl⟩
abbrev main_call11_c_1 : Ref sig .tc := ⟨.hbm, 328, rfl⟩
abbrev main_call11_c_2 : Ref sig .tc := ⟨.hbm, 329, rfl⟩
abbrev main_call11_v6 : Ref sig .tc := ⟨.hbm, 330, rfl⟩
abbrev main_call11_v7 : Ref sig .tc := ⟨.hbm, 331, rfl⟩
abbrev main_call11_v8 : Ref sig .tc := ⟨.hbm, 332, rfl⟩
abbrev main_call11_v9 : Ref sig .tc := ⟨.hbm, 333, rfl⟩
abbrev main_call11_v10 : Ref sig .tc := ⟨.hbm, 334, rfl⟩
abbrev main_call11_v11 : Ref sig .tc := ⟨.hbm, 335, rfl⟩
abbrev main_call11_c_3 : Ref sig .tc := ⟨.hbm, 336, rfl⟩
abbrev main_call11_v12 : Ref sig .tc := ⟨.hbm, 337, rfl⟩
abbrev main_call11_v13 : Ref sig .tc := ⟨.hbm, 338, rfl⟩
abbrev main_call11_v14 : Ref sig .tc := ⟨.hbm, 339, rfl⟩
abbrev main_call11_c_4 : Ref sig .tc := ⟨.hbm, 340, rfl⟩
abbrev main_call11_v15 : Ref sig .tc := ⟨.hbm, 341, rfl⟩
abbrev main_v60 : Ref sig .tc := ⟨.hbm, 342, rfl⟩
abbrev main_v61 : Ref sig .tc := ⟨.hbm, 343, rfl⟩
abbrev main_v62 : Ref sig .tc := ⟨.hbm, 344, rfl⟩
abbrev main_v63 : Ref sig .tc := ⟨.hbm, 345, rfl⟩
abbrev main_v64 : Ref sig .tc := ⟨.hbm, 346, rfl⟩
abbrev main_call12_c : Ref sig .tc := ⟨.hbm, 347, rfl⟩
abbrev main_call12_v0 : Ref sig .tc := ⟨.hbm, 348, rfl⟩
abbrev main_call12_v1 : Ref sig .tc := ⟨.hbm, 349, rfl⟩
abbrev main_call12_c_0 : Ref sig .tc := ⟨.hbm, 350, rfl⟩
abbrev main_call12_v2 : Ref sig .tc := ⟨.hbm, 351, rfl⟩
abbrev main_call12_v3 : Ref sig .tc := ⟨.hbm, 352, rfl⟩
abbrev main_call12_v4 : Ref sig .tc := ⟨.hbm, 353, rfl⟩
abbrev main_call12_v5 : Ref sig .tc := ⟨.hbm, 354, rfl⟩
abbrev main_call12_c_1 : Ref sig .tc := ⟨.hbm, 355, rfl⟩
abbrev main_call12_c_2 : Ref sig .tc := ⟨.hbm, 356, rfl⟩
abbrev main_call12_v6 : Ref sig .tc := ⟨.hbm, 357, rfl⟩
abbrev main_call12_v7 : Ref sig .tc := ⟨.hbm, 358, rfl⟩
abbrev main_call12_v8 : Ref sig .tc := ⟨.hbm, 359, rfl⟩
abbrev main_call12_v9 : Ref sig .tc := ⟨.hbm, 360, rfl⟩
abbrev main_call12_v10 : Ref sig .tc := ⟨.hbm, 361, rfl⟩
abbrev main_call12_v11 : Ref sig .tc := ⟨.hbm, 362, rfl⟩
abbrev main_call12_c_3 : Ref sig .tc := ⟨.hbm, 363, rfl⟩
abbrev main_call12_v12 : Ref sig .tc := ⟨.hbm, 364, rfl⟩
abbrev main_call12_v13 : Ref sig .tc := ⟨.hbm, 365, rfl⟩
abbrev main_call12_v14 : Ref sig .tc := ⟨.hbm, 366, rfl⟩
abbrev main_call12_cst : Ref sig .tc := ⟨.hbm, 367, rfl⟩
abbrev main_call12_v15 : Ref sig .tc := ⟨.hbm, 368, rfl⟩
abbrev main_v65 : Ref sig .tc := ⟨.hbm, 369, rfl⟩
abbrev main_v66 : Ref sig .tc := ⟨.hbm, 370, rfl⟩
abbrev main_v67 : Ref sig .tc := ⟨.hbm, 371, rfl⟩
abbrev main_v68 : Ref sig .tc := ⟨.hbm, 372, rfl⟩
abbrev main_v69 : Ref sig .tc := ⟨.hbm, 373, rfl⟩
abbrev main_call13_c : Ref sig .tc := ⟨.hbm, 374, rfl⟩
abbrev main_call13_v0 : Ref sig .tc := ⟨.hbm, 375, rfl⟩
abbrev main_call13_v1 : Ref sig .tc := ⟨.hbm, 376, rfl⟩
abbrev main_call13_c_0 : Ref sig .tc := ⟨.hbm, 377, rfl⟩
abbrev main_call13_v2 : Ref sig .tc := ⟨.hbm, 378, rfl⟩
abbrev main_call13_v3 : Ref sig .tc := ⟨.hbm, 379, rfl⟩
abbrev main_call13_v4 : Ref sig .tc := ⟨.hbm, 380, rfl⟩
abbrev main_call13_v5 : Ref sig .tc := ⟨.hbm, 381, rfl⟩
abbrev main_call13_c_1 : Ref sig .tc := ⟨.hbm, 382, rfl⟩
abbrev main_call13_c_2 : Ref sig .tc := ⟨.hbm, 383, rfl⟩
abbrev main_call13_v6 : Ref sig .tc := ⟨.hbm, 384, rfl⟩
abbrev main_call13_v7 : Ref sig .tc := ⟨.hbm, 385, rfl⟩
abbrev main_call13_v8 : Ref sig .tc := ⟨.hbm, 386, rfl⟩
abbrev main_call13_v9 : Ref sig .tc := ⟨.hbm, 387, rfl⟩
abbrev main_call13_v10 : Ref sig .tc := ⟨.hbm, 388, rfl⟩
abbrev main_call13_v11 : Ref sig .tc := ⟨.hbm, 389, rfl⟩
abbrev main_call13_c_3 : Ref sig .tc := ⟨.hbm, 390, rfl⟩
abbrev main_call13_v12 : Ref sig .tc := ⟨.hbm, 391, rfl⟩
abbrev main_call13_v13 : Ref sig .tc := ⟨.hbm, 392, rfl⟩
abbrev main_call13_v14 : Ref sig .tc := ⟨.hbm, 393, rfl⟩
abbrev main_call13_cst : Ref sig .tc := ⟨.hbm, 394, rfl⟩
abbrev main_call13_v15 : Ref sig .tc := ⟨.hbm, 395, rfl⟩
abbrev main_v70 : Ref sig .tc := ⟨.hbm, 396, rfl⟩
abbrev main_v71 : Ref sig .tc := ⟨.hbm, 397, rfl⟩
abbrev main_v72 : Ref sig .tc := ⟨.hbm, 398, rfl⟩
abbrev main_v73 : Ref sig .tc := ⟨.hbm, 399, rfl⟩
abbrev main_v74 : Ref sig .tc := ⟨.hbm, 400, rfl⟩
abbrev main_call14_c : Ref sig .tc := ⟨.hbm, 401, rfl⟩
abbrev main_call14_v0 : Ref sig .tc := ⟨.hbm, 402, rfl⟩
abbrev main_call14_v1 : Ref sig .tc := ⟨.hbm, 403, rfl⟩
abbrev main_call14_c_0 : Ref sig .tc := ⟨.hbm, 404, rfl⟩
abbrev main_call14_v2 : Ref sig .tc := ⟨.hbm, 405, rfl⟩
abbrev main_call14_v3 : Ref sig .tc := ⟨.hbm, 406, rfl⟩
abbrev main_call14_v4 : Ref sig .tc := ⟨.hbm, 407, rfl⟩
abbrev main_call14_v5 : Ref sig .tc := ⟨.hbm, 408, rfl⟩
abbrev main_call14_c_1 : Ref sig .tc := ⟨.hbm, 409, rfl⟩
abbrev main_call14_c_2 : Ref sig .tc := ⟨.hbm, 410, rfl⟩
abbrev main_call14_v6 : Ref sig .tc := ⟨.hbm, 411, rfl⟩
abbrev main_call14_v7 : Ref sig .tc := ⟨.hbm, 412, rfl⟩
abbrev main_call14_v8 : Ref sig .tc := ⟨.hbm, 413, rfl⟩
abbrev main_call14_v9 : Ref sig .tc := ⟨.hbm, 414, rfl⟩
abbrev main_call14_v10 : Ref sig .tc := ⟨.hbm, 415, rfl⟩
abbrev main_call14_v11 : Ref sig .tc := ⟨.hbm, 416, rfl⟩
abbrev main_call14_c_3 : Ref sig .tc := ⟨.hbm, 417, rfl⟩
abbrev main_call14_v12 : Ref sig .tc := ⟨.hbm, 418, rfl⟩
abbrev main_call14_v13 : Ref sig .tc := ⟨.hbm, 419, rfl⟩
abbrev main_call14_v14 : Ref sig .tc := ⟨.hbm, 420, rfl⟩
abbrev main_call14_cst : Ref sig .tc := ⟨.hbm, 421, rfl⟩
abbrev main_call14_v15 : Ref sig .tc := ⟨.hbm, 422, rfl⟩
abbrev main_v75 : Ref sig .tc := ⟨.hbm, 423, rfl⟩
abbrev main_v76 : Ref sig .tc := ⟨.hbm, 424, rfl⟩
abbrev main_v77 : Ref sig .tc := ⟨.hbm, 425, rfl⟩
abbrev main_v78 : Ref sig .tc := ⟨.hbm, 426, rfl⟩
abbrev main_v79 : Ref sig .tc := ⟨.hbm, 427, rfl⟩
abbrev main_call15_c : Ref sig .tc := ⟨.hbm, 428, rfl⟩
abbrev main_call15_v0 : Ref sig .tc := ⟨.hbm, 429, rfl⟩
abbrev main_call15_v1 : Ref sig .tc := ⟨.hbm, 430, rfl⟩
abbrev main_call15_c_0 : Ref sig .tc := ⟨.hbm, 431, rfl⟩
abbrev main_call15_v2 : Ref sig .tc := ⟨.hbm, 432, rfl⟩
abbrev main_call15_v3 : Ref sig .tc := ⟨.hbm, 433, rfl⟩
abbrev main_call15_v4 : Ref sig .tc := ⟨.hbm, 434, rfl⟩
abbrev main_call15_v5 : Ref sig .tc := ⟨.hbm, 435, rfl⟩
abbrev main_call15_c_1 : Ref sig .tc := ⟨.hbm, 436, rfl⟩
abbrev main_call15_c_2 : Ref sig .tc := ⟨.hbm, 437, rfl⟩
abbrev main_call15_v6 : Ref sig .tc := ⟨.hbm, 438, rfl⟩
abbrev main_call15_v7 : Ref sig .tc := ⟨.hbm, 439, rfl⟩
abbrev main_call15_v8 : Ref sig .tc := ⟨.hbm, 440, rfl⟩
abbrev main_call15_v9 : Ref sig .tc := ⟨.hbm, 441, rfl⟩
abbrev main_call15_v10 : Ref sig .tc := ⟨.hbm, 442, rfl⟩
abbrev main_call15_v11 : Ref sig .tc := ⟨.hbm, 443, rfl⟩
abbrev main_call15_c_3 : Ref sig .tc := ⟨.hbm, 444, rfl⟩
abbrev main_call15_v12 : Ref sig .tc := ⟨.hbm, 445, rfl⟩
abbrev main_call15_v13 : Ref sig .tc := ⟨.hbm, 446, rfl⟩
abbrev main_call15_v14 : Ref sig .tc := ⟨.hbm, 447, rfl⟩
abbrev main_call15_cst : Ref sig .tc := ⟨.hbm, 448, rfl⟩
abbrev main_call15_v15 : Ref sig .tc := ⟨.hbm, 449, rfl⟩
abbrev main_v80 : Ref sig .tc := ⟨.hbm, 450, rfl⟩
abbrev main_v81 : Ref sig .tc := ⟨.hbm, 451, rfl⟩
abbrev main_v82 : Ref sig .tc := ⟨.hbm, 452, rfl⟩
abbrev main_v83 : Ref sig .tc := ⟨.hbm, 453, rfl⟩
abbrev main_v84 : Ref sig .tc := ⟨.hbm, 454, rfl⟩
abbrev main_call16_c : Ref sig .tc := ⟨.hbm, 455, rfl⟩
abbrev main_call16_v0 : Ref sig .tc := ⟨.hbm, 456, rfl⟩
abbrev main_call16_v1 : Ref sig .tc := ⟨.hbm, 457, rfl⟩
abbrev main_call16_c_0 : Ref sig .tc := ⟨.hbm, 458, rfl⟩
abbrev main_call16_v2 : Ref sig .tc := ⟨.hbm, 459, rfl⟩
abbrev main_call16_v3 : Ref sig .tc := ⟨.hbm, 460, rfl⟩
abbrev main_call16_v4 : Ref sig .tc := ⟨.hbm, 461, rfl⟩
abbrev main_call16_v5 : Ref sig .tc := ⟨.hbm, 462, rfl⟩
abbrev main_call16_c_1 : Ref sig .tc := ⟨.hbm, 463, rfl⟩
abbrev main_call16_c_2 : Ref sig .tc := ⟨.hbm, 464, rfl⟩
abbrev main_call16_v6 : Ref sig .tc := ⟨.hbm, 465, rfl⟩
abbrev main_call16_v7 : Ref sig .tc := ⟨.hbm, 466, rfl⟩
abbrev main_call16_v8 : Ref sig .tc := ⟨.hbm, 467, rfl⟩
abbrev main_call16_v9 : Ref sig .tc := ⟨.hbm, 468, rfl⟩
abbrev main_call16_v10 : Ref sig .tc := ⟨.hbm, 469, rfl⟩
abbrev main_call16_v11 : Ref sig .tc := ⟨.hbm, 470, rfl⟩
abbrev main_call16_c_3 : Ref sig .tc := ⟨.hbm, 471, rfl⟩
abbrev main_call16_v12 : Ref sig .tc := ⟨.hbm, 472, rfl⟩
abbrev main_call16_v13 : Ref sig .tc := ⟨.hbm, 473, rfl⟩
abbrev main_call16_v14 : Ref sig .tc := ⟨.hbm, 474, rfl⟩
abbrev main_call16_cst : Ref sig .tc := ⟨.hbm, 475, rfl⟩
abbrev main_call16_v15 : Ref sig .tc := ⟨.hbm, 476, rfl⟩
abbrev main_v85 : Ref sig .tc := ⟨.hbm, 477, rfl⟩
abbrev main_v86 : Ref sig .tc := ⟨.hbm, 478, rfl⟩
abbrev main_v87 : Ref sig .tc := ⟨.hbm, 479, rfl⟩
abbrev main_v88 : Ref sig .tc := ⟨.hbm, 480, rfl⟩
abbrev main_v89 : Ref sig .tc := ⟨.hbm, 481, rfl⟩
abbrev main_call17_c : Ref sig .tc := ⟨.hbm, 482, rfl⟩
abbrev main_call17_v0 : Ref sig .tc := ⟨.hbm, 483, rfl⟩
abbrev main_call17_v1 : Ref sig .tc := ⟨.hbm, 484, rfl⟩
abbrev main_call17_c_0 : Ref sig .tc := ⟨.hbm, 485, rfl⟩
abbrev main_call17_v2 : Ref sig .tc := ⟨.hbm, 486, rfl⟩
abbrev main_call17_v3 : Ref sig .tc := ⟨.hbm, 487, rfl⟩
abbrev main_call17_v4 : Ref sig .tc := ⟨.hbm, 488, rfl⟩
abbrev main_call17_v5 : Ref sig .tc := ⟨.hbm, 489, rfl⟩
abbrev main_call17_c_1 : Ref sig .tc := ⟨.hbm, 490, rfl⟩
abbrev main_call17_c_2 : Ref sig .tc := ⟨.hbm, 491, rfl⟩
abbrev main_call17_v6 : Ref sig .tc := ⟨.hbm, 492, rfl⟩
abbrev main_call17_v7 : Ref sig .tc := ⟨.hbm, 493, rfl⟩
abbrev main_call17_v8 : Ref sig .tc := ⟨.hbm, 494, rfl⟩
abbrev main_call17_v9 : Ref sig .tc := ⟨.hbm, 495, rfl⟩
abbrev main_call17_v10 : Ref sig .tc := ⟨.hbm, 496, rfl⟩
abbrev main_call17_v11 : Ref sig .tc := ⟨.hbm, 497, rfl⟩
abbrev main_call17_c_3 : Ref sig .tc := ⟨.hbm, 498, rfl⟩
abbrev main_call17_v12 : Ref sig .tc := ⟨.hbm, 499, rfl⟩
abbrev main_call17_v13 : Ref sig .tc := ⟨.hbm, 500, rfl⟩
abbrev main_call17_v14 : Ref sig .tc := ⟨.hbm, 501, rfl⟩
abbrev main_call17_cst : Ref sig .tc := ⟨.hbm, 502, rfl⟩
abbrev main_call17_v15 : Ref sig .tc := ⟨.hbm, 503, rfl⟩
abbrev main_v90 : Ref sig .tc := ⟨.hbm, 504, rfl⟩
abbrev main_v91 : Ref sig .tc := ⟨.hbm, 505, rfl⟩
abbrev main_v92 : Ref sig .tc := ⟨.hbm, 506, rfl⟩
abbrev main_v93 : Ref sig .tc := ⟨.hbm, 507, rfl⟩
abbrev main_v94 : Ref sig .tc := ⟨.hbm, 508, rfl⟩
abbrev main_call18_c : Ref sig .tc := ⟨.hbm, 509, rfl⟩
abbrev main_call18_v0 : Ref sig .tc := ⟨.hbm, 510, rfl⟩
abbrev main_call18_v1 : Ref sig .tc := ⟨.hbm, 511, rfl⟩
abbrev main_call18_c_0 : Ref sig .tc := ⟨.hbm, 512, rfl⟩
abbrev main_call18_v2 : Ref sig .tc := ⟨.hbm, 513, rfl⟩
abbrev main_call18_v3 : Ref sig .tc := ⟨.hbm, 514, rfl⟩
abbrev main_call18_v4 : Ref sig .tc := ⟨.hbm, 515, rfl⟩
abbrev main_call18_v5 : Ref sig .tc := ⟨.hbm, 516, rfl⟩
abbrev main_call18_c_1 : Ref sig .tc := ⟨.hbm, 517, rfl⟩
abbrev main_call18_c_2 : Ref sig .tc := ⟨.hbm, 518, rfl⟩
abbrev main_call18_v6 : Ref sig .tc := ⟨.hbm, 519, rfl⟩
abbrev main_call18_v7 : Ref sig .tc := ⟨.hbm, 520, rfl⟩
abbrev main_call18_v8 : Ref sig .tc := ⟨.hbm, 521, rfl⟩
abbrev main_call18_v9 : Ref sig .tc := ⟨.hbm, 522, rfl⟩
abbrev main_call18_v10 : Ref sig .tc := ⟨.hbm, 523, rfl⟩
abbrev main_call18_v11 : Ref sig .tc := ⟨.hbm, 524, rfl⟩
abbrev main_call18_c_3 : Ref sig .tc := ⟨.hbm, 525, rfl⟩
abbrev main_call18_v12 : Ref sig .tc := ⟨.hbm, 526, rfl⟩
abbrev main_call18_v13 : Ref sig .tc := ⟨.hbm, 527, rfl⟩
abbrev main_call18_v14 : Ref sig .tc := ⟨.hbm, 528, rfl⟩
abbrev main_call18_cst : Ref sig .tc := ⟨.hbm, 529, rfl⟩
abbrev main_call18_v15 : Ref sig .tc := ⟨.hbm, 530, rfl⟩
abbrev main_v95 : Ref sig .tc := ⟨.hbm, 531, rfl⟩
abbrev main_v96 : Ref sig .tc := ⟨.hbm, 532, rfl⟩
abbrev main_v97 : Ref sig .tc := ⟨.hbm, 533, rfl⟩
abbrev main_v98 : Ref sig .tc := ⟨.hbm, 534, rfl⟩
abbrev main_v99 : Ref sig .tc := ⟨.hbm, 535, rfl⟩
abbrev main_call19_c : Ref sig .tc := ⟨.hbm, 536, rfl⟩
abbrev main_call19_v0 : Ref sig .tc := ⟨.hbm, 537, rfl⟩
abbrev main_call19_v1 : Ref sig .tc := ⟨.hbm, 538, rfl⟩
abbrev main_call19_c_0 : Ref sig .tc := ⟨.hbm, 539, rfl⟩
abbrev main_call19_v2 : Ref sig .tc := ⟨.hbm, 540, rfl⟩
abbrev main_call19_v3 : Ref sig .tc := ⟨.hbm, 541, rfl⟩
abbrev main_call19_v4 : Ref sig .tc := ⟨.hbm, 542, rfl⟩
abbrev main_call19_v5 : Ref sig .tc := ⟨.hbm, 543, rfl⟩
abbrev main_call19_c_1 : Ref sig .tc := ⟨.hbm, 544, rfl⟩
abbrev main_call19_c_2 : Ref sig .tc := ⟨.hbm, 545, rfl⟩
abbrev main_call19_v6 : Ref sig .tc := ⟨.hbm, 546, rfl⟩
abbrev main_call19_v7 : Ref sig .tc := ⟨.hbm, 547, rfl⟩
abbrev main_call19_v8 : Ref sig .tc := ⟨.hbm, 548, rfl⟩
abbrev main_call19_v9 : Ref sig .tc := ⟨.hbm, 549, rfl⟩
abbrev main_call19_v10 : Ref sig .tc := ⟨.hbm, 550, rfl⟩
abbrev main_call19_v11 : Ref sig .tc := ⟨.hbm, 551, rfl⟩
abbrev main_call19_c_3 : Ref sig .tc := ⟨.hbm, 552, rfl⟩
abbrev main_call19_v12 : Ref sig .tc := ⟨.hbm, 553, rfl⟩
abbrev main_call19_v13 : Ref sig .tc := ⟨.hbm, 554, rfl⟩
abbrev main_call19_v14 : Ref sig .tc := ⟨.hbm, 555, rfl⟩
abbrev main_call19_cst : Ref sig .tc := ⟨.hbm, 556, rfl⟩
abbrev main_call19_v15 : Ref sig .tc := ⟨.hbm, 557, rfl⟩
abbrev main_v100 : Ref sig .tc := ⟨.hbm, 558, rfl⟩
abbrev main_v101 : Ref sig .tc := ⟨.hbm, 559, rfl⟩
abbrev main_v102 : Ref sig .tc := ⟨.hbm, 560, rfl⟩
abbrev main_v103 : Ref sig .tc := ⟨.hbm, 561, rfl⟩
abbrev main_v104 : Ref sig .tc := ⟨.hbm, 562, rfl⟩
abbrev main_call20_c : Ref sig .tc := ⟨.hbm, 563, rfl⟩
abbrev main_call20_v0 : Ref sig .tc := ⟨.hbm, 564, rfl⟩
abbrev main_call20_v1 : Ref sig .tc := ⟨.hbm, 565, rfl⟩
abbrev main_call20_c_0 : Ref sig .tc := ⟨.hbm, 566, rfl⟩
abbrev main_call20_v2 : Ref sig .tc := ⟨.hbm, 567, rfl⟩
abbrev main_call20_v3 : Ref sig .tc := ⟨.hbm, 568, rfl⟩
abbrev main_call20_v4 : Ref sig .tc := ⟨.hbm, 569, rfl⟩
abbrev main_call20_v5 : Ref sig .tc := ⟨.hbm, 570, rfl⟩
abbrev main_call20_c_1 : Ref sig .tc := ⟨.hbm, 571, rfl⟩
abbrev main_call20_c_2 : Ref sig .tc := ⟨.hbm, 572, rfl⟩
abbrev main_call20_v6 : Ref sig .tc := ⟨.hbm, 573, rfl⟩
abbrev main_call20_v7 : Ref sig .tc := ⟨.hbm, 574, rfl⟩
abbrev main_call20_v8 : Ref sig .tc := ⟨.hbm, 575, rfl⟩
abbrev main_call20_v9 : Ref sig .tc := ⟨.hbm, 576, rfl⟩
abbrev main_call20_v10 : Ref sig .tc := ⟨.hbm, 577, rfl⟩
abbrev main_call20_v11 : Ref sig .tc := ⟨.hbm, 578, rfl⟩
abbrev main_call20_c_3 : Ref sig .tc := ⟨.hbm, 579, rfl⟩
abbrev main_call20_v12 : Ref sig .tc := ⟨.hbm, 580, rfl⟩
abbrev main_call20_v13 : Ref sig .tc := ⟨.hbm, 581, rfl⟩
abbrev main_call20_v14 : Ref sig .tc := ⟨.hbm, 582, rfl⟩
abbrev main_call20_cst : Ref sig .tc := ⟨.hbm, 583, rfl⟩
abbrev main_call20_v15 : Ref sig .tc := ⟨.hbm, 584, rfl⟩
abbrev main_v105 : Ref sig .tc := ⟨.hbm, 585, rfl⟩
abbrev main_v106 : Ref sig .tc := ⟨.hbm, 586, rfl⟩
abbrev main_v107 : Ref sig .tc := ⟨.hbm, 587, rfl⟩
abbrev main_v108 : Ref sig .tc := ⟨.hbm, 588, rfl⟩
abbrev main_v109 : Ref sig .tc := ⟨.hbm, 589, rfl⟩
abbrev main_call21_c : Ref sig .tc := ⟨.hbm, 590, rfl⟩
abbrev main_call21_v0 : Ref sig .tc := ⟨.hbm, 591, rfl⟩
abbrev main_call21_v1 : Ref sig .tc := ⟨.hbm, 592, rfl⟩
abbrev main_call21_c_0 : Ref sig .tc := ⟨.hbm, 593, rfl⟩
abbrev main_call21_v2 : Ref sig .tc := ⟨.hbm, 594, rfl⟩
abbrev main_call21_v3 : Ref sig .tc := ⟨.hbm, 595, rfl⟩
abbrev main_call21_v4 : Ref sig .tc := ⟨.hbm, 596, rfl⟩
abbrev main_call21_v5 : Ref sig .tc := ⟨.hbm, 597, rfl⟩
abbrev main_call21_c_1 : Ref sig .tc := ⟨.hbm, 598, rfl⟩
abbrev main_call21_c_2 : Ref sig .tc := ⟨.hbm, 599, rfl⟩
abbrev main_call21_v6 : Ref sig .tc := ⟨.hbm, 600, rfl⟩
abbrev main_call21_v7 : Ref sig .tc := ⟨.hbm, 601, rfl⟩
abbrev main_call21_v8 : Ref sig .tc := ⟨.hbm, 602, rfl⟩
abbrev main_call21_v9 : Ref sig .tc := ⟨.hbm, 603, rfl⟩
abbrev main_call21_v10 : Ref sig .tc := ⟨.hbm, 604, rfl⟩
abbrev main_call21_v11 : Ref sig .tc := ⟨.hbm, 605, rfl⟩
abbrev main_call21_c_3 : Ref sig .tc := ⟨.hbm, 606, rfl⟩
abbrev main_call21_v12 : Ref sig .tc := ⟨.hbm, 607, rfl⟩
abbrev main_call21_v13 : Ref sig .tc := ⟨.hbm, 608, rfl⟩
abbrev main_call21_v14 : Ref sig .tc := ⟨.hbm, 609, rfl⟩
abbrev main_call21_cst : Ref sig .tc := ⟨.hbm, 610, rfl⟩
abbrev main_call21_v15 : Ref sig .tc := ⟨.hbm, 611, rfl⟩
abbrev main_v110 : Ref sig .tc := ⟨.hbm, 612, rfl⟩
abbrev main_v111 : Ref sig .tc := ⟨.hbm, 613, rfl⟩
abbrev main_v112 : Ref sig .tc := ⟨.hbm, 614, rfl⟩
abbrev main_v113 : Ref sig .tc := ⟨.hbm, 615, rfl⟩
abbrev main_v114 : Ref sig .tc := ⟨.hbm, 616, rfl⟩
abbrev main_call22_c : Ref sig .tc := ⟨.hbm, 617, rfl⟩
abbrev main_call22_v0 : Ref sig .tc := ⟨.hbm, 618, rfl⟩
abbrev main_call22_v1 : Ref sig .tc := ⟨.hbm, 619, rfl⟩
abbrev main_call22_c_0 : Ref sig .tc := ⟨.hbm, 620, rfl⟩
abbrev main_call22_v2 : Ref sig .tc := ⟨.hbm, 621, rfl⟩
abbrev main_call22_v3 : Ref sig .tc := ⟨.hbm, 622, rfl⟩
abbrev main_call22_v4 : Ref sig .tc := ⟨.hbm, 623, rfl⟩
abbrev main_call22_v5 : Ref sig .tc := ⟨.hbm, 624, rfl⟩
abbrev main_call22_c_1 : Ref sig .tc := ⟨.hbm, 625, rfl⟩
abbrev main_call22_c_2 : Ref sig .tc := ⟨.hbm, 626, rfl⟩
abbrev main_call22_v6 : Ref sig .tc := ⟨.hbm, 627, rfl⟩
abbrev main_call22_v7 : Ref sig .tc := ⟨.hbm, 628, rfl⟩
abbrev main_call22_v8 : Ref sig .tc := ⟨.hbm, 629, rfl⟩
abbrev main_call22_v9 : Ref sig .tc := ⟨.hbm, 630, rfl⟩
abbrev main_call22_v10 : Ref sig .tc := ⟨.hbm, 631, rfl⟩
abbrev main_call22_v11 : Ref sig .tc := ⟨.hbm, 632, rfl⟩
abbrev main_call22_c_3 : Ref sig .tc := ⟨.hbm, 633, rfl⟩
abbrev main_call22_v12 : Ref sig .tc := ⟨.hbm, 634, rfl⟩
abbrev main_call22_v13 : Ref sig .tc := ⟨.hbm, 635, rfl⟩
abbrev main_call22_v14 : Ref sig .tc := ⟨.hbm, 636, rfl⟩
abbrev main_call22_cst : Ref sig .tc := ⟨.hbm, 637, rfl⟩
abbrev main_call22_v15 : Ref sig .tc := ⟨.hbm, 638, rfl⟩
abbrev main_v115 : Ref sig .tc := ⟨.hbm, 639, rfl⟩
abbrev main_v116 : Ref sig .tc := ⟨.hbm, 640, rfl⟩
abbrev main_v117 : Ref sig .tc := ⟨.hbm, 641, rfl⟩
abbrev main_v118 : Ref sig .tc := ⟨.hbm, 642, rfl⟩
abbrev main_v119 : Ref sig .tc := ⟨.hbm, 643, rfl⟩
abbrev main_call23_c : Ref sig .tc := ⟨.hbm, 644, rfl⟩
abbrev main_call23_v0 : Ref sig .tc := ⟨.hbm, 645, rfl⟩
abbrev main_call23_v1 : Ref sig .tc := ⟨.hbm, 646, rfl⟩
abbrev main_call23_c_0 : Ref sig .tc := ⟨.hbm, 647, rfl⟩
abbrev main_call23_v2 : Ref sig .tc := ⟨.hbm, 648, rfl⟩
abbrev main_call23_v3 : Ref sig .tc := ⟨.hbm, 649, rfl⟩
abbrev main_call23_v4 : Ref sig .tc := ⟨.hbm, 650, rfl⟩
abbrev main_call23_v5 : Ref sig .tc := ⟨.hbm, 651, rfl⟩
abbrev main_call23_c_1 : Ref sig .tc := ⟨.hbm, 652, rfl⟩
abbrev main_call23_c_2 : Ref sig .tc := ⟨.hbm, 653, rfl⟩
abbrev main_call23_v6 : Ref sig .tc := ⟨.hbm, 654, rfl⟩
abbrev main_call23_v7 : Ref sig .tc := ⟨.hbm, 655, rfl⟩
abbrev main_call23_v8 : Ref sig .tc := ⟨.hbm, 656, rfl⟩
abbrev main_call23_v9 : Ref sig .tc := ⟨.hbm, 657, rfl⟩
abbrev main_call23_v10 : Ref sig .tc := ⟨.hbm, 658, rfl⟩
abbrev main_call23_v11 : Ref sig .tc := ⟨.hbm, 659, rfl⟩
abbrev main_call23_c_3 : Ref sig .tc := ⟨.hbm, 660, rfl⟩
abbrev main_call23_v12 : Ref sig .tc := ⟨.hbm, 661, rfl⟩
abbrev main_call23_v13 : Ref sig .tc := ⟨.hbm, 662, rfl⟩
abbrev main_call23_v14 : Ref sig .tc := ⟨.hbm, 663, rfl⟩
abbrev main_call23_cst : Ref sig .tc := ⟨.hbm, 664, rfl⟩
abbrev main_call23_v15 : Ref sig .tc := ⟨.hbm, 665, rfl⟩
abbrev main_v120 : Ref sig .tc := ⟨.hbm, 666, rfl⟩
abbrev main_v121 : Ref sig .tc := ⟨.hbm, 667, rfl⟩
abbrev main_v122 : Ref sig .tc := ⟨.hbm, 668, rfl⟩
abbrev main_v123 : Ref sig .tc := ⟨.hbm, 669, rfl⟩
abbrev main_v124 : Ref sig .tc := ⟨.hbm, 670, rfl⟩
abbrev main_call24_c : Ref sig .tc := ⟨.hbm, 671, rfl⟩
abbrev main_call24_v0 : Ref sig .tc := ⟨.hbm, 672, rfl⟩
abbrev main_call24_v1 : Ref sig .tc := ⟨.hbm, 673, rfl⟩
abbrev main_call24_c_0 : Ref sig .tc := ⟨.hbm, 674, rfl⟩
abbrev main_call24_v2 : Ref sig .tc := ⟨.hbm, 675, rfl⟩
abbrev main_call24_v3 : Ref sig .tc := ⟨.hbm, 676, rfl⟩
abbrev main_call24_v4 : Ref sig .tc := ⟨.hbm, 677, rfl⟩
abbrev main_call24_v5 : Ref sig .tc := ⟨.hbm, 678, rfl⟩
abbrev main_call24_c_1 : Ref sig .tc := ⟨.hbm, 679, rfl⟩
abbrev main_call24_c_2 : Ref sig .tc := ⟨.hbm, 680, rfl⟩
abbrev main_call24_v6 : Ref sig .tc := ⟨.hbm, 681, rfl⟩
abbrev main_call24_v7 : Ref sig .tc := ⟨.hbm, 682, rfl⟩
abbrev main_call24_v8 : Ref sig .tc := ⟨.hbm, 683, rfl⟩
abbrev main_call24_v9 : Ref sig .tc := ⟨.hbm, 684, rfl⟩
abbrev main_call24_v10 : Ref sig .tc := ⟨.hbm, 685, rfl⟩
abbrev main_call24_v11 : Ref sig .tc := ⟨.hbm, 686, rfl⟩
abbrev main_call24_c_3 : Ref sig .tc := ⟨.hbm, 687, rfl⟩
abbrev main_call24_v12 : Ref sig .tc := ⟨.hbm, 688, rfl⟩
abbrev main_call24_v13 : Ref sig .tc := ⟨.hbm, 689, rfl⟩
abbrev main_call24_v14 : Ref sig .tc := ⟨.hbm, 690, rfl⟩
abbrev main_call24_cst : Ref sig .tc := ⟨.hbm, 691, rfl⟩
abbrev main_call24_v15 : Ref sig .tc := ⟨.hbm, 692, rfl⟩
abbrev main_v125 : Ref sig .tc := ⟨.hbm, 693, rfl⟩
abbrev main_v126 : Ref sig .tc := ⟨.hbm, 694, rfl⟩
abbrev main_v127 : Ref sig .tc := ⟨.hbm, 695, rfl⟩
abbrev main_v128 : Ref sig .tc := ⟨.hbm, 696, rfl⟩
abbrev main_v129 : Ref sig .tc := ⟨.hbm, 697, rfl⟩
abbrev main_call25_c : Ref sig .tc := ⟨.hbm, 698, rfl⟩
abbrev main_call25_v0 : Ref sig .tc := ⟨.hbm, 699, rfl⟩
abbrev main_call25_v1 : Ref sig .tc := ⟨.hbm, 700, rfl⟩
abbrev main_call25_c_0 : Ref sig .tc := ⟨.hbm, 701, rfl⟩
abbrev main_call25_v2 : Ref sig .tc := ⟨.hbm, 702, rfl⟩
abbrev main_call25_v3 : Ref sig .tc := ⟨.hbm, 703, rfl⟩
abbrev main_call25_v4 : Ref sig .tc := ⟨.hbm, 704, rfl⟩
abbrev main_call25_v5 : Ref sig .tc := ⟨.hbm, 705, rfl⟩
abbrev main_call25_c_1 : Ref sig .tc := ⟨.hbm, 706, rfl⟩
abbrev main_call25_c_2 : Ref sig .tc := ⟨.hbm, 707, rfl⟩
abbrev main_call25_v6 : Ref sig .tc := ⟨.hbm, 708, rfl⟩
abbrev main_call25_v7 : Ref sig .tc := ⟨.hbm, 709, rfl⟩
abbrev main_call25_v8 : Ref sig .tc := ⟨.hbm, 710, rfl⟩
abbrev main_call25_v9 : Ref sig .tc := ⟨.hbm, 711, rfl⟩
abbrev main_call25_v10 : Ref sig .tc := ⟨.hbm, 712, rfl⟩
abbrev main_call25_v11 : Ref sig .tc := ⟨.hbm, 713, rfl⟩
abbrev main_call25_c_3 : Ref sig .tc := ⟨.hbm, 714, rfl⟩
abbrev main_call25_v12 : Ref sig .tc := ⟨.hbm, 715, rfl⟩
abbrev main_call25_v13 : Ref sig .tc := ⟨.hbm, 716, rfl⟩
abbrev main_call25_v14 : Ref sig .tc := ⟨.hbm, 717, rfl⟩
abbrev main_call25_cst : Ref sig .tc := ⟨.hbm, 718, rfl⟩
abbrev main_call25_v15 : Ref sig .tc := ⟨.hbm, 719, rfl⟩
abbrev main_v130 : Ref sig .tc := ⟨.hbm, 720, rfl⟩
abbrev main_v131 : Ref sig .tc := ⟨.hbm, 721, rfl⟩
abbrev main_v132 : Ref sig .tc := ⟨.hbm, 722, rfl⟩
abbrev main_v133 : Ref sig .tc := ⟨.hbm, 723, rfl⟩
abbrev main_v134 : Ref sig .tc := ⟨.hbm, 724, rfl⟩
abbrev main_call26_c : Ref sig .tc := ⟨.hbm, 725, rfl⟩
abbrev main_call26_v0 : Ref sig .tc := ⟨.hbm, 726, rfl⟩
abbrev main_call26_v1 : Ref sig .tc := ⟨.hbm, 727, rfl⟩
abbrev main_call26_c_0 : Ref sig .tc := ⟨.hbm, 728, rfl⟩
abbrev main_call26_v2 : Ref sig .tc := ⟨.hbm, 729, rfl⟩
abbrev main_call26_v3 : Ref sig .tc := ⟨.hbm, 730, rfl⟩
abbrev main_call26_v4 : Ref sig .tc := ⟨.hbm, 731, rfl⟩
abbrev main_call26_v5 : Ref sig .tc := ⟨.hbm, 732, rfl⟩
abbrev main_call26_c_1 : Ref sig .tc := ⟨.hbm, 733, rfl⟩
abbrev main_call26_c_2 : Ref sig .tc := ⟨.hbm, 734, rfl⟩
abbrev main_call26_v6 : Ref sig .tc := ⟨.hbm, 735, rfl⟩
abbrev main_call26_v7 : Ref sig .tc := ⟨.hbm, 736, rfl⟩
abbrev main_call26_v8 : Ref sig .tc := ⟨.hbm, 737, rfl⟩
abbrev main_call26_v9 : Ref sig .tc := ⟨.hbm, 738, rfl⟩
abbrev main_call26_v10 : Ref sig .tc := ⟨.hbm, 739, rfl⟩
abbrev main_call26_v11 : Ref sig .tc := ⟨.hbm, 740, rfl⟩
abbrev main_call26_c_3 : Ref sig .tc := ⟨.hbm, 741, rfl⟩
abbrev main_call26_v12 : Ref sig .tc := ⟨.hbm, 742, rfl⟩
abbrev main_call26_v13 : Ref sig .tc := ⟨.hbm, 743, rfl⟩
abbrev main_call26_v14 : Ref sig .tc := ⟨.hbm, 744, rfl⟩
abbrev main_call26_cst : Ref sig .tc := ⟨.hbm, 745, rfl⟩
abbrev main_call26_v15 : Ref sig .tc := ⟨.hbm, 746, rfl⟩
abbrev main_v135 : Ref sig .tc := ⟨.hbm, 747, rfl⟩
abbrev main_v136 : Ref sig .tc := ⟨.hbm, 748, rfl⟩
abbrev main_v137 : Ref sig .tc := ⟨.hbm, 749, rfl⟩
abbrev main_v138 : Ref sig .tc := ⟨.hbm, 750, rfl⟩
abbrev main_v139 : Ref sig .tc := ⟨.hbm, 751, rfl⟩
abbrev main_call27_c : Ref sig .tc := ⟨.hbm, 752, rfl⟩
abbrev main_call27_v0 : Ref sig .tc := ⟨.hbm, 753, rfl⟩
abbrev main_call27_v1 : Ref sig .tc := ⟨.hbm, 754, rfl⟩
abbrev main_call27_c_0 : Ref sig .tc := ⟨.hbm, 755, rfl⟩
abbrev main_call27_v2 : Ref sig .tc := ⟨.hbm, 756, rfl⟩
abbrev main_call27_v3 : Ref sig .tc := ⟨.hbm, 757, rfl⟩
abbrev main_call27_v4 : Ref sig .tc := ⟨.hbm, 758, rfl⟩
abbrev main_call27_v5 : Ref sig .tc := ⟨.hbm, 759, rfl⟩
abbrev main_call27_c_1 : Ref sig .tc := ⟨.hbm, 760, rfl⟩
abbrev main_call27_c_2 : Ref sig .tc := ⟨.hbm, 761, rfl⟩
abbrev main_call27_v6 : Ref sig .tc := ⟨.hbm, 762, rfl⟩
abbrev main_call27_v7 : Ref sig .tc := ⟨.hbm, 763, rfl⟩
abbrev main_call27_v8 : Ref sig .tc := ⟨.hbm, 764, rfl⟩
abbrev main_call27_v9 : Ref sig .tc := ⟨.hbm, 765, rfl⟩
abbrev main_call27_v10 : Ref sig .tc := ⟨.hbm, 766, rfl⟩
abbrev main_call27_v11 : Ref sig .tc := ⟨.hbm, 767, rfl⟩
abbrev main_call27_c_3 : Ref sig .tc := ⟨.hbm, 768, rfl⟩
abbrev main_call27_v12 : Ref sig .tc := ⟨.hbm, 769, rfl⟩
abbrev main_call27_v13 : Ref sig .tc := ⟨.hbm, 770, rfl⟩
abbrev main_call27_v14 : Ref sig .tc := ⟨.hbm, 771, rfl⟩
abbrev main_call27_cst : Ref sig .tc := ⟨.hbm, 772, rfl⟩
abbrev main_call27_v15 : Ref sig .tc := ⟨.hbm, 773, rfl⟩
abbrev main_v140 : Ref sig .tc := ⟨.hbm, 774, rfl⟩
abbrev main_v141 : Ref sig .tc := ⟨.hbm, 775, rfl⟩
abbrev main_v142 : Ref sig .tc := ⟨.hbm, 776, rfl⟩
abbrev main_call28_c : Ref sig .tc := ⟨.hbm, 777, rfl⟩
abbrev main_call28_v0 : Ref sig .tc := ⟨.hbm, 778, rfl⟩
abbrev main_call28_v1 : Ref sig .tc := ⟨.hbm, 779, rfl⟩
abbrev main_call28_c_0 : Ref sig .tc := ⟨.hbm, 780, rfl⟩
abbrev main_call28_v2 : Ref sig .tc := ⟨.hbm, 781, rfl⟩
abbrev main_call28_v3 : Ref sig .tc := ⟨.hbm, 782, rfl⟩
abbrev main_call28_v4 : Ref sig .tc := ⟨.hbm, 783, rfl⟩
abbrev main_call28_v5 : Ref sig .tc := ⟨.hbm, 784, rfl⟩
abbrev main_call28_c_1 : Ref sig .tc := ⟨.hbm, 785, rfl⟩
abbrev main_call28_c_2 : Ref sig .tc := ⟨.hbm, 786, rfl⟩
abbrev main_call28_v6 : Ref sig .tc := ⟨.hbm, 787, rfl⟩
abbrev main_call28_v7 : Ref sig .tc := ⟨.hbm, 788, rfl⟩
abbrev main_call28_v8 : Ref sig .tc := ⟨.hbm, 789, rfl⟩
abbrev main_call28_v9 : Ref sig .tc := ⟨.hbm, 790, rfl⟩
abbrev main_call28_v10 : Ref sig .tc := ⟨.hbm, 791, rfl⟩
abbrev main_call28_v11 : Ref sig .tc := ⟨.hbm, 792, rfl⟩
abbrev main_call28_c_3 : Ref sig .tc := ⟨.hbm, 793, rfl⟩
abbrev main_call28_v12 : Ref sig .tc := ⟨.hbm, 794, rfl⟩
abbrev main_call28_v13 : Ref sig .tc := ⟨.hbm, 795, rfl⟩
abbrev main_call28_v14 : Ref sig .tc := ⟨.hbm, 796, rfl⟩
abbrev main_call28_cst : Ref sig .tc := ⟨.hbm, 797, rfl⟩
abbrev main_call28_v15 : Ref sig .tc := ⟨.hbm, 798, rfl⟩
abbrev main_v143 : Ref sig .tc := ⟨.hbm, 799, rfl⟩
abbrev main_cst_2 : Ref sig .tc := ⟨.hbm, 800, rfl⟩
abbrev main_v144 : Ref sig .tc := ⟨.hbm, 801, rfl⟩
abbrev main_v145 : Ref sig .tc := ⟨.hbm, 802, rfl⟩
abbrev main_cst_3 : Ref sig .tc := ⟨.hbm, 803, rfl⟩
abbrev main_v146 : Ref sig .tc := ⟨.hbm, 804, rfl⟩
abbrev main_v147 : Ref sig .tc := ⟨.hbm, 805, rfl⟩
abbrev main_c_4 : Ref sig .tc := ⟨.hbm, 806, rfl⟩
abbrev main_call29_cst : Ref sig .tc := ⟨.hbm, 807, rfl⟩
abbrev main_call29_v0 : Ref sig .tc := ⟨.hbm, 808, rfl⟩
abbrev main_call29_v1 : Ref sig .tc := ⟨.hbm, 809, rfl⟩
abbrev main_call29_cst_0 : Ref sig .tc := ⟨.hbm, 810, rfl⟩
abbrev main_call29_v2 : Ref sig .tc := ⟨.hbm, 811, rfl⟩
abbrev main_call29_v3 : Ref sig .tc := ⟨.hbm, 812, rfl⟩
abbrev main_call29_v4 : Ref sig .tc := ⟨.hbm, 813, rfl⟩
abbrev main_call29_v5 : Ref sig .tc := ⟨.hbm, 814, rfl⟩
abbrev main_call29_v6 : Ref sig .tc := ⟨.hbm, 815, rfl⟩
abbrev main_call29_v7 : Ref sig .tc := ⟨.hbm, 816, rfl⟩
abbrev main_call29_cst_1 : Ref sig .tc := ⟨.hbm, 817, rfl⟩
abbrev main_call29_v8 : Ref sig .tc := ⟨.hbm, 818, rfl⟩
abbrev main_call29_cst_2 : Ref sig .tc := ⟨.hbm, 819, rfl⟩
abbrev main_call29_v9 : Ref sig .tc := ⟨.hbm, 820, rfl⟩
abbrev main_call29_v10 : Ref sig .tc := ⟨.hbm, 821, rfl⟩
abbrev main_call29_v11 : Ref sig .tc := ⟨.hbm, 822, rfl⟩
abbrev main_call29_v12 : Ref sig .tc := ⟨.hbm, 823, rfl⟩
abbrev main_call29_cst_3 : Ref sig .tc := ⟨.hbm, 824, rfl⟩
abbrev main_call29_v13 : Ref sig .tc := ⟨.hbm, 825, rfl⟩
abbrev main_call29_cst_4 : Ref sig .tc := ⟨.hbm, 826, rfl⟩
abbrev main_call29_call0_v0 : Ref sig .tc := ⟨.hbm, 827, rfl⟩
abbrev main_call29_call0_v1 : Ref sig .tc := ⟨.hbm, 828, rfl⟩
abbrev main_v148 : Ref sig .tc := ⟨.hbm, 829, rfl⟩
abbrev main_v149 : Ref sig .tc := ⟨.hbm, 830, rfl⟩
abbrev main_cst_5 : Ref sig .tc := ⟨.hbm, 831, rfl⟩
abbrev main_v150 : Ref sig .tc := ⟨.hbm, 832, rfl⟩
abbrev main_v151 : Ref sig .tc := ⟨.hbm, 833, rfl⟩
abbrev main_v152 : Ref sig .tc := ⟨.hbm, 834, rfl⟩
abbrev main_v153 : Ref sig .tc := ⟨.hbm, 835, rfl⟩
abbrev main_v154 : Ref sig .tc := ⟨.hbm, 836, rfl⟩
abbrev main_v155 : Ref sig .tc := ⟨.hbm, 837, rfl⟩
abbrev main_v156 : Ref sig .tc := ⟨.hbm, 838, rfl⟩
abbrev main_v157 : Ref sig .tc := ⟨.hbm, 839, rfl⟩
abbrev main_v158 : Ref sig .tc := ⟨.hbm, 840, rfl⟩
abbrev main_v159 : Ref sig .tc := ⟨.hbm, 841, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x8_0 : S8192.BroadcastsInDim S8192x8 (![0] : Fin 1 → Fin S8192x8.rank)
  bcast_S_S8192x8 : S_.BroadcastsInDim S8192x8 (![] : Fin 0 → Fin S8192x8.rank)
  slices_S8x50000x64_S1x50000x64_0_0_0 : S8x50000x64.Slices ![0, 0, 0] S1x50000x64
  shapeCasts_S1x50000x64_S50000x64 : S1x50000x64.ShapeCasts S50000x64
  slices_S8192x8_S8192x1_0_0 : S8192x8.Slices ![0, 0] S8192x1
  shapeCasts_S8192x1_S8192 : S8192x1.ShapeCasts S8192
  bcast_S8192_S8192x64_0 : S8192.BroadcastsInDim S8192x64 (![0] : Fin 1 → Fin S8192x64.rank)
  bcast_S_S8192x64 : S_.BroadcastsInDim S8192x64 (![] : Fin 0 → Fin S8192x64.rank)
  slices_S8x50000x64_S1x50000x64_1_0_0 : S8x50000x64.Slices ![1, 0, 0] S1x50000x64
  slices_S8192x8_S8192x1_0_1 : S8192x8.Slices ![0, 1] S8192x1
  slices_S8x50000x64_S1x50000x64_2_0_0 : S8x50000x64.Slices ![2, 0, 0] S1x50000x64
  slices_S8192x8_S8192x1_0_2 : S8192x8.Slices ![0, 2] S8192x1
  slices_S8x50000x64_S1x50000x64_3_0_0 : S8x50000x64.Slices ![3, 0, 0] S1x50000x64
  slices_S8192x8_S8192x1_0_3 : S8192x8.Slices ![0, 3] S8192x1
  slices_S8x50000x64_S1x50000x64_4_0_0 : S8x50000x64.Slices ![4, 0, 0] S1x50000x64
  slices_S8192x8_S8192x1_0_4 : S8192x8.Slices ![0, 4] S8192x1
  slices_S8x50000x64_S1x50000x64_5_0_0 : S8x50000x64.Slices ![5, 0, 0] S1x50000x64
  slices_S8192x8_S8192x1_0_5 : S8192x8.Slices ![0, 5] S8192x1
  slices_S8x50000x64_S1x50000x64_6_0_0 : S8x50000x64.Slices ![6, 0, 0] S1x50000x64
  slices_S8192x8_S8192x1_0_6 : S8192x8.Slices ![0, 6] S8192x1
  slices_S8x50000x64_S1x50000x64_7_0_0 : S8x50000x64.Slices ![7, 0, 0] S1x50000x64
  slices_S8192x8_S8192x1_0_7 : S8192x8.Slices ![0, 7] S8192x1
  concatenates_S8192x64_S8192x64_S8192x64_S8192x64_S8192x64_S8192x64_S8192x64_S8192x64_S8192x512_d1 : Shape.Concatenates [S8192x64, S8192x64, S8192x64, S8192x64, S8192x64, S8192x64, S8192x64, S8192x64] S8192x512 1
  reducesTo_S8192x64_S64_d0 : S8192x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S8192x64_0_1 : S1x64.BroadcastsInDim S8192x64 (![0, 1] : Fin 2 → Fin S8192x64.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1x1_S131072x1_0_1 : S1x1.BroadcastsInDim S131072x1 (![0, 1] : Fin 2 → Fin S131072x1.rank)
  reducesTo_S131072x1_S131072_d1 : S131072x1.ReducesTo [1] S131072
  bcast_S131072_S131072x16_0 : S131072.BroadcastsInDim S131072x16 (![0] : Fin 1 → Fin S131072x16.rank)
  bcast_S_S131072x16 : S_.BroadcastsInDim S131072x16 (![] : Fin 0 → Fin S131072x16.rank)
  slices_S16x50000x64_S1x50000x64_0_0_0 : S16x50000x64.Slices ![0, 0, 0] S1x50000x64
  slices_S131072x16_S131072x1_0_0 : S131072x16.Slices ![0, 0] S131072x1
  shapeCasts_S131072x1_S131072 : S131072x1.ShapeCasts S131072
  bcast_S131072_S131072x64_0 : S131072.BroadcastsInDim S131072x64 (![0] : Fin 1 → Fin S131072x64.rank)
  bcast_S_S131072x64 : S_.BroadcastsInDim S131072x64 (![] : Fin 0 → Fin S131072x64.rank)
  slices_S16x50000x64_S1x50000x64_1_0_0 : S16x50000x64.Slices ![1, 0, 0] S1x50000x64
  slices_S131072x16_S131072x1_0_1 : S131072x16.Slices ![0, 1] S131072x1
  slices_S16x50000x64_S1x50000x64_2_0_0 : S16x50000x64.Slices ![2, 0, 0] S1x50000x64
  slices_S131072x16_S131072x1_0_2 : S131072x16.Slices ![0, 2] S131072x1
  slices_S16x50000x64_S1x50000x64_3_0_0 : S16x50000x64.Slices ![3, 0, 0] S1x50000x64
  slices_S131072x16_S131072x1_0_3 : S131072x16.Slices ![0, 3] S131072x1
  slices_S16x50000x64_S1x50000x64_4_0_0 : S16x50000x64.Slices ![4, 0, 0] S1x50000x64
  slices_S131072x16_S131072x1_0_4 : S131072x16.Slices ![0, 4] S131072x1
  slices_S16x50000x64_S1x50000x64_5_0_0 : S16x50000x64.Slices ![5, 0, 0] S1x50000x64
  slices_S131072x16_S131072x1_0_5 : S131072x16.Slices ![0, 5] S131072x1
  slices_S16x50000x64_S1x50000x64_6_0_0 : S16x50000x64.Slices ![6, 0, 0] S1x50000x64
  slices_S131072x16_S131072x1_0_6 : S131072x16.Slices ![0, 6] S131072x1
  slices_S16x50000x64_S1x50000x64_7_0_0 : S16x50000x64.Slices ![7, 0, 0] S1x50000x64
  slices_S131072x16_S131072x1_0_7 : S131072x16.Slices ![0, 7] S131072x1
  slices_S16x50000x64_S1x50000x64_8_0_0 : S16x50000x64.Slices ![8, 0, 0] S1x50000x64
  slices_S131072x16_S131072x1_0_8 : S131072x16.Slices ![0, 8] S131072x1
  slices_S16x50000x64_S1x50000x64_9_0_0 : S16x50000x64.Slices ![9, 0, 0] S1x50000x64
  slices_S131072x16_S131072x1_0_9 : S131072x16.Slices ![0, 9] S131072x1
  slices_S16x50000x64_S1x50000x64_10_0_0 : S16x50000x64.Slices ![10, 0, 0] S1x50000x64
  slices_S131072x16_S131072x1_0_10 : S131072x16.Slices ![0, 10] S131072x1
  slices_S16x50000x64_S1x50000x64_11_0_0 : S16x50000x64.Slices ![11, 0, 0] S1x50000x64
  slices_S131072x16_S131072x1_0_11 : S131072x16.Slices ![0, 11] S131072x1
  slices_S16x50000x64_S1x50000x64_12_0_0 : S16x50000x64.Slices ![12, 0, 0] S1x50000x64
  slices_S131072x16_S131072x1_0_12 : S131072x16.Slices ![0, 12] S131072x1
  slices_S16x50000x64_S1x50000x64_13_0_0 : S16x50000x64.Slices ![13, 0, 0] S1x50000x64
  slices_S131072x16_S131072x1_0_13 : S131072x16.Slices ![0, 13] S131072x1
  slices_S16x50000x64_S1x50000x64_14_0_0 : S16x50000x64.Slices ![14, 0, 0] S1x50000x64
  slices_S131072x16_S131072x1_0_14 : S131072x16.Slices ![0, 14] S131072x1
  slices_S16x50000x64_S1x50000x64_15_0_0 : S16x50000x64.Slices ![15, 0, 0] S1x50000x64
  slices_S131072x16_S131072x1_0_15 : S131072x16.Slices ![0, 15] S131072x1
  concatenates_S131072x64_S131072x64_S131072x64_S131072x64_S131072x64_S131072x64_S131072x64_S131072x64_S131072x64_S131072x64_S131072x64_S131072x64_S131072x64_S131072x64_S131072x64_S131072x64_S131072x1024_d1 : Shape.Concatenates [S131072x64, S131072x64, S131072x64, S131072x64, S131072x64, S131072x64, S131072x64, S131072x64, S131072x64, S131072x64, S131072x64, S131072x64, S131072x64, S131072x64, S131072x64, S131072x64] S131072x1024 1
  bitsLt_bf16_f32 : FTy.bits .bf16 < FTy.bits .f32
  bcast_S131072_S131072x128_0 : S131072.BroadcastsInDim S131072x128 (![0] : Fin 1 → Fin S131072x128.rank)
  bcast_S_S131072x128 : S_.BroadcastsInDim S131072x128 (![] : Fin 0 → Fin S131072x128.rank)
  reducesTo_S131072x128_S128_d0 : S131072x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S131072x128_0_1 : S1x128.BroadcastsInDim S131072x128 (![0, 1] : Fin 2 → Fin S131072x128.rank)
  bcast_S32_S1x32_1 : S32.BroadcastsInDim S1x32 (![1] : Fin 1 → Fin S1x32.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  concatenates_S4096x1024_S4096x128_S4096x1152_d1 : Shape.Concatenates [S4096x1024, S4096x128] S4096x1152 1
  inb_S32x1152_S32x1152_0_0 : ∀ a, (![0, 0] : Fin 2 → Nat) a + S32x1152.size a ≤ S32x1152.size a
  h_S32x1152 : 0 < S32x1152.numel
  transposes_S32x1152_p1_0_S1152x32 : S32x1152.Transposes [1, 0] S1152x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  shapeCasts_S4096x32_S256x16x32 : S4096x32.ShapeCasts S256x16x32
  reduces_S256x16x32_S256x32 : S256x16x32.Reduces [1] S256x32
  inb_S256x32_S256x32_0_0 : ∀ a, (![0, 0] : Fin 2 → Nat) a + S256x32.size a ≤ S256x32.size a
  h_S256x32 : 0 < S256x32.numel
  concatenates_S8192x512_S8192x64_S8192x32_S8192x608_d1 : Shape.Concatenates [S8192x512, S8192x64, S8192x32] S8192x608 1
  gather_S200000x8_S8192x1_S8192x8_1_0_n_n_0_1_18_wf : GatherDims.WF S200000x8 S8192x1 S8192x8 [1] [0] [] [0] [] 1 ![1, 8]
  gather_S50000x64_S8192x1_S8192x64_1_0_n_n_0_1_164_wf : GatherDims.WF S50000x64 S8192x1 S8192x64 [1] [0] [] [0] [] 1 ![1, 64]
  gather_S200000x64_S8192x1_S8192x64_1_0_n_n_0_1_164_wf : GatherDims.WF S200000x64 S8192x1 S8192x64 [1] [0] [] [0] [] 1 ![1, 64]
  gather_S500000x16_S131072x1_S131072x16_1_0_n_n_0_1_116_wf : GatherDims.WF S500000x16 S131072x1 S131072x16 [1] [0] [] [0] [] 1 ![1, 16]
  gather_S50000x64_S131072x1_S131072x64_1_0_n_n_0_1_164_wf : GatherDims.WF S50000x64 S131072x1 S131072x64 [1] [0] [] [0] [] 1 ![1, 64]
  gather_S500000x128_S131072x1_S131072x128_1_0_n_n_0_1_1128_wf : GatherDims.WF S500000x128 S131072x1 S131072x128 [1] [0] [] [0] [] 1 ![1, 128]
  dot_S4096x1152_S1152x32_S4096x32_1_0_0_1_n_n_wf : DotDims.WF S4096x1152 S1152x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S131072x1024.size a
  hwx0_0 : ∀ i : grid0.Coords, EltTy.bits .bf16 = 32 ∨ (Rect.block (s := S131072x1024) S4096x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1152.size a ≤ S32x1152.size a
  hwx0_4 : ∀ i : grid0.Coords, EltTy.bits .f32 = 32 ∨ (Rect.block (s := S32x1152) S32x1152.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S8192x32.size a
  hwx0_6 : ∀ i : grid0.Coords, EltTy.bits .f32 = 32 ∨ (Rect.block (s := S8192x32) S256x32.size (cc0_transform_6 i) (hinb0_6 i)).WholeWords (EltTy.packing .f32)

variable [Facts₀]

def gather_S200000x8_S8192x1_S8192x8_1_0_n_n_0_1_18 : GatherDims S200000x8 S8192x1 S8192x8 where
  offsetDims := [1]
  collapsedSliceDims := [0]
  operandBatchingDims := []
  startIndicesBatchingDims := []
  startIndexMap := [0]
  indexVectorDim := 1
  sliceSizes := ![1, 8]
  wf := gather_S200000x8_S8192x1_S8192x8_1_0_n_n_0_1_18_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def gather_S500000x16_S131072x1_S131072x16_1_0_n_n_0_1_116 : GatherDims S500000x16 S131072x1 S131072x16 where
  offsetDims := [1]
  collapsedSliceDims := [0]
  operandBatchingDims := []
  startIndicesBatchingDims := []
  startIndexMap := [0]
  indexVectorDim := 1
  sliceSizes := ![1, 16]
  wf := gather_S500000x16_S131072x1_S131072x16_1_0_n_n_0_1_116_wf
def gather_S50000x64_S131072x1_S131072x64_1_0_n_n_0_1_164 : GatherDims S50000x64 S131072x1 S131072x64 where
  offsetDims := [1]
  collapsedSliceDims := [0]
  operandBatchingDims := []
  startIndicesBatchingDims := []
  startIndexMap := [0]
  indexVectorDim := 1
  sliceSizes := ![1, 64]
  wf := gather_S50000x64_S131072x1_S131072x64_1_0_n_n_0_1_164_wf
def gather_S500000x128_S131072x1_S131072x128_1_0_n_n_0_1_1128 : GatherDims S500000x128 S131072x1 S131072x128 where
  offsetDims := [1]
  collapsedSliceDims := [0]
  operandBatchingDims := []
  startIndicesBatchingDims := []
  startIndexMap := [0]
  indexVectorDim := 1
  sliceSizes := ![1, 128]
  wf := gather_S500000x128_S131072x1_S131072x128_1_0_n_n_0_1_1128_wf
def dot_S4096x1152_S1152x32_S4096x32_1_0_0_1_n_n : DotDims S4096x1152 S1152x32 S4096x32 where
  lhsContracting := [1]
  rhsContracting := [0]
  lhsNonContracting := [0]
  rhsNonContracting := [1]
  lhsBatch := []
  rhsBatch := []
  wf := dot_S4096x1152_S1152x32_S4096x32_1_0_0_1_n_n_wf

abbrev win0_0 : Pipeline.Window sig grid0 :=
  Pipeline.Window.ofSpec (Memref.whole main_v142) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v143) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v153) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v156) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S32x1152.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v157) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v158) S256x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192 : Shape := ⟨1, ![8192]⟩
abbrev S131072 : Shape := ⟨1, ![131072]⟩
abbrev S200000x8 : Shape := ⟨2, ![200000, 8]⟩
abbrev S200000x64 : Shape := ⟨2, ![200000, 64]⟩
abbrev S500000x16 : Shape := ⟨2, ![500000, 16]⟩
abbrev S500000x128 : Shape := ⟨2, ![500000, 128]⟩
abbrev S8x50000x64 : Shape := ⟨3, ![8, 50000, 64]⟩
abbrev S16x50000x64 : Shape := ⟨3, ![16, 50000, 64]⟩
abbrev S32x1152 : Shape := ⟨2, ![32, 1152]⟩
abbrev S32 : Shape := ⟨1, ![32]⟩
abbrev S64 : Shape := ⟨1, ![64]⟩
abbrev S128 : Shape := ⟨1, ![128]⟩
abbrev S_ : Shape := ⟨0, ![]⟩
abbrev S8192x1 : Shape := ⟨2, ![8192, 1]⟩
abbrev S8192x8 : Shape := ⟨2, ![8192, 8]⟩
abbrev S8 : Shape := ⟨1, ![8]⟩
abbrev S8192x8x1 : Shape := ⟨3, ![8192, 8, 1]⟩
abbrev S8192x8x2 : Shape := ⟨3, ![8192, 8, 2]⟩
abbrev S8192x8x64 : Shape := ⟨3, ![8192, 8, 64]⟩
abbrev S8192x512 : Shape := ⟨2, ![8192, 512]⟩
abbrev S8192x64 : Shape := ⟨2, ![8192, 64]⟩
abbrev S1x64 : Shape := ⟨2, ![1, 64]⟩
abbrev S131072x1 : Shape := ⟨2, ![131072, 1]⟩
abbrev S131072x16 : Shape := ⟨2, ![131072, 16]⟩
abbrev S16 : Shape := ⟨1, ![16]⟩
abbrev S131072x16x1 : Shape := ⟨3, ![131072, 16, 1]⟩
abbrev S131072x16x2 : Shape := ⟨3, ![131072, 16, 2]⟩
abbrev S131072x16x64 : Shape := ⟨3, ![131072, 16, 64]⟩
abbrev S131072x1024 : Shape := ⟨2, ![131072, 1024]⟩
abbrev S131072x128 : Shape := ⟨2, ![131072, 128]⟩
abbrev S1x128 : Shape := ⟨2, ![1, 128]⟩
abbrev S131072x1152 : Shape := ⟨2, ![131072, 1152]⟩
abbrev S1152x32 : Shape := ⟨2, ![1152, 32]⟩
abbrev S131072x32 : Shape := ⟨2, ![131072, 32]⟩
abbrev S1x32 : Shape := ⟨2, ![1, 32]⟩
abbrev S8192x16x32 : Shape := ⟨3, ![8192, 16, 32]⟩
abbrev S8192x32 : Shape := ⟨2, ![8192, 32]⟩
abbrev S8192x608 : Shape := ⟨2, ![8192, 608]⟩

abbrev nBuf : Space → Nat
  | .hbm => 196
  | .vmem => 0
  | .smem => 0
  | _ => 0

abbrev hbmTy0_0 (i : Nat) : BufTy := match i % 128 with
  | 0 => ⟨S8192, .i32⟩
  | 1 => ⟨S131072, .i32⟩
  | 2 => ⟨S200000x8, .i32⟩
  | 3 => ⟨S200000x64, .f32⟩
  | 4 => ⟨S500000x16, .i32⟩
  | 5 => ⟨S500000x128, .f32⟩
  | 6 => ⟨S8x50000x64, .f32⟩
  | 7 => ⟨S16x50000x64, .f32⟩
  | 8 => ⟨S32x1152, .f32⟩
  | 9 => ⟨S32, .f32⟩
  | 10 => ⟨S64, .f32⟩
  | 11 => ⟨S64, .f32⟩
  | 12 => ⟨S128, .f32⟩
  | 13 => ⟨S128, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x8, .i32⟩
  | 23 => ⟨S8, .i32⟩
  | 24 => ⟨S_, .i32⟩
  | 25 => ⟨S8, .i32⟩
  | 26 => ⟨S8, .i1⟩
  | 27 => ⟨S_, .i32⟩
  | 28 => ⟨S8, .i32⟩
  | 29 => ⟨S8, .i32⟩
  | 30 => ⟨S8, .i32⟩
  | 31 => ⟨S_, .i32⟩
  | 32 => ⟨S8192x8, .i32⟩
  | 33 => ⟨S8192x8, .i1⟩
  | 34 => ⟨S_, .i32⟩
  | 35 => ⟨S8192x8, .i32⟩
  | 36 => ⟨S8192x8, .i32⟩
  | 37 => ⟨S8192x8, .i32⟩
  | 38 => ⟨S8192x8, .i32⟩
  | 39 => ⟨S8192x8x1, .i32⟩
  | 40 => ⟨S8192x8x1, .i32⟩
  | 41 => ⟨S8192x8x2, .i32⟩
  | 42 => ⟨S8192x8x64, .f32⟩
  | 43 => ⟨S8192x512, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x64, .f32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S8192x64, .f32⟩
  | 67 => ⟨S8192x64, .f32⟩
  | 68 => ⟨S8192x64, .f32⟩
  | 69 => ⟨S_, .f32⟩
  | 70 => ⟨S_, .f32⟩
  | 71 => ⟨S_, .f32⟩
  | 72 => ⟨S_, .f32⟩
  | 73 => ⟨S64, .f32⟩
  | 74 => ⟨S1x64, .f32⟩
  | 75 => ⟨S1x64, .f32⟩
  | 76 => ⟨S1x64, .f32⟩
  | 77 => ⟨S_, .f32⟩
  | 78 => ⟨S_, .i1⟩
  | 79 => ⟨S_, .f32⟩
  | 80 => ⟨S_, .f32⟩
  | 81 => ⟨S1x64, .f32⟩
  | 82 => ⟨S1x64, .f32⟩
  | 83 => ⟨S8192x64, .f32⟩
  | 84 => ⟨S8192x64, .f32⟩
  | 85 => ⟨S_, .f32⟩
  | 86 => ⟨S1x64, .f32⟩
  | 87 => ⟨S1x64, .f32⟩
  | 88 => ⟨S1x64, .f32⟩
  | 89 => ⟨S8192x64, .f32⟩
  | 90 => ⟨S8192x64, .f32⟩
  | 91 => ⟨S1x64, .f32⟩
  | 92 => ⟨S8192x64, .f32⟩
  | 93 => ⟨S8192x64, .f32⟩
  | 94 => ⟨S1x64, .f32⟩
  | 95 => ⟨S8192x64, .f32⟩
  | 96 => ⟨S8192x64, .f32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S131072x16, .i32⟩
  | 106 => ⟨S16, .i32⟩
  | 107 => ⟨S_, .i32⟩
  | 108 => ⟨S16, .i32⟩
  | 109 => ⟨S16, .i1⟩
  | 110 => ⟨S_, .i32⟩
  | 111 => ⟨S16, .i32⟩
  | 112 => ⟨S16, .i32⟩
  | 113 => ⟨S16, .i32⟩
  | 114 => ⟨S_, .i32⟩
  | 115 => ⟨S131072x16, .i32⟩
  | 116 => ⟨S131072x16, .i1⟩
  | 117 => ⟨S_, .i32⟩
  | 118 => ⟨S131072x16, .i32⟩
  | 119 => ⟨S131072x16, .i32⟩
  | 120 => ⟨S131072x16, .i32⟩
  | 121 => ⟨S131072x16, .i32⟩
  | 122 => ⟨S131072x16x1, .i32⟩
  | 123 => ⟨S131072x16x1, .i32⟩
  | 124 => ⟨S131072x16x2, .i32⟩
  | 125 => ⟨S131072x16x64, .f32⟩
  | 126 => ⟨S131072x1024, .f32⟩
  | 127 => ⟨S_, .i32⟩
  | _ => ⟨S8192, .i32⟩

abbrev hbmTy0_1 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S131072x1, .i32⟩
  | 7 => ⟨S131072x128, .f32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S131072x128, .f32⟩
  | 22 => ⟨S131072x128, .f32⟩
  | 23 => ⟨S131072x128, .f32⟩
  | 24 => ⟨S_, .f32⟩
  | 25 => ⟨S_, .f32⟩
  | 26 => ⟨S_, .f32⟩
  | 27 => ⟨S_, .f32⟩
  | 28 => ⟨S128, .f32⟩
  | 29 => ⟨S1x128, .f32⟩
  | 30 => ⟨S1x128, .f32⟩
  | 31 => ⟨S1x128, .f32⟩
  | 32 => ⟨S_, .f32⟩
  | 33 => ⟨S_, .i1⟩
  | 34 => ⟨S_, .f32⟩
  | 35 => ⟨S_, .f32⟩
  | 36 => ⟨S1x128, .f32⟩
  | 37 => ⟨S1x128, .f32⟩
  | 38 => ⟨S131072x128, .f32⟩
  | 39 => ⟨S131072x128, .f32⟩
  | 40 => ⟨S_, .f32⟩
  | 41 => ⟨S1x128, .f32⟩
  | 42 => ⟨S1x128, .f32⟩
  | 43 => ⟨S1x128, .f32⟩
  | 44 => ⟨S131072x128, .f32⟩
  | 45 => ⟨S131072x128, .f32⟩
  | 46 => ⟨S1x128, .f32⟩
  | 47 => ⟨S131072x128, .f32⟩
  | 48 => ⟨S131072x128, .f32⟩
  | 49 => ⟨S1x128, .f32⟩
  | 50 => ⟨S131072x128, .f32⟩
  | 51 => ⟨S131072x128, .f32⟩
  | 52 => ⟨S131072x1152, .f32⟩
  | 53 => ⟨S1152x32, .f32⟩
  | 54 => ⟨S131072x32, .f32⟩
  | 55 => ⟨S1x32, .f32⟩
  | 56 => ⟨S131072x32, .f32⟩
  | 57 => ⟨S131072x32, .f32⟩
  | 58 => ⟨S_, .f32⟩
  | 59 => ⟨S131072x32, .f32⟩
  | 60 => ⟨S131072x32, .f32⟩
  | 61 => ⟨S8192x16x32, .f32⟩
  | 62 => ⟨S_, .f32⟩
  | 63 => ⟨S8192x32, .f32⟩
  | 64 => ⟨S_, .f32⟩
  | 65 => ⟨S8192x32, .f32⟩
  | 66 => ⟨S8192x32, .f32⟩
  | 67 => ⟨S8192x608, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_v12 : Ref sig .tc := ⟨.hbm, 76, rfl⟩
abbrev main_call0_cst_3 : Ref sig .tc := ⟨.hbm, 77, rfl⟩
abbrev main_call0_v13 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_9 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_c_10 : Ref sig .tc := ⟨.hbm, 97, rfl⟩
abbrev main_v49 : Ref sig .tc := ⟨.hbm, 98, rfl⟩
abbrev main_v50 : Ref sig .tc := ⟨.hbm, 99, rfl⟩
abbrev main_c_11 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_c_12 : Ref sig .tc := ⟨.hbm, 107, rfl⟩
abbrev main_v57 : Ref sig .tc := ⟨.hbm, 108, rfl⟩
abbrev main_v58 : Ref sig .tc := ⟨.hbm, 109, rfl⟩
abbrev main_c_13 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_c_14 : Ref sig .tc := ⟨.hbm, 114, rfl⟩
abbrev main_v62 : Ref sig .tc := ⟨.hbm, 115, rfl⟩
abbrev main_v63 : Ref sig .tc := ⟨.hbm, 116, rfl⟩
abbrev main_c_15 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_16 : Ref sig .tc := ⟨.hbm, 127, rfl⟩
abbrev main_v73 : Ref sig .tc := ⟨.hbm, 128, rfl⟩
abbrev main_v74 : Ref sig .tc := ⟨.hbm, 129, rfl⟩
abbrev main_c_17 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_18 : Ref sig .tc := ⟨.hbm, 136, rfl⟩
abbrev main_v80 : Ref sig .tc := ⟨.hbm, 137, rfl⟩
abbrev main_v81 : Ref sig .tc := ⟨.hbm, 138, rfl⟩
abbrev main_cst_19 : Ref sig .tc := ⟨.hbm, 139, rfl⟩
abbrev main_v82 : Ref sig .tc := ⟨.hbm, 140, rfl⟩
abbrev main_v83 : Ref sig .tc := ⟨.hbm, 141, rfl⟩
abbrev main_c_20 : Ref sig .tc := ⟨.hbm, 142, rfl⟩
abbrev main_call1_cst : Ref sig .tc := ⟨.hbm, 143, rfl⟩
abbrev main_call1_v0 : Ref sig .tc := ⟨.hbm, 144, rfl⟩
abbrev main_call1_v1 : Ref sig .tc := ⟨.hbm, 145, rfl⟩
abbrev main_call1_cst_0 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_v5 : Ref sig .tc := ⟨.hbm, 150, rfl⟩
abbrev main_call1_v6 : Ref sig .tc := ⟨.hbm, 151, rfl⟩
abbrev main_call1_v7 : Ref sig .tc := ⟨.hbm, 152, rfl⟩
abbrev main_call1_cst_1 : Ref sig .tc := ⟨.hbm, 153, rfl⟩
abbrev main_call1_v8 : Ref sig .tc := ⟨.hbm, 154, rfl⟩
abbrev main_call1_cst_2 : Ref sig .tc := ⟨.hbm, 155, rfl⟩
abbrev main_call1_v9 : Ref sig .tc := ⟨.hbm, 156, rfl⟩
abbrev main_call1_v10 : Ref sig .tc := ⟨.hbm, 157, rfl⟩
abbrev main_call1_v11 : Ref sig .tc := ⟨.hbm, 158, rfl⟩
abbrev main_call1_v12 : Ref sig .tc := ⟨.hbm, 159, rfl⟩
abbrev main_call1_cst_3 : Ref sig .tc := ⟨.hbm, 160, rfl⟩
abbrev main_call1_v13 : Ref sig .tc := ⟨.hbm, 161, rfl⟩
abbrev main_call1_cst_4 : Ref sig .tc := ⟨.hbm, 162, rfl⟩
abbrev main_call1_call0_v0 : Ref sig .tc := ⟨.hbm, 163, rfl⟩
abbrev main_call1_call0_v1 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_cst_21 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_call2_cst : Ref sig .tc := ⟨.hbm, 186, rfl⟩
abbrev main_call2_v0 : Ref sig .tc := ⟨.hbm, 187, rfl⟩
abbrev main_v104 : Ref sig .tc := ⟨.hbm, 188, rfl⟩
abbrev main_v105 : Ref sig .tc := ⟨.hbm, 189, rfl⟩
abbrev main_cst_22 : Ref sig .tc := ⟨.hbm, 190, rfl⟩
abbrev main_v106 : Ref sig .tc := ⟨.hbm, 191, rfl⟩
abbrev main_cst_23 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8 : S_.BroadcastsInDim S8 (![] : Fin 0 → Fin S8.rank)
  bcast_S_S8192x8 : S_.BroadcastsInDim S8192x8 (![] : Fin 0 → Fin S8192x8.rank)
  bcast_S8_S8192x8_1 : S8.BroadcastsInDim S8192x8 (![1] : Fin 1 → Fin S8192x8.rank)
  bcast_S8192x8_S8192x8x1_0_1 : S8192x8.BroadcastsInDim S8192x8x1 (![0, 1] : Fin 2 → Fin S8192x8x1.rank)
  concatenates_S8192x8x1_S8192x8x1_S8192x8x2_d2 : Shape.Concatenates [S8192x8x1, S8192x8x1] S8192x8x2 2
  shapeCasts_S8192x8x64_S8192x512 : S8192x8x64.ShapeCasts S8192x512
  reducesTo_S8192x64_S64_d0 : S8192x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S8192x64_0_1 : S1x64.BroadcastsInDim S8192x64 (![0, 1] : Fin 2 → Fin S8192x64.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S16 : S_.BroadcastsInDim S16 (![] : Fin 0 → Fin S16.rank)
  bcast_S_S131072x16 : S_.BroadcastsInDim S131072x16 (![] : Fin 0 → Fin S131072x16.rank)
  bcast_S16_S131072x16_1 : S16.BroadcastsInDim S131072x16 (![1] : Fin 1 → Fin S131072x16.rank)
  bcast_S131072x16_S131072x16x1_0_1 : S131072x16.BroadcastsInDim S131072x16x1 (![0, 1] : Fin 2 → Fin S131072x16x1.rank)
  concatenates_S131072x16x1_S131072x16x1_S131072x16x2_d2 : Shape.Concatenates [S131072x16x1, S131072x16x1] S131072x16x2 2
  shapeCasts_S131072x16x64_S131072x1024 : S131072x16x64.ShapeCasts S131072x1024
  reducesTo_S131072x128_S128_d0 : S131072x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S131072x128_0_1 : S1x128.BroadcastsInDim S131072x128 (![0, 1] : Fin 2 → Fin S131072x128.rank)
  concatenates_S131072x1024_S131072x128_S131072x1152_d1 : Shape.Concatenates [S131072x1024, S131072x128] S131072x1152 1
  transposes_S32x1152_S1152x32_1_0 : S32x1152.Transposes [1, 0] S1152x32
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  shapeCasts_S131072x32_S8192x16x32 : S131072x32.ShapeCasts S8192x16x32
  reducesTo_S8192x16x32_S8192x32_d1 : S8192x16x32.ReducesTo [1] S8192x32
  bcast_S_S8192x32 : S_.BroadcastsInDim S8192x32 (![] : Fin 0 → Fin S8192x32.rank)
  concatenates_S8192x512_S8192x64_S8192x32_S8192x608_d1 : Shape.Concatenates [S8192x512, S8192x64, S8192x32] S8192x608 1
  gather_S200000x8_S8192x1_S8192x8_1_0_n_n_0_1_18_wf : GatherDims.WF S200000x8 S8192x1 S8192x8 [1] [0] [] [0] [] 1 ![1, 8]
  gather_S8x50000x64_S8192x8x2_S8192x8x64_2_01_n_n_01_2_1164_wf : GatherDims.WF S8x50000x64 S8192x8x2 S8192x8x64 [2] [0, 1] [] [0, 1] [] 2 ![1, 1, 64]
  gather_S200000x64_S8192x1_S8192x64_1_0_n_n_0_1_164_wf : GatherDims.WF S200000x64 S8192x1 S8192x64 [1] [0] [] [0] [] 1 ![1, 64]
  gather_S500000x16_S131072x1_S131072x16_1_0_n_n_0_1_116_wf : GatherDims.WF S500000x16 S131072x1 S131072x16 [1] [0] [] [0] [] 1 ![1, 16]
  gather_S16x50000x64_S131072x16x2_S131072x16x64_2_01_n_n_01_2_1164_wf : GatherDims.WF S16x50000x64 S131072x16x2 S131072x16x64 [2] [0, 1] [] [0, 1] [] 2 ![1, 1, 64]
  gather_S500000x128_S131072x1_S131072x128_1_0_n_n_0_1_1128_wf : GatherDims.WF S500000x128 S131072x1 S131072x128 [1] [0] [] [0] [] 1 ![1, 128]
  dot_S131072x1152_S1152x32_S131072x32_1_0_0_1_n_n_wf : DotDims.WF S131072x1152 S1152x32 S131072x32 [1] [0] [0] [1] [] []

variable [Facts₀]

def gather_S200000x8_S8192x1_S8192x8_1_0_n_n_0_1_18 : GatherDims S200000x8 S8192x1 S8192x8 where
  offsetDims := [1]
  collapsedSliceDims := [0]
  operandBatchingDims := []
  startIndicesBatchingDims := []
  startIndexMap := [0]
  indexVectorDim := 1
  sliceSizes := ![1, 8]
  wf := gather_S200000x8_S8192x1_S8192x8_1_0_n_n_0_1_18_wf
def gather_S8x50000x64_S8192x8x2_S8192x8x64_2_01_n_n_01_2_1164 : GatherDims S8x50000x64 S8192x8x2 S8192x8x64 where
  offsetDims := [2]
  collapsedSliceDims := [0, 1]
  operandBatchingDims := []
  startIndicesBatchingDims := []
  startIndexMap := [0, 1]
  indexVectorDim := 2
  sliceSizes := ![1, 1, 64]
  wf := gather_S8x50000x64_S8192x8x2_S8192x8x64_2_01_n_n_01_2_1164_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def gather_S500000x16_S131072x1_S131072x16_1_0_n_n_0_1_116 : GatherDims S500000x16 S131072x1 S131072x16 where
  offsetDims := [1]
  collapsedSliceDims := [0]
  operandBatchingDims := []
  startIndicesBatchingDims := []
  startIndexMap := [0]
  indexVectorDim := 1
  sliceSizes := ![1, 16]
  wf := gather_S500000x16_S131072x1_S131072x16_1_0_n_n_0_1_116_wf
def gather_S16x50000x64_S131072x16x2_S131072x16x64_2_01_n_n_01_2_1164 : GatherDims S16x50000x64 S131072x16x2 S131072x16x64 where
  offsetDims := [2]
  collapsedSliceDims := [0, 1]
  operandBatchingDims := []
  startIndicesBatchingDims := []
  startIndexMap := [0, 1]
  indexVectorDim := 2
  sliceSizes := ![1, 1, 64]
  wf := gather_S16x50000x64_S131072x16x2_S131072x16x64_2_01_n_n_01_2_1164_wf
def gather_S500000x128_S131072x1_S131072x128_1_0_n_n_0_1_1128 : GatherDims S500000x128 S131072x1 S131072x128 where
  offsetDims := [1]
  collapsedSliceDims := [0]
  operandBatchingDims := []
  startIndicesBatchingDims := []
  startIndexMap := [0]
  indexVectorDim := 1
  sliceSizes := ![1, 128]
  wf := gather_S500000x128_S131072x1_S131072x128_1_0_n_n_0_1_1128_wf
def dot_S131072x1152_S1152x32_S131072x32_1_0_0_1_n_n : DotDims S131072x1152 S1152x32 S131072x32 where
  lhsContracting := [1]
  rhsContracting := [0]
  lhsNonContracting := [0]
  rhsNonContracting := [1]
  lhsBatch := []
  rhsBatch := []
  wf := dot_S131072x1152_S1152x32_S131072x32_1_0_0_1_n_n_wf

class Facts : Prop extends Facts₀ where

variable [Facts]
-- ==== Proof.KEntry.lean ====
/-
  The buffers of a core as the one kernel region finds them: the launch contents run through the sixty stretches
  of host operations that stand before the region in the program, in order.
-/
import proofs.«409894_j6640019439760_1_alg».proof.Proof.KernelLaunchP

noncomputable section

namespace Cert.Kernel.Hand

open Cert.Kernel Cert.Kernel.Gen Cert.Kernel.GenP
open Idealize.ShloMosaic Idealize.ShloMosaic.TcCoe Idealize.SL.Sem

variable {F : FTy → Type} [FloatOps F]

/-- The host operations before the region, stretch by stretch. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59]

variable (m : (ℓ : Loc nD τ sig) → Buf (Elt F) ℓ)

/-- Core `c`'s buffer contents when the region is entered. -/
abbrev V0 (c : Dev nD) : Valuation τ sig (Elt F) := StableHlo.after (List.flatten prefixOps) (fun b => m (c, b))

/-- The same, read at one reference. -/
abbrev V (c : Dev nD) (b : Ref sig .tc) : Buf (Elt F) ((c : Thread nD τ).loc b) := V0 m c (Proc.devRef .tc b)

end Cert.Kernel.Hand

end
-- ==== Proof.KFrameKitPlain.lean ====
/-
  The host operations that stand before the one kernel region, stretch by stretch: each allocates nothing and
  writes exactly one buffer, and that buffer is never one of @main's fourteen arguments (the arguments are the
  first fourteen HBM references; every host value has a buffer of its own past them). Hence the region finds
  every argument as launched, however long the host prefix is.
-/
import proofs.«409894_j6640019439760_1_alg».proof.Proof.KEntry

noncomputable section

namespace Cert.Kernel.Hand

open Cert.Kernel Cert.Kernel.Gen Cert.Kernel.GenP
open Idealize.ShloMosaic Idealize.ShloMosaic.TcCoe Idealize.SL.Sem

variable {F : FTy → Type} [FloatOps F]

/-- @main's fourteen arguments: indices, tables, embeddings, the linear layer and the batch-norm parameters. -/
def argRefs : List (Ref sig .tc) :=
  [main_arg0, main_arg1, main_arg2, main_arg3, main_arg4, main_arg5, main_arg6, main_arg7, main_arg8, main_arg9,
   main_arg10, main_arg11, main_arg12, main_arg13]

/-- A PLAIN host operation: it allocates no buffer, and no argument of @main is among the buffers it writes. -/
structure PlainOp (op : HloOp τ sig (Elt F)) : Prop where
  fresh : op.fresh = ∅
  spares : ∀ r ∈ argRefs, Proc.devRef (τ := τ) .tc r ∉ op.writes

/-- An operation that allocates nothing and writes the single buffer `y` is plain as soon as `y` is no argument:
    distinct references are distinct device buffers. -/
theorem plainOp_of_result {op : HloOp τ sig (Elt F)} {y : Ref sig .tc} (hf : op.fresh = ∅)
    (hw : op.writes = {Proc.devRef .tc y}) (hy : y ∉ argRefs) : PlainOp op :=
  ⟨hf, fun r hr hmem => by
    rw [hw, Finset.mem_singleton] at hmem
    exact hy (Proc.devRef_injective _ hmem ▸ hr)⟩

/-- Every operation of a literal stretch in turn: what it allocates and what it writes are read off the builder
    (by unfolding), and its result buffer is told apart from the fourteen arguments by deciding. -/
local macro "plain_stretch" : tactic =>
  `(tactic| (simp only [List.Forall]; (repeat' apply And.intro); all_goals exact plainOp_of_result rfl rfl (by decide)))

theorem plain0 : (hostOps0 : List (HloOp τ sig (Elt F))).Forall PlainOp := by plain_stretch
theorem plain0_1 : (hostOps0_1 : List (HloOp τ sig (Elt F))).Forall PlainOp := by plain_stretch
theorem plain0_2 : (hostOps0_2 : List (HloOp τ sig (Elt F))).Forall PlainOp := by plain_stretch
theorem plain0_3 : (hostOps0_3 : List (HloOp τ sig (Elt F))).Forall PlainOp := by plain_stretch
theorem plain0_4 : (hostOps0_4 : List (HloOp τ sig (Elt F))).Forall PlainOp := by plain_stretch
theorem plain0_5 : (hostOps0_5 : List (HloOp τ sig (Elt F))).Forall PlainOp := by plain_stretch
theorem plain0_6 : (hostOps0_6 : List (HloOp τ sig (Elt F))).Forall PlainOp := by plain_stretch
theorem plain0_7 : (hostOps0_7 : List (HloOp τ sig (Elt F))).Forall PlainOp := by plain_stretch
theorem plain0_8 : (hostOps0_8 : List (HloOp τ sig (Elt F))).Forall PlainOp := by plain_stretch
theorem plain0_9 : (hostOps0_9 : List (HloOp τ sig (Elt F))).Forall PlainOp := by plain_stretch
theorem plain0_10 : (hostOps0_10 : List (HloOp τ sig (Elt F))).Forall PlainOp := by plain_stretch
theorem plain0_11 : (hostOps0_11 : List (HloOp τ sig (Elt F))).Forall PlainOp := by plain_stretch
theorem plain0_12 : (hostOps0_12 : List (HloOp τ sig (Elt F))).Forall PlainOp := by plain_stretch
theorem plain0_13 : (hostOps0_13 : List (HloOp τ sig (Elt F))).Forall PlainOp := by plain_stretch
theorem plain0_14 : (hostOps0_14 : List (HloOp τ sig (Elt F))).Forall PlainOp := by plain_stretch
theorem plain0_15 : (hostOps0_15 : List (HloOp τ sig (Elt F))).Forall PlainOp := by plain_stretch
theorem plain0_16 : (hostOps0_16 : List (HloOp τ sig (Elt F))).Forall PlainOp := by plain_stretch
theorem plain0_17 : (hostOps0_17 : List (HloOp τ sig (Elt F))).Forall PlainOp := by plain_stretch
theorem plain0_18 : (hostOps0_18 : List (HloOp τ sig (Elt F))).Forall PlainOp := by plain_stretch
theorem plain0_19 : (hostOps0_19 : List (HloOp τ sig (Elt F))).Forall PlainOp := by plain_stretch
theorem plain0_20 : (hostOps0_20 : List (HloOp τ sig (Elt F))).Forall PlainOp := by plain_stretch
theorem plain0_21 : (hostOps0_21 : List (HloOp τ sig (Elt F))).Forall PlainOp := by plain_stretch
theorem plain0_22 : (hostOps0_22 : List (HloOp τ sig (Elt F))).Forall PlainOp := by plain_stretch
theorem plain0_23 : (hostOps0_23 : List (HloOp τ sig (Elt F))).Forall PlainOp := by plain_stretch
theorem plain0_24 : (hostOps0_24 : List (HloOp τ sig (Elt F))).Forall PlainOp := by plain_stretch
theorem plain0_25 : (hostOps0_25 : List (HloOp τ sig (Elt F))).Forall PlainOp := by plain_stretch
theorem plain0_26 : (hostOps0_26 : List (HloOp τ sig (Elt F))).Forall PlainOp := by plain_stretch
theorem plain0_27 : (hostOps0_27 : List (HloOp τ sig (Elt F))).Forall PlainOp := by plain_stretch
theorem plain0_28 : (hostOps0_28 : List (HloOp τ sig (Elt F))).Forall PlainOp := by plain_stretch
theorem plain0_29 : (hostOps0_29 : List (HloOp τ sig (Elt F))).Forall PlainOp := by plain_stretch
theorem plain0_30 : (hostOps0_30 : List (HloOp τ sig (Elt F))).Forall PlainOp := by plain_stretch
theorem plain0_31 : (hostOps0_31 : List (HloOp τ sig (Elt F))).Forall PlainOp := by plain_stretch
theorem plain0_32 : (hostOps0_32 : List (HloOp τ sig (Elt F))).Forall PlainOp := by plain_stretch
theorem plain0_33 : (hostOps0_33 : List (HloOp τ sig (Elt F))).Forall PlainOp := by plain_stretch
theorem plain0_34 : (hostOps0_34 : List (HloOp τ sig (Elt F))).Forall PlainOp := by plain_stretch
theorem plain0_35 : (hostOps0_35 : List (HloOp τ sig (Elt F))).Forall PlainOp := by plain_stretch
theorem plain0_36 : (hostOps0_36 : List (HloOp τ sig (Elt F))).Forall PlainOp := by plain_stretch
theorem plain0_37 : (hostOps0_37 : List (HloOp τ sig (Elt F))).Forall PlainOp := by plain_stretch
theorem plain0_38 : (hostOps0_38 : List (HloOp τ sig (Elt F))).Forall PlainOp := by plain_stretch
theorem plain0_39 : (hostOps0_39 : List (HloOp τ sig (Elt F))).Forall PlainOp := by plain_stretch
theorem plain0_40 : (hostOps0_40 : List (HloOp τ sig (Elt F))).Forall PlainOp := by plain_stretch
theorem plain0_41 : (hostOps0_41 : List (HloOp τ sig (Elt F))).Forall PlainOp := by plain_stretch
theorem plain0_42 : (hostOps0_42 : List (HloOp τ sig (Elt F))).Forall PlainOp := by plain_stretch
theorem plain0_43 : (hostOps0_43 : List (HloOp τ sig (Elt F))).Forall PlainOp := by plain_stretch
theorem plain0_44 : (hostOps0_44 : List (HloOp τ sig (Elt F))).Forall PlainOp := by plain_stretch
theorem plain0_45 : (hostOps0_45 : List (HloOp τ sig (Elt F))).Forall PlainOp := by plain_stretch
theorem plain0_46 : (hostOps0_46 : List (HloOp τ sig (Elt F))).Forall PlainOp := by plain_stretch
theorem plain0_47 : (hostOps0_47 : List (HloOp τ sig (Elt F))).Forall PlainOp := by plain_stretch
theorem plain0_48 : (hostOps0_48 : List (HloOp τ sig (Elt F))).Forall PlainOp := by plain_stretch
theorem plain0_49 : (hostOps0_49 : List (HloOp τ sig (Elt F))).Forall PlainOp := by plain_stretch
theorem plain0_50 : (hostOps0_50 : List (HloOp τ sig (Elt F))).Forall PlainOp := by plain_stretch
theorem plain0_51 : (hostOps0_51 : List (HloOp τ sig (Elt F))).Forall PlainOp := by plain_stretch
theorem plain0_52 : (hostOps0_52 : List (HloOp τ sig (Elt F))).Forall PlainOp := by plain_stretch
theorem plain0_53 : (hostOps0_53 : List (HloOp τ sig (Elt F))).Forall PlainOp := by plain_stretch
theorem plain0_54 : (hostOps0_54 : List (HloOp τ sig (Elt F))).Forall PlainOp := by plain_stretch
theorem plain0_55 : (hostOps0_55 : List (HloOp τ sig (Elt F))).Forall PlainOp := by plain_stretch
theorem plain0_56 : (hostOps0_56 : List (HloOp τ sig (Elt F))).Forall PlainOp := by plain_stretch
theorem plain0_57 : (hostOps0_57 : List (HloOp τ sig (Elt F))).Forall PlainOp := by plain_stretch
theorem plain0_58 : (hostOps0_58 : List (HloOp τ sig (Elt F))).Forall PlainOp := by plain_stretch
theorem plain0_59 : (hostOps0_59 : List (HloOp τ sig (Elt F))).Forall PlainOp := by plain_stretch

/-- The whole prefix is plain. -/
theorem plain_prefix : (prefixOps : List (List (HloOp τ sig (Elt F)))).Forall fun ops => ops.Forall PlainOp :=
  ⟨
    plain0, plain0_1, plain0_2, plain0_3, plain0_4, plain0_5, plain0_6, plain0_7,
    plain0_8, plain0_9, plain0_10, plain0_11, plain0_12, plain0_13, plain0_14, plain0_15,
    plain0_16, plain0_17, plain0_18, plain0_19, plain0_20, plain0_21, plain0_22, plain0_23,
    plain0_24, plain0_25, plain0_26, plain0_27, plain0_28, plain0_29, plain0_30, plain0_31,
    plain0_32, plain0_33, plain0_34, plain0_35, plain0_36, plain0_37, plain0_38, plain0_39,
    plain0_40, plain0_41, plain0_42, plain0_43, plain0_44, plain0_45, plain0_46, plain0_47,
    plain0_48, plain0_49, plain0_50, plain0_51, plain0_52, plain0_53, plain0_54, plain0_55,
    plain0_56, plain0_57, plain0_58, plain0_59⟩

/-- It allocates nothing. -/
theorem prefix_fresh : (prefixOps : List (List (HloOp τ sig (Elt F)))).Forall fun ops => ops.Forall fun op => op.fresh = ∅ :=
  plain_prefix.imp fun _ h => h.imp fun _ h => h.fresh

/-- It touches TensorCore references only (each stretch's own statement, in order). -/
theorem prefix_sub : (prefixOps : List (List (HloOp τ sig (Elt F)))).Forall fun ops => ops.Forall fun op => op.bufs ⊆ StableHlo.tcRefs τ sig :=
  ⟨
    hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub, hostOps0_15_sub,
    hostOps0_16_sub, hostOps0_17_sub, hostOps0_18_sub, hostOps0_19_sub, hostOps0_20_sub, hostOps0_21_sub, hostOps0_22_sub, hostOps0_23_sub,
    hostOps0_24_sub, hostOps0_25_sub, hostOps0_26_sub, hostOps0_27_sub, hostOps0_28_sub, hostOps0_29_sub, hostOps0_30_sub, hostOps0_31_sub,
    hostOps0_32_sub, hostOps0_33_sub, hostOps0_34_sub, hostOps0_35_sub, hostOps0_36_sub, hostOps0_37_sub, hostOps0_38_sub, hostOps0_39_sub,
    hostOps0_40_sub, hostOps0_41_sub, hostOps0_42_sub, hostOps0_43_sub, hostOps0_44_sub, hostOps0_45_sub, hostOps0_46_sub, hostOps0_47_sub,
    hostOps0_48_sub, hostOps0_49_sub, hostOps0_50_sub, hostOps0_51_sub, hostOps0_52_sub, hostOps0_53_sub, hostOps0_54_sub, hostOps0_55_sub,
    hostOps0_56_sub, hostOps0_57_sub, hostOps0_58_sub, hostOps0_59_sub⟩

/-- No operation of the prefix writes an argument's buffer. -/
theorem prefix_spares {r : Ref sig .tc} (hr : r ∈ argRefs) :
    ∀ op ∈ List.flatten (prefixOps : List (List (HloOp τ sig (Elt F)))), Proc.devRef (τ := τ) .tc r ∉ op.writes := by
  intro op hop
  obtain ⟨ops, hops, hin⟩ := List.mem_flatten.mp hop
  exact ((List.forall_iff_forall_mem.mp ((List.forall_iff_forall_mem.mp plain_prefix) ops hops)) op hin).spares r hr

end Cert.Kernel.Hand

end
-- ==== Proof.KFrameKit.lean ====
/-
  The frame kit of the one kernel region. @main is sixty stretches of host operations (gathers, batch-norm
  statistics, concatenates), ONE pipelined kernel call over a grid of 32 points, and one closing concatenate.
  Here: @main reduced to the region continued by the closing concatenate, at the buffer contents the sixty
  stretches leave (`V`); the fourteen arguments as the region finds them and as the run ends (none is ever
  written, and only the linear layer's weights are staged by a window); each input window's block at a grid point
  (`iblk`) and the fact that its staging buffer holds that block at every point, fetched there or not; and the
  step from the library's frame post to the claim that every argument ends as launched.
-/
import proofs.«409894_j6640019439760_1_alg».proof.Proof.KFrameKitPlain
import proofs.«409894_j6640019439760_1_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the sixty stretches, the region, the closing concatenate: holding the launch contents it reduces to the
    region CONTINUED BY the concatenate, holding what the stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-! ## The closing concatenate -/

/-- It joins three host values into the result `main_v159`: one plain operation. -/
theorem plain1 : (hostOps1 : List (HloOp τ sig (Elt F))).Forall PlainOp :=
  plainOp_of_result rfl rfl (by decide)

/-- The operations after the region, one by one. -/
theorem suffix_cases {P : HloOp τ sig (Elt F) → Prop} (h : (hostOps1 : List (HloOp τ sig (Elt F))).Forall P) :
    ∀ ops ∈ ([hostOps1] : List (List (HloOp τ sig (Elt F)))), ∀ op ∈ ops, P op := by
  intro ops hops op hop
  obtain rfl : ops = hostOps1 := List.mem_singleton.mp hops
  exact (List.forall_iff_forall_mem.mp h) op hop

/-- It touches unscoped TensorCore buffers only, and with nothing prefetched each of those is an array of the pipeline
    or a buffer that bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact suffix_cases (P := fun op => op.bufs ⊆ Pipeline.ucRefs τ sig)
    ((hostOps1_sub (F := F)).imp fun op h => Pipeline.sub_ucRefs op h)

/-- It allocates nothing. -/
theorem sfx_fresh : ∀ ops ∈ ([hostOps1] : List (List (HloOp τ sig (Elt F)))), ∀ op ∈ ops, op.fresh = ∅ :=
  suffix_cases ((plain1 (F := F)).imp fun _ h => h.fresh)

/-- It writes `main_v159`, which is none of the seven window arrays. -/
theorem sfx_keeps : ∀ ops ∈ ([hostOps1] : List (List (HloOp τ sig (Elt F)))), ∀ op ∈ ops,
    ∀ w, Proc.devRef .tc (Pipeline.arrRef spec0 w) ∉ op.writes :=
  suffix_cases (P := fun op => ∀ w, Proc.devRef (τ := τ) .tc (Pipeline.arrRef spec0 w) ∉ op.writes) (by
    intro w
    rw [StableHlo.nary_writes, Finset.mem_singleton]
    exact StableHlo.devRef_ne_of_ne ((by decide : ∀ w, Pipeline.arrRef spec0 w ≠ main_v159) w))

/-! ## The arguments -/

/-- The region finds every argument as launched: no operation of the sixty stretches writes it. -/
theorem V_arg (c : Dev nD) {r : Ref sig .tc} (hr : r ∈ argRefs) : V m c r = m ((c : Thread nD τ).loc r) :=
  StableHlo.after_of_forall_not_mem (b := Proc.devRef .tc r) _ _ (prefix_spares hr)

/-- Window 4 stages an ARGUMENT, the linear layer's weights: the region finds them as launched. -/
theorem V_main_arg8 (c : Dev nD) : V m c main_arg8 = m ((c : Thread nD τ).loc main_arg8) :=
  V_arg m c (by decide)

/-- An argument that is no window's array ends as launched: the concatenate does not write it, the region hands it
    back as found, and the stretches before did not write it. -/
theorem tail_arg (dats : (p : Fin 1) → (c : Dev nD) → Dat τ (Elt F) Unit ℕ (UR sig nD τ) ℕ (cfgs p) c) (c : Dev nD)
    {r : Ref sig .tc} (hr : r ∈ argRefs) (hw : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop =>
        (suffix_cases (plain1 (F := F)) _ (List.mem_singleton.mpr rfl) op
          (by simpa only [List.flatten_cons, List.flatten_nil, List.append_nil] using hop)).spares r hr),
    Pipeline.withArrays_of_ne _ c (V0 m c) _ r hw]
  exact V_arg m c hr

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  tail_arg m dats c (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  tail_arg m dats c (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  tail_arg m dats c (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  tail_arg m dats c (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  tail_arg m dats c (by decide) (by decide)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  tail_arg m dats c (by decide) (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  tail_arg m dats c (by decide) (by decide)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  tail_arg m dats c (by decide) (by decide)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  tail_arg m dats c (by decide) (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  tail_arg m dats c (by decide) (by decide)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  tail_arg m dats c (by decide) (by decide)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  tail_arg m dats c (by decide) (by decide)
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  tail_arg m dats c (by decide) (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 — the children's gathered embeddings (main_v142), a block of rows at every point — holds its block in its current staging buffer at every
    point, for any proof data over the region-entry array whose body leaves the block in place: where the pipeline does
    not fetch, the block index has not moved. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  have hblock : ∀ t, dat.blockOf 0 t = iblk m c 0 t := fun t => by unfold Dat.blockOf iblk; rw [hA]
  refine (dat.before_in_eq_fetched 0 rfl (fun _ => rfl) (fun _ _ _ => rfl) (fun t => ?_) t d).trans ?_
  · rw [hblock, hafter]
  · unfold Dat.fetched; rw [hblock]; rfl

/-- Input window 1 — the children's gathered numeric features (main_v143), a block of rows at every point — holds its block in its current staging buffer at every
    point, for any proof data over the region-entry array whose body leaves the block in place: where the pipeline does
    not fetch, the block index has not moved. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  have hblock : ∀ t, dat.blockOf 1 t = iblk m c 1 t := fun t => by unfold Dat.blockOf iblk; rw [hA]
  refine (dat.before_in_eq_fetched 1 rfl (fun _ => rfl) (fun _ _ _ => rfl) (fun t => ?_) t d).trans ?_
  · rw [hblock, hafter]
  · unfold Dat.fetched; rw [hblock]; rfl

/-- Input window 2 — the batch-norm scale row (main_v153), one block, fetched once — holds its block in its current staging buffer at every
    point, for any proof data over the region-entry array whose body leaves the block in place: where the pipeline does
    not fetch, the block index has not moved. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  have hblock : ∀ t, dat.blockOf 2 t = iblk m c 2 t := fun t => by unfold Dat.blockOf iblk; rw [hA]
  refine (dat.before_in_eq_fetched 2 rfl (fun _ => rfl) (fun _ _ _ => rfl) (fun t => ?_) t d).trans ?_
  · rw [hblock, hafter]
  · unfold Dat.fetched; rw [hblock]; rfl

/-- Input window 3 — the batch-norm shift row (main_v156), one block, fetched once — holds its block in its current staging buffer at every
    point, for any proof data over the region-entry array whose body leaves the block in place: where the pipeline does
    not fetch, the block index has not moved. The window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t := by
  have hblock : ∀ t, dat.blockOf 3 t = iblk m c 3 t := fun t => by unfold Dat.blockOf iblk; rw [hA]
  refine (dat.before_in_eq_fetched 3 rfl (fun _ => rfl) (fun _ _ _ => rfl) (fun t => ?_) t d).trans ?_
  · rw [hblock, hafter]
  · unfold Dat.fetched; rw [hblock]; rfl

/-- Input window 4 — the linear layer's weights (main_arg8), one block, fetched once — holds its block in its current staging buffer at every
    point, for any proof data over the region-entry array whose body leaves the block in place: where the pipeline does
    not fetch, the block index has not moved. The window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t := by
  have hblock : ∀ t, dat.blockOf 4 t = iblk m c 4 t := fun t => by unfold Dat.blockOf iblk; rw [hA]
  refine (dat.before_in_eq_fetched 4 rfl (fun _ => rfl) (fun _ _ _ => rfl) (fun t => ?_) t d).trans ?_
  · rw [hblock, hafter]
  · unfold Dat.fetched; rw [hblock]; rfl

/-- Input window 5 — the linear layer's bias row (main_v157), one block, fetched once — holds its block in its current staging buffer at every
    point, for any proof data over the region-entry array whose body leaves the block in place: where the pipeline does
    not fetch, the block index has not moved. The window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t := by
  have hblock : ∀ t, dat.blockOf 5 t = iblk m c 5 t := fun t => by unfold Dat.blockOf iblk; rw [hA]
  refine (dat.before_in_eq_fetched 5 rfl (fun _ => rfl) (fun _ _ _ => rfl) (fun t => ?_) t d).trans ?_
  · rw [hblock, hafter]
  · unfold Dat.fetched; rw [hblock]; rfl

/-! ## The frame claim's post from the frame run's -/

/-- One argument read off the library's frame post, when no window stages it: it is among the buffers that bypass the
    region, which end at the contents after the concatenate. -/
theorem ends_as_launched (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) (c : Dev nD)
    {b : Ref sig .tc} (hb : b ∈ argRefs) (hs : b.isScoped = false) (hw : ∀ w, Pipeline.arrRef spec0 w ≠ b) :
    r.2.mem ((c.tc : Thread nD τ).loc b) = m ((c.tc : Thread nD τ).loc b) :=
  ((h c).2 b (Pipeline.mem_restRefs_of b hs hw)).trans (tail_arg m dats c hb hw)

/-- ONE final state satisfying the library's frame post, for proof data whose arrays are the region-entry contents,
    holds each of the fourteen arguments as launched, on every core: thirteen bypass the region; the linear layer's
    weights are input window 4's array, which an input window leaves as found. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide),
   ((h c).1 4).trans (((dats 0 c).arrAt_in 4 rfl _).trans ((hA c 4).trans (V_main_arg8 m c))),
   ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide)⟩

/-- THE FRAME from a frame run: a run to the library's frame post is a run to the claim that each of the fourteen
    arguments ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of_post m dats hA r h c) h

end Cert.Kernel.Hand

end
-- ==== Proof.KBody.lean ====
/-
  The one kernel region of the program, point by point, and the run of the whole program around it.

  Each of the 32 grid points reads six whole blocks (4096 embedding rows, their 4096 rows of counts, the scale and
  shift rows, the 32 × 1152 weight matrix, the bias row) and stores one 256 × 32 block: nothing is carried from a
  point to the next, so what the output block holds after a point is a function of the six blocks read there.
  This file states that function, proves it of the kernel body, gives the pipeline its proof data, and runs
  the program: host operations, the region, one more host line.
-/
import proofs.«409894_j6640019439760_1_alg».proof.Proof.KFrameKit
import proofs.«409894_j6640019439760_1_alg».proof.Proof.Gen.Kernel.Skeleton
import proofs.«409894_j6640019439760_1_alg».proof.Proof.Gen.Kernel.Points
import Idealize.ShloMosaic.Lib.Pipeline.FrameSuffix
import Idealize.ShloMosaic.Lib.Pipeline.FrameBody
import Idealize.ShloMosaic.Lib.Tactic

-- deciding that one rectangle tiles a 256 × 32 block walks its cells
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every one is a whole block -/

/-- All 4096 rows and 1024 columns of the block of embeddings. -/
abbrev embAll : Rect S4096x1024 := Rect.unit (s := S4096x1024) ![0, 0] S4096x1024.size inb_S4096x1024_S4096x1024_0_0
/-- All 4096 rows and 128 columns of the block of counts. -/
abbrev cntAll : Rect S4096x128 := Rect.unit (s := S4096x128) ![0, 0] S4096x128.size inb_S4096x128_S4096x128_0_0
/-- The whole 1 × 128 row: the scale and the shift are each read through it. -/
abbrev rowAll : Rect S1x128 := Rect.unit (s := S1x128) ![0, 0] S1x128.size inb_S1x128_S1x128_0_0
/-- The whole 32 × 1152 weight matrix. -/
abbrev wgtAll : Rect S32x1152 := Rect.unit (s := S32x1152) ![0, 0] S32x1152.size inb_S32x1152_S32x1152_0_0
/-- The whole 1 × 32 bias row. -/
abbrev biasAll : Rect S1x32 := Rect.unit (s := S1x32) ![0, 0] S1x32.size inb_S1x32_S1x32_0_0
/-- The whole 256 × 32 output block. -/
abbrev outAll : Rect S256x32 := Rect.unit (s := S256x32) ![0, 0] S256x32.size inb_S256x32_S256x32_0_0

/-! ## What a point leaves in the output block -/

/-- The output block after a grid point, from the six blocks read there (`x0` embeddings, `x1` counts, `x2` scale,
    `x3` shift, `x4` weights, `x5` bias): the body's one store, which is of the whole block. Its payload: the
    counts scaled and shifted column-wise, rounded to bf16 and set beside the embeddings (1152 columns), times the
    transposed bf16 weights, plus the bias, clamped below at zero, then averaged over each run of 16 rows. -/
def out0_6 (x0 : Vec F S4096x1024 .bf16) (x1 : Vec F S4096x128 .f32) (x2 x3 : Vec F S1x128 .f32)
    (x4 : Vec F S32x1152 .f32) (x5 : Vec F S1x32 .f32) : Vec F S256x32 .f32 :=
  View.canon [⟨Rect.unit (s := S256x32) ![0, 0] S256x32.size inb_S256x32_S256x32_0_0,
    k0_pay1 (View.ld x1 cntAll) (View.ld x2 rowAll) (View.ld x3 rowAll) (View.ld x0 embAll) (View.ld x4 wgtAll) (View.ld x5 biasAll)⟩]

/-- A single store through the whole-block rectangle reaches every cell of the 256 × 32 block. -/
theorem outAll_covers (p : Vec F S256x32 .f32) (y : S256x32.Idx) :
    ∃ pc ∈ ([⟨outAll, p⟩] : List (View.Piece (Elt F) S256x32 .f32)), y ∈ pc.1.set :=
  View.cover_of_tiled [⟨outAll, p⟩] S256x32.size (by rfl) y

/-! ## The body's triple -/

set_option maxHeartbeats 1000000 in
/-- The kernel body on seven whole staging buffers — the six inputs reading `x0 … x5`, the output holding
    anything — ends with the inputs as they were and the output at `out0_6 x0 … x5`. The body is its skeleton
    of six loads, a load of the output it then ignores, and the covering store; whatever the output held before is
    overwritten, which is why the store's result reads as the canon of its one piece. -/
theorem sound_kernel (c : Dev nD) (E : Set ℕ) (i : grid0.Coords)
    (emb : Memref sig .tc .vmem S4096x1024 .bf16) (hemb : emb.IsWhole)
    (cnt : Memref sig .tc .vmem S4096x128 .f32) (hcnt : cnt.IsWhole)
    (scl : Memref sig .tc .vmem S1x128 .f32) (hscl : scl.IsWhole)
    (sft : Memref sig .tc .vmem S1x128 .f32) (hsft : sft.IsWhole)
    (wgt : Memref sig .tc .vmem S32x1152 .f32) (hwgt : wgt.IsWhole)
    (bia : Memref sig .tc .vmem S1x32 .f32) (hbia : bia.IsWhole)
    (o : Memref sig .tc .vmem S256x32 .f32) (ho : o.IsWhole)
    (x0 : Vec F S4096x1024 .bf16) (x1 : Vec F S4096x128 .f32) (x2 x3 : Vec F S1x128 .f32)
    (x4 : Vec F S32x1152 .f32) (x5 : Vec F S1x32 .f32) (K : PUnit → sProp 𝕄) :
    iprop(owns (c : Thread nD τ) emb fullShare x0 ∗ owns (c : Thread nD τ) cnt fullShare x1
        ∗ owns (c : Thread nD τ) scl fullShare x2 ∗ owns (c : Thread nD τ) sft fullShare x3
        ∗ owns (c : Thread nD τ) wgt fullShare x4 ∗ owns (c : Thread nD τ) bia fullShare x5
        ∗ (∃ d, owns (c : Thread nD τ) o fullShare d)
        ∗ (iprop(owns (c : Thread nD τ) emb fullShare x0 ∗ owns (c : Thread nD τ) cnt fullShare x1
            ∗ owns (c : Thread nD τ) scl fullShare x2 ∗ owns (c : Thread nD τ) sft fullShare x3
            ∗ owns (c : Thread nD τ) wgt fullShare x4 ∗ owns (c : Thread nD τ) bia fullShare x5
            ∗ owns (c : Thread nD τ) o fullShare (out0_6 x0 x1 x2 x3 x4 x5)) -∗ K ⟨⟩))
      ⊢ wp frame (wpE (defs₀ (F := F)) Variants.none c none) E
          (cc0__child_kernel i emb hemb cnt hcnt scl hscl sft hsft wgt hwgt bia hbia o ho) K := by
  simp only [cc0__child_kernel_eq_skeleton]; unfold cc0__child_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outAll_covers _)

/-! ## The pipeline's proof data -/

/-- The proof data of the region on core `c`. Each array is as the host operations before the region leave it;
    after the body at point `t` an input's staging buffer still holds the block it was given and the output's
    holds `out0_6` of the six blocks of that point; the invariant is the class's (the scoped rest and the
    generator register, which the body never touches); no tallies are owed; every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the contents at the region's entry (a projection; the long fold behind `V` stays folded). -/
theorem A_eq (c : Dev nD) (w : Fin cfg0.W) : (dats m 0 c).A w = V m c (Pipeline.arrRef spec0 w) := by
  dsimp only [dats]

/-- What the body leaves in each window's buffer, read off the proof data. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t =
    out0_6 (iblk m c 0 t) (iblk m c 1 t) (iblk m c 2 t) (iblk m c 3 t) (iblk m c 4 t) (iblk m c 5 t) := by dsimp only [dats]

/-- Every input's current staging buffer holds that input's block of the point, whether the pipeline fetched it
    there (embeddings and counts: at every point) or only once at the first point (the four small operands, whose
    block index never moves). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a grid point -/

/-- The body at point `t`, between what the pipeline hands it and what it takes back, the seven windows written
    out: the six inputs' buffers hold their blocks, so `sound_kernel` applies at those blocks; the invariant and
    the owed tallies are the same before and after and pass through. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t))) := by
  unfold bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t)
    (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point: its seven-fold conjunctions opened, it is `sound_body`. -/
theorem body_obligation (c : Dev nD) : BodyObligation (dats (F := F) m 0 c) (defs₀ (F := F)) Variants.none () Set.univ := fun t => by
  rw [bigSep_W0, bigSep_W0]
  exact sound_body m c t

/-! ## The run of the program and the frame -/

set_option backward.isDefEq.respectTransparency.types false in
/-- Every weakly fair execution of the program on the cores terminates, from any memory with zero counters; at
    the end each windowed array holds what the pipeline writes back of the proof data, run through the one host
    line that follows the region, and every other unscoped buffer is as that line leaves the region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its fourteen argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Hand

end
-- ==== Proof.KIEntry.lean ====
/-
  The buffers of a core as the one kernel region finds them: the launch contents run through the sixty stretches
  of host operations that stand before the region in the program, in order.
-/
import proofs.«409894_j6640019439760_1_alg».proof.Proof.KernelIdealLaunchP

noncomputable section

namespace Cert.KernelIdeal.Hand

open Cert.KernelIdeal Cert.KernelIdeal.Gen Cert.KernelIdeal.GenP
open Idealize.ShloMosaic Idealize.ShloMosaic.TcCoe Idealize.SL.Sem

variable {F : FTy → Type} [FloatOps F]

/-- The host operations before the region, stretch by stretch. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59]

variable (m : (ℓ : Loc nD τ sig) → Buf (Elt F) ℓ)

/-- Core `c`'s buffer contents when the region is entered. -/
abbrev V0 (c : Dev nD) : Valuation τ sig (Elt F) := StableHlo.after (List.flatten prefixOps) (fun b => m (c, b))

/-- The same, read at one reference. -/
abbrev V (c : Dev nD) (b : Ref sig .tc) : Buf (Elt F) ((c : Thread nD τ).loc b) := V0 m c (Proc.devRef .tc b)

end Cert.KernelIdeal.Hand

end
-- ==== Proof.KIFrameKitPlain.lean ====
/-
  The host operations that stand before the one kernel region, stretch by stretch: each allocates nothing and
  writes exactly one buffer, and that buffer is never one of @main's fourteen arguments (the arguments are the
  first fourteen HBM references; every host value has a buffer of its own past them). Hence the region finds
  every argument as launched, however long the host prefix is.
-/
import proofs.«409894_j6640019439760_1_alg».proof.Proof.KIEntry

noncomputable section

namespace Cert.KernelIdeal.Hand

open Cert.KernelIdeal Cert.KernelIdeal.Gen Cert.KernelIdeal.GenP
open Idealize.ShloMosaic Idealize.ShloMosaic.TcCoe Idealize.SL.Sem

variable {F : FTy → Type} [FloatOps F]

/-- @main's fourteen arguments: indices, tables, embeddings, the linear layer and the batch-norm parameters. -/
def argRefs : List (Ref sig .tc) :=
  [main_arg0, main_arg1, main_arg2, main_arg3, main_arg4, main_arg5, main_arg6, main_arg7, main_arg8, main_arg9,
   main_arg10, main_arg11, main_arg12, main_arg13]

/-- A PLAIN host operation: it allocates no buffer, and no argument of @main is among the buffers it writes. -/
structure PlainOp (op : HloOp τ sig (Elt F)) : Prop where
  fresh : op.fresh = ∅
  spares : ∀ r ∈ argRefs, Proc.devRef (τ := τ) .tc r ∉ op.writes

/-- An operation that allocates nothing and writes the single buffer `y` is plain as soon as `y` is no argument:
    distinct references are distinct device buffers. -/
theorem plainOp_of_result {op : HloOp τ sig (Elt F)} {y : Ref sig .tc} (hf : op.fresh = ∅)
    (hw : op.writes = {Proc.devRef .tc y}) (hy : y ∉ argRefs) : PlainOp op :=
  ⟨hf, fun r hr hmem => by
    rw [hw, Finset.mem_singleton] at hmem
    exact hy (Proc.devRef_injective _ hmem ▸ hr)⟩

/-- Every operation of a literal stretch in turn: what it allocates and what it writes are read off the builder
    (by unfolding), and its result buffer is told apart from the fourteen arguments by deciding. -/
local macro "plain_stretch" : tactic =>
  `(tactic| (simp only [List.Forall]; (repeat' apply And.intro); all_goals exact plainOp_of_result rfl rfl (by decide)))

theorem plain0 : (hostOps0 : List (HloOp τ sig (Elt F))).Forall PlainOp := by plain_stretch
theorem plain0_1 : (hostOps0_1 : List (HloOp τ sig (Elt F))).Forall PlainOp := by plain_stretch
theorem plain0_2 : (hostOps0_2 : List (HloOp τ sig (Elt F))).Forall PlainOp := by plain_stretch
theorem plain0_3 : (hostOps0_3 : List (HloOp τ sig (Elt F))).Forall PlainOp := by plain_stretch
theorem plain0_4 : (hostOps0_4 : List (HloOp τ sig (Elt F))).Forall PlainOp := by plain_stretch
theorem plain0_5 : (hostOps0_5 : List (HloOp τ sig (Elt F))).Forall PlainOp := by plain_stretch
theorem plain0_6 : (hostOps0_6 : List (HloOp τ sig (Elt F))).Forall PlainOp := by plain_stretch
theorem plain0_7 : (hostOps0_7 : List (HloOp τ sig (Elt F))).Forall PlainOp := by plain_stretch
theorem plain0_8 : (hostOps0_8 : List (HloOp τ sig (Elt F))).Forall PlainOp := by plain_stretch
theorem plain0_9 : (hostOps0_9 : List (HloOp τ sig (Elt F))).Forall PlainOp := by plain_stretch
theorem plain0_10 : (hostOps0_10 : List (HloOp τ sig (Elt F))).Forall PlainOp := by plain_stretch
theorem plain0_11 : (hostOps0_11 : List (HloOp τ sig (Elt F))).Forall PlainOp := by plain_stretch
theorem plain0_12 : (hostOps0_12 : List (HloOp τ sig (Elt F))).Forall PlainOp := by plain_stretch
theorem plain0_13 : (hostOps0_13 : List (HloOp τ sig (Elt F))).Forall PlainOp := by plain_stretch
theorem plain0_14 : (hostOps0_14 : List (HloOp τ sig (Elt F))).Forall PlainOp := by plain_stretch
theorem plain0_15 : (hostOps0_15 : List (HloOp τ sig (Elt F))).Forall PlainOp := by plain_stretch
theorem plain0_16 : (hostOps0_16 : List (HloOp τ sig (Elt F))).Forall PlainOp := by plain_stretch
theorem plain0_17 : (hostOps0_17 : List (HloOp τ sig (Elt F))).Forall PlainOp := by plain_stretch
theorem plain0_18 : (hostOps0_18 : List (HloOp τ sig (Elt F))).Forall PlainOp := by plain_stretch
theorem plain0_19 : (hostOps0_19 : List (HloOp τ sig (Elt F))).Forall PlainOp := by plain_stretch
theorem plain0_20 : (hostOps0_20 : List (HloOp τ sig (Elt F))).Forall PlainOp := by plain_stretch
theorem plain0_21 : (hostOps0_21 : List (HloOp τ sig (Elt F))).Forall PlainOp := by plain_stretch
theorem plain0_22 : (hostOps0_22 : List (HloOp τ sig (Elt F))).Forall PlainOp := by plain_stretch
theorem plain0_23 : (hostOps0_23 : List (HloOp τ sig (Elt F))).Forall PlainOp := by plain_stretch
theorem plain0_24 : (hostOps0_24 : List (HloOp τ sig (Elt F))).Forall PlainOp := by plain_stretch
theorem plain0_25 : (hostOps0_25 : List (HloOp τ sig (Elt F))).Forall PlainOp := by plain_stretch
theorem plain0_26 : (hostOps0_26 : List (HloOp τ sig (Elt F))).Forall PlainOp := by plain_stretch
theorem plain0_27 : (hostOps0_27 : List (HloOp τ sig (Elt F))).Forall PlainOp := by plain_stretch
theorem plain0_28 : (hostOps0_28 : List (HloOp τ sig (Elt F))).Forall PlainOp := by plain_stretch
theorem plain0_29 : (hostOps0_29 : List (HloOp τ sig (Elt F))).Forall PlainOp := by plain_stretch
theorem plain0_30 : (hostOps0_30 : List (HloOp τ sig (Elt F))).Forall PlainOp := by plain_stretch
theorem plain0_31 : (hostOps0_31 : List (HloOp τ sig (Elt F))).Forall PlainOp := by plain_stretch
theorem plain0_32 : (hostOps0_32 : List (HloOp τ sig (Elt F))).Forall PlainOp := by plain_stretch
theorem plain0_33 : (hostOps0_33 : List (HloOp τ sig (Elt F))).Forall PlainOp := by plain_stretch
theorem plain0_34 : (hostOps0_34 : List (HloOp τ sig (Elt F))).Forall PlainOp := by plain_stretch
theorem plain0_35 : (hostOps0_35 : List (HloOp τ sig (Elt F))).Forall PlainOp := by plain_stretch
theorem plain0_36 : (hostOps0_36 : List (HloOp τ sig (Elt F))).Forall PlainOp := by plain_stretch
theorem plain0_37 : (hostOps0_37 : List (HloOp τ sig (Elt F))).Forall PlainOp := by plain_stretch
theorem plain0_38 : (hostOps0_38 : List (HloOp τ sig (Elt F))).Forall PlainOp := by plain_stretch
theorem plain0_39 : (hostOps0_39 : List (HloOp τ sig (Elt F))).Forall PlainOp := by plain_stretch
theorem plain0_40 : (hostOps0_40 : List (HloOp τ sig (Elt F))).Forall PlainOp := by plain_stretch
theorem plain0_41 : (hostOps0_41 : List (HloOp τ sig (Elt F))).Forall PlainOp := by plain_stretch
theorem plain0_42 : (hostOps0_42 : List (HloOp τ sig (Elt F))).Forall PlainOp := by plain_stretch
theorem plain0_43 : (hostOps0_43 : List (HloOp τ sig (Elt F))).Forall PlainOp := by plain_stretch
theorem plain0_44 : (hostOps0_44 : List (HloOp τ sig (Elt F))).Forall PlainOp := by plain_stretch
theorem plain0_45 : (hostOps0_45 : List (HloOp τ sig (Elt F))).Forall PlainOp := by plain_stretch
theorem plain0_46 : (hostOps0_46 : List (HloOp τ sig (Elt F))).Forall PlainOp := by plain_stretch
theorem plain0_47 : (hostOps0_47 : List (HloOp τ sig (Elt F))).Forall PlainOp := by plain_stretch
theorem plain0_48 : (hostOps0_48 : List (HloOp τ sig (Elt F))).Forall PlainOp := by plain_stretch
theorem plain0_49 : (hostOps0_49 : List (HloOp τ sig (Elt F))).Forall PlainOp := by plain_stretch
theorem plain0_50 : (hostOps0_50 : List (HloOp τ sig (Elt F))).Forall PlainOp := by plain_stretch
theorem plain0_51 : (hostOps0_51 : List (HloOp τ sig (Elt F))).Forall PlainOp := by plain_stretch
theorem plain0_52 : (hostOps0_52 : List (HloOp τ sig (Elt F))).Forall PlainOp := by plain_stretch
theorem plain0_53 : (hostOps0_53 : List (HloOp τ sig (Elt F))).Forall PlainOp := by plain_stretch
theorem plain0_54 : (hostOps0_54 : List (HloOp τ sig (Elt F))).Forall PlainOp := by plain_stretch
theorem plain0_55 : (hostOps0_55 : List (HloOp τ sig (Elt F))).Forall PlainOp := by plain_stretch
theorem plain0_56 : (hostOps0_56 : List (HloOp τ sig (Elt F))).Forall PlainOp := by plain_stretch
theorem plain0_57 : (hostOps0_57 : List (HloOp τ sig (Elt F))).Forall PlainOp := by plain_stretch
theorem plain0_58 : (hostOps0_58 : List (HloOp τ sig (Elt F))).Forall PlainOp := by plain_stretch
theorem plain0_59 : (hostOps0_59 : List (HloOp τ sig (Elt F))).Forall PlainOp := by plain_stretch

/-- The whole prefix is plain. -/
theorem plain_prefix : (prefixOps : List (List (HloOp τ sig (Elt F)))).Forall fun ops => ops.Forall PlainOp :=
  ⟨
    plain0, plain0_1, plain0_2, plain0_3, plain0_4, plain0_5, plain0_6, plain0_7,
    plain0_8, plain0_9, plain0_10, plain0_11, plain0_12, plain0_13, plain0_14, plain0_15,
    plain0_16, plain0_17, plain0_18, plain0_19, plain0_20, plain0_21, plain0_22, plain0_23,
    plain0_24, plain0_25, plain0_26, plain0_27, plain0_28, plain0_29, plain0_30, plain0_31,
    plain0_32, plain0_33, plain0_34, plain0_35, plain0_36, plain0_37, plain0_38, plain0_39,
    plain0_40, plain0_41, plain0_42, plain0_43, plain0_44, plain0_45, plain0_46, plain0_47,
    plain0_48, plain0_49, plain0_50, plain0_51, plain0_52, plain0_53, plain0_54, plain0_55,
    plain0_56, plain0_57, plain0_58, plain0_59⟩

/-- It allocates nothing. -/
theorem prefix_fresh : (prefixOps : List (List (HloOp τ sig (Elt F)))).Forall fun ops => ops.Forall fun op => op.fresh = ∅ :=
  plain_prefix.imp fun _ h => h.imp fun _ h => h.fresh

/-- It touches TensorCore references only (each stretch's own statement, in order). -/
theorem prefix_sub : (prefixOps : List (List (HloOp τ sig (Elt F)))).Forall fun ops => ops.Forall fun op => op.bufs ⊆ StableHlo.tcRefs τ sig :=
  ⟨
    hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub, hostOps0_15_sub,
    hostOps0_16_sub, hostOps0_17_sub, hostOps0_18_sub, hostOps0_19_sub, hostOps0_20_sub, hostOps0_21_sub, hostOps0_22_sub, hostOps0_23_sub,
    hostOps0_24_sub, hostOps0_25_sub, hostOps0_26_sub, hostOps0_27_sub, hostOps0_28_sub, hostOps0_29_sub, hostOps0_30_sub, hostOps0_31_sub,
    hostOps0_32_sub, hostOps0_33_sub, hostOps0_34_sub, hostOps0_35_sub, hostOps0_36_sub, hostOps0_37_sub, hostOps0_38_sub, hostOps0_39_sub,
    hostOps0_40_sub, hostOps0_41_sub, hostOps0_42_sub, hostOps0_43_sub, hostOps0_44_sub, hostOps0_45_sub, hostOps0_46_sub, hostOps0_47_sub,
    hostOps0_48_sub, hostOps0_49_sub, hostOps0_50_sub, hostOps0_51_sub, hostOps0_52_sub, hostOps0_53_sub, hostOps0_54_sub, hostOps0_55_sub,
    hostOps0_56_sub, hostOps0_57_sub, hostOps0_58_sub, hostOps0_59_sub⟩

/-- No operation of the prefix writes an argument's buffer. -/
theorem prefix_spares {r : Ref sig .tc} (hr : r ∈ argRefs) :
    ∀ op ∈ List.flatten (prefixOps : List (List (HloOp τ sig (Elt F)))), Proc.devRef (τ := τ) .tc r ∉ op.writes := by
  intro op hop
  obtain ⟨ops, hops, hin⟩ := List.mem_flatten.mp hop
  exact ((List.forall_iff_forall_mem.mp ((List.forall_iff_forall_mem.mp plain_prefix) ops hops)) op hin).spares r hr

end Cert.KernelIdeal.Hand

end
-- ==== Proof.KIFrameKit.lean ====
/-
  The frame kit of the one kernel region. @main is sixty stretches of host operations (gathers, batch-norm
  statistics, concatenates), ONE pipelined kernel call over a grid of 32 points, and one closing concatenate.
  Here: @main reduced to the region continued by the closing concatenate, at the buffer contents the sixty
  stretches leave (`V`); the fourteen arguments as the region finds them and as the run ends (none is ever
  written, and only the linear layer's weights are staged by a window); each input window's block at a grid point
  (`iblk`) and the fact that its staging buffer holds that block at every point, fetched there or not; and the
  step from the library's frame post to the claim that every argument ends as launched.
-/
import proofs.«409894_j6640019439760_1_alg».proof.Proof.KIFrameKitPlain
import proofs.«409894_j6640019439760_1_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the sixty stretches, the region, the closing concatenate: holding the launch contents it reduces to the
    region CONTINUED BY the concatenate, holding what the stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-! ## The closing concatenate -/

/-- It joins three host values into the result `main_v159`: one plain operation. -/
theorem plain1 : (hostOps1 : List (HloOp τ sig (Elt F))).Forall PlainOp :=
  plainOp_of_result rfl rfl (by decide)

/-- The operations after the region, one by one. -/
theorem suffix_cases {P : HloOp τ sig (Elt F) → Prop} (h : (hostOps1 : List (HloOp τ sig (Elt F))).Forall P) :
    ∀ ops ∈ ([hostOps1] : List (List (HloOp τ sig (Elt F)))), ∀ op ∈ ops, P op := by
  intro ops hops op hop
  obtain rfl : ops = hostOps1 := List.mem_singleton.mp hops
  exact (List.forall_iff_forall_mem.mp h) op hop

/-- It touches unscoped TensorCore buffers only, and with nothing prefetched each of those is an array of the pipeline
    or a buffer that bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact suffix_cases (P := fun op => op.bufs ⊆ Pipeline.ucRefs τ sig)
    ((hostOps1_sub (F := F)).imp fun op h => Pipeline.sub_ucRefs op h)

/-- It allocates nothing. -/
theorem sfx_fresh : ∀ ops ∈ ([hostOps1] : List (List (HloOp τ sig (Elt F)))), ∀ op ∈ ops, op.fresh = ∅ :=
  suffix_cases ((plain1 (F := F)).imp fun _ h => h.fresh)

/-- It writes `main_v159`, which is none of the seven window arrays. -/
theorem sfx_keeps : ∀ ops ∈ ([hostOps1] : List (List (HloOp τ sig (Elt F)))), ∀ op ∈ ops,
    ∀ w, Proc.devRef .tc (Pipeline.arrRef spec0 w) ∉ op.writes :=
  suffix_cases (P := fun op => ∀ w, Proc.devRef (τ := τ) .tc (Pipeline.arrRef spec0 w) ∉ op.writes) (by
    intro w
    rw [StableHlo.nary_writes, Finset.mem_singleton]
    exact StableHlo.devRef_ne_of_ne ((by decide : ∀ w, Pipeline.arrRef spec0 w ≠ main_v159) w))

/-! ## The arguments -/

/-- The region finds every argument as launched: no operation of the sixty stretches writes it. -/
theorem V_arg (c : Dev nD) {r : Ref sig .tc} (hr : r ∈ argRefs) : V m c r = m ((c : Thread nD τ).loc r) :=
  StableHlo.after_of_forall_not_mem (b := Proc.devRef .tc r) _ _ (prefix_spares hr)

/-- Window 4 stages an ARGUMENT, the linear layer's weights: the region finds them as launched. -/
theorem V_main_arg8 (c : Dev nD) : V m c main_arg8 = m ((c : Thread nD τ).loc main_arg8) :=
  V_arg m c (by decide)

/-- An argument that is no window's array ends as launched: the concatenate does not write it, the region hands it
    back as found, and the stretches before did not write it. -/
theorem tail_arg (dats : (p : Fin 1) → (c : Dev nD) → Dat τ (Elt F) Unit ℕ (UR sig nD τ) ℕ (cfgs p) c) (c : Dev nD)
    {r : Ref sig .tc} (hr : r ∈ argRefs) (hw : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop =>
        (suffix_cases (plain1 (F := F)) _ (List.mem_singleton.mpr rfl) op
          (by simpa only [List.flatten_cons, List.flatten_nil, List.append_nil] using hop)).spares r hr),
    Pipeline.withArrays_of_ne _ c (V0 m c) _ r hw]
  exact V_arg m c hr

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  tail_arg m dats c (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  tail_arg m dats c (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  tail_arg m dats c (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  tail_arg m dats c (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  tail_arg m dats c (by decide) (by decide)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  tail_arg m dats c (by decide) (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  tail_arg m dats c (by decide) (by decide)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  tail_arg m dats c (by decide) (by decide)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  tail_arg m dats c (by decide) (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  tail_arg m dats c (by decide) (by decide)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  tail_arg m dats c (by decide) (by decide)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  tail_arg m dats c (by decide) (by decide)
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  tail_arg m dats c (by decide) (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 — the children's gathered embeddings (main_v142), a block of rows at every point — holds its block in its current staging buffer at every
    point, for any proof data over the region-entry array whose body leaves the block in place: where the pipeline does
    not fetch, the block index has not moved. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  have hblock : ∀ t, dat.blockOf 0 t = iblk m c 0 t := fun t => by unfold Dat.blockOf iblk; rw [hA]
  refine (dat.before_in_eq_fetched 0 rfl (fun _ => rfl) (fun _ _ _ => rfl) (fun t => ?_) t d).trans ?_
  · rw [hblock, hafter]
  · unfold Dat.fetched; rw [hblock]; rfl

/-- Input window 1 — the children's gathered numeric features (main_v143), a block of rows at every point — holds its block in its current staging buffer at every
    point, for any proof data over the region-entry array whose body leaves the block in place: where the pipeline does
    not fetch, the block index has not moved. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  have hblock : ∀ t, dat.blockOf 1 t = iblk m c 1 t := fun t => by unfold Dat.blockOf iblk; rw [hA]
  refine (dat.before_in_eq_fetched 1 rfl (fun _ => rfl) (fun _ _ _ => rfl) (fun t => ?_) t d).trans ?_
  · rw [hblock, hafter]
  · unfold Dat.fetched; rw [hblock]; rfl

/-- Input window 2 — the batch-norm scale row (main_v153), one block, fetched once — holds its block in its current staging buffer at every
    point, for any proof data over the region-entry array whose body leaves the block in place: where the pipeline does
    not fetch, the block index has not moved. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  have hblock : ∀ t, dat.blockOf 2 t = iblk m c 2 t := fun t => by unfold Dat.blockOf iblk; rw [hA]
  refine (dat.before_in_eq_fetched 2 rfl (fun _ => rfl) (fun _ _ _ => rfl) (fun t => ?_) t d).trans ?_
  · rw [hblock, hafter]
  · unfold Dat.fetched; rw [hblock]; rfl

/-- Input window 3 — the batch-norm shift row (main_v156), one block, fetched once — holds its block in its current staging buffer at every
    point, for any proof data over the region-entry array whose body leaves the block in place: where the pipeline does
    not fetch, the block index has not moved. The window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t := by
  have hblock : ∀ t, dat.blockOf 3 t = iblk m c 3 t := fun t => by unfold Dat.blockOf iblk; rw [hA]
  refine (dat.before_in_eq_fetched 3 rfl (fun _ => rfl) (fun _ _ _ => rfl) (fun t => ?_) t d).trans ?_
  · rw [hblock, hafter]
  · unfold Dat.fetched; rw [hblock]; rfl

/-- Input window 4 — the linear layer's weights (main_arg8), one block, fetched once — holds its block in its current staging buffer at every
    point, for any proof data over the region-entry array whose body leaves the block in place: where the pipeline does
    not fetch, the block index has not moved. The window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t := by
  have hblock : ∀ t, dat.blockOf 4 t = iblk m c 4 t := fun t => by unfold Dat.blockOf iblk; rw [hA]
  refine (dat.before_in_eq_fetched 4 rfl (fun _ => rfl) (fun _ _ _ => rfl) (fun t => ?_) t d).trans ?_
  · rw [hblock, hafter]
  · unfold Dat.fetched; rw [hblock]; rfl

/-- Input window 5 — the linear layer's bias row (main_v157), one block, fetched once — holds its block in its current staging buffer at every
    point, for any proof data over the region-entry array whose body leaves the block in place: where the pipeline does
    not fetch, the block index has not moved. The window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t := by
  have hblock : ∀ t, dat.blockOf 5 t = iblk m c 5 t := fun t => by unfold Dat.blockOf iblk; rw [hA]
  refine (dat.before_in_eq_fetched 5 rfl (fun _ => rfl) (fun _ _ _ => rfl) (fun t => ?_) t d).trans ?_
  · rw [hblock, hafter]
  · unfold Dat.fetched; rw [hblock]; rfl

/-! ## The frame claim's post from the frame run's -/

/-- One argument read off the library's frame post, when no window stages it: it is among the buffers that bypass the
    region, which end at the contents after the concatenate. -/
theorem ends_as_launched (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) (c : Dev nD)
    {b : Ref sig .tc} (hb : b ∈ argRefs) (hs : b.isScoped = false) (hw : ∀ w, Pipeline.arrRef spec0 w ≠ b) :
    r.2.mem ((c.tc : Thread nD τ).loc b) = m ((c.tc : Thread nD τ).loc b) :=
  ((h c).2 b (Pipeline.mem_restRefs_of b hs hw)).trans (tail_arg m dats c hb hw)

/-- ONE final state satisfying the library's frame post, for proof data whose arrays are the region-entry contents,
    holds each of the fourteen arguments as launched, on every core: thirteen bypass the region; the linear layer's
    weights are input window 4's array, which an input window leaves as found. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide),
   ((h c).1 4).trans (((dats 0 c).arrAt_in 4 rfl _).trans ((hA c 4).trans (V_main_arg8 m c))),
   ends_as_launched m dats h c (by decide) rfl (by decide),
   ends_as_launched m dats h c (by decide) rfl (by decide),
   ends_as_launched m dats h c (by decide) rfl (by decide),
   ends_as_launched m dats h c (by decide) rfl (by decide),
   ends_as_launched m dats h c (by decide) rfl (by decide)⟩

/-- THE FRAME from a frame run: a run to the library's frame post is a run to the claim that each of the fourteen
    arguments ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of_post m dats hA r h c) h

end Cert.KernelIdeal.Hand

end
-- ==== Proof.KIBody.lean ====
/-
  The one kernel region of the program, point by point, and the run of the whole program around it.

  Each of the 32 grid points reads six whole blocks (4096 embedding rows, their 4096 rows of counts, the scale and
  shift rows, the 32 × 1152 weight matrix, the bias row) and stores one 256 × 32 block: nothing is carried from a
  point to the next, so what the output block holds after a point is a function of the six blocks read there.
  This file states that function, proves it of the kernel body, gives the pipeline its proof data, and runs
  the program: host operations, the region, one more host line.
-/
import proofs.«409894_j6640019439760_1_alg».proof.Proof.KIFrameKit
import proofs.«409894_j6640019439760_1_alg».proof.Proof.Gen.KernelIdeal.Skeleton
import proofs.«409894_j6640019439760_1_alg».proof.Proof.Gen.KernelIdeal.Points
import Idealize.ShloMosaic.Lib.Pipeline.FrameSuffix
import Idealize.ShloMosaic.Lib.Pipeline.FrameBody
import Idealize.ShloMosaic.Lib.Tactic

-- deciding that one rectangle tiles a 256 × 32 block walks its cells
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every one is a whole block -/

/-- All 4096 rows and 1024 columns of the block of embeddings. -/
abbrev embAll : Rect S4096x1024 := Rect.unit (s := S4096x1024) ![0, 0] S4096x1024.size inb_S4096x1024_S4096x1024_0_0
/-- All 4096 rows and 128 columns of the block of counts. -/
abbrev cntAll : Rect S4096x128 := Rect.unit (s := S4096x128) ![0, 0] S4096x128.size inb_S4096x128_S4096x128_0_0
/-- The whole 1 × 128 row: the scale and the shift are each read through it. -/
abbrev rowAll : Rect S1x128 := Rect.unit (s := S1x128) ![0, 0] S1x128.size inb_S1x128_S1x128_0_0
/-- The whole 32 × 1152 weight matrix. -/
abbrev wgtAll : Rect S32x1152 := Rect.unit (s := S32x1152) ![0, 0] S32x1152.size inb_S32x1152_S32x1152_0_0
/-- The whole 1 × 32 bias row. -/
abbrev biasAll : Rect S1x32 := Rect.unit (s := S1x32) ![0, 0] S1x32.size inb_S1x32_S1x32_0_0
/-- The whole 256 × 32 output block. -/
abbrev outAll : Rect S256x32 := Rect.unit (s := S256x32) ![0, 0] S256x32.size inb_S256x32_S256x32_0_0

/-! ## What a point leaves in the output block -/

/-- The output block after a grid point, from the six blocks read there (`x0` embeddings, `x1` counts, `x2` scale,
    `x3` shift, `x4` weights, `x5` bias): the body's one store, which is of the whole block. Its payload: the
    counts scaled and shifted column-wise, rounded to bf16 and set beside the embeddings (1152 columns), times the
    transposed bf16 weights, plus the bias, clamped below at zero, then averaged over each run of 16 rows. -/
def out0_6 (x0 : Vec F S4096x1024 .bf16) (x1 : Vec F S4096x128 .f32) (x2 x3 : Vec F S1x128 .f32)
    (x4 : Vec F S32x1152 .f32) (x5 : Vec F S1x32 .f32) : Vec F S256x32 .f32 :=
  View.canon [⟨Rect.unit (s := S256x32) ![0, 0] S256x32.size inb_S256x32_S256x32_0_0,
    k0_pay1 (View.ld x1 cntAll) (View.ld x2 rowAll) (View.ld x3 rowAll) (View.ld x0 embAll) (View.ld x4 wgtAll) (View.ld x5 biasAll)⟩]

/-- A single store through the whole-block rectangle reaches every cell of the 256 × 32 block. -/
theorem outAll_covers (p : Vec F S256x32 .f32) (y : S256x32.Idx) :
    ∃ pc ∈ ([⟨outAll, p⟩] : List (View.Piece (Elt F) S256x32 .f32)), y ∈ pc.1.set :=
  View.cover_of_tiled [⟨outAll, p⟩] S256x32.size (by rfl) y

/-! ## The body's triple -/

set_option maxHeartbeats 1000000 in
/-- The kernel body on seven whole staging buffers — the six inputs reading `x0 … x5`, the output holding
    anything — ends with the inputs as they were and the output at `out0_6 x0 … x5`. The body is its skeleton
    of six loads, a load of the output it then ignores, and the covering store; whatever the output held before is
    overwritten, which is why the store's result reads as the canon of its one piece. -/
theorem sound_kernel (c : Dev nD) (E : Set ℕ) (i : grid0.Coords)
    (emb : Memref sig .tc .vmem S4096x1024 .bf16) (hemb : emb.IsWhole)
    (cnt : Memref sig .tc .vmem S4096x128 .f32) (hcnt : cnt.IsWhole)
    (scl : Memref sig .tc .vmem S1x128 .f32) (hscl : scl.IsWhole)
    (sft : Memref sig .tc .vmem S1x128 .f32) (hsft : sft.IsWhole)
    (wgt : Memref sig .tc .vmem S32x1152 .f32) (hwgt : wgt.IsWhole)
    (bia : Memref sig .tc .vmem S1x32 .f32) (hbia : bia.IsWhole)
    (o : Memref sig .tc .vmem S256x32 .f32) (ho : o.IsWhole)
    (x0 : Vec F S4096x1024 .bf16) (x1 : Vec F S4096x128 .f32) (x2 x3 : Vec F S1x128 .f32)
    (x4 : Vec F S32x1152 .f32) (x5 : Vec F S1x32 .f32) (K : PUnit → sProp 𝕄) :
    iprop(owns (c : Thread nD τ) emb fullShare x0 ∗ owns (c : Thread nD τ) cnt fullShare x1
        ∗ owns (c : Thread nD τ) scl fullShare x2 ∗ owns (c : Thread nD τ) sft fullShare x3
        ∗ owns (c : Thread nD τ) wgt fullShare x4 ∗ owns (c : Thread nD τ) bia fullShare x5
        ∗ (∃ d, owns (c : Thread nD τ) o fullShare d)
        ∗ (iprop(owns (c : Thread nD τ) emb fullShare x0 ∗ owns (c : Thread nD τ) cnt fullShare x1
            ∗ owns (c : Thread nD τ) scl fullShare x2 ∗ owns (c : Thread nD τ) sft fullShare x3
            ∗ owns (c : Thread nD τ) wgt fullShare x4 ∗ owns (c : Thread nD τ) bia fullShare x5
            ∗ owns (c : Thread nD τ) o fullShare (out0_6 x0 x1 x2 x3 x4 x5)) -∗ K ⟨⟩))
      ⊢ wp frame (wpE (defs₀ (F := F)) Variants.none c none) E
          (cc0__child_kernel i emb hemb cnt hcnt scl hscl sft hsft wgt hwgt bia hbia o ho) K := by
  simp only [cc0__child_kernel_eq_skeleton]; unfold cc0__child_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outAll_covers _)

/-! ## The pipeline's proof data -/

/-- The proof data of the region on core `c`. Each array is as the host operations before the region leave it;
    after the body at point `t` an input's staging buffer still holds the block it was given and the output's
    holds `out0_6` of the six blocks of that point; the invariant is the class's (the scoped rest and the
    generator register, which the body never touches); no tallies are owed; every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the contents at the region's entry (a projection; the long fold behind `V` stays folded). -/
theorem A_eq (c : Dev nD) (w : Fin cfg0.W) : (dats m 0 c).A w = V m c (Pipeline.arrRef spec0 w) := by
  dsimp only [dats]

/-- What the body leaves in each window's buffer, read off the proof data. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t =
    out0_6 (iblk m c 0 t) (iblk m c 1 t) (iblk m c 2 t) (iblk m c 3 t) (iblk m c 4 t) (iblk m c 5 t) := by dsimp only [dats]

/-- Every input's current staging buffer holds that input's block of the point, whether the pipeline fetched it
    there (embeddings and counts: at every point) or only once at the first point (the four small operands, whose
    block index never moves). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a grid point -/

/-- The body at point `t`, between what the pipeline hands it and what it takes back, the seven windows written
    out: the six inputs' buffers hold their blocks, so `sound_kernel` applies at those blocks; the invariant and
    the owed tallies are the same before and after and pass through. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t))) := by
  unfold bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t)
    (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point: its seven-fold conjunctions opened, it is `sound_body`. -/
theorem body_obligation (c : Dev nD) : BodyObligation (dats (F := F) m 0 c) (defs₀ (F := F)) Variants.none () Set.univ := fun t => by
  rw [bigSep_W0, bigSep_W0]
  exact sound_body m c t

/-! ## The run of the program and the frame -/

set_option backward.isDefEq.respectTransparency.types false in
/-- Every weakly fair execution of the program on the cores terminates, from any memory with zero counters; at
    the end each windowed array holds what the pipeline writes back of the proof data, run through the one host
    line that follows the region, and every other unscoped buffer is as that line leaves the region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its fourteen argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Hand

end
-- ==== Proof.Spec.lean ====
/-
  The vocabulary of the child branch's value, over the extended reals and plain coordinates.
  A child row's feature vector is its 1024 embedding entries followed by its 128 normalised numeric entries;
  the linear layer's output unit o of a row is the inner product of the features with row o of the weights,
  plus the bias, cut below at zero; a root row's aggregate is the mean of that over its sixteen children.
  Root row r's children are the child rows 16 r, …, 16 r + 15.
-/
import Idealize.ShloMosaic.PureOps.Ideal
import Idealize.ShloMosaic.Lib.ValueIdx
import Idealize.ShloMosaic.PureOps.Ideal.Laws

noncomputable section

namespace Cert.Spec

open Idealize.ShloMosaic

/-- A word read as a row number of a table of n rows: read signed, and kept inside the table. -/
def row (n : Nat) (hn : 0 < n) (w : BitVec 32) : Fin n := ⟨min w.toInt.toNat (n - 1), by omega⟩

/-- Inside the table the row number is the word's value. -/
theorem row_val_of_lt (n : Nat) (hn : 0 < n) (w : BitVec 32) (h0 : 0 ≤ w.toInt) (h1 : w.toInt < (n : Int)) :
    (row n hn w).val = w.toInt.toNat := by
  show min w.toInt.toNat (n - 1) = _
  omega

/-- The float zero both programs write, as its word. -/
def zeroWord : EReal := Ideal.ofBits .f32 0x00000000#32

/-- The float sixteen both programs divide by, as its word. -/
def sixteenWord : EReal := Ideal.ofBits .f32 0x41800000#32

/-- Child k of the p-th root row of a block of 256 root rows (4096 child rows). -/
def child (R : Nat) (p : Fin R) (k : Fin 16) : Fin (R * 16) := ⟨p.val * 16 + k.val, by
  have := p.isLt; have := k.isLt; nlinarith⟩

/-- A child row's 1152 features: the 1024 embedding entries, then the 128 numeric entries. -/
def feat (e : Fin 1024 → EReal) (n : Fin 128 → EReal) (q : Fin 1152) : EReal :=
  if h : q.val < 1024 then e ⟨q.val, h⟩ else n ⟨q.val - 1024, by have := q.isLt; omega⟩

/-- One output unit of the linear layer on one child row, cut below at zero. -/
def unit (f : Fin 1152 → EReal) (w : Fin 1152 → EReal) (b : EReal) : EReal :=
  max ((∑ q : Fin 1152, f q * w q) + b) zeroWord

/-- The mean over a root row's sixteen children. -/
def mean16 (u : Fin 16 → EReal) : EReal := Ideal.div (∑ k : Fin 16, u k) sixteenWord

end Cert.Spec

end
-- ==== Proof.KPayload.lean ====
/-
  The kernel body's one stored value, read at an index. The body takes a block of 4096 child rows — their
  128 numeric entries and their 1024 embedding entries —, scales and shifts the numerics lane by lane, lays
  embeddings and numerics side by side into 1152 features, multiplies by the turned weights, adds the bias,
  cuts below at zero, and averages each run of sixteen consecutive rows. At the extended reals every step is
  exact, so the stored value at (p, o) is the mean over the sixteen children of root row p of output unit o
  of the linear layer on each child's features.

  Each operation that moves entries around (the side-by-side concatenation, the turning of the weights, the
  product's contraction, the regrouping of rows, the sum over a middle axis) is read at explicit coordinates
  in a lemma of its own; the stored value is their composition.
-/
import proofs.«409894_j6640019439760_1_alg».proof.Proof.Gen.KernelIdeal.Skeleton
import proofs.«409894_j6640019439760_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal

/-! ## The pointwise part: a child row's numeric entries scaled and shifted -/

/-- Entry (r, j) of the scaled and shifted numerics: the block's entry times the scale's lane j plus the
    shift's lane j; the one-row scale and shift are the same for every row. -/
theorem affine_apply (x1 : FVec Ideal S4096x128 .f32) (sc sh : FVec Ideal S1x128 .f32) (r : Fin 4096) (j : Fin 128) :
    addf (mulf (shapeCast S4096x128 x1 Gen.shapeCasts_S4096x128_S4096x128)
               (broadcastTo S4096x128 (shapeCast S1x128 sc Gen.shapeCasts_S1x128_S1x128) Gen.broadcasts_S1x128_S4096x128))
         (broadcastTo S4096x128 (shapeCast S1x128 sh Gen.shapeCasts_S1x128_S1x128) Gen.broadcasts_S1x128_S4096x128)
         (ix2 r j)
      = x1 (ix2 r j) * sc (ix2 (0 : Fin 1) j) + sh (ix2 (0 : Fin 1) j) := by
  rw [addf_apply, mulf_apply, shapeCast_self, shapeCast_self, shapeCast_self,
    broadcastTo_1b_ab_apply, broadcastTo_1b_ab_apply]

/-! ## The concatenation: embeddings, then numerics -/

/-- Column q of row r of the two blocks laid side by side is the embedding block's column q when q < 1024 and
    the numeric block's column q − 1024 otherwise. -/
theorem sideBySide_apply (e : FVec Ideal S4096x1024 .bf16) (n : FVec Ideal S4096x128 .bf16) (r : Fin 4096) (q : Fin 1152) :
    concatenate S4096x1152 1 [⟨S4096x1024, e⟩, ⟨S4096x128, n⟩] Gen.concatenates_S4096x1024_S4096x128_S4096x1152_d1 (ix2 r q)
      = Cert.Spec.feat (fun c : Fin 1024 => e (ix2 r c)) (fun c : Fin 128 => n (ix2 r c)) q := by
  unfold Cert.Spec.feat
  split
  · next h =>
    exact concatenate_pair_apply_left (1 : Fin 2) e n _ (ix2 r q) rfl (ix2 r ⟨q.val, h⟩)
      (fun c => match c with | ⟨0, _⟩ => rfl | ⟨1, _⟩ => rfl)
  · next h =>
    have hq := q.isLt
    refine concatenate_pair_apply_right (1 : Fin 2) e n _ (ix2 r q) rfl rfl (ix2 r ⟨q.val - 1024, by omega⟩) ?_ ?_
    · intro c hc
      match c with
      | ⟨0, _⟩ => rfl
      | ⟨1, _⟩ => exact absurd rfl hc
    · show q.val - 1024 + 1024 = q.val
      omega

/-! ## The weights turned -/

/-- Entry (q, o) of the turned weights is the weights' entry (o, q); the narrowing of the format changes no value. -/
theorem turned_apply (w : FVec Ideal S32x1152 .f32) (q : Fin 1152) (o : Fin 32) :
    transpose S1152x32 [1, 0] (truncf .bf16 w Gen.bitsLt_bf16_f32) Gen.transposes_S32x1152_p1_0_S1152x32 (ix2 q o)
      = w (ix2 o q) := by
  rw [transpose_ix2_apply, truncf_apply]

/-! ## The product: one contraction over the 1152 features -/

/-- The product's left operand is read at the output's row … -/
theorem lhs_row (j : S4096x32.Idx) (k : dot_S4096x1152_S1152x32_S4096x32_1_0_0_1_n_n.contr.Idx) :
    (dot_S4096x1152_S1152x32_S4096x32_1_0_0_1_n_n.lhsIdx j k 0).val = (j 0).val := by
  unfold DotDims.lhsIdx
  rw [dif_neg (show ¬(0 : Fin S4096x1152.rank) ∈ dot_S4096x1152_S1152x32_S4096x32_1_0_0_1_n_n.lhsBatch by decide),
    dif_pos (show (0 : Fin S4096x1152.rank) ∈ dot_S4096x1152_S1152x32_S4096x32_1_0_0_1_n_n.lhsNonContracting by decide)]
  rfl

/-- … and the contracted column. -/
theorem lhs_col (j : S4096x32.Idx) (k : dot_S4096x1152_S1152x32_S4096x32_1_0_0_1_n_n.contr.Idx) :
    (dot_S4096x1152_S1152x32_S4096x32_1_0_0_1_n_n.lhsIdx j k 1).val = (k ⟨0, by decide⟩).val :=
  DotDims.lhsIdx_val_of_single (d := dot_S4096x1152_S1152x32_S4096x32_1_0_0_1_n_n) (cl := 1) rfl j k

/-- The right operand is read at the contracted row … -/
theorem rhs_row (j : S4096x32.Idx) (k : dot_S4096x1152_S1152x32_S4096x32_1_0_0_1_n_n.contr.Idx) :
    (dot_S4096x1152_S1152x32_S4096x32_1_0_0_1_n_n.rhsIdx j k 0).val = (k ⟨0, by decide⟩).val :=
  DotDims.rhsIdx_val_of_single (d := dot_S4096x1152_S1152x32_S4096x32_1_0_0_1_n_n) (cr := 0) rfl j k

/-- … and the output's column. -/
theorem rhs_col (j : S4096x32.Idx) (k : dot_S4096x1152_S1152x32_S4096x32_1_0_0_1_n_n.contr.Idx) :
    (dot_S4096x1152_S1152x32_S4096x32_1_0_0_1_n_n.rhsIdx j k 1).val = (j 1).val := by
  unfold DotDims.rhsIdx
  rw [dif_neg (show ¬(1 : Fin S1152x32.rank) ∈ dot_S4096x1152_S1152x32_S4096x32_1_0_0_1_n_n.rhsBatch by decide),
    dif_pos (show (1 : Fin S1152x32.rank) ∈ dot_S4096x1152_S1152x32_S4096x32_1_0_0_1_n_n.rhsNonContracting by decide)]
  rfl

/-- Entry (r, o) of the product accumulated into zero: the sum over the 1152 columns of the left row times
    the right column. -/
theorem product_apply (A : FVec Ideal S4096x1152 .bf16) (B : FVec Ideal S1152x32 .bf16) (r : Fin 4096) (o : Fin 32) :
    matmul dot_S4096x1152_S1152x32_S4096x32_1_0_0_1_n_n none A B (constant (F := Ideal) S4096x32 .f32 0x00000000#32) (ix2 r o)
      = ∑ q : Fin 1152, A (ix2 r q) * B (ix2 q o) := by
  show FloatOps.matmul dot_S4096x1152_S1152x32_S4096x32_1_0_0_1_n_n none A B (constant (F := Ideal) S4096x32 .f32 0x00000000#32) (ix2 r o) = _
  rw [Ideal.matmul_constant_zero_apply,
    ← Equiv.sum_comp (contrEquiv1 dot_S4096x1152_S1152x32_S4096x32_1_0_0_1_n_n 1152 rfl rfl).symm]
  refine Finset.sum_congr rfl fun q _ => ?_
  have hk := contrEquiv1_symm_val dot_S4096x1152_S1152x32_S4096x32_1_0_0_1_n_n 1152 rfl rfl q
  have eL : dot_S4096x1152_S1152x32_S4096x32_1_0_0_1_n_n.lhsIdx (ix2 r o)
      ((contrEquiv1 dot_S4096x1152_S1152x32_S4096x32_1_0_0_1_n_n 1152 rfl rfl).symm q) = ix2 r q := by
    funext ax; apply Fin.ext
    match ax with
    | ⟨0, _⟩ => exact lhs_row _ _
    | ⟨1, _⟩ => exact (lhs_col _ _).trans hk
  have eR : dot_S4096x1152_S1152x32_S4096x32_1_0_0_1_n_n.rhsIdx (ix2 r o)
      ((contrEquiv1 dot_S4096x1152_S1152x32_S4096x32_1_0_0_1_n_n 1152 rfl rfl).symm q) = ix2 q o := by
    funext ax; apply Fin.ext
    match ax with
    | ⟨0, _⟩ => exact (rhs_row _ _).trans hk
    | ⟨1, _⟩ => exact rhs_col _ _
  rw [eL, eR]

/-! ## The bias and the cut at zero -/

/-- Entry (r, o) of the layer's output: the product's entry plus the bias's lane o, cut below at the zero word. -/
theorem biasCut_apply (m : FVec Ideal S4096x32 .f32) (b : FVec Ideal S1x32 .f32) (r : Fin 4096) (o : Fin 32) :
    maximumf (addf m (broadcastTo S4096x32 (shapeCast S1x32 b Gen.shapeCasts_S1x32_S1x32) Gen.broadcasts_S1x32_S4096x32))
        (broadcast S4096x32 (FloatOps.ofBits (F := Ideal) .f32 0x00000000#32)) (ix2 r o)
      = max (m (ix2 r o) + b (ix2 (0 : Fin 1) o)) Cert.Spec.zeroWord := by
  rw [maximumf_apply, addf_apply, broadcast_apply, shapeCast_self, broadcastTo_1b_ab_apply]
  rfl

/-! ## The rows regrouped by root row, and the sum over the sixteen children -/

/-- The 4096 rows read as 256 groups of 16: entry (p, k, o) of the regrouped array is row 16 p + k, column o. -/
theorem regroup_apply (v : FVec Ideal S4096x32 .f32) (p : Fin 256) (k : Fin 16) (o : Fin 32) :
    shapeCast S256x16x32 v Gen.shapeCasts_S4096x32_S256x16x32 (ix3 p k o) = v (ix2 (Cert.Spec.child 256 p k) o) := by
  refine shapeCast_apply v _ (ix3 p k o) (ix2 (Cert.Spec.child 256 p k) o) ?_
  rw [Shape.rowMajor_val_two, Shape.rowMajor_val_three]
  rfl

/-- The sum over the middle axis at (p, o) is the sum over the sixteen k of the entries (p, k, o). -/
theorem childSum_apply (v : FVec Ideal S256x16x32 .f32) (hφ : FKind.Formats .f32)
    (hacc : (0x00000000#32 : BitVec 32) = FKind.add.neutral .f32 hφ) (p : Fin 256) (o : Fin 32) :
    multiReduction (F := Ideal) .add [1] S256x32 v 0x00000000#32 Gen.reduces_S256x16x32_S256x32 hφ hacc (ix2 p o)
      = ∑ k : Fin 16, v (ix3 p k o) := by
  refine (Ideal.multiReduction_add_single v 0x00000000#32 Gen.reduces_S256x16x32_S256x32 hφ hacc (ix2 p o)).trans ?_
  refine Finset.sum_congr rfl fun k _ => congrArg v ?_
  funext c; apply Fin.ext
  match c with
  | ⟨0, _⟩ => rfl
  | ⟨1, _⟩ => rfl
  | ⟨2, _⟩ => rfl

/-! ## The stored value -/

/-- What the body stores at (p, o): the mean, over the sixteen children of root row p of the block, of the
    layer's output unit o on the child's features — its 1024 embedding entries followed by its 128 scaled and
    shifted numeric entries. -/
theorem pay_apply (x1 : Vec Ideal S4096x128 .f32) (sc sh : Vec Ideal S1x128 .f32) (x0 : Vec Ideal S4096x1024 .bf16)
    (w : Vec Ideal S32x1152 .f32) (b : Vec Ideal S1x32 .f32) (p : Fin 256) (o : Fin 32) :
    Gen.k0_pay1 (F := Ideal) x1 sc sh x0 w b (ix2 p o)
      = Cert.Spec.mean16 fun k : Fin 16 => Cert.Spec.unit
          (Cert.Spec.feat (fun q : Fin 1024 => x0 (ix2 (Cert.Spec.child 256 p k) q))
                          (fun j : Fin 128 => x1 (ix2 (Cert.Spec.child 256 p k) j) * sc (ix2 0 j) + sh (ix2 0 j)))
          (fun q : Fin 1152 => w (ix2 o q)) (b (ix2 0 o)) := by
  unfold Gen.k0_pay1
  rw [divf_apply, broadcast_apply]
  unfold Cert.Spec.mean16
  refine congrArg (fun s => Ideal.div s Cert.Spec.sixteenWord) ?_
  refine (childSum_apply _ _ _ p o).trans (Finset.sum_congr rfl fun k _ => ?_)
  rw [regroup_apply, biasCut_apply, product_apply]
  unfold Cert.Spec.unit
  refine congrArg (fun s => max (s + b (ix2 (0 : Fin 1) o)) Cert.Spec.zeroWord) (Finset.sum_congr rfl fun q _ => ?_)
  rw [sideBySide_apply, turned_apply, shapeCast_self]
  refine congrArg (fun f => Cert.Spec.feat (fun c : Fin 1024 => x0 (ix2 (Cert.Spec.child 256 p k) c)) f q * w (ix2 o q)) ?_
  funext j
  rw [truncf_apply, affine_apply]

end Cert.KernelIdeal.Hand

end
-- ==== Proof.KFinal.lean ====
/-
  The kernel region's output array. Each of the 32 grid points takes the 256 root rows `256 t … 256 t + 255`: it
  loads their 4096 child rows' embedding entries and numeric entries (children `16 r … 16 r + 15` of root row `r`), the
  one row of scales, the one row of shifts, the weights and the bias row, and writes back, for each of its root rows
  and each of the 32 output units, the mean over the sixteen children of the linear layer's unit cut below at zero.
  Read through the printed index maps, a point's child rows are rows `4096 t + 16 p + k` of the child arrays, that is
  the children of root row `256 t + p`; the 32 blocks of 256 root rows fill the 8192 rows of the output; so the
  output array holds, at `(r, o)`, that mean for root row `r` — one function of the six arrays the region reads.
-/
import proofs.«409894_j6640019439760_1_alg».proof.Proof.KIBody
import proofs.«409894_j6640019439760_1_alg».proof.Proof.KPayload
import proofs.«409894_j6640019439760_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The aggregate as a function of the arrays the region reads -/

/-- Root row `r`'s aggregate at output unit `o`: the mean over the row's sixteen children of the linear layer's unit
    `o`, cut below at zero, on the child's 1024 embedding entries followed by its 128 numeric entries, each numeric
    entry taken times its column's scale plus its column's shift. -/
def aggAt (xc : FVec Ideal S131072x1024 .bf16) (cn : FVec Ideal S131072x128 .f32) (sc sh : FVec Ideal S1x128 .f32)
    (w : FVec Ideal S32x1152 .f32) (b : FVec Ideal S1x32 .f32) (r : Fin 8192) (o : Fin 32) : EReal :=
  Cert.Spec.mean16 fun k : Fin 16 => Cert.Spec.unit
    (Cert.Spec.feat (fun q : Fin 1024 => xc (ix2 (Cert.Spec.child 8192 r k) q))
      (fun j : Fin 128 => cn (ix2 (Cert.Spec.child 8192 r k) j) * sc (ix2 (0 : Fin 1) j) + sh (ix2 (0 : Fin 1) j)))
    (fun q : Fin 1152 => w (ix2 o q)) (b (ix2 (0 : Fin 1) o))

/-- The arrays the region reads, as it finds them, under the names of what they hold. -/
abbrev arrXc (c : Dev nD) : FVec Ideal S131072x1024 .bf16 := V m c main_v142
abbrev arrCn (c : Dev nD) : FVec Ideal S131072x128 .f32 := V m c main_v143
abbrev arrSc (c : Dev nD) : FVec Ideal S1x128 .f32 := V m c main_v153
abbrev arrSh (c : Dev nD) : FVec Ideal S1x128 .f32 := V m c main_v156
abbrev arrW (c : Dev nD) : FVec Ideal S32x1152 .f32 := V m c main_arg8
abbrev arrB (c : Dev nD) : FVec Ideal S1x32 .f32 := V m c main_v157

/-- The whole aggregate array of core `c`. -/
def aggK (c : Dev nD) : FVec Ideal S8192x32 .f32 := fun i =>
  aggAt (arrXc m c) (arrCn m c) (arrSc m c) (arrSh m c) (arrW m c) (arrB m c) (i 0) (i 1)

/-! ## The blocks of a grid point -/

/-- The six input blocks of point `t`, under the same names. -/
abbrev blkXc (c : Dev nD) (t : Fin cfg0.N) : FVec Ideal S4096x1024 .bf16 := iblk m c 0 t
abbrev blkCn (c : Dev nD) (t : Fin cfg0.N) : FVec Ideal S4096x128 .f32 := iblk m c 1 t
abbrev blkSc (c : Dev nD) (t : Fin cfg0.N) : FVec Ideal S1x128 .f32 := iblk m c 2 t
abbrev blkSh (c : Dev nD) (t : Fin cfg0.N) : FVec Ideal S1x128 .f32 := iblk m c 3 t
abbrev blkW (c : Dev nD) (t : Fin cfg0.N) : FVec Ideal S32x1152 .f32 := iblk m c 4 t
abbrev blkB (c : Dev nD) (t : Fin cfg0.N) : FVec Ideal S1x32 .f32 := iblk m c 5 t

theorem offsets_zero : (![0, 0] : Fin 2 → Nat) = fun _ => 0 := funext fun a => by fin_cases a <;> rfl

/-- The printed index maps over the grid: the child blocks and the output block move with the point along the rows;
    the scale, the shift, the weights and the bias stay at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 32 :=
  (by decide +kernel : ∀ t : Fin grid0.N, _)

/-- Root row `p` of point `t`'s block of 256 is root row `256 t + p` of the array. -/
def rootOf (t : Fin cfg0.N) (p : Fin 256) : Fin 8192 := ⟨t.val * 256 + p.val, by
  have := (block_index t).2.2.2.2.2.2.2.2.2.2.2.2.2.2; have := p.isLt; omega⟩

/-- A child row of the point's block is the same child of the same root row in the array: row `4096 t + 16 p + k`. -/
theorem blkXc_apply (c : Dev nD) (t : Fin cfg0.N) (p : Fin 256) (k : Fin 16) (q : Fin 1024) :
    blkXc m c t (ix2 (Cert.Spec.child 256 p k) q) = arrXc m c (ix2 (Cert.Spec.child 8192 (rootOf t p) k) q) := by
  show V m c main_v142 (((cfg0.win 0).blk t).view.emb (ix2 (Cert.Spec.child 256 p k) q)) = V m c main_v142 _
  refine congrArg (V m c main_v142) ?_
  obtain ⟨e0, e1, -⟩ := block_index t
  funext a; apply Fin.ext
  match a with
  | ⟨0, _⟩ =>
    show win0_0.index t (0 : Fin 2) * 4096 + 1 * (p.val * 16 + k.val) = (t.val * 256 + p.val) * 16 + k.val
    omega
  | ⟨1, _⟩ =>
    show win0_0.index t (1 : Fin 2) * 1024 + 1 * q.val = q.val
    omega

theorem blkCn_apply (c : Dev nD) (t : Fin cfg0.N) (p : Fin 256) (k : Fin 16) (j : Fin 128) :
    blkCn m c t (ix2 (Cert.Spec.child 256 p k) j) = arrCn m c (ix2 (Cert.Spec.child 8192 (rootOf t p) k) j) := by
  show V m c main_v143 (((cfg0.win 1).blk t).view.emb (ix2 (Cert.Spec.child 256 p k) j)) = V m c main_v143 _
  refine congrArg (V m c main_v143) ?_
  obtain ⟨-, -, e0, e1, -⟩ := block_index t
  funext a; apply Fin.ext
  match a with
  | ⟨0, _⟩ =>
    show win0_1.index t (0 : Fin 2) * 4096 + 1 * (p.val * 16 + k.val) = (t.val * 256 + p.val) * 16 + k.val
    omega
  | ⟨1, _⟩ =>
    show win0_1.index t (1 : Fin 2) * 128 + 1 * j.val = j.val
    omega

/-- The one-block windows: the block is the array. -/
theorem blkSc_apply (c : Dev nD) (t : Fin cfg0.N) (j : Fin 128) : blkSc m c t (ix2 (0 : Fin 1) j) = arrSc m c (ix2 (0 : Fin 1) j) := by
  show V m c main_v153 (((cfg0.win 2).blk t).view.emb (ix2 (0 : Fin 1) j)) = V m c main_v153 _
  refine congrArg (V m c main_v153) ?_
  obtain ⟨-, -, -, -, e0, e1, -⟩ := block_index t
  funext a; apply Fin.ext
  match a with
  | ⟨0, _⟩ => show win0_2.index t (0 : Fin 2) * 1 + 1 * 0 = 0; omega
  | ⟨1, _⟩ => show win0_2.index t (1 : Fin 2) * 128 + 1 * j.val = j.val; omega

theorem blkSh_apply (c : Dev nD) (t : Fin cfg0.N) (j : Fin 128) : blkSh m c t (ix2 (0 : Fin 1) j) = arrSh m c (ix2 (0 : Fin 1) j) := by
  show V m c main_v156 (((cfg0.win 3).blk t).view.emb (ix2 (0 : Fin 1) j)) = V m c main_v156 _
  refine congrArg (V m c main_v156) ?_
  obtain ⟨-, -, -, -, -, -, e0, e1, -⟩ := block_index t
  funext a; apply Fin.ext
  match a with
  | ⟨0, _⟩ => show win0_3.index t (0 : Fin 2) * 1 + 1 * 0 = 0; omega
  | ⟨1, _⟩ => show win0_3.index t (1 : Fin 2) * 128 + 1 * j.val = j.val; omega

theorem blkW_apply (c : Dev nD) (t : Fin cfg0.N) (o : Fin 32) (q : Fin 1152) : blkW m c t (ix2 o q) = arrW m c (ix2 o q) := by
  show V m c main_arg8 (((cfg0.win 4).blk t).view.emb (ix2 o q)) = V m c main_arg8 _
  refine congrArg (V m c main_arg8) ?_
  obtain ⟨-, -, -, -, -, -, -, -, e0, e1, -⟩ := block_index t
  funext a; apply Fin.ext
  match a with
  | ⟨0, _⟩ => show win0_4.index t (0 : Fin 2) * 32 + 1 * o.val = o.val; omega
  | ⟨1, _⟩ => show win0_4.index t (1 : Fin 2) * 1152 + 1 * q.val = q.val; omega

theorem blkB_apply (c : Dev nD) (t : Fin cfg0.N) (o : Fin 32) : blkB m c t (ix2 (0 : Fin 1) o) = arrB m c (ix2 (0 : Fin 1) o) := by
  show V m c main_v157 (((cfg0.win 5).blk t).view.emb (ix2 (0 : Fin 1) o)) = V m c main_v157 _
  refine congrArg (V m c main_v157) ?_
  obtain ⟨-, -, -, -, -, -, -, -, -, -, e0, e1, -⟩ := block_index t
  funext a; apply Fin.ext
  match a with
  | ⟨0, _⟩ => show win0_5.index t (0 : Fin 2) * 1 + 1 * 0 = 0; omega
  | ⟨1, _⟩ => show win0_5.index t (1 : Fin 2) * 32 + 1 * o.val = o.val; omega

/-- Entry `(p, o)` of the point's output block is entry `(256 t + p, o)` of the output array. -/
theorem out_index (t : Fin cfg0.N) (p : Fin 256) (o : Fin 32) :
    ((cfg0.win 6).blk t).view.emb (ix2 p o) = ix2 (rootOf t p) o := by
  obtain ⟨-, -, -, -, -, -, -, -, -, -, -, -, e0, e1, -⟩ := block_index t
  funext a; apply Fin.ext
  match a with
  | ⟨0, _⟩ => show win0_6.index t (0 : Fin 2) * 256 + 1 * p.val = t.val * 256 + p.val; omega
  | ⟨1, _⟩ => show win0_6.index t (1 : Fin 2) * 32 + 1 * o.val = o.val; omega

/-! ## What a point writes back, and the whole array -/

/-- WHAT POINT `t` WRITES BACK is block `t` of the aggregate array. -/
theorem flushed6_eq (c : Dev nD) (t : Fin cfg0.N) :
    (dats m 0 c).flushed 6 t = ((cfg0.win 6).blk t).view.read (Elt Ideal) (aggK m c) := by
  show (cfg0.win 6).cut (grid0.coords t) ((dats m 0 c).after 6 t) = _
  rw [after0_6]
  unfold out0_6
  rw [View.canon_unit_zero offsets_zero]
  simp only [View.ld_unit_zero (S := S4096x128) offsets_zero, View.ld_unit_zero (S := S1x128) offsets_zero,
    View.ld_unit_zero (S := S4096x1024) offsets_zero, View.ld_unit_zero (S := S32x1152) offsets_zero,
    View.ld_unit_zero (S := S1x32) offsets_zero]
  funext j
  obtain ⟨p, o, rfl⟩ : ∃ (p : Fin 256) (o : Fin 32), j = ix2 p o := ⟨j 0, j 1, eq_ix2 j⟩
  show k0_pay1 (F := Ideal) (blkCn m c t) (blkSc m c t) (blkSh m c t) (blkXc m c t) (blkW m c t) (blkB m c t) (ix2 p o)
    = aggK m c (((cfg0.win 6).blk t).view.emb (ix2 p o))
  rw [pay_apply, out_index]
  show _ = aggAt (arrXc m c) (arrCn m c) (arrSc m c) (arrSh m c) (arrW m c) (arrB m c) (rootOf t p) o
  unfold aggAt
  simp only [blkXc_apply, blkCn_apply, blkSc_apply, blkSh_apply, blkW_apply, blkB_apply]

/-- An index of the output array is in point `t`'s block iff each coordinate is in the block's range on its axis. -/
theorem mem_out_block (t : Fin cfg0.N) (i : S8192x32.Idx) :
    i ∈ ((cfg0.win 6).blk t).view.set ↔ ∀ a : Fin 2, win0_6.index t a * S256x32.size a ≤ (i a).val ∧ (i a).val < win0_6.index t a * S256x32.size a + S256x32.size a := by
  show i ∈ ((View.whole main_v158).slice (win0_6.rect t)).set ↔ _
  rw [View.set_slice_whole, Rect.mem_set_unit]
  exact Iff.rfl

/-- Every block of 256 root rows is some point's. -/
theorem point_of_block : ∀ q : Fin 32, ∃ t : Fin cfg0.N, t.val = q.val :=
  (by decide +kernel : ∀ q : Fin 32, ∃ t : Fin grid0.N, t.val = q.val)

/-- The 32 output blocks fill the output array: root row `r` lies in the block of point `r / 256`. -/
theorem out_covered (i : S8192x32.Idx) :
    ∃ t : Fin cfg0.N, (cfg0.win 6).flush t = true ∧ i ∈ ((cfg0.win 6).blk t).view.set := by
  have hi0 : (i 0).val < 8192 := (i 0).isLt
  have hi1 : (i 1).val < 32 := (i 1).isLt
  obtain ⟨t, ht⟩ := point_of_block ⟨(i 0).val / 256, by omega⟩
  have ht' : t.val = (i 0).val / 256 := ht
  refine ⟨t, flush0_6 t, ?_⟩
  rw [mem_out_block]
  obtain ⟨-, -, -, -, -, -, -, -, -, -, -, -, e0, e1, -⟩ := block_index t
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 32 ≤ (i 1).val ∧ (i 1).val < win0_6.index t (1 : Fin 2) * 32 + 32; omega

/-- THE OUTPUT ARRAY after the run is the aggregate array. -/
theorem final6 (c : Dev nD) : (dats m 0 c).arrAt 6 cfg0.N = aggK m c :=
  (dats m 0 c).arrAt_eq_of_cover 6 (aggK m c) (fun t _ => flushed6_eq m c t) out_covered

end Cert.KernelIdeal.Hand

end
-- ==== Proof.KTail.lean ====
/-
  What the program's result array holds. After the one kernel region a single host operation remains: it lays
  three arrays of 8192 rows side by side — 512 columns computed before the region, 64 more computed before the
  region, and the 32 columns the region has just written — into the 608-column result. Here that operation is
  read as a value: the result is the concatenation of the two earlier arrays, as they stood when the region was
  entered, with the region's output array as the pipeline's proof data give it after the last grid point.
  A column of the result then falls in exactly one of the three pieces, and reads that piece's entry.
-/
import proofs.«409894_j6640019439760_1_alg».proof.Proof.KIBody
import Idealize.ShloMosaic.Lib.Pipeline.FrameSuffix
import Idealize.ShloMosaic.Lib.Pipeline.Frame
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-! ## The host operation after the region, as a value -/

/-- The result array after the last host operation: the three pieces side by side. The first two are buffers
    no window of the region stages, so the region leaves them as it found them; the third is the array of the
    region's output window, which holds what the proof data say after all grid points. -/
theorem tail_result (c : Dev nD) :
    Pipeline.afterTail₀ cfgs (dats m) 0 (V0 m) [hostOps1] c main_v159
      = concatenate S8192x608 1 [⟨S8192x512, V m c main_v41⟩, ⟨S8192x64, V m c main_v59⟩, ⟨S8192x32, (dats m 0 c).arrAt 6 cfg0.N⟩]
          concatenates_S8192x512_S8192x64_S8192x32_S8192x608_d1 := by
  have e41 : Pipeline.withArrays spec0 c (V0 m c) (fun w => (dats m 0 c).arrAt w cfg0.N) (Proc.devRef .tc main_v41) = V m c main_v41 :=
    Pipeline.withArrays_of_ne spec0 c (V0 m c) _ main_v41 (by decide)
  have e59 : Pipeline.withArrays spec0 c (V0 m c) (fun w => (dats m 0 c).arrAt w cfg0.N) (Proc.devRef .tc main_v59) = V m c main_v59 :=
    Pipeline.withArrays_of_ne spec0 c (V0 m c) _ main_v59 (by decide)
  have e158 : Pipeline.withArrays spec0 c (V0 m c) (fun w => (dats m 0 c).arrAt w cfg0.N) (Proc.devRef .tc main_v158)
      = (dats m 0 c).arrAt 6 cfg0.N :=
    Pipeline.withArrays_arr spec0 launch0.win.arr_inj c (V0 m c) (fun w => (dats m 0 c).arrAt w cfg0.N) 6
  unfold Pipeline.afterTail₀
  show StableHlo.after hostOps1 _ (Proc.devRef .tc main_v159) = _
  after_results
  show concatenate S8192x608 1
      [⟨S8192x512, Pipeline.withArrays spec0 c (V0 m c) (fun w => (dats m 0 c).arrAt w cfg0.N) (Proc.devRef .tc main_v41)⟩,
       ⟨S8192x64, Pipeline.withArrays spec0 c (V0 m c) (fun w => (dats m 0 c).arrAt w cfg0.N) (Proc.devRef .tc main_v59)⟩,
       ⟨S8192x32, Pipeline.withArrays spec0 c (V0 m c) (fun w => (dats m 0 c).arrAt w cfg0.N) (Proc.devRef .tc main_v158)⟩]
      concatenates_S8192x512_S8192x64_S8192x32_S8192x608_d1 = _
  rw [e41, e59, e158]

/-- The result array is no array of the pipeline and is not scoped to the region, so the frame's final state
    holds in it exactly the value computed above. -/
theorem result_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v159) = Pipeline.afterTail₀ cfgs (dats m) 0 (V0 m) [hostOps1] c main_v159 :=
  (h c).2 main_v159 (Pipeline.mem_restRefs_of main_v159 (by decide) (by decide))

/-! ## The three pieces read at a column (at the extended reals) -/

/-- Columns 0 … 511 of the result are the first piece's columns. -/
theorem cat3_apply_left (x : FVec Ideal S8192x512 .f32) (y : FVec Ideal S8192x64 .f32) (z : FVec Ideal S8192x32 .f32)
    (r : Fin 8192) (j : Fin 512) :
    concatenate S8192x608 1 [⟨S8192x512, x⟩, ⟨S8192x64, y⟩, ⟨S8192x32, z⟩] concatenates_S8192x512_S8192x64_S8192x32_S8192x608_d1
      (ix2 r ⟨j.val, by omega⟩) = x (ix2 r j) := by
  refine concatenate_apply_piece (α := Ideal .f32) (t := S8192x608) (1 : Fin 2) [⟨S8192x512, x⟩, ⟨S8192x64, y⟩, ⟨S8192x32, z⟩]
    concatenates_S8192x512_S8192x64_S8192x32_S8192x608_d1 _ 0 (Nat.zero_lt_succ _) S8192x512 x rfl rfl 0 rfl (ix2 r j) ?_ ?_
  · intro b hb
    match b with
    | ⟨0, _⟩ => rfl
    | ⟨1, _⟩ => exact absurd rfl hb
  · show 0 + j.val = j.val
    omega

/-- Columns 512 … 575 are the second piece's columns 0 … 63. -/
theorem cat3_apply_mid (x : FVec Ideal S8192x512 .f32) (y : FVec Ideal S8192x64 .f32) (z : FVec Ideal S8192x32 .f32)
    (r : Fin 8192) (j : Fin 64) :
    concatenate S8192x608 1 [⟨S8192x512, x⟩, ⟨S8192x64, y⟩, ⟨S8192x32, z⟩] concatenates_S8192x512_S8192x64_S8192x32_S8192x608_d1
      (ix2 r ⟨512 + j.val, by omega⟩) = y (ix2 r j) := by
  refine concatenate_apply_piece (α := Ideal .f32) (t := S8192x608) (1 : Fin 2) [⟨S8192x512, x⟩, ⟨S8192x64, y⟩, ⟨S8192x32, z⟩]
    concatenates_S8192x512_S8192x64_S8192x32_S8192x608_d1 _ 1 (Nat.succ_lt_succ (Nat.zero_lt_succ _)) S8192x64 y rfl rfl 512 rfl (ix2 r j) ?_ ?_
  · intro b hb
    match b with
    | ⟨0, _⟩ => rfl
    | ⟨1, _⟩ => exact absurd rfl hb
  · rfl

/-- Columns 576 … 607 are the third piece's columns 0 … 31. -/
theorem cat3_apply_right (x : FVec Ideal S8192x512 .f32) (y : FVec Ideal S8192x64 .f32) (z : FVec Ideal S8192x32 .f32)
    (r : Fin 8192) (j : Fin 32) :
    concatenate S8192x608 1 [⟨S8192x512, x⟩, ⟨S8192x64, y⟩, ⟨S8192x32, z⟩] concatenates_S8192x512_S8192x64_S8192x32_S8192x608_d1
      (ix2 r ⟨576 + j.val, by omega⟩) = z (ix2 r j) := by
  refine concatenate_apply_piece (α := Ideal .f32) (t := S8192x608) (1 : Fin 2) [⟨S8192x512, x⟩, ⟨S8192x64, y⟩, ⟨S8192x32, z⟩]
    concatenates_S8192x512_S8192x64_S8192x32_S8192x608_d1 _ 2 (Nat.succ_lt_succ (Nat.succ_lt_succ (Nat.zero_lt_succ _))) S8192x32 z rfl rfl 576 rfl (ix2 r j) ?_ ?_
  · intro b hb
    match b with
    | ⟨0, _⟩ => rfl
    | ⟨1, _⟩ => exact absurd rfl hb
  · rfl

/-- Every column of the result lies in exactly one of the three spans. -/
theorem col_cases (j : Fin 608) :
    (∃ a : Fin 512, j.val = a.val) ∨ (∃ a : Fin 64, j.val = 512 + a.val) ∨ (∃ a : Fin 32, j.val = 576 + a.val) := by
  have hj := j.isLt
  by_cases h1 : j.val < 512
  · exact Or.inl ⟨⟨j.val, h1⟩, rfl⟩
  · by_cases h2 : j.val < 576
    · exact Or.inr (Or.inl ⟨⟨j.val - 512, by omega⟩, by show j.val = 512 + (j.val - 512); omega⟩)
    · exact Or.inr (Or.inr ⟨⟨j.val - 576, by omega⟩, by show j.val = 576 + (j.val - 576); omega⟩)

end Cert.KernelIdeal.Hand

end
-- ==== Proof.KWrites.lean ====
/-
  Which references the host operations before the kernel call write. The program names its buffers in the order
  its operations produce them, so each stretch of operations writes a block of consecutively numbered references;
  a reference numbered outside the block keeps its contents across the stretch.
-/
import proofs.«409894_j6640019439760_1_alg».proof.Proof.KIEntry

noncomputable section

namespace Cert.KernelIdeal.Hand

open Cert.KernelIdeal Cert.KernelIdeal.Gen Cert.KernelIdeal.GenP
open Idealize.ShloMosaic Idealize.ShloMosaic.TcCoe Idealize.SL.Sem

variable {F : FTy → Type} [FloatOps F]

/-- Every operation of the line writes only references numbered lo to hi. -/
def WritesWithin (lo hi : Nat) (ops : List (HloOp τ sig (Elt F))) : Prop :=
  ∀ op ∈ ops, ∀ r : Ref sig .tc, (Proc.devRef .tc r : DevRef τ sig) ∈ op.writes → lo ≤ r.idx.val ∧ r.idx.val ≤ hi

/-- A wider block of numbers holds the writes as well. -/
theorem WritesWithin.mono {lo hi lo' hi' : Nat} {ops : List (HloOp τ sig (Elt F))} (h : WritesWithin lo hi ops)
    (hlo : lo' ≤ lo) (hhi : hi ≤ hi') : WritesWithin lo' hi' ops := fun op hop r hm => by
  have := h op hop r hm
  omega

/-- A reference numbered outside the block keeps its contents across the line. -/
theorem WritesWithin.keeps {lo hi : Nat} {ops : List (HloOp τ sig (Elt F))} (h : WritesWithin lo hi ops)
    (X : Valuation τ sig (Elt F)) (r : Ref sig .tc) (hr : r.idx.val < lo ∨ hi < r.idx.val) :
    StableHlo.after ops X (Proc.devRef .tc r) = X (Proc.devRef .tc r) :=
  StableHlo.after_of_forall_not_mem ops X fun op hop hm => by
    have := h op hop r hm
    omega

/-- An operation whose one result is the reference y writes within any block that holds y's number. -/
theorem within_of_eq {lo hi : Nat} {y : Ref sig .tc} (hy : lo ≤ y.idx.val ∧ y.idx.val ≤ hi) (r : Ref sig .tc)
    (hm : (Proc.devRef .tc r : DevRef τ sig) ∈ ({(Proc.devRef .tc y : DevRef τ sig)} : Finset (DevRef τ sig))) :
    lo ≤ r.idx.val ∧ r.idx.val ≤ hi := by
  have e : r = y := Proc.devRef_injective _ (Finset.mem_singleton.mp hm)
  rw [e]; exact hy

/-! ## Stretches run one after the other -/

/-- The contents after a list of stretches, each run in turn. -/
def afterAll : List (List (HloOp τ sig (Elt F))) → Valuation τ sig (Elt F) → Valuation τ sig (Elt F)
  | [], X => X
  | ops :: rest, X => afterAll rest (StableHlo.after ops X)

@[simp] theorem afterAll_nil (X : Valuation τ sig (Elt F)) : afterAll [] X = X := rfl
@[simp] theorem afterAll_cons (ops : List (HloOp τ sig (Elt F))) (rest : List (List (HloOp τ sig (Elt F))))
    (X : Valuation τ sig (Elt F)) : afterAll (ops :: rest) X = afterAll rest (StableHlo.after ops X) := rfl

/-- Two lines of operations in a row. -/
theorem after_append' : ∀ (l₁ l₂ : List (HloOp τ sig (Elt F))) (X : Valuation τ sig (Elt F)),
    StableHlo.after (l₁ ++ l₂) X = StableHlo.after l₂ (StableHlo.after l₁ X)
  | [], _, _ => rfl
  | op :: l₁, l₂, X => by rw [List.cons_append, StableHlo.after_cons, StableHlo.after_cons, after_append' l₁ l₂]

/-- Running the stretches in turn is running their concatenation. -/
theorem afterAll_eq_after_flatten : ∀ (items : List (List (HloOp τ sig (Elt F)))) (X : Valuation τ sig (Elt F)),
    afterAll items X = StableHlo.after items.flatten X
  | [], _ => rfl
  | ops :: rest, X => by rw [afterAll_cons, List.flatten_cons, after_append', afterAll_eq_after_flatten rest]

/-- Two lists of stretches in a row. -/
theorem afterAll_append : ∀ (l₁ l₂ : List (List (HloOp τ sig (Elt F)))) (X : Valuation τ sig (Elt F)),
    afterAll (l₁ ++ l₂) X = afterAll l₂ (afterAll l₁ X)
  | [], _, _ => rfl
  | ops :: l₁, l₂, X => by rw [List.cons_append, afterAll_cons, afterAll_cons, afterAll_append l₁ l₂]

/-- A reference numbered outside a block that holds every stretch's writes keeps its contents across them all. -/
theorem afterAll_keeps {lo hi : Nat} : ∀ (items : List (List (HloOp τ sig (Elt F))))
    (h : ∀ ops ∈ items, WritesWithin lo hi ops) (X : Valuation τ sig (Elt F)) (r : Ref sig .tc)
    (hr : r.idx.val < lo ∨ hi < r.idx.val), afterAll items X (Proc.devRef .tc r) = X (Proc.devRef .tc r)
  | [], _, _, _, _ => rfl
  | ops :: rest, h, X, r, hr => by
    rw [afterAll_cons, afterAll_keeps rest (fun o ho => h o (List.mem_cons_of_mem _ ho)) _ r hr,
      (h ops List.mem_cons_self).keeps X r hr]

/-! ## The sixty stretches' blocks -/

/-- One stretch's block: each of its operations has one result reference, whose number is compared. -/
local macro "stretch_within " n:ident ops:ident lo:num hi:num : command =>
  `(theorem $n {F : FTy → Type} [FloatOps F] : WritesWithin $lo $hi ($ops : List (HloOp τ sig (Elt F))) := by
      refine List.forall_iff_forall_mem.mp ?_
      simp only [List.Forall, StableHlo.nullary_writes, StableHlo.unary_writes, StableHlo.binary_writes,
        StableHlo.ternary_writes, StableHlo.reshape_writes, StableHlo.nary_writes]
      repeat' apply And.intro
      all_goals exact within_of_eq (by decide))

stretch_within hostOps0_within hostOps0 14 36
stretch_within hostOps0_1_within hostOps0_1 37 40
stretch_within hostOps0_2_within hostOps0_2 41 63
stretch_within hostOps0_3_within hostOps0_3 64 67
stretch_within hostOps0_4_within hostOps0_4 68 90
stretch_within hostOps0_5_within hostOps0_5 91 94
stretch_within hostOps0_6_within hostOps0_6 95 117
stretch_within hostOps0_7_within hostOps0_7 118 121
stretch_within hostOps0_8_within hostOps0_8 122 144
stretch_within hostOps0_9_within hostOps0_9 145 148
stretch_within hostOps0_10_within hostOps0_10 149 171
stretch_within hostOps0_11_within hostOps0_11 172 175
stretch_within hostOps0_12_within hostOps0_12 176 198
stretch_within hostOps0_13_within hostOps0_13 199 202
stretch_within hostOps0_14_within hostOps0_14 203 225
stretch_within hostOps0_15_within hostOps0_15 226 229
stretch_within hostOps0_16_within hostOps0_16 230 252
stretch_within hostOps0_17_within hostOps0_17 253 253
stretch_within hostOps0_18_within hostOps0_18 254 276
stretch_within hostOps0_19_within hostOps0_19 277 283
stretch_within hostOps0_20_within hostOps0_20 284 306
stretch_within hostOps0_21_within hostOps0_21 307 319
stretch_within hostOps0_22_within hostOps0_22 320 342
stretch_within hostOps0_23_within hostOps0_23 343 346
stretch_within hostOps0_24_within hostOps0_24 347 369
stretch_within hostOps0_25_within hostOps0_25 370 373
stretch_within hostOps0_26_within hostOps0_26 374 396
stretch_within hostOps0_27_within hostOps0_27 397 400
stretch_within hostOps0_28_within hostOps0_28 401 423
stretch_within hostOps0_29_within hostOps0_29 424 427
stretch_within hostOps0_30_within hostOps0_30 428 450
stretch_within hostOps0_31_within hostOps0_31 451 454
stretch_within hostOps0_32_within hostOps0_32 455 477
stretch_within hostOps0_33_within hostOps0_33 478 481
stretch_within hostOps0_34_within hostOps0_34 482 504
stretch_within hostOps0_35_within hostOps0_35 505 508
stretch_within hostOps0_36_within hostOps0_36 509 531
stretch_within hostOps0_37_within hostOps0_37 532 535
stretch_within hostOps0_38_within hostOps0_38 536 558
stretch_within hostOps0_39_within hostOps0_39 559 562
stretch_within hostOps0_40_within hostOps0_40 563 585
stretch_within hostOps0_41_within hostOps0_41 586 589
stretch_within hostOps0_42_within hostOps0_42 590 612
stretch_within hostOps0_43_within hostOps0_43 613 616
stretch_within hostOps0_44_within hostOps0_44 617 639
stretch_within hostOps0_45_within hostOps0_45 640 643
stretch_within hostOps0_46_within hostOps0_46 644 666
stretch_within hostOps0_47_within hostOps0_47 667 670
stretch_within hostOps0_48_within hostOps0_48 671 693
stretch_within hostOps0_49_within hostOps0_49 694 697
stretch_within hostOps0_50_within hostOps0_50 698 720
stretch_within hostOps0_51_within hostOps0_51 721 724
stretch_within hostOps0_52_within hostOps0_52 725 747
stretch_within hostOps0_53_within hostOps0_53 748 751
stretch_within hostOps0_54_within hostOps0_54 752 774
stretch_within hostOps0_55_within hostOps0_55 775 776
stretch_within hostOps0_56_within hostOps0_56 777 799
stretch_within hostOps0_57_within hostOps0_57 800 806
stretch_within hostOps0_58_within hostOps0_58 807 829
stretch_within hostOps0_59_within hostOps0_59 830 839

end Cert.KernelIdeal.Hand

end
-- ==== Proof.KValRootDefs.lean ====
/-
  The root branch of the forward pass before the kernel call, as pure functions of the argument arrays:
  the gathered categorical rows, the eight embedding lookups and their concatenate, the gathered
  numerical rows and their batch norm. Each stage is the composition of the program's own operations,
  in the program's order, with the program's own shape witnesses; nothing is simplified here.
-/
import proofs.«409894_j6640019439760_1_alg».proof.KernelIdeal

noncomputable section

namespace Cert.KernelIdeal.Hand

open Cert.KernelIdeal Cert.KernelIdeal.Facts₀
open Idealize.ShloMosaic

variable {F : FTy → Type} [FloatOps F] [Facts₀]

/-! ## jnp.take over 8192 indices -/

/-- jnp.take's index normalisation: an index below zero has the table's row count n added; the result as a column. -/
def takeWrap8192 (n : BitVec 32) (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 n))) idx)

/-- jnp.take's fill test: 1 where the normalised index i satisfies 0 ≤ i ≤ last, row by row. -/
def takeInside8192 (last : BitVec 32) (i : IVec S8192x1 32) : IVec S8192 1 :=
  Host.reduce IntOp.andi
    (andi (cmpi .sge i (broadcastInDim S8192x1 ![] bcast_S_S8192x1 (constantI S_ 32 0#32)))
      (cmpi .sle i (broadcastInDim S8192x1 ![0, 1] bcast_S1x1_S8192x1_0_1
        (broadcastInDim S1x1 ![1] bcast_S1_S1x1_1 (constantI S1 32 last)))))
    (constantI S_ 1 1#1) reducesTo_S8192x1_S8192_d1 h_S_

/-- jnp.take(table, idx, axis=0) for a 200000 x 8 integer table: the gathered rows where the index is inside the
    table, the smallest integer elsewhere. -/
def takeRows_200000x8_8192 (table : IVec S200000x8 32) (idx : IVec S8192 32) : IVec S8192x8 32 :=
  select (broadcastInDim S8192x8 ![0] bcast_S8192_S8192x8_0 (takeInside8192 199999#32 (takeWrap8192 200000#32 idx)))
    (Host.gather gather_S200000x8_S8192x1_S8192x8_1_0_n_n_0_1_18 table (takeWrap8192 200000#32 idx))
    (broadcastInDim S8192x8 ![] bcast_S_S8192x8 (constantI S_ 32 2147483648#32))

/-- jnp.take(table, idx, axis=0) for a 50000 x 64 float table: the gathered rows where the index is inside the
    table, NaN elsewhere. -/
def takeRows_50000x64_8192 (table : FVec F S50000x64 .f32) (idx : IVec S8192 32) : FVec F S8192x64 .f32 :=
  select (broadcastInDim S8192x64 ![0] bcast_S8192_S8192x64_0 (takeInside8192 49999#32 (takeWrap8192 50000#32 idx)))
    (Host.gather gather_S50000x64_S8192x1_S8192x64_1_0_n_n_0_1_164 table (takeWrap8192 50000#32 idx))
    (broadcastInDim S8192x64 ![] bcast_S_S8192x64 (constant S_ .f32 0x7FC00000#32))

/-- jnp.take(table, idx, axis=0) for a 200000 x 64 float table: the gathered rows where the index is inside the
    table, NaN elsewhere. -/
def takeRows_200000x64_8192 (table : FVec F S200000x64 .f32) (idx : IVec S8192 32) : FVec F S8192x64 .f32 :=
  select (broadcastInDim S8192x64 ![0] bcast_S8192_S8192x64_0 (takeInside8192 199999#32 (takeWrap8192 200000#32 idx)))
    (Host.gather gather_S200000x64_S8192x1_S8192x64_1_0_n_n_0_1_164 table (takeWrap8192 200000#32 idx))
    (broadcastInDim S8192x64 ![] bcast_S_S8192x64 (constant S_ .f32 0x7FC00000#32))

/-! ## The categorical half: root_cat_g and xr_cat -/

/-- root_cat_g = jnp.take(root_cat, idx, axis=0). -/
def kRcatG (idx : IVec S8192 32) (rcat : IVec S200000x8 32) : IVec S8192x8 32 :=
  takeRows_200000x8_8192 rcat idx

/-- emb_root[c]: table c of the eight, sliced out and reshaped to 50000 x 64. -/
def kEmbRootTable : Fin 8 → FVec F S8x50000x64 .f32 → FVec F S50000x64 .f32
  | 0, er => shapeCast S50000x64 (extractStridedSlice S1x50000x64 ![0, 0, 0] er slices_S8x50000x64_S1x50000x64_0_0_0) shapeCasts_S1x50000x64_S50000x64
  | 1, er => shapeCast S50000x64 (extractStridedSlice S1x50000x64 ![1, 0, 0] er slices_S8x50000x64_S1x50000x64_1_0_0) shapeCasts_S1x50000x64_S50000x64
  | 2, er => shapeCast S50000x64 (extractStridedSlice S1x50000x64 ![2, 0, 0] er slices_S8x50000x64_S1x50000x64_2_0_0) shapeCasts_S1x50000x64_S50000x64
  | 3, er => shapeCast S50000x64 (extractStridedSlice S1x50000x64 ![3, 0, 0] er slices_S8x50000x64_S1x50000x64_3_0_0) shapeCasts_S1x50000x64_S50000x64
  | 4, er => shapeCast S50000x64 (extractStridedSlice S1x50000x64 ![4, 0, 0] er slices_S8x50000x64_S1x50000x64_4_0_0) shapeCasts_S1x50000x64_S50000x64
  | 5, er => shapeCast S50000x64 (extractStridedSlice S1x50000x64 ![5, 0, 0] er slices_S8x50000x64_S1x50000x64_5_0_0) shapeCasts_S1x50000x64_S50000x64
  | 6, er => shapeCast S50000x64 (extractStridedSlice S1x50000x64 ![6, 0, 0] er slices_S8x50000x64_S1x50000x64_6_0_0) shapeCasts_S1x50000x64_S50000x64
  | 7, er => shapeCast S50000x64 (extractStridedSlice S1x50000x64 ![7, 0, 0] er slices_S8x50000x64_S1x50000x64_7_0_0) shapeCasts_S1x50000x64_S50000x64

/-- root_cat_g[:, c]: column c of the gathered categorical rows, as a vector of 8192 indices. -/
def kRcatCol : Fin 8 → IVec S8192x8 32 → IVec S8192 32
  | 0, g => shapeCast S8192 (extractStridedSlice S8192x1 ![0, 0] g slices_S8192x8_S8192x1_0_0) shapeCasts_S8192x1_S8192
  | 1, g => shapeCast S8192 (extractStridedSlice S8192x1 ![0, 1] g slices_S8192x8_S8192x1_0_1) shapeCasts_S8192x1_S8192
  | 2, g => shapeCast S8192 (extractStridedSlice S8192x1 ![0, 2] g slices_S8192x8_S8192x1_0_2) shapeCasts_S8192x1_S8192
  | 3, g => shapeCast S8192 (extractStridedSlice S8192x1 ![0, 3] g slices_S8192x8_S8192x1_0_3) shapeCasts_S8192x1_S8192
  | 4, g => shapeCast S8192 (extractStridedSlice S8192x1 ![0, 4] g slices_S8192x8_S8192x1_0_4) shapeCasts_S8192x1_S8192
  | 5, g => shapeCast S8192 (extractStridedSlice S8192x1 ![0, 5] g slices_S8192x8_S8192x1_0_5) shapeCasts_S8192x1_S8192
  | 6, g => shapeCast S8192 (extractStridedSlice S8192x1 ![0, 6] g slices_S8192x8_S8192x1_0_6) shapeCasts_S8192x1_S8192
  | 7, g => shapeCast S8192 (extractStridedSlice S8192x1 ![0, 7] g slices_S8192x8_S8192x1_0_7) shapeCasts_S8192x1_S8192

/-- cols[c] = jnp.take(emb_root[c], root_cat_g[:, c], axis=0). -/
def kErCol (c : Fin 8) (idx : IVec S8192 32) (rcat : IVec S200000x8 32) (er : FVec F S8x50000x64 .f32) :
    FVec F S8192x64 .f32 :=
  takeRows_50000x64_8192 (kEmbRootTable c er) (kRcatCol c (kRcatG idx rcat))

/-- xr_cat = jnp.concatenate(cols, axis=1). -/
def kXrCat (idx : IVec S8192 32) (rcat : IVec S200000x8 32) (er : FVec F S8x50000x64 .f32) : FVec F S8192x512 .f32 :=
  concatenate S8192x512 1
    [⟨S8192x64, kErCol 0 idx rcat er⟩, ⟨S8192x64, kErCol 1 idx rcat er⟩, ⟨S8192x64, kErCol 2 idx rcat er⟩, ⟨S8192x64, kErCol 3 idx rcat er⟩, ⟨S8192x64, kErCol 4 idx rcat er⟩, ⟨S8192x64, kErCol 5 idx rcat er⟩, ⟨S8192x64, kErCol 6 idx rcat er⟩, ⟨S8192x64, kErCol 7 idx rcat er⟩]
    concatenates_S8192x64_S8192x64_S8192x64_S8192x64_S8192x64_S8192x64_S8192x64_S8192x64_S8192x512_d1

/-! ## The numerical half: root_num_g and its batch norm -/

/-- root_num_g = jnp.take(root_num, idx, axis=0). -/
def kRnumG (idx : IVec S8192 32) (rnum : FVec F S200000x64 .f32) : FVec F S8192x64 .f32 :=
  takeRows_200000x64_8192 rnum idx

/-- The column sums of a 8192 x 64 matrix over its rows, kept as a 1 x 64 row (the sum of a mean with keepdims). -/
def kColSumR (x : FVec F S8192x64 .f32) : FVec F S1x64 .f32 :=
  broadcastInDim S1x64 ![1] bcast_S64_S1x64_1
    (Host.reduceAdd x (constant S_ .f32 0x00000000#32) reducesTo_S8192x64_S64_d0 h_S_)

/-- mu_r = jnp.mean(x, axis=0, keepdims=True): the column sums over 8192. -/
def kMeanR (x : FVec F S8192x64 .f32) : FVec F S1x64 .f32 :=
  Host.divf (kColSumR x) (broadcastInDim S1x64 ![] bcast_S_S1x64 (constant S_ .f32 0x46000000#32))

/-- jnp.var's squared deviations: (x - mean(x))², the mean broadcast down the rows. -/
def kSqDevR (x : FVec F S8192x64 .f32) : FVec F S8192x64 .f32 :=
  mulf (subf x (broadcastInDim S8192x64 ![0, 1] bcast_S1x64_S8192x64_0_1 (kMeanR x)))
    (subf x (broadcastInDim S8192x64 ![0, 1] bcast_S1x64_S8192x64_0_1 (kMeanR x)))

/-- jnp.var's divisor: the row count 8192 minus ddof, with ddof = 0 converted from an integer. -/
def kVarDivisorR : FVec F S_ .f32 :=
  subf (constant S_ .f32 0x46000000#32) (sitofp .f32 (constantI S_ 32 0#32))

/-- var_r = jnp.var(x, axis=0, keepdims=True): the summed squared deviations over the divisor where the divisor
    is positive, NaN otherwise. -/
def kVarR (x : FVec F S8192x64 .f32) : FVec F S1x64 .f32 :=
  select (broadcastInDim S1x64 ![] bcast_S_S1x64 (cmpf .ogt (kVarDivisorR (F := F)) (constant S_ .f32 0x00000000#32)))
    (Host.divf (kColSumR (kSqDevR x)) (broadcastInDim S1x64 ![] bcast_S_S1x64 (kVarDivisorR (F := F))))
    (broadcastInDim S1x64 ![] bcast_S_S1x64 (constant S_ .f32 0x7FC00000#32))

/-- scale_r = gamma_r[None, :] * rsqrt(var_r + EPS). -/
def kScaleR (x : FVec F S8192x64 .f32) (gr : FVec F S64 .f32) : FVec F S1x64 .f32 :=
  mulf (broadcastInDim S1x64 ![1] bcast_S64_S1x64_1 gr)
    (Host.rsqrt (addf (kVarR x) (broadcastInDim S1x64 ![] bcast_S_S1x64 (constant S_ .f32 0x3727C5AC#32))))

/-- shift_r = beta_r[None, :] - mu_r * scale_r. -/
def kShiftR (x : FVec F S8192x64 .f32) (gr br : FVec F S64 .f32) : FVec F S1x64 .f32 :=
  subf (broadcastInDim S1x64 ![1] bcast_S64_S1x64_1 br) (mulf (kMeanR x) (kScaleR x gr))

/-- The batch norm of a gathered matrix by its own column statistics: x * scale_r + shift_r. -/
def kBnR (x : FVec F S8192x64 .f32) (gr br : FVec F S64 .f32) : FVec F S8192x64 .f32 :=
  addf (mulf x (broadcastInDim S8192x64 ![0, 1] bcast_S1x64_S8192x64_0_1 (kScaleR x gr)))
    (broadcastInDim S8192x64 ![0, 1] bcast_S1x64_S8192x64_0_1 (kShiftR x gr br))

/-- xr_num = root_num_g * scale_r + shift_r. -/
def kXrNum (idx : IVec S8192 32) (rnum : FVec F S200000x64 .f32) (gr br : FVec F S64 .f32) : FVec F S8192x64 .f32 :=
  kBnR (kRnumG idx rnum) gr br

end Cert.KernelIdeal.Hand

end
-- ==== Proof.KValRoot.lean ====
/-
  What the core's buffers hold, when the kernel call is entered, at the two results of the root branch:
  main_v41 is xr_cat and main_v59 is xr_num, as functions of the argument arrays. Each stretch of host
  operations is read once, over an arbitrary valuation; the stretches are then chained, a buffer a stretch does
  not write being carried across it by its number.
-/
import proofs.«409894_j6640019439760_1_alg».proof.Proof.KWrites
import proofs.«409894_j6640019439760_1_alg».proof.Proof.KValRootDefs

noncomputable section

namespace Cert.KernelIdeal.Hand

open Cert.KernelIdeal Cert.KernelIdeal.Gen Cert.KernelIdeal.GenP
open Idealize.ShloMosaic Idealize.ShloMosaic.TcCoe Idealize.SL.Sem

variable {F : FTy → Type} [FloatOps F]

/-! ## What each stretch computes, over any contents X it starts from -/

/-- The first take: root_cat_g from root_cat and idx. -/
theorem val_rcatG (X : Valuation τ sig (Elt F)) :
    StableHlo.after hostOps0 X (Proc.devRef .tc main_v0)
      = takeRows_200000x8_8192 (X (Proc.devRef .tc main_arg2)) (X (Proc.devRef .tc main_arg0)) := by
  after_results_simp
  rfl

/-- Column k of the embedding: the slice-and-reshape stretch gives emb_root[k] and root_cat_g[:, k], and the take
    stretch after it gathers the one by the other. -/
local macro "emb_column " tab:ident col:ident take:ident slices:ident takes:ident vt:ident vc:ident vr:ident k:num : command =>
  `(theorem $tab {F : FTy → Type} [FloatOps F] (X : Valuation τ sig (Elt F)) :
        StableHlo.after $slices X (Proc.devRef .tc $vt) = kEmbRootTable $k (X (Proc.devRef .tc main_arg6)) := by
      after_results_simp
      rfl
    theorem $col {F : FTy → Type} [FloatOps F] (X : Valuation τ sig (Elt F)) :
        StableHlo.after $slices X (Proc.devRef .tc $vc) = kRcatCol $k (X (Proc.devRef .tc main_v0)) := by
      after_results_simp
      rfl
    theorem $take {F : FTy → Type} [FloatOps F] (X : Valuation τ sig (Elt F)) :
        StableHlo.after $takes X (Proc.devRef .tc $vr)
          = takeRows_50000x64_8192 (X (Proc.devRef .tc $vt)) (X (Proc.devRef .tc $vc)) := by
      after_results_simp
      rfl)

emb_column val_tab0 val_col0 val_take0 hostOps0_1 hostOps0_2 main_v2 main_v4 main_v5 0
emb_column val_tab1 val_col1 val_take1 hostOps0_3 hostOps0_4 main_v7 main_v9 main_v10 1
emb_column val_tab2 val_col2 val_take2 hostOps0_5 hostOps0_6 main_v12 main_v14 main_v15 2
emb_column val_tab3 val_col3 val_take3 hostOps0_7 hostOps0_8 main_v17 main_v19 main_v20 3
emb_column val_tab4 val_col4 val_take4 hostOps0_9 hostOps0_10 main_v22 main_v24 main_v25 4
emb_column val_tab5 val_col5 val_take5 hostOps0_11 hostOps0_12 main_v27 main_v29 main_v30 5
emb_column val_tab6 val_col6 val_take6 hostOps0_13 hostOps0_14 main_v32 main_v34 main_v35 6
emb_column val_tab7 val_col7 val_take7 hostOps0_15 hostOps0_16 main_v37 main_v39 main_v40 7

/-- The concatenate of the eight gathered columns. -/
theorem val_concat (X : Valuation τ sig (Elt F)) :
    StableHlo.after hostOps0_17 X (Proc.devRef .tc main_v41)
      = concatenate S8192x512 1
          [⟨S8192x64, X (Proc.devRef .tc main_v5)⟩, ⟨S8192x64, X (Proc.devRef .tc main_v10)⟩,
           ⟨S8192x64, X (Proc.devRef .tc main_v15)⟩, ⟨S8192x64, X (Proc.devRef .tc main_v20)⟩,
           ⟨S8192x64, X (Proc.devRef .tc main_v25)⟩, ⟨S8192x64, X (Proc.devRef .tc main_v30)⟩,
           ⟨S8192x64, X (Proc.devRef .tc main_v35)⟩, ⟨S8192x64, X (Proc.devRef .tc main_v40)⟩]
          concatenates_S8192x64_S8192x64_S8192x64_S8192x64_S8192x64_S8192x64_S8192x64_S8192x64_S8192x512_d1 := by
  simp only [StableHlo.after_cons, StableHlo.after_nil]
  rw [StableHlo.nary_result]
  rfl

/-- The take of the numerical rows: root_num_g from root_num and idx. -/
theorem val_rnumG (X : Valuation τ sig (Elt F)) :
    StableHlo.after hostOps0_18 X (Proc.devRef .tc main_v42)
      = takeRows_200000x64_8192 (X (Proc.devRef .tc main_arg3)) (X (Proc.devRef .tc main_arg0)) := by
  after_results_simp
  rfl

/-- mu_r from root_num_g. -/
theorem val_mean (X : Valuation τ sig (Elt F)) :
    StableHlo.after hostOps0_19 X (Proc.devRef .tc main_v46) = kMeanR (X (Proc.devRef .tc main_v42)) := by
  after_results_simp
  rfl

/-- The same stretch ends by writing jnp.var's ddof, the integer 0. -/
theorem val_ddof (X : Valuation τ sig (Elt F)) :
    StableHlo.after hostOps0_19 X (Proc.devRef .tc main_c) = constantI S_ 32 0#32 := by
  after_results_simp

/-- var_r from root_num_g, given that ddof is 0 when the variance is taken. -/
theorem val_var (X : Valuation τ sig (Elt F)) (hc : X (Proc.devRef .tc main_c) = constantI S_ 32 0#32) :
    StableHlo.after hostOps0_20 X (Proc.devRef .tc main_v47) = kVarR (X (Proc.devRef .tc main_v42)) := by
  after_results_simp
  rw [hc]
  rfl

/-- xr_num from root_num_g, gamma_r and beta_r, given that the mean and the variance read are root_num_g's own. -/
theorem val_bn (X : Valuation τ sig (Elt F))
    (hmean : X (Proc.devRef .tc main_v46) = kMeanR (X (Proc.devRef .tc main_v42)))
    (hvar : X (Proc.devRef .tc main_v47) = kVarR (X (Proc.devRef .tc main_v42))) :
    StableHlo.after hostOps0_21 X (Proc.devRef .tc main_v59)
      = kBnR (X (Proc.devRef .tc main_v42)) (X (Proc.devRef .tc main_arg10)) (X (Proc.devRef .tc main_arg11)) := by
  after_results_simp
  rw [hmean, hvar]
  rfl

/-! ## The stretches in three groups: the embedding columns, the batch norm, the child branch -/

/-- The seventeen stretches that make the eight gathered columns. -/
abbrev catOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- The four stretches of the numerical half. -/
abbrev numOps : List (List (HloOp τ sig (Elt F))) := [hostOps0_18, hostOps0_19, hostOps0_20, hostOps0_21]

/-- The thirty-eight stretches of the child branch. -/
abbrev childOps : List (List (HloOp τ sig (Elt F))) :=
  [hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59]

/-- A stretch's block of numbers inside a group's. -/
local macro "wide " h:ident : term => `(WritesWithin.mono $h (by decide) (by decide))

theorem catOps_within : ∀ ops ∈ (catOps : List (List (HloOp τ sig (Elt F)))), WritesWithin 14 252 ops := by
  simp only [catOps, List.forall_mem_cons, List.not_mem_nil, false_imp_iff, implies_true, and_true]
  exact ⟨wide hostOps0_within, wide hostOps0_1_within, wide hostOps0_2_within, wide hostOps0_3_within, wide hostOps0_4_within, wide hostOps0_5_within, wide hostOps0_6_within, wide hostOps0_7_within, wide hostOps0_8_within, wide hostOps0_9_within, wide hostOps0_10_within, wide hostOps0_11_within, wide hostOps0_12_within, wide hostOps0_13_within, wide hostOps0_14_within, wide hostOps0_15_within, wide hostOps0_16_within⟩

theorem numOps_within : ∀ ops ∈ (numOps : List (List (HloOp τ sig (Elt F)))), WritesWithin 254 319 ops := by
  simp only [numOps, List.forall_mem_cons, List.not_mem_nil, false_imp_iff, implies_true, and_true]
  exact ⟨wide hostOps0_18_within, wide hostOps0_19_within, wide hostOps0_20_within, wide hostOps0_21_within⟩

theorem childOps_within : ∀ ops ∈ (childOps : List (List (HloOp τ sig (Elt F)))), WritesWithin 320 839 ops := by
  simp only [childOps, List.forall_mem_cons, List.not_mem_nil, false_imp_iff, implies_true, and_true]
  exact ⟨wide hostOps0_22_within, wide hostOps0_23_within, wide hostOps0_24_within, wide hostOps0_25_within, wide hostOps0_26_within, wide hostOps0_27_within, wide hostOps0_28_within, wide hostOps0_29_within, wide hostOps0_30_within, wide hostOps0_31_within, wide hostOps0_32_within, wide hostOps0_33_within, wide hostOps0_34_within, wide hostOps0_35_within, wide hostOps0_36_within, wide hostOps0_37_within, wide hostOps0_38_within, wide hostOps0_39_within, wide hostOps0_40_within, wide hostOps0_41_within, wide hostOps0_42_within, wide hostOps0_43_within, wide hostOps0_44_within, wide hostOps0_45_within, wide hostOps0_46_within, wide hostOps0_47_within, wide hostOps0_48_within, wide hostOps0_49_within, wide hostOps0_50_within, wide hostOps0_51_within, wide hostOps0_52_within, wide hostOps0_53_within, wide hostOps0_54_within, wide hostOps0_55_within, wide hostOps0_56_within, wide hostOps0_57_within, wide hostOps0_58_within, wide hostOps0_59_within⟩

/-- The sixty stretches are the three groups with the concatenate between the first two. -/
theorem prefixOps_split :
    (prefixOps : List (List (HloOp τ sig (Elt F)))) = catOps ++ ([hostOps0_17] ++ (numOps ++ childOps)) := rfl

variable (m : (ℓ : Loc nD τ sig) → Buf (Elt F) ℓ)

/-- The entry contents, group by group. -/
theorem V0_split (c : Dev nD) :
    V0 m c = afterAll childOps (afterAll numOps (StableHlo.after hostOps0_17 (afterAll catOps (fun b => m (c, b))))) := by
  show StableHlo.after (List.flatten prefixOps) _ = _
  rw [← afterAll_eq_after_flatten, prefixOps_split, afterAll_append, afterAll_append, afterAll_append]
  rfl

/-! ## The eight columns after the first group -/

/-- Reads a buffer through the first group's stretches: across a stretch that does not write it by its number,
    at the stretch that writes it by that stretch's value. -/
local macro "cat_read" : tactic =>
  `(tactic| repeat (first
    | (rw [WritesWithin.keeps hostOps0_16_within]; rotate_left; decide)
    | (rw [WritesWithin.keeps hostOps0_15_within]; rotate_left; decide)
    | (rw [WritesWithin.keeps hostOps0_14_within]; rotate_left; decide)
    | (rw [WritesWithin.keeps hostOps0_13_within]; rotate_left; decide)
    | (rw [WritesWithin.keeps hostOps0_12_within]; rotate_left; decide)
    | (rw [WritesWithin.keeps hostOps0_11_within]; rotate_left; decide)
    | (rw [WritesWithin.keeps hostOps0_10_within]; rotate_left; decide)
    | (rw [WritesWithin.keeps hostOps0_9_within]; rotate_left; decide)
    | (rw [WritesWithin.keeps hostOps0_8_within]; rotate_left; decide)
    | (rw [WritesWithin.keeps hostOps0_7_within]; rotate_left; decide)
    | (rw [WritesWithin.keeps hostOps0_6_within]; rotate_left; decide)
    | (rw [WritesWithin.keeps hostOps0_5_within]; rotate_left; decide)
    | (rw [WritesWithin.keeps hostOps0_4_within]; rotate_left; decide)
    | (rw [WritesWithin.keeps hostOps0_3_within]; rotate_left; decide)
    | (rw [WritesWithin.keeps hostOps0_2_within]; rotate_left; decide)
    | (rw [WritesWithin.keeps hostOps0_1_within]; rotate_left; decide)
    | (rw [WritesWithin.keeps hostOps0_within]; rotate_left; decide)
    | rw [val_take7] | rw [val_tab7] | rw [val_col7]
    | rw [val_take6] | rw [val_tab6] | rw [val_col6]
    | rw [val_take5] | rw [val_tab5] | rw [val_col5]
    | rw [val_take4] | rw [val_tab4] | rw [val_col4]
    | rw [val_take3] | rw [val_tab3] | rw [val_col3]
    | rw [val_take2] | rw [val_tab2] | rw [val_col2]
    | rw [val_take1] | rw [val_tab1] | rw [val_col1]
    | rw [val_take0] | rw [val_tab0] | rw [val_col0]
    | rw [val_rcatG]))

/-- Column k after the seventeen stretches: cols[k] of the embedding. -/
local macro "er_column " n:ident v:ident k:num : command =>
  `(theorem $n {F : FTy → Type} [FloatOps F] (X : Valuation τ sig (Elt F)) :
        afterAll catOps X (Proc.devRef .tc $v)
          = kErCol $k (X (Proc.devRef .tc main_arg0)) (X (Proc.devRef .tc main_arg2)) (X (Proc.devRef .tc main_arg6)) := by
      simp only [catOps, afterAll_cons, afterAll_nil]
      cat_read
      rfl)

er_column erCol0 main_v5 0
er_column erCol1 main_v10 1
er_column erCol2 main_v15 2
er_column erCol3 main_v20 3
er_column erCol4 main_v25 4
er_column erCol5 main_v30 5
er_column erCol6 main_v35 6
er_column erCol7 main_v40 7

/-! ## The two results -/

/-- main_v41 at the kernel call is xr_cat. -/
theorem V_main_v41 (c : Dev nD) :
    V m c main_v41 = kXrCat (m ((c : Thread nD τ).loc main_arg0)) (m ((c : Thread nD τ).loc main_arg2))
      (m ((c : Thread nD τ).loc main_arg6)) := by
  show V0 m c (Proc.devRef .tc main_v41) = _
  rw [V0_split, afterAll_keeps _ childOps_within _ main_v41 (Or.inl (by decide)),
    afterAll_keeps _ numOps_within _ main_v41 (Or.inl (by decide)), val_concat,
    erCol0, erCol1, erCol2, erCol3, erCol4, erCol5, erCol6, erCol7]
  rfl

/-- main_v59 at the kernel call is xr_num. -/
theorem V_main_v59 (c : Dev nD) :
    V m c main_v59 = kXrNum (m ((c : Thread nD τ).loc main_arg0)) (m ((c : Thread nD τ).loc main_arg3))
      (m ((c : Thread nD τ).loc main_arg10)) (m ((c : Thread nD τ).loc main_arg11)) := by
  show V0 m c (Proc.devRef .tc main_v59) = _
  rw [V0_split, afterAll_keeps _ childOps_within _ main_v59 (Or.inl (by decide))]
  -- what the numerical half starts from is the launch contents at every argument: the first group and the
  -- concatenate write no argument
  have hY : ∀ r : Ref sig .tc, r.idx.val < 14 →
      StableHlo.after hostOps0_17 (afterAll catOps (fun b => m (c, b))) (Proc.devRef .tc r) = m (c, Proc.devRef .tc r) :=
    fun r hr => by
      rw [hostOps0_17_within.keeps _ r (Or.inl (by omega)), afterAll_keeps _ catOps_within _ r (Or.inl hr)]
  generalize StableHlo.after hostOps0_17 (afterAll catOps (fun b => m (c, b))) = Y at hY ⊢
  simp only [numOps, afterAll_cons, afterAll_nil]
  -- when the variance is taken ddof is 0, and the mean and the variance the last stretch reads are root_num_g's
  have hc := val_ddof (StableHlo.after hostOps0_18 Y)
  have hmean : StableHlo.after hostOps0_20 (StableHlo.after hostOps0_19 (StableHlo.after hostOps0_18 Y)) (Proc.devRef .tc main_v46)
      = kMeanR (StableHlo.after hostOps0_20 (StableHlo.after hostOps0_19 (StableHlo.after hostOps0_18 Y)) (Proc.devRef .tc main_v42)) := by
    rw [hostOps0_20_within.keeps _ main_v46 (Or.inl (by decide)), val_mean,
      hostOps0_20_within.keeps _ main_v42 (Or.inl (by decide)), hostOps0_19_within.keeps _ main_v42 (Or.inl (by decide))]
  have hvar : StableHlo.after hostOps0_20 (StableHlo.after hostOps0_19 (StableHlo.after hostOps0_18 Y)) (Proc.devRef .tc main_v47)
      = kVarR (StableHlo.after hostOps0_20 (StableHlo.after hostOps0_19 (StableHlo.after hostOps0_18 Y)) (Proc.devRef .tc main_v42)) := by
    rw [val_var _ hc, hostOps0_20_within.keeps _ main_v42 (Or.inl (by decide))]
  rw [val_bn _ hmean hvar,
    hostOps0_20_within.keeps _ main_v42 (Or.inl (by decide)), hostOps0_19_within.keeps _ main_v42 (Or.inl (by decide)),
    val_rnumG,
    hostOps0_20_within.keeps _ main_arg10 (Or.inl (by decide)), hostOps0_19_within.keeps _ main_arg10 (Or.inl (by decide)),
    hostOps0_18_within.keeps _ main_arg10 (Or.inl (by decide)),
    hostOps0_20_within.keeps _ main_arg11 (Or.inl (by decide)), hostOps0_19_within.keeps _ main_arg11 (Or.inl (by decide)),
    hostOps0_18_within.keeps _ main_arg11 (Or.inl (by decide)),
    hY main_arg3 (by decide), hY main_arg0 (by decide), hY main_arg10 (by decide), hY main_arg11 (by decide)]
  rfl

end Cert.KernelIdeal.Hand

end
-- ==== Proof.KValChildKeep.lean ====
/-
  Which buffers a stretch of host operations leaves alone, by table index: the operations of the
  program write their results in order into consecutive table entries, so a stretch writes an
  interval of indices and a buffer outside the interval keeps its contents. With it, the
  buffers after the first `k` stretches, and the carry of a buffer across a range of stretches.
-/
import proofs.«409894_j6640019439760_1_alg».proof.Proof.KIEntry

noncomputable section

namespace Cert.KernelIdeal.Hand.ChildRun

open Cert.KernelIdeal
open Idealize.ShloMosaic Idealize.ShloMosaic.TcCoe Idealize.SL.Sem
open Idealize.ShloMosaic.StableHlo

variable {F : FTy → Type} [FloatOps F]

/-- Every buffer the operations write has its table index in `[lo, hi)`. -/
def WritesIn (lo hi : Nat) (ops : List (HloOp τ sig (Elt F))) : Prop :=
  ∀ op ∈ ops, ∀ b ∈ op.writes, lo ≤ b.idx.val ∧ b.idx.val < hi

theorem WritesIn.nil {lo hi : Nat} : WritesIn lo hi ([] : List (HloOp τ sig (Elt F))) :=
  fun _ h => nomatch h

/-- An operation that writes the one buffer `y` extends the fact when `y`'s index lies inside. -/
theorem WritesIn.cons {lo hi : Nat} {op : HloOp τ sig (Elt F)} {ops : List (HloOp τ sig (Elt F))} {y : Ref sig .tc}
    (hw : op.writes = {Proc.devRef (τ := τ) .tc y}) (hy : lo ≤ y.idx.val ∧ y.idx.val < hi)
    (h : WritesIn lo hi ops) : WritesIn lo hi (op :: ops) := by
  intro o ho b hb
  rcases List.mem_cons.mp ho with rfl | ho
  · rw [hw, Finset.mem_singleton] at hb; subst hb; exact hy
  · exact h o ho b hb

/-- A buffer whose index lies outside the interval keeps its contents. -/
theorem WritesIn.keep {lo hi : Nat} {ops : List (HloOp τ sig (Elt F))} (h : WritesIn lo hi ops)
    (W : Valuation τ sig (Elt F)) (b : DevRef τ sig) (hb : b.idx.val < lo ∨ hi ≤ b.idx.val) :
    after ops W b = W b :=
  after_of_forall_not_mem ops W fun op hop hmem => by
    have := h op hop b hmem; omega

/-! ## The buffers after the first `k` stretches -/

/-- Two lines of operations in a row: the second runs from what the first left. -/
theorem after_two : ∀ (l₁ l₂ : List (HloOp τ sig (Elt F))) (W : Valuation τ sig (Elt F)),
    after (l₁ ++ l₂) W = after l₂ (after l₁ W)
  | [], _, _ => rfl
  | op :: l₁, l₂, W => by rw [List.cons_append, after_cons, after_cons, after_two l₁ l₂]

variable (items : List (List (HloOp τ sig (Elt F)))) (L : Valuation τ sig (Elt F))

/-- The buffers after the first `k` of the stretches `items`, run from the contents `L`. -/
def upTo (k : Nat) : Valuation τ sig (Elt F) := after (items.take k).flatten L

theorem upTo_zero : upTo items L 0 = L := rfl

theorem upTo_length : upTo items L items.length = after items.flatten L := by
  unfold upTo; rw [List.take_length]

/-- One more stretch: it runs from what the stretches before it left. -/
theorem upTo_succ {k : Nat} (h : k < items.length) : upTo items L (k + 1) = after items[k] (upTo items L k) := by
  unfold upTo
  rw [List.take_succ_eq_append_getElem h, List.flatten_concat, after_two]

/-- The same at a named stretch: `ops` is stretch `k` and `j` is `k + 1`. -/
theorem upTo_at {k j : Nat} (hj : j = k + 1) (h : k < items.length) (ops : List (HloOp τ sig (Elt F)))
    (hops : items[k] = ops) : upTo items L j = after ops (upTo items L k) := by
  subst hj; subst hops; exact upTo_succ items L h

/-- Stretch `k` writes the indices `[bd k, bd (k + 1))`: the table of the cuts. -/
structure Cuts (bd : Nat → Nat) : Prop where
  mono : ∀ k, k < items.length → bd k ≤ bd (k + 1)
  writes : ∀ k (h : k < items.length), WritesIn (bd k) (bd (k + 1)) items[k]

variable {items}

theorem Cuts.le {bd : Nat → Nat} (hc : Cuts items bd) {i j : Nat} (hij : i ≤ j) (hj : j ≤ items.length) : bd i ≤ bd j := by
  induction j, hij using Nat.le_induction with
  | base => exact Nat.le_refl _
  | succ j hij ih => exact (ih (by omega)).trans (hc.mono j (by omega))

/-- A buffer whose index lies before stretch `i`'s first result, or from stretch `j`'s first result on,
    holds after the first `j` stretches what it held after the first `i`. -/
theorem Cuts.carry {bd : Nat → Nat} (hc : Cuts items bd) {i j : Nat} (hij : i ≤ j) (hj : j ≤ items.length)
    (b : DevRef τ sig) (hb : b.idx.val < bd i ∨ bd j ≤ b.idx.val) : upTo items L j b = upTo items L i b := by
  induction j, hij using Nat.le_induction with
  | base => rfl
  | succ j hij ih =>
    have hjl : j < items.length := by omega
    have h1 : bd i ≤ bd j := hc.le hij (by omega)
    have h2 : bd j ≤ bd (j + 1) := hc.mono j hjl
    rw [upTo_succ items L hjl, (hc.writes j hjl).keep _ b (by omega)]
    exact ih (by omega) (by omega)

end Cert.KernelIdeal.Hand.ChildRun

end
-- ==== Proof.KValChildWrites.lean ====
/-
  The interval of table indices each of the sixty stretches of host operations before the kernel
  region writes, and the table of the cuts between them.
-/
import proofs.«409894_j6640019439760_1_alg».proof.Proof.KValChildKeep
import Mathlib.Tactic.IntervalCases

noncomputable section

namespace Cert.KernelIdeal.Hand.ChildRun

open Cert.KernelIdeal Cert.KernelIdeal.Gen Cert.KernelIdeal.GenP
open Idealize.ShloMosaic Idealize.ShloMosaic.TcCoe Idealize.SL.Sem
open Idealize.ShloMosaic.StableHlo

variable {F : FTy → Type} [FloatOps F]

/-- Stretch 0 writes the table entries 14 to 36. -/
theorem w_0 : WritesIn 14 37 (hostOps0 : List (HloOp τ sig (Elt F))) := by
  repeat (first | exact WritesIn.nil | refine WritesIn.cons rfl (by decide) ?_)

/-- Stretch 1 writes the table entries 37 to 40. -/
theorem w_1 : WritesIn 37 41 (hostOps0_1 : List (HloOp τ sig (Elt F))) := by
  repeat (first | exact WritesIn.nil | refine WritesIn.cons rfl (by decide) ?_)

/-- Stretch 2 writes the table entries 41 to 63. -/
theorem w_2 : WritesIn 41 64 (hostOps0_2 : List (HloOp τ sig (Elt F))) := by
  repeat (first | exact WritesIn.nil | refine WritesIn.cons rfl (by decide) ?_)

/-- Stretch 3 writes the table entries 64 to 67. -/
theorem w_3 : WritesIn 64 68 (hostOps0_3 : List (HloOp τ sig (Elt F))) := by
  repeat (first | exact WritesIn.nil | refine WritesIn.cons rfl (by decide) ?_)

/-- Stretch 4 writes the table entries 68 to 90. -/
theorem w_4 : WritesIn 68 91 (hostOps0_4 : List (HloOp τ sig (Elt F))) := by
  repeat (first | exact WritesIn.nil | refine WritesIn.cons rfl (by decide) ?_)

/-- Stretch 5 writes the table entries 91 to 94. -/
theorem w_5 : WritesIn 91 95 (hostOps0_5 : List (HloOp τ sig (Elt F))) := by
  repeat (first | exact WritesIn.nil | refine WritesIn.cons rfl (by decide) ?_)

/-- Stretch 6 writes the table entries 95 to 117. -/
theorem w_6 : WritesIn 95 118 (hostOps0_6 : List (HloOp τ sig (Elt F))) := by
  repeat (first | exact WritesIn.nil | refine WritesIn.cons rfl (by decide) ?_)

/-- Stretch 7 writes the table entries 118 to 121. -/
theorem w_7 : WritesIn 118 122 (hostOps0_7 : List (HloOp τ sig (Elt F))) := by
  repeat (first | exact WritesIn.nil | refine WritesIn.cons rfl (by decide) ?_)

/-- Stretch 8 writes the table entries 122 to 144. -/
theorem w_8 : WritesIn 122 145 (hostOps0_8 : List (HloOp τ sig (Elt F))) := by
  repeat (first | exact WritesIn.nil | refine WritesIn.cons rfl (by decide) ?_)

/-- Stretch 9 writes the table entries 145 to 148. -/
theorem w_9 : WritesIn 145 149 (hostOps0_9 : List (HloOp τ sig (Elt F))) := by
  repeat (first | exact WritesIn.nil | refine WritesIn.cons rfl (by decide) ?_)

/-- Stretch 10 writes the table entries 149 to 171. -/
theorem w_10 : WritesIn 149 172 (hostOps0_10 : List (HloOp τ sig (Elt F))) := by
  repeat (first | exact WritesIn.nil | refine WritesIn.cons rfl (by decide) ?_)

/-- Stretch 11 writes the table entries 172 to 175. -/
theorem w_11 : WritesIn 172 176 (hostOps0_11 : List (HloOp τ sig (Elt F))) := by
  repeat (first | exact WritesIn.nil | refine WritesIn.cons rfl (by decide) ?_)

/-- Stretch 12 writes the table entries 176 to 198. -/
theorem w_12 : WritesIn 176 199 (hostOps0_12 : List (HloOp τ sig (Elt F))) := by
  repeat (first | exact WritesIn.nil | refine WritesIn.cons rfl (by decide) ?_)

/-- Stretch 13 writes the table entries 199 to 202. -/
theorem w_13 : WritesIn 199 203 (hostOps0_13 : List (HloOp τ sig (Elt F))) := by
  repeat (first | exact WritesIn.nil | refine WritesIn.cons rfl (by decide) ?_)

/-- Stretch 14 writes the table entries 203 to 225. -/
theorem w_14 : WritesIn 203 226 (hostOps0_14 : List (HloOp τ sig (Elt F))) := by
  repeat (first | exact WritesIn.nil | refine WritesIn.cons rfl (by decide) ?_)

/-- Stretch 15 writes the table entries 226 to 229. -/
theorem w_15 : WritesIn 226 230 (hostOps0_15 : List (HloOp τ sig (Elt F))) := by
  repeat (first | exact WritesIn.nil | refine WritesIn.cons rfl (by decide) ?_)

/-- Stretch 16 writes the table entries 230 to 252. -/
theorem w_16 : WritesIn 230 253 (hostOps0_16 : List (HloOp τ sig (Elt F))) := by
  repeat (first | exact WritesIn.nil | refine WritesIn.cons rfl (by decide) ?_)

/-- Stretch 17 writes the table entries 253 to 253. -/
theorem w_17 : WritesIn 253 254 (hostOps0_17 : List (HloOp τ sig (Elt F))) := by
  repeat (first | exact WritesIn.nil | refine WritesIn.cons rfl (by decide) ?_)

/-- Stretch 18 writes the table entries 254 to 276. -/
theorem w_18 : WritesIn 254 277 (hostOps0_18 : List (HloOp τ sig (Elt F))) := by
  repeat (first | exact WritesIn.nil | refine WritesIn.cons rfl (by decide) ?_)

/-- Stretch 19 writes the table entries 277 to 283. -/
theorem w_19 : WritesIn 277 284 (hostOps0_19 : List (HloOp τ sig (Elt F))) := by
  repeat (first | exact WritesIn.nil | refine WritesIn.cons rfl (by decide) ?_)

/-- Stretch 20 writes the table entries 284 to 306. -/
theorem w_20 : WritesIn 284 307 (hostOps0_20 : List (HloOp τ sig (Elt F))) := by
  repeat (first | exact WritesIn.nil | refine WritesIn.cons rfl (by decide) ?_)

/-- Stretch 21 writes the table entries 307 to 319. -/
theorem w_21 : WritesIn 307 320 (hostOps0_21 : List (HloOp τ sig (Elt F))) := by
  repeat (first | exact WritesIn.nil | refine WritesIn.cons rfl (by decide) ?_)

/-- Stretch 22 writes the table entries 320 to 342. -/
theorem w_22 : WritesIn 320 343 (hostOps0_22 : List (HloOp τ sig (Elt F))) := by
  repeat (first | exact WritesIn.nil | refine WritesIn.cons rfl (by decide) ?_)

/-- Stretch 23 writes the table entries 343 to 346. -/
theorem w_23 : WritesIn 343 347 (hostOps0_23 : List (HloOp τ sig (Elt F))) := by
  repeat (first | exact WritesIn.nil | refine WritesIn.cons rfl (by decide) ?_)

/-- Stretch 24 writes the table entries 347 to 369. -/
theorem w_24 : WritesIn 347 370 (hostOps0_24 : List (HloOp τ sig (Elt F))) := by
  repeat (first | exact WritesIn.nil | refine WritesIn.cons rfl (by decide) ?_)

/-- Stretch 25 writes the table entries 370 to 373. -/
theorem w_25 : WritesIn 370 374 (hostOps0_25 : List (HloOp τ sig (Elt F))) := by
  repeat (first | exact WritesIn.nil | refine WritesIn.cons rfl (by decide) ?_)

/-- Stretch 26 writes the table entries 374 to 396. -/
theorem w_26 : WritesIn 374 397 (hostOps0_26 : List (HloOp τ sig (Elt F))) := by
  repeat (first | exact WritesIn.nil | refine WritesIn.cons rfl (by decide) ?_)

/-- Stretch 27 writes the table entries 397 to 400. -/
theorem w_27 : WritesIn 397 401 (hostOps0_27 : List (HloOp τ sig (Elt F))) := by
  repeat (first | exact WritesIn.nil | refine WritesIn.cons rfl (by decide) ?_)

/-- Stretch 28 writes the table entries 401 to 423. -/
theorem w_28 : WritesIn 401 424 (hostOps0_28 : List (HloOp τ sig (Elt F))) := by
  repeat (first | exact WritesIn.nil | refine WritesIn.cons rfl (by decide) ?_)

/-- Stretch 29 writes the table entries 424 to 427. -/
theorem w_29 : WritesIn 424 428 (hostOps0_29 : List (HloOp τ sig (Elt F))) := by
  repeat (first | exact WritesIn.nil | refine WritesIn.cons rfl (by decide) ?_)

/-- Stretch 30 writes the table entries 428 to 450. -/
theorem w_30 : WritesIn 428 451 (hostOps0_30 : List (HloOp τ sig (Elt F))) := by
  repeat (first | exact WritesIn.nil | refine WritesIn.cons rfl (by decide) ?_)

/-- Stretch 31 writes the table entries 451 to 454. -/
theorem w_31 : WritesIn 451 455 (hostOps0_31 : List (HloOp τ sig (Elt F))) := by
  repeat (first | exact WritesIn.nil | refine WritesIn.cons rfl (by decide) ?_)

/-- Stretch 32 writes the table entries 455 to 477. -/
theorem w_32 : WritesIn 455 478 (hostOps0_32 : List (HloOp τ sig (Elt F))) := by
  repeat (first | exact WritesIn.nil | refine WritesIn.cons rfl (by decide) ?_)

/-- Stretch 33 writes the table entries 478 to 481. -/
theorem w_33 : WritesIn 478 482 (hostOps0_33 : List (HloOp τ sig (Elt F))) := by
  repeat (first | exact WritesIn.nil | refine WritesIn.cons rfl (by decide) ?_)

/-- Stretch 34 writes the table entries 482 to 504. -/
theorem w_34 : WritesIn 482 505 (hostOps0_34 : List (HloOp τ sig (Elt F))) := by
  repeat (first | exact WritesIn.nil | refine WritesIn.cons rfl (by decide) ?_)

/-- Stretch 35 writes the table entries 505 to 508. -/
theorem w_35 : WritesIn 505 509 (hostOps0_35 : List (HloOp τ sig (Elt F))) := by
  repeat (first | exact WritesIn.nil | refine WritesIn.cons rfl (by decide) ?_)

/-- Stretch 36 writes the table entries 509 to 531. -/
theorem w_36 : WritesIn 509 532 (hostOps0_36 : List (HloOp τ sig (Elt F))) := by
  repeat (first | exact WritesIn.nil | refine WritesIn.cons rfl (by decide) ?_)

/-- Stretch 37 writes the table entries 532 to 535. -/
theorem w_37 : WritesIn 532 536 (hostOps0_37 : List (HloOp τ sig (Elt F))) := by
  repeat (first | exact WritesIn.nil | refine WritesIn.cons rfl (by decide) ?_)

/-- Stretch 38 writes the table entries 536 to 558. -/
theorem w_38 : WritesIn 536 559 (hostOps0_38 : List (HloOp τ sig (Elt F))) := by
  repeat (first | exact WritesIn.nil | refine WritesIn.cons rfl (by decide) ?_)

/-- Stretch 39 writes the table entries 559 to 562. -/
theorem w_39 : WritesIn 559 563 (hostOps0_39 : List (HloOp τ sig (Elt F))) := by
  repeat (first | exact WritesIn.nil | refine WritesIn.cons rfl (by decide) ?_)

/-- Stretch 40 writes the table entries 563 to 585. -/
theorem w_40 : WritesIn 563 586 (hostOps0_40 : List (HloOp τ sig (Elt F))) := by
  repeat (first | exact WritesIn.nil | refine WritesIn.cons rfl (by decide) ?_)

/-- Stretch 41 writes the table entries 586 to 589. -/
theorem w_41 : WritesIn 586 590 (hostOps0_41 : List (HloOp τ sig (Elt F))) := by
  repeat (first | exact WritesIn.nil | refine WritesIn.cons rfl (by decide) ?_)

/-- Stretch 42 writes the table entries 590 to 612. -/
theorem w_42 : WritesIn 590 613 (hostOps0_42 : List (HloOp τ sig (Elt F))) := by
  repeat (first | exact WritesIn.nil | refine WritesIn.cons rfl (by decide) ?_)

/-- Stretch 43 writes the table entries 613 to 616. -/
theorem w_43 : WritesIn 613 617 (hostOps0_43 : List (HloOp τ sig (Elt F))) := by
  repeat (first | exact WritesIn.nil | refine WritesIn.cons rfl (by decide) ?_)

/-- Stretch 44 writes the table entries 617 to 639. -/
theorem w_44 : WritesIn 617 640 (hostOps0_44 : List (HloOp τ sig (Elt F))) := by
  repeat (first | exact WritesIn.nil | refine WritesIn.cons rfl (by decide) ?_)

/-- Stretch 45 writes the table entries 640 to 643. -/
theorem w_45 : WritesIn 640 644 (hostOps0_45 : List (HloOp τ sig (Elt F))) := by
  repeat (first | exact WritesIn.nil | refine WritesIn.cons rfl (by decide) ?_)

/-- Stretch 46 writes the table entries 644 to 666. -/
theorem w_46 : WritesIn 644 667 (hostOps0_46 : List (HloOp τ sig (Elt F))) := by
  repeat (first | exact WritesIn.nil | refine WritesIn.cons rfl (by decide) ?_)

/-- Stretch 47 writes the table entries 667 to 670. -/
theorem w_47 : WritesIn 667 671 (hostOps0_47 : List (HloOp τ sig (Elt F))) := by
  repeat (first | exact WritesIn.nil | refine WritesIn.cons rfl (by decide) ?_)

/-- Stretch 48 writes the table entries 671 to 693. -/
theorem w_48 : WritesIn 671 694 (hostOps0_48 : List (HloOp τ sig (Elt F))) := by
  repeat (first | exact WritesIn.nil | refine WritesIn.cons rfl (by decide) ?_)

/-- Stretch 49 writes the table entries 694 to 697. -/
theorem w_49 : WritesIn 694 698 (hostOps0_49 : List (HloOp τ sig (Elt F))) := by
  repeat (first | exact WritesIn.nil | refine WritesIn.cons rfl (by decide) ?_)

/-- Stretch 50 writes the table entries 698 to 720. -/
theorem w_50 : WritesIn 698 721 (hostOps0_50 : List (HloOp τ sig (Elt F))) := by
  repeat (first | exact WritesIn.nil | refine WritesIn.cons rfl (by decide) ?_)

/-- Stretch 51 writes the table entries 721 to 724. -/
theorem w_51 : WritesIn 721 725 (hostOps0_51 : List (HloOp τ sig (Elt F))) := by
  repeat (first | exact WritesIn.nil | refine WritesIn.cons rfl (by decide) ?_)

/-- Stretch 52 writes the table entries 725 to 747. -/
theorem w_52 : WritesIn 725 748 (hostOps0_52 : List (HloOp τ sig (Elt F))) := by
  repeat (first | exact WritesIn.nil | refine WritesIn.cons rfl (by decide) ?_)

/-- Stretch 53 writes the table entries 748 to 751. -/
theorem w_53 : WritesIn 748 752 (hostOps0_53 : List (HloOp τ sig (Elt F))) := by
  repeat (first | exact WritesIn.nil | refine WritesIn.cons rfl (by decide) ?_)

/-- Stretch 54 writes the table entries 752 to 774. -/
theorem w_54 : WritesIn 752 775 (hostOps0_54 : List (HloOp τ sig (Elt F))) := by
  repeat (first | exact WritesIn.nil | refine WritesIn.cons rfl (by decide) ?_)

/-- Stretch 55 writes the table entries 775 to 776. -/
theorem w_55 : WritesIn 775 777 (hostOps0_55 : List (HloOp τ sig (Elt F))) := by
  repeat (first | exact WritesIn.nil | refine WritesIn.cons rfl (by decide) ?_)

/-- Stretch 56 writes the table entries 777 to 799. -/
theorem w_56 : WritesIn 777 800 (hostOps0_56 : List (HloOp τ sig (Elt F))) := by
  repeat (first | exact WritesIn.nil | refine WritesIn.cons rfl (by decide) ?_)

/-- Stretch 57 writes the table entries 800 to 806. -/
theorem w_57 : WritesIn 800 807 (hostOps0_57 : List (HloOp τ sig (Elt F))) := by
  repeat (first | exact WritesIn.nil | refine WritesIn.cons rfl (by decide) ?_)

/-- Stretch 58 writes the table entries 807 to 829. -/
theorem w_58 : WritesIn 807 830 (hostOps0_58 : List (HloOp τ sig (Elt F))) := by
  repeat (first | exact WritesIn.nil | refine WritesIn.cons rfl (by decide) ?_)

/-- Stretch 59 writes the table entries 830 to 839. -/
theorem w_59 : WritesIn 830 840 (hostOps0_59 : List (HloOp τ sig (Elt F))) := by
  repeat (first | exact WritesIn.nil | refine WritesIn.cons rfl (by decide) ?_)

/-- The first table index each stretch writes; the last entry is one past the last stretch's results. -/
def cutList : List Nat := [14, 37, 41, 64, 68, 91, 95, 118, 122, 145, 149, 172, 176, 199, 203, 226, 230, 253, 254, 277, 284, 307, 320, 343, 347, 370, 374, 397, 401, 424, 428, 451, 455, 478, 482, 505, 509, 532, 536, 559, 563, 586, 590, 613, 617, 640, 644, 667, 671, 694, 698, 721, 725, 748, 752, 775, 777, 800, 807, 830, 840]

/-- Stretch k writes the indices from cut k up to cut (k + 1). -/
abbrev cut (k : Nat) : Nat := cutList.getD k 0

theorem cut_mono : ∀ k, k < 60 → cut k ≤ cut (k + 1) := by decide

theorem cuts : Cuts (prefixOps (F := F)) cut where
  mono := fun k hk => cut_mono k hk
  writes := by
    intro k h
    have h60 : k < 60 := h
    interval_cases k
    · exact w_0
    · exact w_1
    · exact w_2
    · exact w_3
    · exact w_4
    · exact w_5
    · exact w_6
    · exact w_7
    · exact w_8
    · exact w_9
    · exact w_10
    · exact w_11
    · exact w_12
    · exact w_13
    · exact w_14
    · exact w_15
    · exact w_16
    · exact w_17
    · exact w_18
    · exact w_19
    · exact w_20
    · exact w_21
    · exact w_22
    · exact w_23
    · exact w_24
    · exact w_25
    · exact w_26
    · exact w_27
    · exact w_28
    · exact w_29
    · exact w_30
    · exact w_31
    · exact w_32
    · exact w_33
    · exact w_34
    · exact w_35
    · exact w_36
    · exact w_37
    · exact w_38
    · exact w_39
    · exact w_40
    · exact w_41
    · exact w_42
    · exact w_43
    · exact w_44
    · exact w_45
    · exact w_46
    · exact w_47
    · exact w_48
    · exact w_49
    · exact w_50
    · exact w_51
    · exact w_52
    · exact w_53
    · exact w_54
    · exact w_55
    · exact w_56
    · exact w_57
    · exact w_58
    · exact w_59

end Cert.KernelIdeal.Hand.ChildRun

end
-- ==== Proof.KValChildAt.lean ====
/-
  The two steps by which a buffer's contents at the region's entry are traced back through the sixty
  stretches, stated at this program's own list of stretches: one stretch run from what those before it
  left, and a buffer carried unchanged across a range of stretches that write other table entries.
-/
import proofs.«409894_j6640019439760_1_alg».proof.Proof.KValChildWrites

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F] (L : Valuation τ sig (Elt F))

/-- After the first `j = k + 1` stretches: stretch `k`, which is `ops`, run from what the first `k` left. -/
theorem stretch_at {k j : Nat} (hj : j = k + 1) (h : k < 60) (ops : List (HloOp τ sig (Elt F)))
    (hops : (prefixOps (F := F))[k]'h = ops) : upTo prefixOps L j = after ops (upTo prefixOps L k) :=
  upTo_at prefixOps L hj h ops hops

/-- A buffer whose table index lies before stretch `i`'s results, or from stretch `j`'s on, holds after
    the first `j` stretches what it held after the first `i`. -/
theorem carry {i j : Nat} (hij : i ≤ j) (hj : j ≤ 60) (b : DevRef τ sig)
    (hb : b.idx.val < cut i ∨ cut j ≤ b.idx.val) : upTo prefixOps L j b = upTo prefixOps L i b :=
  cuts.carry L hij hj b hb

/-- An argument array (table entries 0 to 13) is what the launch left, after any number of the stretches. -/
theorem arg_keep {j : Nat} (hj : j ≤ 60) (r : Ref sig .tc) (hr : r.idx.val < 14) :
    upTo prefixOps L j (Proc.devRef .tc r) = L (Proc.devRef .tc r) := by
  rw [carry L (i := 0) (j := j) (Nat.zero_le _) hj (Proc.devRef .tc r) (Or.inl hr), upTo_zero]

end Cert.KernelIdeal.Hand.ChildRun

end
-- ==== Proof.KValChildDefs.lean ====
/-
  What the host program computes for the child half of the node, as named functions of the
  argument arrays: the gathered child categories, the sixteen embedding look-ups and their
  concatenation, the gathered child numerics, and the batch-norm statistics (mean, variance,
  scale, shift) of those numerics, each stage following the program's operations in order.
-/
import proofs.«409894_j6640019439760_1_alg».proof.KernelIdeal

noncomputable section

namespace Cert.KernelIdeal.Hand

open Cert.KernelIdeal
open Idealize.ShloMosaic Idealize.SL.Sem

variable {F : FTy → Type} [FloatOps F]
variable [Facts₀]
open Facts₀

/-! ## `jnp.take(table, idx, axis=0)` over 131072 indices -/

/-- The index as `take` reads it: a negative index counts from the end (`n` is added), then it is
    laid out as a column `[131072, 1]`. -/
def takeIdxCol_131072 (n : BitVec 32) (idx : IVec S131072 32) : IVec S131072x1 32 :=
  broadcastInDim S131072x1 ![0] bcast_S131072_S131072x1_0
    (select (cmpi .slt idx (broadcastInDim S131072 ![] bcast_S_S131072 (constantI S_ 32 0#32)))
      (addi idx (broadcastInDim S131072 ![] bcast_S_S131072 (constantI S_ 32 n))) idx)

/-- `take`'s range test, row by row: `0 ≤ i` and `i ≤ last` (the and-reduction runs over the
    column's unit axis). -/
def takeInRange_131072 (last : BitVec 32) (col : IVec S131072x1 32) : IVec S131072 1 :=
  Host.reduce IntOp.andi
    (andi (cmpi .sge col (broadcastInDim S131072x1 ![] bcast_S_S131072x1 (constantI S_ 32 0#32)))
      (cmpi .sle col (broadcastInDim S131072x1 ![0, 1] bcast_S1x1_S131072x1_0_1
        (broadcastInDim S1x1 ![1] bcast_S1_S1x1_1 (constantI S1 32 last)))))
    (constantI S_ 1 1#1) reducesTo_S131072x1_S131072_d1 h_S_

/-- `take` of whole rows of a `[500000, 16]` integer table: the gathered row where the index is
    in range, the least 32-bit integer elsewhere. -/
def takeRows_500000x16_131072 (table : IVec S500000x16 32) (idx : IVec S131072 32) : IVec S131072x16 32 :=
  select
    (broadcastInDim S131072x16 ![0] bcast_S131072_S131072x16_0
      (takeInRange_131072 499999#32 (takeIdxCol_131072 500000#32 idx)))
    (Host.gather gather_S500000x16_S131072x1_S131072x16_1_0_n_n_0_1_116 table (takeIdxCol_131072 500000#32 idx))
    (broadcastInDim S131072x16 ![] bcast_S_S131072x16 (constantI S_ 32 2147483648#32))

/-- `take` of whole rows of a `[50000, 64]` float table: the gathered row where the index is in
    range, NaN elsewhere. -/
def takeRows_50000x64_131072 (table : FVec F S50000x64 .f32) (idx : IVec S131072 32) : FVec F S131072x64 .f32 :=
  select
    (broadcastInDim S131072x64 ![0] bcast_S131072_S131072x64_0
      (takeInRange_131072 49999#32 (takeIdxCol_131072 50000#32 idx)))
    (Host.gather gather_S50000x64_S131072x1_S131072x64_1_0_n_n_0_1_164 table (takeIdxCol_131072 50000#32 idx))
    (broadcastInDim S131072x64 ![] bcast_S_S131072x64 (constant S_ .f32 0x7FC00000#32))

/-- `take` of whole rows of a `[500000, 128]` float table: the gathered row where the index is in
    range, NaN elsewhere. -/
def takeRows_500000x128_131072 (table : FVec F S500000x128 .f32) (idx : IVec S131072 32) : FVec F S131072x128 .f32 :=
  select
    (broadcastInDim S131072x128 ![0] bcast_S131072_S131072x128_0
      (takeInRange_131072 499999#32 (takeIdxCol_131072 500000#32 idx)))
    (Host.gather gather_S500000x128_S131072x1_S131072x128_1_0_n_n_0_1_1128 table (takeIdxCol_131072 500000#32 idx))
    (broadcastInDim S131072x128 ![] bcast_S_S131072x128 (constant S_ .f32 0x7FC00000#32))

/-! ## The child categories and their embeddings -/

/-- `child_cat_g = take(child_cat, child_flat_idx)`. -/
def kCcatG (cidx : IVec S131072 32) (ccat : IVec S500000x16 32) : IVec S131072x16 32 :=
  takeRows_500000x16_131072 ccat cidx

/-- `emb_child[c]`: table `c` of the sixteen, as a `[50000, 64]` array. -/
def kEmbChildTable : Fin 16 → FVec F S16x50000x64 .f32 → FVec F S50000x64 .f32
  | 0, ec => shapeCast S50000x64 (extractStridedSlice S1x50000x64 ![0, 0, 0] ec slices_S16x50000x64_S1x50000x64_0_0_0) shapeCasts_S1x50000x64_S50000x64
  | 1, ec => shapeCast S50000x64 (extractStridedSlice S1x50000x64 ![1, 0, 0] ec slices_S16x50000x64_S1x50000x64_1_0_0) shapeCasts_S1x50000x64_S50000x64
  | 2, ec => shapeCast S50000x64 (extractStridedSlice S1x50000x64 ![2, 0, 0] ec slices_S16x50000x64_S1x50000x64_2_0_0) shapeCasts_S1x50000x64_S50000x64
  | 3, ec => shapeCast S50000x64 (extractStridedSlice S1x50000x64 ![3, 0, 0] ec slices_S16x50000x64_S1x50000x64_3_0_0) shapeCasts_S1x50000x64_S50000x64
  | 4, ec => shapeCast S50000x64 (extractStridedSlice S1x50000x64 ![4, 0, 0] ec slices_S16x50000x64_S1x50000x64_4_0_0) shapeCasts_S1x50000x64_S50000x64
  | 5, ec => shapeCast S50000x64 (extractStridedSlice S1x50000x64 ![5, 0, 0] ec slices_S16x50000x64_S1x50000x64_5_0_0) shapeCasts_S1x50000x64_S50000x64
  | 6, ec => shapeCast S50000x64 (extractStridedSlice S1x50000x64 ![6, 0, 0] ec slices_S16x50000x64_S1x50000x64_6_0_0) shapeCasts_S1x50000x64_S50000x64
  | 7, ec => shapeCast S50000x64 (extractStridedSlice S1x50000x64 ![7, 0, 0] ec slices_S16x50000x64_S1x50000x64_7_0_0) shapeCasts_S1x50000x64_S50000x64
  | 8, ec => shapeCast S50000x64 (extractStridedSlice S1x50000x64 ![8, 0, 0] ec slices_S16x50000x64_S1x50000x64_8_0_0) shapeCasts_S1x50000x64_S50000x64
  | 9, ec => shapeCast S50000x64 (extractStridedSlice S1x50000x64 ![9, 0, 0] ec slices_S16x50000x64_S1x50000x64_9_0_0) shapeCasts_S1x50000x64_S50000x64
  | 10, ec => shapeCast S50000x64 (extractStridedSlice S1x50000x64 ![10, 0, 0] ec slices_S16x50000x64_S1x50000x64_10_0_0) shapeCasts_S1x50000x64_S50000x64
  | 11, ec => shapeCast S50000x64 (extractStridedSlice S1x50000x64 ![11, 0, 0] ec slices_S16x50000x64_S1x50000x64_11_0_0) shapeCasts_S1x50000x64_S50000x64
  | 12, ec => shapeCast S50000x64 (extractStridedSlice S1x50000x64 ![12, 0, 0] ec slices_S16x50000x64_S1x50000x64_12_0_0) shapeCasts_S1x50000x64_S50000x64
  | 13, ec => shapeCast S50000x64 (extractStridedSlice S1x50000x64 ![13, 0, 0] ec slices_S16x50000x64_S1x50000x64_13_0_0) shapeCasts_S1x50000x64_S50000x64
  | 14, ec => shapeCast S50000x64 (extractStridedSlice S1x50000x64 ![14, 0, 0] ec slices_S16x50000x64_S1x50000x64_14_0_0) shapeCasts_S1x50000x64_S50000x64
  | 15, ec => shapeCast S50000x64 (extractStridedSlice S1x50000x64 ![15, 0, 0] ec slices_S16x50000x64_S1x50000x64_15_0_0) shapeCasts_S1x50000x64_S50000x64
  | ⟨_ + 16, h⟩, _ => absurd h (Nat.not_lt.2 (Nat.le_add_left _ _))

/-- `child_cat_g[:, c]`: column `c` of the gathered categories, as a vector of 131072 indices. -/
def kCcatCol : Fin 16 → IVec S131072x16 32 → IVec S131072 32
  | 0, g => shapeCast S131072 (extractStridedSlice S131072x1 ![0, 0] g slices_S131072x16_S131072x1_0_0) shapeCasts_S131072x1_S131072
  | 1, g => shapeCast S131072 (extractStridedSlice S131072x1 ![0, 1] g slices_S131072x16_S131072x1_0_1) shapeCasts_S131072x1_S131072
  | 2, g => shapeCast S131072 (extractStridedSlice S131072x1 ![0, 2] g slices_S131072x16_S131072x1_0_2) shapeCasts_S131072x1_S131072
  | 3, g => shapeCast S131072 (extractStridedSlice S131072x1 ![0, 3] g slices_S131072x16_S131072x1_0_3) shapeCasts_S131072x1_S131072
  | 4, g => shapeCast S131072 (extractStridedSlice S131072x1 ![0, 4] g slices_S131072x16_S131072x1_0_4) shapeCasts_S131072x1_S131072
  | 5, g => shapeCast S131072 (extractStridedSlice S131072x1 ![0, 5] g slices_S131072x16_S131072x1_0_5) shapeCasts_S131072x1_S131072
  | 6, g => shapeCast S131072 (extractStridedSlice S131072x1 ![0, 6] g slices_S131072x16_S131072x1_0_6) shapeCasts_S131072x1_S131072
  | 7, g => shapeCast S131072 (extractStridedSlice S131072x1 ![0, 7] g slices_S131072x16_S131072x1_0_7) shapeCasts_S131072x1_S131072
  | 8, g => shapeCast S131072 (extractStridedSlice S131072x1 ![0, 8] g slices_S131072x16_S131072x1_0_8) shapeCasts_S131072x1_S131072
  | 9, g => shapeCast S131072 (extractStridedSlice S131072x1 ![0, 9] g slices_S131072x16_S131072x1_0_9) shapeCasts_S131072x1_S131072
  | 10, g => shapeCast S131072 (extractStridedSlice S131072x1 ![0, 10] g slices_S131072x16_S131072x1_0_10) shapeCasts_S131072x1_S131072
  | 11, g => shapeCast S131072 (extractStridedSlice S131072x1 ![0, 11] g slices_S131072x16_S131072x1_0_11) shapeCasts_S131072x1_S131072
  | 12, g => shapeCast S131072 (extractStridedSlice S131072x1 ![0, 12] g slices_S131072x16_S131072x1_0_12) shapeCasts_S131072x1_S131072
  | 13, g => shapeCast S131072 (extractStridedSlice S131072x1 ![0, 13] g slices_S131072x16_S131072x1_0_13) shapeCasts_S131072x1_S131072
  | 14, g => shapeCast S131072 (extractStridedSlice S131072x1 ![0, 14] g slices_S131072x16_S131072x1_0_14) shapeCasts_S131072x1_S131072
  | 15, g => shapeCast S131072 (extractStridedSlice S131072x1 ![0, 15] g slices_S131072x16_S131072x1_0_15) shapeCasts_S131072x1_S131072
  | ⟨_ + 16, h⟩, _ => absurd h (Nat.not_lt.2 (Nat.le_add_left _ _))

/-- `take(emb_child[c], child_cat_g[:, c])`: the embedding rows of category column `c`. -/
def kEcCol (c : Fin 16) (cidx : IVec S131072 32) (ccat : IVec S500000x16 32) (ec : FVec F S16x50000x64 .f32) :
    FVec F S131072x64 .f32 :=
  takeRows_50000x64_131072 (kEmbChildTable c ec) (kCcatCol c (kCcatG cidx ccat))

/-- `xc_cat`: the sixteen embedding blocks side by side, `[131072, 1024]`. -/
def kXcCat (cidx : IVec S131072 32) (ccat : IVec S500000x16 32) (ec : FVec F S16x50000x64 .f32) :
    FVec F S131072x1024 .f32 :=
  concatenate S131072x1024 1
    [⟨S131072x64, kEcCol 0 cidx ccat ec⟩, ⟨S131072x64, kEcCol 1 cidx ccat ec⟩, ⟨S131072x64, kEcCol 2 cidx ccat ec⟩, ⟨S131072x64, kEcCol 3 cidx ccat ec⟩, ⟨S131072x64, kEcCol 4 cidx ccat ec⟩, ⟨S131072x64, kEcCol 5 cidx ccat ec⟩, ⟨S131072x64, kEcCol 6 cidx ccat ec⟩, ⟨S131072x64, kEcCol 7 cidx ccat ec⟩, ⟨S131072x64, kEcCol 8 cidx ccat ec⟩, ⟨S131072x64, kEcCol 9 cidx ccat ec⟩, ⟨S131072x64, kEcCol 10 cidx ccat ec⟩, ⟨S131072x64, kEcCol 11 cidx ccat ec⟩, ⟨S131072x64, kEcCol 12 cidx ccat ec⟩, ⟨S131072x64, kEcCol 13 cidx ccat ec⟩, ⟨S131072x64, kEcCol 14 cidx ccat ec⟩, ⟨S131072x64, kEcCol 15 cidx ccat ec⟩]
    concatenates_S131072x64_S131072x64_S131072x64_S131072x64_S131072x64_S131072x64_S131072x64_S131072x64_S131072x64_S131072x64_S131072x64_S131072x64_S131072x64_S131072x64_S131072x64_S131072x64_S131072x1024_d1

/-- `xc_cat.astype(bfloat16)`: what the kernel's first window reads. -/
def kXcCatBf (cidx : IVec S131072 32) (ccat : IVec S500000x16 32) (ec : FVec F S16x50000x64 .f32) :
    FVec F S131072x1024 .bf16 :=
  truncf .bf16 (kXcCat cidx ccat ec) bitsLt_bf16_f32

/-! ## The child numerics and their batch-norm statistics -/

/-- `child_num_g = take(child_num, child_flat_idx)`. -/
def kCnumG (cidx : IVec S131072 32) (cnum : FVec F S500000x128 .f32) : FVec F S131072x128 .f32 :=
  takeRows_500000x128_131072 cnum cidx

/-- The column sums of a `[131072, 128]` array, as a row `[1, 128]`. -/
def kColSumC (x : FVec F S131072x128 .f32) : FVec F S1x128 .f32 :=
  broadcastInDim S1x128 ![1] bcast_S128_S1x128_1
    (Host.reduceAdd x (constant S_ .f32 0x00000000#32) reducesTo_S131072x128_S128_d0 h_S_)

/-- `mu_c = mean(x, axis=0, keepdims=True)`: the column sums over 131072. -/
def kMeanC (x : FVec F S131072x128 .f32) : FVec F S1x128 .f32 :=
  Host.divf (kColSumC x) (broadcastInDim S1x128 ![] bcast_S_S1x128 (constant S_ .f32 0x48000000#32))

/-- The squared deviations from the column means. -/
def kSqDevC (x : FVec F S131072x128 .f32) : FVec F S131072x128 .f32 :=
  mulf (subf x (broadcastInDim S131072x128 ![0, 1] bcast_S1x128_S131072x128_0_1 (kMeanC x)))
    (subf x (broadcastInDim S131072x128 ![0, 1] bcast_S1x128_S131072x128_0_1 (kMeanC x)))

/-- The divisor of `var`: the row count less the degrees of freedom (here `131072 - 0`). -/
def kVarCountC : FVec F S_ .f32 :=
  subf (constant S_ .f32 0x48000000#32) (sitofp .f32 (constantI S_ 32 0#32))

/-- `var_c = var(x, axis=0, keepdims=True)`: the mean squared deviation where the divisor is
    positive, NaN otherwise. -/
def kVarC (x : FVec F S131072x128 .f32) : FVec F S1x128 .f32 :=
  select
    (broadcastInDim S1x128 ![] bcast_S_S1x128
      (cmpf .ogt (kVarCountC : FVec F S_ .f32) (constant S_ .f32 0x00000000#32)))
    (Host.divf (kColSumC (kSqDevC x)) (broadcastInDim S1x128 ![] bcast_S_S1x128 (kVarCountC : FVec F S_ .f32)))
    (broadcastInDim S1x128 ![] bcast_S_S1x128 (constant S_ .f32 0x7FC00000#32))

/-- `scale_c = gamma_c[None, :] * rsqrt(var_c + EPS)`. -/
def kScaleC (x : FVec F S131072x128 .f32) (gc : FVec F S128 .f32) : FVec F S1x128 .f32 :=
  mulf (broadcastInDim S1x128 ![1] bcast_S128_S1x128_1 gc)
    (Host.rsqrt (addf (kVarC x) (broadcastInDim S1x128 ![] bcast_S_S1x128 (constant S_ .f32 0x3727C5AC#32))))

/-- `shift_c = beta_c[None, :] - mu_c * scale_c`. -/
def kShiftC (x : FVec F S131072x128 .f32) (gc bc : FVec F S128 .f32) : FVec F S1x128 .f32 :=
  subf (broadcastInDim S1x128 ![1] bcast_S128_S1x128_1 bc) (mulf (kMeanC x) (kScaleC x gc))

/-- `b[None, :]`: the bias as a row. -/
def kBrow (b : FVec F S32 .f32) : FVec F S1x32 .f32 :=
  broadcastInDim S1x32 ![1] bcast_S32_S1x32_1 b

end Cert.KernelIdeal.Hand

end
-- ==== Proof.KValChildCol0.lean ====
/-
  Column 0 of the child embeddings. One stretch cuts table 0 out of emb_child (main_v62) and column 0
  out of child_cat_g (main_v64); the take after it gathers the rows of the one by the indices of the
  other into main_v65. Then: what main_v65 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[0]` in main_v62, whatever it starts from. -/
theorem table_col0 (W : Valuation τ sig (Elt F)) :
    after hostOps0_23 W (Proc.devRef .tc main_v62) = kEmbChildTable 0 (W (Proc.devRef .tc main_arg7)) := by
  simp only [after_cons, after_nil]
  rfl

/-- The slicing stretch leaves `child_cat_g[:, 0]` in main_v64. -/
theorem index_col0 (W : Valuation τ sig (Elt F)) :
    after hostOps0_23 W (Proc.devRef .tc main_v64) = kCcatCol 0 (W (Proc.devRef .tc main_v60)) := by
  simp only [after_cons, after_nil]
  rfl

set_option maxRecDepth 200000 in
set_option maxHeartbeats 400000 in
/-- The take stretch gathers main_v62's rows by main_v64's indices into main_v65: each operation's result
    is read off at its own buffer, and the composite is `take`'s definition. -/
theorem take_col0 (W : Valuation τ sig (Elt F)) :
    after hostOps0_24 W (Proc.devRef .tc main_v65)
      = takeRows_50000x64_131072 (W (Proc.devRef .tc main_v62)) (W (Proc.devRef .tc main_v64)) := by
  after_results_simp <;> rfl

/-- main_v65 after the first 55 stretches: the stretches after its take leave it alone, the take reads the
    two slices, the slicing stretch reads emb_child and main_v60, and neither was touched on the way. -/
theorem col0 (L : Valuation τ sig (Elt F)) :
    upTo prefixOps L 55 (Proc.devRef .tc main_v65)
      = takeRows_50000x64_131072 (kEmbChildTable 0 (L (Proc.devRef .tc main_arg7)))
          (kCcatCol 0 (upTo prefixOps L (22 + 1) (Proc.devRef .tc main_v60))) := by
  rw [carry L (i := 25) (j := 55) (by decide) (by decide) (Proc.devRef .tc main_v65) (by decide),
    stretch_at L (k := 24) (j := 25) rfl (by decide) hostOps0_24 rfl, take_col0,
    stretch_at L (k := 23) (j := 24) rfl (by decide) hostOps0_23 rfl, table_col0, index_col0,
    carry L (i := 0) (j := 23) (by decide) (by decide) (Proc.devRef .tc main_arg7) (by decide), upTo_zero,
    carry L (i := 22 + 1) (j := 23) (by decide) (by decide) (Proc.devRef .tc main_v60) (by decide)]

end Cert.KernelIdeal.Hand.ChildRun

end
-- ==== Proof.KValChildCol1.lean ====
/-
  Column 1 of the child embeddings. One stretch cuts table 1 out of emb_child (main_v67) and column 1
  out of child_cat_g (main_v69); the take after it gathers the rows of the one by the indices of the
  other into main_v70. Then: what main_v70 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[1]` in main_v67, whatever it starts from. -/
theorem table_col1 (W : Valuation τ sig (Elt F)) :
    after hostOps0_25 W (Proc.devRef .tc main_v67) = kEmbChildTable 1 (W (Proc.devRef .tc main_arg7)) := by
  simp only [after_cons, after_nil]
  rfl

/-- The slicing stretch leaves `child_cat_g[:, 1]` in main_v69. -/
theorem index_col1 (W : Valuation τ sig (Elt F)) :
    after hostOps0_25 W (Proc.devRef .tc main_v69) = kCcatCol 1 (W (Proc.devRef .tc main_v60)) := by
  simp only [after_cons, after_nil]
  rfl

set_option maxRecDepth 200000 in
set_option maxHeartbeats 400000 in
/-- The take stretch gathers main_v67's rows by main_v69's indices into main_v70: each operation's result
    is read off at its own buffer, and the composite is `take`'s definition. -/
theorem take_col1 (W : Valuation τ sig (Elt F)) :
    after hostOps0_26 W (Proc.devRef .tc main_v70)
      = takeRows_50000x64_131072 (W (Proc.devRef .tc main_v67)) (W (Proc.devRef .tc main_v69)) := by
  after_results_simp <;> rfl

/-- main_v70 after the first 55 stretches: the stretches after its take leave it alone, the take reads the
    two slices, the slicing stretch reads emb_child and main_v60, and neither was touched on the way. -/
theorem col1 (L : Valuation τ sig (Elt F)) :
    upTo prefixOps L 55 (Proc.devRef .tc main_v70)
      = takeRows_50000x64_131072 (kEmbChildTable 1 (L (Proc.devRef .tc main_arg7)))
          (kCcatCol 1 (upTo prefixOps L (22 + 1) (Proc.devRef .tc main_v60))) := by
  rw [carry L (i := 27) (j := 55) (by decide) (by decide) (Proc.devRef .tc main_v70) (by decide),
    stretch_at L (k := 26) (j := 27) rfl (by decide) hostOps0_26 rfl, take_col1,
    stretch_at L (k := 25) (j := 26) rfl (by decide) hostOps0_25 rfl, table_col1, index_col1,
    carry L (i := 0) (j := 25) (by decide) (by decide) (Proc.devRef .tc main_arg7) (by decide), upTo_zero,
    carry L (i := 22 + 1) (j := 25) (by decide) (by decide) (Proc.devRef .tc main_v60) (by decide)]

end Cert.KernelIdeal.Hand.ChildRun

end
-- ==== Proof.KValChildCol2.lean ====
/-
  Column 2 of the child embeddings. One stretch cuts table 2 out of emb_child (main_v72) and column 2
  out of child_cat_g (main_v74); the take after it gathers the rows of the one by the indices of the
  other into main_v75. Then: what main_v75 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[2]` in main_v72, whatever it starts from. -/
theorem table_col2 (W : Valuation τ sig (Elt F)) :
    after hostOps0_27 W (Proc.devRef .tc main_v72) = kEmbChildTable 2 (W (Proc.devRef .tc main_arg7)) := by
  simp only [after_cons, after_nil]
  rfl

/-- The slicing stretch leaves `child_cat_g[:, 2]` in main_v74. -/
theorem index_col2 (W : Valuation τ sig (Elt F)) :
    after hostOps0_27 W (Proc.devRef .tc main_v74) = kCcatCol 2 (W (Proc.devRef .tc main_v60)) := by
  simp only [after_cons, after_nil]
  rfl

set_option maxRecDepth 200000 in
set_option maxHeartbeats 400000 in
/-- The take stretch gathers main_v72's rows by main_v74's indices into main_v75: each operation's result
    is read off at its own buffer, and the composite is `take`'s definition. -/
theorem take_col2 (W : Valuation τ sig (Elt F)) :
    after hostOps0_28 W (Proc.devRef .tc main_v75)
      = takeRows_50000x64_131072 (W (Proc.devRef .tc main_v72)) (W (Proc.devRef .tc main_v74)) := by
  after_results_simp <;> rfl

/-- main_v75 after the first 55 stretches: the stretches after its take leave it alone, the take reads the
    two slices, the slicing stretch reads emb_child and main_v60, and neither was touched on the way. -/
theorem col2 (L : Valuation τ sig (Elt F)) :
    upTo prefixOps L 55 (Proc.devRef .tc main_v75)
      = takeRows_50000x64_131072 (kEmbChildTable 2 (L (Proc.devRef .tc main_arg7)))
          (kCcatCol 2 (upTo prefixOps L (22 + 1) (Proc.devRef .tc main_v60))) := by
  rw [carry L (i := 29) (j := 55) (by decide) (by decide) (Proc.devRef .tc main_v75) (by decide),
    stretch_at L (k := 28) (j := 29) rfl (by decide) hostOps0_28 rfl, take_col2,
    stretch_at L (k := 27) (j := 28) rfl (by decide) hostOps0_27 rfl, table_col2, index_col2,
    carry L (i := 0) (j := 27) (by decide) (by decide) (Proc.devRef .tc main_arg7) (by decide), upTo_zero,
    carry L (i := 22 + 1) (j := 27) (by decide) (by decide) (Proc.devRef .tc main_v60) (by decide)]

end Cert.KernelIdeal.Hand.ChildRun

end
-- ==== Proof.KValChildCol3.lean ====
/-
  Column 3 of the child embeddings. One stretch cuts table 3 out of emb_child (main_v77) and column 3
  out of child_cat_g (main_v79); the take after it gathers the rows of the one by the indices of the
  other into main_v80. Then: what main_v80 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[3]` in main_v77, whatever it starts from. -/
theorem table_col3 (W : Valuation τ sig (Elt F)) :
    after hostOps0_29 W (Proc.devRef .tc main_v77) = kEmbChildTable 3 (W (Proc.devRef .tc main_arg7)) := by
  simp only [after_cons, after_nil]
  rfl

/-- The slicing stretch leaves `child_cat_g[:, 3]` in main_v79. -/
theorem index_col3 (W : Valuation τ sig (Elt F)) :
    after hostOps0_29 W (Proc.devRef .tc main_v79) = kCcatCol 3 (W (Proc.devRef .tc main_v60)) := by
  simp only [after_cons, after_nil]
  rfl

set_option maxRecDepth 200000 in
set_option maxHeartbeats 400000 in
/-- The take stretch gathers main_v77's rows by main_v79's indices into main_v80: each operation's result
    is read off at its own buffer, and the composite is `take`'s definition. -/
theorem take_col3 (W : Valuation τ sig (Elt F)) :
    after hostOps0_30 W (Proc.devRef .tc main_v80)
      = takeRows_50000x64_131072 (W (Proc.devRef .tc main_v77)) (W (Proc.devRef .tc main_v79)) := by
  after_results_simp <;> rfl

/-- main_v80 after the first 55 stretches: the stretches after its take leave it alone, the take reads the
    two slices, the slicing stretch reads emb_child and main_v60, and neither was touched on the way. -/
theorem col3 (L : Valuation τ sig (Elt F)) :
    upTo prefixOps L 55 (Proc.devRef .tc main_v80)
      = takeRows_50000x64_131072 (kEmbChildTable 3 (L (Proc.devRef .tc main_arg7)))
          (kCcatCol 3 (upTo prefixOps L (22 + 1) (Proc.devRef .tc main_v60))) := by
  rw [carry L (i := 31) (j := 55) (by decide) (by decide) (Proc.devRef .tc main_v80) (by decide),
    stretch_at L (k := 30) (j := 31) rfl (by decide) hostOps0_30 rfl, take_col3,
    stretch_at L (k := 29) (j := 30) rfl (by decide) hostOps0_29 rfl, table_col3, index_col3,
    carry L (i := 0) (j := 29) (by decide) (by decide) (Proc.devRef .tc main_arg7) (by decide), upTo_zero,
    carry L (i := 22 + 1) (j := 29) (by decide) (by decide) (Proc.devRef .tc main_v60) (by decide)]

end Cert.KernelIdeal.Hand.ChildRun

end
-- ==== Proof.KValChildCol4.lean ====
/-
  Column 4 of the child embeddings. One stretch cuts table 4 out of emb_child (main_v82) and column 4
  out of child_cat_g (main_v84); the take after it gathers the rows of the one by the indices of the
  other into main_v85. Then: what main_v85 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[4]` in main_v82, whatever it starts from. -/
theorem table_col4 (W : Valuation τ sig (Elt F)) :
    after hostOps0_31 W (Proc.devRef .tc main_v82) = kEmbChildTable 4 (W (Proc.devRef .tc main_arg7)) := by
  simp only [after_cons, after_nil]
  rfl

/-- The slicing stretch leaves `child_cat_g[:, 4]` in main_v84. -/
theorem index_col4 (W : Valuation τ sig (Elt F)) :
    after hostOps0_31 W (Proc.devRef .tc main_v84) = kCcatCol 4 (W (Proc.devRef .tc main_v60)) := by
  simp only [after_cons, after_nil]
  rfl

set_option maxRecDepth 200000 in
set_option maxHeartbeats 400000 in
/-- The take stretch gathers main_v82's rows by main_v84's indices into main_v85: each operation's result
    is read off at its own buffer, and the composite is `take`'s definition. -/
theorem take_col4 (W : Valuation τ sig (Elt F)) :
    after hostOps0_32 W (Proc.devRef .tc main_v85)
      = takeRows_50000x64_131072 (W (Proc.devRef .tc main_v82)) (W (Proc.devRef .tc main_v84)) := by
  after_results_simp <;> rfl

/-- main_v85 after the first 55 stretches: the stretches after its take leave it alone, the take reads the
    two slices, the slicing stretch reads emb_child and main_v60, and neither was touched on the way. -/
theorem col4 (L : Valuation τ sig (Elt F)) :
    upTo prefixOps L 55 (Proc.devRef .tc main_v85)
      = takeRows_50000x64_131072 (kEmbChildTable 4 (L (Proc.devRef .tc main_arg7)))
          (kCcatCol 4 (upTo prefixOps L (22 + 1) (Proc.devRef .tc main_v60))) := by
  rw [carry L (i := 33) (j := 55) (by decide) (by decide) (Proc.devRef .tc main_v85) (by decide),
    stretch_at L (k := 32) (j := 33) rfl (by decide) hostOps0_32 rfl, take_col4,
    stretch_at L (k := 31) (j := 32) rfl (by decide) hostOps0_31 rfl, table_col4, index_col4,
    carry L (i := 0) (j := 31) (by decide) (by decide) (Proc.devRef .tc main_arg7) (by decide), upTo_zero,
    carry L (i := 22 + 1) (j := 31) (by decide) (by decide) (Proc.devRef .tc main_v60) (by decide)]

end Cert.KernelIdeal.Hand.ChildRun

end
-- ==== Proof.KValChildCol5.lean ====
/-
  Column 5 of the child embeddings. One stretch cuts table 5 out of emb_child (main_v87) and column 5
  out of child_cat_g (main_v89); the take after it gathers the rows of the one by the indices of the
  other into main_v90. Then: what main_v90 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[5]` in main_v87, whatever it starts from. -/
theorem table_col5 (W : Valuation τ sig (Elt F)) :
    after hostOps0_33 W (Proc.devRef .tc main_v87) = kEmbChildTable 5 (W (Proc.devRef .tc main_arg7)) := by
  simp only [after_cons, after_nil]
  rfl

/-- The slicing stretch leaves `child_cat_g[:, 5]` in main_v89. -/
theorem index_col5 (W : Valuation τ sig (Elt F)) :
    after hostOps0_33 W (Proc.devRef .tc main_v89) = kCcatCol 5 (W (Proc.devRef .tc main_v60)) := by
  simp only [after_cons, after_nil]
  rfl

set_option maxRecDepth 200000 in
set_option maxHeartbeats 400000 in
/-- The take stretch gathers main_v87's rows by main_v89's indices into main_v90: each operation's result
    is read off at its own buffer, and the composite is `take`'s definition. -/
theorem take_col5 (W : Valuation τ sig (Elt F)) :
    after hostOps0_34 W (Proc.devRef .tc main_v90)
      = takeRows_50000x64_131072 (W (Proc.devRef .tc main_v87)) (W (Proc.devRef .tc main_v89)) := by
  after_results_simp <;> rfl

/-- main_v90 after the first 55 stretches: the stretches after its take leave it alone, the take reads the
    two slices, the slicing stretch reads emb_child and main_v60, and neither was touched on the way. -/
theorem col5 (L : Valuation τ sig (Elt F)) :
    upTo prefixOps L 55 (Proc.devRef .tc main_v90)
      = takeRows_50000x64_131072 (kEmbChildTable 5 (L (Proc.devRef .tc main_arg7)))
          (kCcatCol 5 (upTo prefixOps L (22 + 1) (Proc.devRef .tc main_v60))) := by
  rw [carry L (i := 35) (j := 55) (by decide) (by decide) (Proc.devRef .tc main_v90) (by decide),
    stretch_at L (k := 34) (j := 35) rfl (by decide) hostOps0_34 rfl, take_col5,
    stretch_at L (k := 33) (j := 34) rfl (by decide) hostOps0_33 rfl, table_col5, index_col5,
    carry L (i := 0) (j := 33) (by decide) (by decide) (Proc.devRef .tc main_arg7) (by decide), upTo_zero,
    carry L (i := 22 + 1) (j := 33) (by decide) (by decide) (Proc.devRef .tc main_v60) (by decide)]

end Cert.KernelIdeal.Hand.ChildRun

end
-- ==== Proof.KValChildCol6.lean ====
/-
  Column 6 of the child embeddings. One stretch cuts table 6 out of emb_child (main_v92) and column 6
  out of child_cat_g (main_v94); the take after it gathers the rows of the one by the indices of the
  other into main_v95. Then: what main_v95 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[6]` in main_v92, whatever it starts from. -/
theorem table_col6 (W : Valuation τ sig (Elt F)) :
    after hostOps0_35 W (Proc.devRef .tc main_v92) = kEmbChildTable 6 (W (Proc.devRef .tc main_arg7)) := by
  simp only [after_cons, after_nil]
  rfl

/-- The slicing stretch leaves `child_cat_g[:, 6]` in main_v94. -/
theorem index_col6 (W : Valuation τ sig (Elt F)) :
    after hostOps0_35 W (Proc.devRef .tc main_v94) = kCcatCol 6 (W (Proc.devRef .tc main_v60)) := by
  simp only [after_cons, after_nil]
  rfl

set_option maxRecDepth 200000 in
set_option maxHeartbeats 400000 in
/-- The take stretch gathers main_v92's rows by main_v94's indices into main_v95: each operation's result
    is read off at its own buffer, and the composite is `take`'s definition. -/
theorem take_col6 (W : Valuation τ sig (Elt F)) :
    after hostOps0_36 W (Proc.devRef .tc main_v95)
      = takeRows_50000x64_131072 (W (Proc.devRef .tc main_v92)) (W (Proc.devRef .tc main_v94)) := by
  after_results_simp <;> rfl

/-- main_v95 after the first 55 stretches: the stretches after its take leave it alone, the take reads the
    two slices, the slicing stretch reads emb_child and main_v60, and neither was touched on the way. -/
theorem col6 (L : Valuation τ sig (Elt F)) :
    upTo prefixOps L 55 (Proc.devRef .tc main_v95)
      = takeRows_50000x64_131072 (kEmbChildTable 6 (L (Proc.devRef .tc main_arg7)))
          (kCcatCol 6 (upTo prefixOps L (22 + 1) (Proc.devRef .tc main_v60))) := by
  rw [carry L (i := 37) (j := 55) (by decide) (by decide) (Proc.devRef .tc main_v95) (by decide),
    stretch_at L (k := 36) (j := 37) rfl (by decide) hostOps0_36 rfl, take_col6,
    stretch_at L (k := 35) (j := 36) rfl (by decide) hostOps0_35 rfl, table_col6, index_col6,
    carry L (i := 0) (j := 35) (by decide) (by decide) (Proc.devRef .tc main_arg7) (by decide), upTo_zero,
    carry L (i := 22 + 1) (j := 35) (by decide) (by decide) (Proc.devRef .tc main_v60) (by decide)]

end Cert.KernelIdeal.Hand.ChildRun

end
-- ==== Proof.KValChildCol7.lean ====
/-
  Column 7 of the child embeddings. One stretch cuts table 7 out of emb_child (main_v97) and column 7
  out of child_cat_g (main_v99); the take after it gathers the rows of the one by the indices of the
  other into main_v100. Then: what main_v100 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[7]` in main_v97, whatever it starts from. -/
theorem table_col7 (W : Valuation τ sig (Elt F)) :
    after hostOps0_37 W (Proc.devRef .tc main_v97) = kEmbChildTable 7 (W (Proc.devRef .tc main_arg7)) := by
  simp only [after_cons, after_nil]
  rfl

/-- The slicing stretch leaves `child_cat_g[:, 7]` in main_v99. -/
theorem index_col7 (W : Valuation τ sig (Elt F)) :
    after hostOps0_37 W (Proc.devRef .tc main_v99) = kCcatCol 7 (W (Proc.devRef .tc main_v60)) := by
  simp only [after_cons, after_nil]
  rfl

set_option maxRecDepth 200000 in
set_option maxHeartbeats 400000 in
/-- The take stretch gathers main_v97's rows by main_v99's indices into main_v100: each operation's result
    is read off at its own buffer, and the composite is `take`'s definition. -/
theorem take_col7 (W : Valuation τ sig (Elt F)) :
    after hostOps0_38 W (Proc.devRef .tc main_v100)
      = takeRows_50000x64_131072 (W (Proc.devRef .tc main_v97)) (W (Proc.devRef .tc main_v99)) := by
  after_results_simp <;> rfl

/-- main_v100 after the first 55 stretches: the stretches after its take leave it alone, the take reads the
    two slices, the slicing stretch reads emb_child and main_v60, and neither was touched on the way. -/
theorem col7 (L : Valuation τ sig (Elt F)) :
    upTo prefixOps L 55 (Proc.devRef .tc main_v100)
      = takeRows_50000x64_131072 (kEmbChildTable 7 (L (Proc.devRef .tc main_arg7)))
          (kCcatCol 7 (upTo prefixOps L (22 + 1) (Proc.devRef .tc main_v60))) := by
  rw [carry L (i := 39) (j := 55) (by decide) (by decide) (Proc.devRef .tc main_v100) (by decide),
    stretch_at L (k := 38) (j := 39) rfl (by decide) hostOps0_38 rfl, take_col7,
    stretch_at L (k := 37) (j := 38) rfl (by decide) hostOps0_37 rfl, table_col7, index_col7,
    carry L (i := 0) (j := 37) (by decide) (by decide) (Proc.devRef .tc main_arg7) (by decide), upTo_zero,
    carry L (i := 22 + 1) (j := 37) (by decide) (by decide) (Proc.devRef .tc main_v60) (by decide)]

end Cert.KernelIdeal.Hand.ChildRun

end
-- ==== Proof.KValChildCol8.lean ====
/-
  Column 8 of the child embeddings. One stretch cuts table 8 out of emb_child (main_v102) and column 8
  out of child_cat_g (main_v104); the take after it gathers the rows of the one by the indices of the
  other into main_v105. Then: what main_v105 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[8]` in main_v102, whatever it starts from. -/
theorem table_col8 (W : Valuation τ sig (Elt F)) :
    after hostOps0_39 W (Proc.devRef .tc main_v102) = kEmbChildTable 8 (W (Proc.devRef .tc main_arg7)) := by
  simp only [after_cons, after_nil]
  rfl

/-- The slicing stretch leaves `child_cat_g[:, 8]` in main_v104. -/
theorem index_col8 (W : Valuation τ sig (Elt F)) :
    after hostOps0_39 W (Proc.devRef .tc main_v104) = kCcatCol 8 (W (Proc.devRef .tc main_v60)) := by
  simp only [after_cons, after_nil]
  rfl

set_option maxRecDepth 200000 in
set_option maxHeartbeats 400000 in
/-- The take stretch gathers main_v102's rows by main_v104's indices into main_v105: each operation's result
    is read off at its own buffer, and the composite is `take`'s definition. -/
theorem take_col8 (W : Valuation τ sig (Elt F)) :
    after hostOps0_40 W (Proc.devRef .tc main_v105)
      = takeRows_50000x64_131072 (W (Proc.devRef .tc main_v102)) (W (Proc.devRef .tc main_v104)) := by
  after_results_simp <;> rfl

/-- main_v105 after the first 55 stretches: the stretches after its take leave it alone, the take reads the
    two slices, the slicing stretch reads emb_child and main_v60, and neither was touched on the way. -/
theorem col8 (L : Valuation τ sig (Elt F)) :
    upTo prefixOps L 55 (Proc.devRef .tc main_v105)
      = takeRows_50000x64_131072 (kEmbChildTable 8 (L (Proc.devRef .tc main_arg7)))
          (kCcatCol 8 (upTo prefixOps L (22 + 1) (Proc.devRef .tc main_v60))) := by
  rw [carry L (i := 41) (j := 55) (by decide) (by decide) (Proc.devRef .tc main_v105) (by decide),
    stretch_at L (k := 40) (j := 41) rfl (by decide) hostOps0_40 rfl, take_col8,
    stretch_at L (k := 39) (j := 40) rfl (by decide) hostOps0_39 rfl, table_col8, index_col8,
    carry L (i := 0) (j := 39) (by decide) (by decide) (Proc.devRef .tc main_arg7) (by decide), upTo_zero,
    carry L (i := 22 + 1) (j := 39) (by decide) (by decide) (Proc.devRef .tc main_v60) (by decide)]

end Cert.KernelIdeal.Hand.ChildRun

end
-- ==== Proof.KValChildCol9.lean ====
/-
  Column 9 of the child embeddings. One stretch cuts table 9 out of emb_child (main_v107) and column 9
  out of child_cat_g (main_v109); the take after it gathers the rows of the one by the indices of the
  other into main_v110. Then: what main_v110 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[9]` in main_v107, whatever it starts from. -/
theorem table_col9 (W : Valuation τ sig (Elt F)) :
    after hostOps0_41 W (Proc.devRef .tc main_v107) = kEmbChildTable 9 (W (Proc.devRef .tc main_arg7)) := by
  simp only [after_cons, after_nil]
  rfl

/-- The slicing stretch leaves `child_cat_g[:, 9]` in main_v109. -/
theorem index_col9 (W : Valuation τ sig (Elt F)) :
    after hostOps0_41 W (Proc.devRef .tc main_v109) = kCcatCol 9 (W (Proc.devRef .tc main_v60)) := by
  simp only [after_cons, after_nil]
  rfl

set_option maxRecDepth 200000 in
set_option maxHeartbeats 400000 in
/-- The take stretch gathers main_v107's rows by main_v109's indices into main_v110: each operation's result
    is read off at its own buffer, and the composite is `take`'s definition. -/
theorem take_col9 (W : Valuation τ sig (Elt F)) :
    after hostOps0_42 W (Proc.devRef .tc main_v110)
      = takeRows_50000x64_131072 (W (Proc.devRef .tc main_v107)) (W (Proc.devRef .tc main_v109)) := by
  after_results_simp <;> rfl

/-- main_v110 after the first 55 stretches: the stretches after its take leave it alone, the take reads the
    two slices, the slicing stretch reads emb_child and main_v60, and neither was touched on the way. -/
theorem col9 (L : Valuation τ sig (Elt F)) :
    upTo prefixOps L 55 (Proc.devRef .tc main_v110)
      = takeRows_50000x64_131072 (kEmbChildTable 9 (L (Proc.devRef .tc main_arg7)))
          (kCcatCol 9 (upTo prefixOps L (22 + 1) (Proc.devRef .tc main_v60))) := by
  rw [carry L (i := 43) (j := 55) (by decide) (by decide) (Proc.devRef .tc main_v110) (by decide),
    stretch_at L (k := 42) (j := 43) rfl (by decide) hostOps0_42 rfl, take_col9,
    stretch_at L (k := 41) (j := 42) rfl (by decide) hostOps0_41 rfl, table_col9, index_col9,
    carry L (i := 0) (j := 41) (by decide) (by decide) (Proc.devRef .tc main_arg7) (by decide), upTo_zero,
    carry L (i := 22 + 1) (j := 41) (by decide) (by decide) (Proc.devRef .tc main_v60) (by decide)]

end Cert.KernelIdeal.Hand.ChildRun

end
-- ==== Proof.KValChildCol10.lean ====
/-
  Column 10 of the child embeddings. One stretch cuts table 10 out of emb_child (main_v112) and column 10
  out of child_cat_g (main_v114); the take after it gathers the rows of the one by the indices of the
  other into main_v115. Then: what main_v115 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[10]` in main_v112, whatever it starts from. -/
theorem table_col10 (W : Valuation τ sig (Elt F)) :
    after hostOps0_43 W (Proc.devRef .tc main_v112) = kEmbChildTable 10 (W (Proc.devRef .tc main_arg7)) := by
  simp only [after_cons, after_nil]
  rfl

/-- The slicing stretch leaves `child_cat_g[:, 10]` in main_v114. -/
theorem index_col10 (W : Valuation τ sig (Elt F)) :
    after hostOps0_43 W (Proc.devRef .tc main_v114) = kCcatCol 10 (W (Proc.devRef .tc main_v60)) := by
  simp only [after_cons, after_nil]
  rfl

set_option maxRecDepth 200000 in
set_option maxHeartbeats 400000 in
/-- The take stretch gathers main_v112's rows by main_v114's indices into main_v115: each operation's result
    is read off at its own buffer, and the composite is `take`'s definition. -/
theorem take_col10 (W : Valuation τ sig (Elt F)) :
    after hostOps0_44 W (Proc.devRef .tc main_v115)
      = takeRows_50000x64_131072 (W (Proc.devRef .tc main_v112)) (W (Proc.devRef .tc main_v114)) := by
  after_results_simp <;> rfl

/-- main_v115 after the first 55 stretches: the stretches after its take leave it alone, the take reads the
    two slices, the slicing stretch reads emb_child and main_v60, and neither was touched on the way. -/
theorem col10 (L : Valuation τ sig (Elt F)) :
    upTo prefixOps L 55 (Proc.devRef .tc main_v115)
      = takeRows_50000x64_131072 (kEmbChildTable 10 (L (Proc.devRef .tc main_arg7)))
          (kCcatCol 10 (upTo prefixOps L (22 + 1) (Proc.devRef .tc main_v60))) := by
  rw [carry L (i := 45) (j := 55) (by decide) (by decide) (Proc.devRef .tc main_v115) (by decide),
    stretch_at L (k := 44) (j := 45) rfl (by decide) hostOps0_44 rfl, take_col10,
    stretch_at L (k := 43) (j := 44) rfl (by decide) hostOps0_43 rfl, table_col10, index_col10,
    carry L (i := 0) (j := 43) (by decide) (by decide) (Proc.devRef .tc main_arg7) (by decide), upTo_zero,
    carry L (i := 22 + 1) (j := 43) (by decide) (by decide) (Proc.devRef .tc main_v60) (by decide)]

end Cert.KernelIdeal.Hand.ChildRun

end
-- ==== Proof.KValChildCol11.lean ====
/-
  Column 11 of the child embeddings. One stretch cuts table 11 out of emb_child (main_v117) and column 11
  out of child_cat_g (main_v119); the take after it gathers the rows of the one by the indices of the
  other into main_v120. Then: what main_v120 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[11]` in main_v117, whatever it starts from. -/
theorem table_col11 (W : Valuation τ sig (Elt F)) :
    after hostOps0_45 W (Proc.devRef .tc main_v117) = kEmbChildTable 11 (W (Proc.devRef .tc main_arg7)) := by
  simp only [after_cons, after_nil]
  rfl

/-- The slicing stretch leaves `child_cat_g[:, 11]` in main_v119. -/
theorem index_col11 (W : Valuation τ sig (Elt F)) :
    after hostOps0_45 W (Proc.devRef .tc main_v119) = kCcatCol 11 (W (Proc.devRef .tc main_v60)) := by
  simp only [after_cons, after_nil]
  rfl

set_option maxRecDepth 200000 in
set_option maxHeartbeats 400000 in
/-- The take stretch gathers main_v117's rows by main_v119's indices into main_v120: each operation's result
    is read off at its own buffer, and the composite is `take`'s definition. -/
theorem take_col11 (W : Valuation τ sig (Elt F)) :
    after hostOps0_46 W (Proc.devRef .tc main_v120)
      = takeRows_50000x64_131072 (W (Proc.devRef .tc main_v117)) (W (Proc.devRef .tc main_v119)) := by
  after_results_simp <;> rfl

/-- main_v120 after the first 55 stretches: the stretches after its take leave it alone, the take reads the
    two slices, the slicing stretch reads emb_child and main_v60, and neither was touched on the way. -/
theorem col11 (L : Valuation τ sig (Elt F)) :
    upTo prefixOps L 55 (Proc.devRef .tc main_v120)
      = takeRows_50000x64_131072 (kEmbChildTable 11 (L (Proc.devRef .tc main_arg7)))
          (kCcatCol 11 (upTo prefixOps L (22 + 1) (Proc.devRef .tc main_v60))) := by
  rw [carry L (i := 47) (j := 55) (by decide) (by decide) (Proc.devRef .tc main_v120) (by decide),
    stretch_at L (k := 46) (j := 47) rfl (by decide) hostOps0_46 rfl, take_col11,
    stretch_at L (k := 45) (j := 46) rfl (by decide) hostOps0_45 rfl, table_col11, index_col11,
    carry L (i := 0) (j := 45) (by decide) (by decide) (Proc.devRef .tc main_arg7) (by decide), upTo_zero,
    carry L (i := 22 + 1) (j := 45) (by decide) (by decide) (Proc.devRef .tc main_v60) (by decide)]

end Cert.KernelIdeal.Hand.ChildRun

end
-- ==== Proof.KValChildCol12.lean ====
/-
  Column 12 of the child embeddings. One stretch cuts table 12 out of emb_child (main_v122) and column 12
  out of child_cat_g (main_v124); the take after it gathers the rows of the one by the indices of the
  other into main_v125. Then: what main_v125 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[12]` in main_v122, whatever it starts from. -/
theorem table_col12 (W : Valuation τ sig (Elt F)) :
    after hostOps0_47 W (Proc.devRef .tc main_v122) = kEmbChildTable 12 (W (Proc.devRef .tc main_arg7)) := by
  simp only [after_cons, after_nil]
  rfl

/-- The slicing stretch leaves `child_cat_g[:, 12]` in main_v124. -/
theorem index_col12 (W : Valuation τ sig (Elt F)) :
    after hostOps0_47 W (Proc.devRef .tc main_v124) = kCcatCol 12 (W (Proc.devRef .tc main_v60)) := by
  simp only [after_cons, after_nil]
  rfl

set_option maxRecDepth 200000 in
set_option maxHeartbeats 400000 in
/-- The take stretch gathers main_v122's rows by main_v124's indices into main_v125: each operation's result
    is read off at its own buffer, and the composite is `take`'s definition. -/
theorem take_col12 (W : Valuation τ sig (Elt F)) :
    after hostOps0_48 W (Proc.devRef .tc main_v125)
      = takeRows_50000x64_131072 (W (Proc.devRef .tc main_v122)) (W (Proc.devRef .tc main_v124)) := by
  after_results_simp <;> rfl

/-- main_v125 after the first 55 stretches: the stretches after its take leave it alone, the take reads the
    two slices, the slicing stretch reads emb_child and main_v60, and neither was touched on the way. -/
theorem col12 (L : Valuation τ sig (Elt F)) :
    upTo prefixOps L 55 (Proc.devRef .tc main_v125)
      = takeRows_50000x64_131072 (kEmbChildTable 12 (L (Proc.devRef .tc main_arg7)))
          (kCcatCol 12 (upTo prefixOps L (22 + 1) (Proc.devRef .tc main_v60))) := by
  rw [carry L (i := 49) (j := 55) (by decide) (by decide) (Proc.devRef .tc main_v125) (by decide),
    stretch_at L (k := 48) (j := 49) rfl (by decide) hostOps0_48 rfl, take_col12,
    stretch_at L (k := 47) (j := 48) rfl (by decide) hostOps0_47 rfl, table_col12, index_col12,
    carry L (i := 0) (j := 47) (by decide) (by decide) (Proc.devRef .tc main_arg7) (by decide), upTo_zero,
    carry L (i := 22 + 1) (j := 47) (by decide) (by decide) (Proc.devRef .tc main_v60) (by decide)]

end Cert.KernelIdeal.Hand.ChildRun

end
-- ==== Proof.KValChildCol13.lean ====
/-
  Column 13 of the child embeddings. One stretch cuts table 13 out of emb_child (main_v127) and column 13
  out of child_cat_g (main_v129); the take after it gathers the rows of the one by the indices of the
  other into main_v130. Then: what main_v130 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[13]` in main_v127, whatever it starts from. -/
theorem table_col13 (W : Valuation τ sig (Elt F)) :
    after hostOps0_49 W (Proc.devRef .tc main_v127) = kEmbChildTable 13 (W (Proc.devRef .tc main_arg7)) := by
  simp only [after_cons, after_nil]
  rfl

/-- The slicing stretch leaves `child_cat_g[:, 13]` in main_v129. -/
theorem index_col13 (W : Valuation τ sig (Elt F)) :
    after hostOps0_49 W (Proc.devRef .tc main_v129) = kCcatCol 13 (W (Proc.devRef .tc main_v60)) := by
  simp only [after_cons, after_nil]
  rfl

set_option maxRecDepth 200000 in
set_option maxHeartbeats 400000 in
/-- The take stretch gathers main_v127's rows by main_v129's indices into main_v130: each operation's result
    is read off at its own buffer, and the composite is `take`'s definition. -/
theorem take_col13 (W : Valuation τ sig (Elt F)) :
    after hostOps0_50 W (Proc.devRef .tc main_v130)
      = takeRows_50000x64_131072 (W (Proc.devRef .tc main_v127)) (W (Proc.devRef .tc main_v129)) := by
  after_results_simp <;> rfl

/-- main_v130 after the first 55 stretches: the stretches after its take leave it alone, the take reads the
    two slices, the slicing stretch reads emb_child and main_v60, and neither was touched on the way. -/
theorem col13 (L : Valuation τ sig (Elt F)) :
    upTo prefixOps L 55 (Proc.devRef .tc main_v130)
      = takeRows_50000x64_131072 (kEmbChildTable 13 (L (Proc.devRef .tc main_arg7)))
          (kCcatCol 13 (upTo prefixOps L (22 + 1) (Proc.devRef .tc main_v60))) := by
  rw [carry L (i := 51) (j := 55) (by decide) (by decide) (Proc.devRef .tc main_v130) (by decide),
    stretch_at L (k := 50) (j := 51) rfl (by decide) hostOps0_50 rfl, take_col13,
    stretch_at L (k := 49) (j := 50) rfl (by decide) hostOps0_49 rfl, table_col13, index_col13,
    carry L (i := 0) (j := 49) (by decide) (by decide) (Proc.devRef .tc main_arg7) (by decide), upTo_zero,
    carry L (i := 22 + 1) (j := 49) (by decide) (by decide) (Proc.devRef .tc main_v60) (by decide)]

end Cert.KernelIdeal.Hand.ChildRun

end
-- ==== Proof.KValChildCol14.lean ====
/-
  Column 14 of the child embeddings. One stretch cuts table 14 out of emb_child (main_v132) and column 14
  out of child_cat_g (main_v134); the take after it gathers the rows of the one by the indices of the
  other into main_v135. Then: what main_v135 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[14]` in main_v132, whatever it starts from. -/
theorem table_col14 (W : Valuation τ sig (Elt F)) :
    after hostOps0_51 W (Proc.devRef .tc main_v132) = kEmbChildTable 14 (W (Proc.devRef .tc main_arg7)) := by
  simp only [after_cons, after_nil]
  rfl

/-- The slicing stretch leaves `child_cat_g[:, 14]` in main_v134. -/
theorem index_col14 (W : Valuation τ sig (Elt F)) :
    after hostOps0_51 W (Proc.devRef .tc main_v134) = kCcatCol 14 (W (Proc.devRef .tc main_v60)) := by
  simp only [after_cons, after_nil]
  rfl

set_option maxRecDepth 200000 in
set_option maxHeartbeats 400000 in
/-- The take stretch gathers main_v132's rows by main_v134's indices into main_v135: each operation's result
    is read off at its own buffer, and the composite is `take`'s definition. -/
theorem take_col14 (W : Valuation τ sig (Elt F)) :
    after hostOps0_52 W (Proc.devRef .tc main_v135)
      = takeRows_50000x64_131072 (W (Proc.devRef .tc main_v132)) (W (Proc.devRef .tc main_v134)) := by
  after_results_simp <;> rfl

/-- main_v135 after the first 55 stretches: the stretches after its take leave it alone, the take reads the
    two slices, the slicing stretch reads emb_child and main_v60, and neither was touched on the way. -/
theorem col14 (L : Valuation τ sig (Elt F)) :
    upTo prefixOps L 55 (Proc.devRef .tc main_v135)
      = takeRows_50000x64_131072 (kEmbChildTable 14 (L (Proc.devRef .tc main_arg7)))
          (kCcatCol 14 (upTo prefixOps L (22 + 1) (Proc.devRef .tc main_v60))) := by
  rw [carry L (i := 53) (j := 55) (by decide) (by decide) (Proc.devRef .tc main_v135) (by decide),
    stretch_at L (k := 52) (j := 53) rfl (by decide) hostOps0_52 rfl, take_col14,
    stretch_at L (k := 51) (j := 52) rfl (by decide) hostOps0_51 rfl, table_col14, index_col14,
    carry L (i := 0) (j := 51) (by decide) (by decide) (Proc.devRef .tc main_arg7) (by decide), upTo_zero,
    carry L (i := 22 + 1) (j := 51) (by decide) (by decide) (Proc.devRef .tc main_v60) (by decide)]

end Cert.KernelIdeal.Hand.ChildRun

end
-- ==== Proof.KValChildCol15.lean ====
/-
  Column 15 of the child embeddings. One stretch cuts table 15 out of emb_child (main_v137) and column 15
  out of child_cat_g (main_v139); the take after it gathers the rows of the one by the indices of the
  other into main_v140. Then: what main_v140 holds once the first 55 stretches have run, in terms of the
  launch contents and of child_cat_g (main_v60 as stretch 22 left it; 22 + 1 stretches have run then).
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-- The slicing stretch leaves `emb_child[15]` in main_v137, whatever it starts from. -/
theorem table_col15 (W : Valuation τ sig (Elt F)) :
    after hostOps0_53 W (Proc.devRef .tc main_v137) = kEmbChildTable 15 (W (Proc.devRef .tc main_arg7)) := by
  simp only [after_cons, after_nil]
  rfl

/-- The slicing stretch leaves `child_cat_g[:, 15]` in main_v139. -/
theorem index_col15 (W : Valuation τ sig (Elt F)) :
    after hostOps0_53 W (Proc.devRef .tc main_v139) = kCcatCol 15 (W (Proc.devRef .tc main_v60)) := by
  simp only [after_cons, after_nil]
  rfl

set_option maxRecDepth 200000 in
set_option maxHeartbeats 400000 in
/-- The take stretch gathers main_v137's rows by main_v139's indices into main_v140: each operation's result
    is read off at its own buffer, and the composite is `take`'s definition. -/
theorem take_col15 (W : Valuation τ sig (Elt F)) :
    after hostOps0_54 W (Proc.devRef .tc main_v140)
      = takeRows_50000x64_131072 (W (Proc.devRef .tc main_v137)) (W (Proc.devRef .tc main_v139)) := by
  after_results_simp <;> rfl

/-- main_v140 after the first 55 stretches: the stretches after its take leave it alone, the take reads the
    two slices, the slicing stretch reads emb_child and main_v60, and neither was touched on the way. -/
theorem col15 (L : Valuation τ sig (Elt F)) :
    upTo prefixOps L 55 (Proc.devRef .tc main_v140)
      = takeRows_50000x64_131072 (kEmbChildTable 15 (L (Proc.devRef .tc main_arg7)))
          (kCcatCol 15 (upTo prefixOps L (22 + 1) (Proc.devRef .tc main_v60))) := by
  rw [carry L (i := 55) (j := 55) (by decide) (by decide) (Proc.devRef .tc main_v140) (by decide),
    stretch_at L (k := 54) (j := 55) rfl (by decide) hostOps0_54 rfl, take_col15,
    stretch_at L (k := 53) (j := 54) rfl (by decide) hostOps0_53 rfl, table_col15, index_col15,
    carry L (i := 0) (j := 53) (by decide) (by decide) (Proc.devRef .tc main_arg7) (by decide), upTo_zero,
    carry L (i := 22 + 1) (j := 53) (by decide) (by decide) (Proc.devRef .tc main_v60) (by decide)]

end Cert.KernelIdeal.Hand.ChildRun

end
-- ==== Proof.KValChildCat.lean ====
/-
  The gathered child categories: stretch 22 is `take(child_cat, child_flat_idx)` into main_v60, and the
  stretches before it leave the two arguments alone.
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

set_option maxRecDepth 200000 in
set_option maxHeartbeats 400000 in
/-- Stretch 22 gathers child_cat's rows by child_flat_idx into main_v60, whatever it starts from. -/
theorem take_cat (W : Valuation τ sig (Elt F)) :
    after hostOps0_22 W (Proc.devRef .tc main_v60)
      = kCcatG (W (Proc.devRef .tc main_arg1)) (W (Proc.devRef .tc main_arg4)) := by
  after_results_simp <;> rfl

/-- main_v60 once stretch 22 has run (22 + 1 stretches in all): child_cat_g of the launch contents. -/
theorem cat_g (L : Valuation τ sig (Elt F)) :
    upTo prefixOps L (22 + 1) (Proc.devRef .tc main_v60)
      = kCcatG (L (Proc.devRef .tc main_arg1)) (L (Proc.devRef .tc main_arg4)) := by
  rw [stretch_at L (k := 22) (j := 22 + 1) rfl (by decide) hostOps0_22 rfl, take_cat,
    carry L (i := 0) (j := 22) (by decide) (by decide) (Proc.devRef .tc main_arg1) (by decide),
    carry L (i := 0) (j := 22) (by decide) (by decide) (Proc.devRef .tc main_arg4) (by decide), upTo_zero]

end Cert.KernelIdeal.Hand.ChildRun

end
-- ==== Proof.KValChildNum.lean ====
/-
  The gathered child numerics and their batch-norm statistics. Stretch 56 is
  `take(child_num, child_flat_idx)` into main_v143; stretch 57 is its column mean (main_v147) and the
  integer 0 that `var` takes for its degrees of freedom (main_c_4); stretch 58 is `var` (main_v148);
  stretch 59 is scale_c (main_v153), shift_c (main_v156) and the bias row (main_v157). Each stretch is read
  over any contents it may start from; then they are chained from the launch contents.
-/
import proofs.«409894_j6640019439760_1_alg».proof.Proof.KValChildAt
import proofs.«409894_j6640019439760_1_alg».proof.Proof.KValChildDefs

noncomputable section

namespace Cert.KernelIdeal.Hand.ChildRun

open Cert.KernelIdeal Cert.KernelIdeal.Gen Cert.KernelIdeal.GenP Cert.KernelIdeal.Hand
open Idealize.ShloMosaic Idealize.ShloMosaic.TcCoe Idealize.SL.Sem
open Idealize.ShloMosaic.StableHlo

variable {F : FTy → Type} [FloatOps F]

/-! ## The stretches, each over any contents -/

set_option maxRecDepth 200000 in
set_option maxHeartbeats 400000 in
/-- Stretch 56 gathers child_num's rows by child_flat_idx into main_v143. -/
theorem take_num (W : Valuation τ sig (Elt F)) :
    after hostOps0_56 W (Proc.devRef .tc main_v143)
      = kCnumG (W (Proc.devRef .tc main_arg1)) (W (Proc.devRef .tc main_arg5)) := by
  after_results_simp <;> rfl

set_option maxRecDepth 200000 in
/-- Stretch 57 leaves the column mean of main_v143 in main_v147. -/
theorem mean_num (W : Valuation τ sig (Elt F)) :
    after hostOps0_57 W (Proc.devRef .tc main_v147) = kMeanC (W (Proc.devRef .tc main_v143)) := by
  after_results_simp <;> rfl

set_option maxRecDepth 200000 in
/-- Stretch 57 also writes the integer 0 (`var`'s degrees of freedom) into main_c_4. -/
theorem ddof_num (W : Valuation τ sig (Elt F)) :
    after hostOps0_57 W (Proc.devRef .tc main_c_4) = constantI S_ 32 0#32 := by
  after_results_simp <;> rfl

/-- `var` over the rows with `ddof` degrees of freedom taken off the divisor, as the outlined function
    computes it; at `ddof = 0` it is `kVarC`. -/
def varWithDdof (ddof : IVec S_ 32) (x : FVec F S131072x128 .f32) : FVec F S1x128 .f32 :=
  select
    (broadcastInDim S1x128 ![] Facts₀.bcast_S_S1x128
      (cmpf .ogt (subf (constant S_ .f32 0x48000000#32) (sitofp .f32 ddof) : FVec F S_ .f32) (constant S_ .f32 0x00000000#32)))
    (Host.divf (kColSumC (kSqDevC x))
      (broadcastInDim S1x128 ![] Facts₀.bcast_S_S1x128 (subf (constant S_ .f32 0x48000000#32) (sitofp .f32 ddof) : FVec F S_ .f32)))
    (broadcastInDim S1x128 ![] Facts₀.bcast_S_S1x128 (constant S_ .f32 0x7FC00000#32))

theorem varWithDdof_zero (x : FVec F S131072x128 .f32) : varWithDdof (constantI S_ 32 0#32) x = kVarC x := rfl

attribute [local irreducible] Host.reduceAdd in
set_option maxRecDepth 200000 in
set_option maxHeartbeats 400000 in
/-- Stretch 58 leaves `var` of main_v143 in main_v148, the degrees of freedom read from main_c_4. -/
theorem var_num (W : Valuation τ sig (Elt F)) :
    after hostOps0_58 W (Proc.devRef .tc main_v148)
      = varWithDdof (W (Proc.devRef .tc main_c_4)) (W (Proc.devRef .tc main_v143)) := by
  after_results_simp <;> rfl

/-- `gamma[None, :] * rsqrt(var + EPS)` of a given variance row. -/
def scaleOf (v : FVec F S1x128 .f32) (g : FVec F S128 .f32) : FVec F S1x128 .f32 :=
  mulf (broadcastInDim S1x128 ![1] Facts₀.bcast_S128_S1x128_1 g)
    (Host.rsqrt (addf v (broadcastInDim S1x128 ![] Facts₀.bcast_S_S1x128 (constant S_ .f32 0x3727C5AC#32))))

/-- `beta[None, :] - mu * scale` of given mean and variance rows. -/
def shiftOf (mu v : FVec F S1x128 .f32) (g b : FVec F S128 .f32) : FVec F S1x128 .f32 :=
  subf (broadcastInDim S1x128 ![1] Facts₀.bcast_S128_S1x128_1 b) (mulf mu (scaleOf v g))

theorem scaleOf_var (x : FVec F S131072x128 .f32) (g : FVec F S128 .f32) : scaleOf (kVarC x) g = kScaleC x g := rfl

theorem shiftOf_var (x : FVec F S131072x128 .f32) (g b : FVec F S128 .f32) :
    shiftOf (kMeanC x) (kVarC x) g b = kShiftC x g b := rfl

set_option maxRecDepth 200000 in
/-- Stretch 59 leaves the scale row in main_v153. -/
theorem scale_num (W : Valuation τ sig (Elt F)) :
    after hostOps0_59 W (Proc.devRef .tc main_v153)
      = scaleOf (W (Proc.devRef .tc main_v148)) (W (Proc.devRef .tc main_arg12)) := by
  after_results_simp <;> rfl

set_option maxRecDepth 200000 in
/-- Stretch 59 leaves the shift row in main_v156. -/
theorem shift_num (W : Valuation τ sig (Elt F)) :
    after hostOps0_59 W (Proc.devRef .tc main_v156)
      = shiftOf (W (Proc.devRef .tc main_v147)) (W (Proc.devRef .tc main_v148)) (W (Proc.devRef .tc main_arg12))
          (W (Proc.devRef .tc main_arg13)) := by
  after_results_simp <;> rfl

set_option maxRecDepth 200000 in
/-- Stretch 59 leaves the bias as a row in main_v157. -/
theorem brow_num (W : Valuation τ sig (Elt F)) :
    after hostOps0_59 W (Proc.devRef .tc main_v157) = kBrow (W (Proc.devRef .tc main_arg9)) := by
  after_results_simp <;> rfl

/-! ## Chained from the launch contents -/

variable (L : Valuation τ sig (Elt F))

/-- main_v143 once stretch 56 has run: child_num_g of the launch contents. -/
theorem num_g_57 :
    upTo prefixOps L 57 (Proc.devRef .tc main_v143)
      = kCnumG (L (Proc.devRef .tc main_arg1)) (L (Proc.devRef .tc main_arg5)) := by
  rw [stretch_at L (k := 56) (j := 57) rfl (by decide) hostOps0_56 rfl, take_num,
    carry L (i := 0) (j := 56) (by decide) (by decide) (Proc.devRef .tc main_arg1) (by decide),
    carry L (i := 0) (j := 56) (by decide) (by decide) (Proc.devRef .tc main_arg5) (by decide), upTo_zero]

/-- The later stretches leave main_v143 alone. -/
theorem num_g {j : Nat} (h57 : 57 ≤ j) (hj : j ≤ 60) :
    upTo prefixOps L j (Proc.devRef .tc main_v143)
      = kCnumG (L (Proc.devRef .tc main_arg1)) (L (Proc.devRef .tc main_arg5)) := by
  rw [carry L (i := 57) (j := j) h57 hj (Proc.devRef .tc main_v143) (Or.inl (by decide)), num_g_57]

/-- main_v147 once stretch 57 has run, and from then on: the column mean of child_num_g. -/
theorem mean_c {j : Nat} (h58 : 58 ≤ j) (hj : j ≤ 60) :
    upTo prefixOps L j (Proc.devRef .tc main_v147)
      = kMeanC (kCnumG (L (Proc.devRef .tc main_arg1)) (L (Proc.devRef .tc main_arg5))) := by
  rw [carry L (i := 58) (j := j) h58 hj (Proc.devRef .tc main_v147) (Or.inl (by decide)),
    stretch_at L (k := 57) (j := 58) rfl (by decide) hostOps0_57 rfl, mean_num,
    num_g L (j := 57) (by decide) (by decide)]

/-- main_v148 once stretch 58 has run, and from then on: the column variance of child_num_g. -/
theorem var_c {j : Nat} (h59 : 59 ≤ j) (hj : j ≤ 60) :
    upTo prefixOps L j (Proc.devRef .tc main_v148)
      = kVarC (kCnumG (L (Proc.devRef .tc main_arg1)) (L (Proc.devRef .tc main_arg5))) := by
  rw [carry L (i := 59) (j := j) h59 hj (Proc.devRef .tc main_v148) (Or.inl (by decide)),
    stretch_at L (k := 58) (j := 59) rfl (by decide) hostOps0_58 rfl, var_num,
    num_g L (j := 58) (by decide) (by decide),
    stretch_at L (k := 57) (j := 58) rfl (by decide) hostOps0_57 rfl, ddof_num, varWithDdof_zero]

/-- main_v153 at the region's entry: scale_c. -/
theorem scale_c :
    upTo prefixOps L 60 (Proc.devRef .tc main_v153)
      = kScaleC (kCnumG (L (Proc.devRef .tc main_arg1)) (L (Proc.devRef .tc main_arg5))) (L (Proc.devRef .tc main_arg12)) := by
  rw [stretch_at L (k := 59) (j := 60) rfl (by decide) hostOps0_59 rfl, scale_num,
    var_c L (j := 59) (by decide) (by decide), arg_keep L (j := 59) (by decide) main_arg12 (by decide), scaleOf_var]

/-- main_v156 at the region's entry: shift_c. -/
theorem shift_c :
    upTo prefixOps L 60 (Proc.devRef .tc main_v156)
      = kShiftC (kCnumG (L (Proc.devRef .tc main_arg1)) (L (Proc.devRef .tc main_arg5))) (L (Proc.devRef .tc main_arg12))
          (L (Proc.devRef .tc main_arg13)) := by
  rw [stretch_at L (k := 59) (j := 60) rfl (by decide) hostOps0_59 rfl, shift_num,
    mean_c L (j := 59) (by decide) (by decide), var_c L (j := 59) (by decide) (by decide),
    arg_keep L (j := 59) (by decide) main_arg12 (by decide), arg_keep L (j := 59) (by decide) main_arg13 (by decide),
    shiftOf_var]

/-- main_v157 at the region's entry: the bias row. -/
theorem brow :
    upTo prefixOps L 60 (Proc.devRef .tc main_v157) = kBrow (L (Proc.devRef .tc main_arg9)) := by
  rw [stretch_at L (k := 59) (j := 60) rfl (by decide) hostOps0_59 rfl, brow_num,
    arg_keep L (j := 59) (by decide) main_arg9 (by decide)]

end Cert.KernelIdeal.Hand.ChildRun

end
-- ==== Proof.KValChild.lean ====
/-
  What the core's buffers hold, when the kernel call is entered, at the child half's buffers: main_v142 is
  xc_cat in bfloat16, main_v143 is child_num_g, main_v153 and main_v156 are the batch-norm scale and shift
  of child_num_g, main_v157 is the bias row, each as a function of the argument arrays. Stretch 55
  concatenates the sixteen embedding blocks and converts; the modules of the columns, of the categories
  and of the numerics say what its operands hold.
-/
import proofs.«409894_j6640019439760_1_alg».proof.Proof.KValChildCol0
import proofs.«409894_j6640019439760_1_alg».proof.Proof.KValChildCol1
import proofs.«409894_j6640019439760_1_alg».proof.Proof.KValChildCol2
import proofs.«409894_j6640019439760_1_alg».proof.Proof.KValChildCol3
import proofs.«409894_j6640019439760_1_alg».proof.Proof.KValChildCol4
import proofs.«409894_j6640019439760_1_alg».proof.Proof.KValChildCol5
import proofs.«409894_j6640019439760_1_alg».proof.Proof.KValChildCol6
import proofs.«409894_j6640019439760_1_alg».proof.Proof.KValChildCol7
import proofs.«409894_j6640019439760_1_alg».proof.Proof.KValChildCol8
import proofs.«409894_j6640019439760_1_alg».proof.Proof.KValChildCol9
import proofs.«409894_j6640019439760_1_alg».proof.Proof.KValChildCol10
import proofs.«409894_j6640019439760_1_alg».proof.Proof.KValChildCol11
import proofs.«409894_j6640019439760_1_alg».proof.Proof.KValChildCol12
import proofs.«409894_j6640019439760_1_alg».proof.Proof.KValChildCol13
import proofs.«409894_j6640019439760_1_alg».proof.Proof.KValChildCol14
import proofs.«409894_j6640019439760_1_alg».proof.Proof.KValChildCol15
import proofs.«409894_j6640019439760_1_alg».proof.Proof.KValChildCat
import proofs.«409894_j6640019439760_1_alg».proof.Proof.KValChildNum

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.StableHlo

variable {F : FTy → Type} [FloatOps F]

namespace ChildRun

/-- Stretch 55 concatenates the sixteen blocks along the columns and converts to bfloat16, whatever the
    blocks hold. -/
theorem concat_bf (W : Valuation τ sig (Elt F)) :
    after hostOps0_55 W (Proc.devRef .tc main_v142)
      = truncf .bf16
          (concatenate S131072x1024 1
            [⟨S131072x64, W (Proc.devRef .tc main_v65)⟩,
             ⟨S131072x64, W (Proc.devRef .tc main_v70)⟩,
             ⟨S131072x64, W (Proc.devRef .tc main_v75)⟩,
             ⟨S131072x64, W (Proc.devRef .tc main_v80)⟩,
             ⟨S131072x64, W (Proc.devRef .tc main_v85)⟩,
             ⟨S131072x64, W (Proc.devRef .tc main_v90)⟩,
             ⟨S131072x64, W (Proc.devRef .tc main_v95)⟩,
             ⟨S131072x64, W (Proc.devRef .tc main_v100)⟩,
             ⟨S131072x64, W (Proc.devRef .tc main_v105)⟩,
             ⟨S131072x64, W (Proc.devRef .tc main_v110)⟩,
             ⟨S131072x64, W (Proc.devRef .tc main_v115)⟩,
             ⟨S131072x64, W (Proc.devRef .tc main_v120)⟩,
             ⟨S131072x64, W (Proc.devRef .tc main_v125)⟩,
             ⟨S131072x64, W (Proc.devRef .tc main_v130)⟩,
             ⟨S131072x64, W (Proc.devRef .tc main_v135)⟩,
             ⟨S131072x64, W (Proc.devRef .tc main_v140)⟩]
            Facts₀.concatenates_S131072x64_S131072x64_S131072x64_S131072x64_S131072x64_S131072x64_S131072x64_S131072x64_S131072x64_S131072x64_S131072x64_S131072x64_S131072x64_S131072x64_S131072x64_S131072x64_S131072x1024_d1)
          Facts₀.bitsLt_bf16_f32 := by
  simp only [after_cons, after_nil]
  rfl

/-- main_v142 once stretch 55 has run: xc_cat of the launch contents, in bfloat16. -/
theorem xc_bf (L : Valuation τ sig (Elt F)) :
    upTo prefixOps L 56 (Proc.devRef .tc main_v142)
      = kXcCatBf (L (Proc.devRef .tc main_arg1)) (L (Proc.devRef .tc main_arg4)) (L (Proc.devRef .tc main_arg7)) := by
  rw [stretch_at L (k := 55) (j := 56) rfl (by decide) hostOps0_55 rfl, concat_bf,
    col0, col1, col2, col3, col4, col5, col6, col7, col8, col9, col10, col11, col12, col13, col14, col15, cat_g]
  rfl

end ChildRun

variable (m : (ℓ : Loc nD τ sig) → Buf (Elt F) ℓ)

/-- The buffers at the region's entry are those after all sixty stretches. -/
theorem V_at_entry (c : Dev nD) (b : Ref sig .tc) :
    V m c b = ChildRun.upTo prefixOps (fun b => m (c, b)) 60 (Proc.devRef .tc b) :=
  (congrFun (ChildRun.upTo_length prefixOps (fun b => m (c, b))) (Proc.devRef .tc b)).symm

/-- Window 0 of the kernel reads xc_cat in bfloat16. -/
theorem V_main_v142 (c : Dev nD) :
    V m c main_v142
      = kXcCatBf (m ((c : Thread nD τ).loc main_arg1)) (m ((c : Thread nD τ).loc main_arg4))
          (m ((c : Thread nD τ).loc main_arg7)) := by
  have h := ChildRun.xc_bf (fun b => m (c, b))
  rw [V_at_entry, ChildRun.carry _ (i := 56) (j := 60) (by decide) (by decide) (Proc.devRef .tc main_v142) (by decide)]
  exact h

/-- Window 1 reads child_num_g. -/
theorem V_main_v143 (c : Dev nD) :
    V m c main_v143 = kCnumG (m ((c : Thread nD τ).loc main_arg1)) (m ((c : Thread nD τ).loc main_arg5)) := by
  rw [V_at_entry]
  exact ChildRun.num_g (fun b => m (c, b)) (j := 60) (by decide) (by decide)

/-- Window 2 reads scale_c. -/
theorem V_main_v153 (c : Dev nD) :
    V m c main_v153
      = kScaleC (kCnumG (m ((c : Thread nD τ).loc main_arg1)) (m ((c : Thread nD τ).loc main_arg5)))
          (m ((c : Thread nD τ).loc main_arg12)) := by
  rw [V_at_entry]
  exact ChildRun.scale_c (fun b => m (c, b))

/-- Window 3 reads shift_c. -/
theorem V_main_v156 (c : Dev nD) :
    V m c main_v156
      = kShiftC (kCnumG (m ((c : Thread nD τ).loc main_arg1)) (m ((c : Thread nD τ).loc main_arg5)))
          (m ((c : Thread nD τ).loc main_arg12)) (m ((c : Thread nD τ).loc main_arg13)) := by
  rw [V_at_entry]
  exact ChildRun.shift_c (fun b => m (c, b))

/-- Window 5 reads the bias as a row. -/
theorem V_main_v157 (c : Dev nD) :
    V m c main_v157 = kBrow (m ((c : Thread nD τ).loc main_arg9)) := by
  rw [V_at_entry]
  exact ChildRun.brow (fun b => m (c, b))

end Cert.KernelIdeal.Hand

end
-- ==== Proof.RefVal.lean ====
/-
  The reference function as plain mathematics: its result written as a composition of named stages, each a pure
  function of the fourteen argument arrays (row indices, category codes, numeric features, embedding tables, the
  linear layer and the two batch norms' scale and shift). Every stage is the composition of the array operations
  the reference program performs for it, in the program's order and with the program's own shape witnesses, so
  that the program's run can be read back stage by stage. Generic in the float values.
-/
import proofs.«409894_j6640019439760_1_alg».proof.Proof.Gen.ReferenceIdeal

noncomputable section

namespace Cert.ReferenceIdeal.Hand

open Cert.ReferenceIdeal Cert.ReferenceIdeal.Facts₀
open Idealize.ShloMosaic

variable {F : FTy → Type} [FloatOps F]

/-! ## The root node: rows gathered by `idx` -/

/-- `idx` as jnp indexing reads it: an index below zero counts from the end of the 200000 rows. -/
def rootRow (idx : IVec S8192 32) : IVec S8192 32 :=
  select (cmpi .slt idx (broadcastInDim S8192 ![] bcast_S_S8192 (constantI S_ 32 0#32)))
    (addi idx (broadcastInDim S8192 ![] bcast_S_S8192 (constantI S_ 32 200000#32))) idx

/-- `root_cat[idx]`: the eight category codes of each selected root row. -/
def rcatG (idx : IVec S8192 32) (rcat : IVec S200000x8 32) : IVec S8192x8 32 :=
  Host.gather gather_S200000x8_S8192x1_S8192x8_1_0_n_n_0_1_18 rcat
    (broadcastInDim S8192x1 ![0] bcast_S8192_S8192x1_0 (rootRow idx))

/-- `jnp.arange(8)` as an index, along the columns of every row: which embedding table a code looks into. -/
def rootTable : IVec S8192x8x1 32 :=
  broadcastInDim S8192x8x1 ![0, 1] bcast_S8192x8_S8192x8x1_0_1
    (broadcastInDim S8192x8 ![1] bcast_S8_S8192x8_1
      (select (cmpi .slt (iotaInDim S8 32 0) (broadcastInDim S8 ![] bcast_S_S8 (constantI S_ 32 0#32)))
        (addi (iotaInDim S8 32 0) (broadcastInDim S8 ![] bcast_S_S8 (constantI S_ 32 8#32))) (iotaInDim S8 32 0)))

/-- The gathered root codes as indices into a 50000-row table (a code below zero counts from the end). -/
def rootCode (idx : IVec S8192 32) (rcat : IVec S200000x8 32) : IVec S8192x8x1 32 :=
  broadcastInDim S8192x8x1 ![0, 1] bcast_S8192x8_S8192x8x1_0_1
    (select (cmpi .slt (rcatG idx rcat) (broadcastInDim S8192x8 ![] bcast_S_S8192x8 (constantI S_ 32 0#32)))
      (addi (rcatG idx rcat) (broadcastInDim S8192x8 ![] bcast_S_S8192x8 (constantI S_ 32 50000#32))) (rcatG idx rcat))

/-- The index pairs `(c, code)` of `emb_root[jnp.arange(8), root_cat[idx]]`. -/
def rootPair (idx : IVec S8192 32) (rcat : IVec S200000x8 32) : IVec S8192x8x2 32 :=
  concatenate S8192x8x2 2 [⟨S8192x8x1, rootTable⟩, ⟨S8192x8x1, rootCode idx rcat⟩]
    concatenates_S8192x8x1_S8192x8x1_S8192x8x2_d2

/-- `xr_cat`: the eight 64-wide root embeddings of each row, laid side by side (512 columns). -/
def xrCat (idx : IVec S8192 32) (rcat : IVec S200000x8 32) (er : FVec F S8x50000x64 .f32) : FVec F S8192x512 .f32 :=
  shapeCast S8192x512 (Host.gather gather_S8x50000x64_S8192x8x2_S8192x8x64_2_01_n_n_01_2_1164 er (rootPair idx rcat))
    shapeCasts_S8192x8x64_S8192x512

/-- `root_num[idx]`: the 64 numeric features of each selected root row. -/
def rnumG (idx : IVec S8192 32) (rnum : FVec F S200000x64 .f32) : FVec F S8192x64 .f32 :=
  Host.gather gather_S200000x64_S8192x1_S8192x64_1_0_n_n_0_1_164 rnum
    (broadcastInDim S8192x1 ![0] bcast_S8192_S8192x1_0 (rootRow idx))

/-- The batch mean of each of the 64 root features: the column sums over 8192 rows, divided by 8192. -/
def rootMean (x : FVec F S8192x64 .f32) : FVec F S1x64 .f32 :=
  Host.divf
    (broadcastInDim S1x64 ![1] bcast_S64_S1x64_1
      (Host.reduceAdd x (constant S_ .f32 0x00000000#32) reducesTo_S8192x64_S64_d0 h_S_))
    (broadcastInDim S1x64 ![] bcast_S_S1x64 (constant S_ .f32 0x46000000#32))

/-- The divisor of `jnp.var` with `ddof = 0`: 8192 less the zero correction. -/
def rootCount : FVec F S_ .f32 :=
  subf (constant S_ .f32 0x46000000#32) (sitofp .f32 (constantI S_ 32 0#32))

/-- The batch variance of each root feature as `jnp.var` computes it: the mean of the squared deviations from
    the mean, and a not-a-number where the divisor is not positive. -/
def rootVar (x : FVec F S8192x64 .f32) : FVec F S1x64 .f32 :=
  select
    (broadcastInDim S1x64 ![] bcast_S_S1x64 (cmpf .ogt (rootCount (F := F)) (constant S_ .f32 0x00000000#32)))
    (Host.divf
      (broadcastInDim S1x64 ![1] bcast_S64_S1x64_1
        (Host.reduceAdd
          (mulf (subf x (broadcastInDim S8192x64 ![0, 1] bcast_S1x64_S8192x64_0_1 (rootMean x)))
            (subf x (broadcastInDim S8192x64 ![0, 1] bcast_S1x64_S8192x64_0_1 (rootMean x))))
          (constant S_ .f32 0x00000000#32) reducesTo_S8192x64_S64_d0 h_S_))
      (broadcastInDim S1x64 ![] bcast_S_S1x64 (rootCount (F := F))))
    (broadcastInDim S1x64 ![] bcast_S_S1x64 (id (constant S_ .f32 0x7FC00000#32)))

/-- The root batch norm of a feature array: `(x - mean) * rsqrt(var + 1e-5) * gamma + beta`. -/
def rootNorm (x : FVec F S8192x64 .f32) (gr br : FVec F S64 .f32) : FVec F S8192x64 .f32 :=
  addf
    (mulf
      (mulf (subf x (broadcastInDim S8192x64 ![0, 1] bcast_S1x64_S8192x64_0_1 (rootMean x)))
        (broadcastInDim S8192x64 ![0, 1] bcast_S1x64_S8192x64_0_1
          (Host.rsqrt (addf (rootVar x) (broadcastInDim S1x64 ![] bcast_S_S1x64 (constant S_ .f32 0x3727C5AC#32))))))
      (broadcastInDim S8192x64 ![0, 1] bcast_S1x64_S8192x64_0_1 (broadcastInDim S1x64 ![1] bcast_S64_S1x64_1 gr)))
    (broadcastInDim S8192x64 ![0, 1] bcast_S1x64_S8192x64_0_1 (broadcastInDim S1x64 ![1] bcast_S64_S1x64_1 br))

/-- `xr_num`: the batch norm of `root_num[idx]`. -/
def xrNum (idx : IVec S8192 32) (rnum : FVec F S200000x64 .f32) (gr br : FVec F S64 .f32) : FVec F S8192x64 .f32 :=
  rootNorm (rnumG idx rnum) gr br

/-! ## The child node: sixteen rows per root row, gathered by `child_flat_idx` -/

/-- `child_flat_idx` as jnp indexing reads it: an index below zero counts from the end of the 500000 rows. -/
def childRow (cidx : IVec S131072 32) : IVec S131072 32 :=
  select (cmpi .slt cidx (broadcastInDim S131072 ![] bcast_S_S131072 (constantI S_ 32 0#32)))
    (addi cidx (broadcastInDim S131072 ![] bcast_S_S131072 (constantI S_ 32 500000#32))) cidx

/-- `child_cat[child_flat_idx]`: the sixteen category codes of each selected child row. -/
def ccatG (cidx : IVec S131072 32) (ccat : IVec S500000x16 32) : IVec S131072x16 32 :=
  Host.gather gather_S500000x16_S131072x1_S131072x16_1_0_n_n_0_1_116 ccat
    (broadcastInDim S131072x1 ![0] bcast_S131072_S131072x1_0 (childRow cidx))

/-- `jnp.arange(16)` as an index, along the columns of every row. -/
def childTable : IVec S131072x16x1 32 :=
  broadcastInDim S131072x16x1 ![0, 1] bcast_S131072x16_S131072x16x1_0_1
    (broadcastInDim S131072x16 ![1] bcast_S16_S131072x16_1
      (select (cmpi .slt (iotaInDim S16 32 0) (broadcastInDim S16 ![] bcast_S_S16 (constantI S_ 32 0#32)))
        (addi (iotaInDim S16 32 0) (broadcastInDim S16 ![] bcast_S_S16 (constantI S_ 32 16#32))) (iotaInDim S16 32 0)))

/-- The gathered child codes as indices into a 50000-row table. -/
def childCode (cidx : IVec S131072 32) (ccat : IVec S500000x16 32) : IVec S131072x16x1 32 :=
  broadcastInDim S131072x16x1 ![0, 1] bcast_S131072x16_S131072x16x1_0_1
    (select (cmpi .slt (ccatG cidx ccat) (broadcastInDim S131072x16 ![] bcast_S_S131072x16 (constantI S_ 32 0#32)))
      (addi (ccatG cidx ccat) (broadcastInDim S131072x16 ![] bcast_S_S131072x16 (constantI S_ 32 50000#32)))
      (ccatG cidx ccat))

/-- The index pairs `(c, code)` of `emb_child[jnp.arange(16), child_cat[child_flat_idx]]`. -/
def childPair (cidx : IVec S131072 32) (ccat : IVec S500000x16 32) : IVec S131072x16x2 32 :=
  concatenate S131072x16x2 2 [⟨S131072x16x1, childTable⟩, ⟨S131072x16x1, childCode cidx ccat⟩]
    concatenates_S131072x16x1_S131072x16x1_S131072x16x2_d2

/-- `xc_cat`: the sixteen 64-wide child embeddings of each child row, side by side (1024 columns). -/
def xcCat (cidx : IVec S131072 32) (ccat : IVec S500000x16 32) (ec : FVec F S16x50000x64 .f32) :
    FVec F S131072x1024 .f32 :=
  shapeCast S131072x1024
    (Host.gather gather_S16x50000x64_S131072x16x2_S131072x16x64_2_01_n_n_01_2_1164 ec (childPair cidx ccat))
    shapeCasts_S131072x16x64_S131072x1024

/-- `child_num[child_flat_idx]`: the 128 numeric features of each selected child row. -/
def cnumG (cidx : IVec S131072 32) (cnum : FVec F S500000x128 .f32) : FVec F S131072x128 .f32 :=
  Host.gather gather_S500000x128_S131072x1_S131072x128_1_0_n_n_0_1_1128 cnum
    (broadcastInDim S131072x1 ![0] bcast_S131072_S131072x1_0 (childRow cidx))

/-- The batch mean of each of the 128 child features: the column sums over 131072 rows, divided by 131072. -/
def childMean (x : FVec F S131072x128 .f32) : FVec F S1x128 .f32 :=
  Host.divf
    (broadcastInDim S1x128 ![1] bcast_S128_S1x128_1
      (Host.reduceAdd x (constant S_ .f32 0x00000000#32) reducesTo_S131072x128_S128_d0 h_S_))
    (broadcastInDim S1x128 ![] bcast_S_S1x128 (constant S_ .f32 0x48000000#32))

/-- The divisor of the child variance: 131072 less the zero correction. -/
def childCount : FVec F S_ .f32 :=
  subf (constant S_ .f32 0x48000000#32) (sitofp .f32 (constantI S_ 32 0#32))

/-- The batch variance of each child feature as `jnp.var` computes it. -/
def childVar (x : FVec F S131072x128 .f32) : FVec F S1x128 .f32 :=
  select
    (broadcastInDim S1x128 ![] bcast_S_S1x128 (cmpf .ogt (childCount (F := F)) (constant S_ .f32 0x00000000#32)))
    (Host.divf
      (broadcastInDim S1x128 ![1] bcast_S128_S1x128_1
        (Host.reduceAdd
          (mulf (subf x (broadcastInDim S131072x128 ![0, 1] bcast_S1x128_S131072x128_0_1 (childMean x)))
            (subf x (broadcastInDim S131072x128 ![0, 1] bcast_S1x128_S131072x128_0_1 (childMean x))))
          (constant S_ .f32 0x00000000#32) reducesTo_S131072x128_S128_d0 h_S_))
      (broadcastInDim S1x128 ![] bcast_S_S1x128 (childCount (F := F))))
    (broadcastInDim S1x128 ![] bcast_S_S1x128 (id (constant S_ .f32 0x7FC00000#32)))

/-- The child batch norm of a feature array: `(x - mean) * rsqrt(var + 1e-5) * gamma + beta`. -/
def childNorm (x : FVec F S131072x128 .f32) (gc bc : FVec F S128 .f32) : FVec F S131072x128 .f32 :=
  addf
    (mulf
      (mulf (subf x (broadcastInDim S131072x128 ![0, 1] bcast_S1x128_S131072x128_0_1 (childMean x)))
        (broadcastInDim S131072x128 ![0, 1] bcast_S1x128_S131072x128_0_1
          (Host.rsqrt (addf (childVar x) (broadcastInDim S1x128 ![] bcast_S_S1x128 (constant S_ .f32 0x3727C5AC#32))))))
      (broadcastInDim S131072x128 ![0, 1] bcast_S1x128_S131072x128_0_1
        (broadcastInDim S1x128 ![1] bcast_S128_S1x128_1 gc)))
    (broadcastInDim S131072x128 ![0, 1] bcast_S1x128_S131072x128_0_1 (broadcastInDim S1x128 ![1] bcast_S128_S1x128_1 bc))

/-- `xc_num`: the batch norm of `child_num[child_flat_idx]`. -/
def xcNum (cidx : IVec S131072 32) (cnum : FVec F S500000x128 .f32) (gc bc : FVec F S128 .f32) :
    FVec F S131072x128 .f32 :=
  childNorm (cnumG cidx cnum) gc bc

/-- `h` before the layer: the child embeddings and the normalised child features side by side (1152 columns). -/
def childFeat (xc : FVec F S131072x1024 .f32) (xn : FVec F S131072x128 .f32) : FVec F S131072x1152 .f32 :=
  concatenate S131072x1152 1 [⟨S131072x1024, xc⟩, ⟨S131072x128, xn⟩]
    concatenates_S131072x1024_S131072x128_S131072x1152_d1

/-- `h @ W.T + b`: the linear layer, one dot product of 1152 terms per output, plus the bias. -/
def childLinear (h : FVec F S131072x1152 .f32) (w : FVec F S32x1152 .f32) (b : FVec F S32 .f32) :
    FVec F S131072x32 .f32 :=
  addf
    (Host.dotGeneral dot_S131072x1152_S1152x32_S131072x32_1_0_0_1_n_n none h
      (transpose S1152x32 [1, 0] w transposes_S32x1152_S1152x32_1_0))
    (broadcastInDim S131072x32 ![0, 1] bcast_S1x32_S131072x32_0_1 (broadcastInDim S1x32 ![1] bcast_S32_S1x32_1 b))

/-- `jax.nn.relu`: the larger of each entry and zero. -/
def childRelu (y : FVec F S131072x32 .f32) : FVec F S131072x32 .f32 :=
  maximumf y (broadcastInDim S131072x32 ![] bcast_S_S131072x32 (constant S_ .f32 0x00000000#32))

/-- The mean over each root row's sixteen children: the rows regrouped sixteen at a time, summed, divided by 16. -/
def childBagMean (y : FVec F S131072x32 .f32) : FVec F S8192x32 .f32 :=
  Host.divf
    (Host.reduceAdd (shapeCast S8192x16x32 y shapeCasts_S131072x32_S8192x16x32) (constant S_ .f32 0x00000000#32)
      reducesTo_S8192x16x32_S8192x32_d1 h_S_)
    (broadcastInDim S8192x32 ![] bcast_S_S8192x32 (constant S_ .f32 0x41800000#32))

/-- `agg` from the two child feature blocks: layer, relu, mean over the sixteen children. -/
def aggOf (xc : FVec F S131072x1024 .f32) (xn : FVec F S131072x128 .f32) (w : FVec F S32x1152 .f32)
    (b : FVec F S32 .f32) : FVec F S8192x32 .f32 :=
  childBagMean (childRelu (childLinear (childFeat xc xn) w b))

/-- `agg` of the arguments. -/
def agg (cidx : IVec S131072 32) (ccat : IVec S500000x16 32) (cnum : FVec F S500000x128 .f32)
    (ec : FVec F S16x50000x64 .f32) (w : FVec F S32x1152 .f32) (b : FVec F S32 .f32) (gc bc : FVec F S128 .f32) :
    FVec F S8192x32 .f32 :=
  aggOf (xcCat cidx ccat ec) (xcNum cidx cnum gc bc) w b

/-- The three blocks of the result side by side: 512 + 64 + 32 columns. -/
def outOf (xr : FVec F S8192x512 .f32) (xn : FVec F S8192x64 .f32) (ag : FVec F S8192x32 .f32) : FVec F S8192x608 .f32 :=
  concatenate S8192x608 1 [⟨S8192x512, xr⟩, ⟨S8192x64, xn⟩, ⟨S8192x32, ag⟩]
    concatenates_S8192x512_S8192x64_S8192x32_S8192x608_d1

/-- The reference's result: `concatenate([xr_cat, xr_num, agg], axis=1)` of the fourteen arguments, in order. -/
def refOut (idx : IVec S8192 32) (cidx : IVec S131072 32) (rcat : IVec S200000x8 32) (rnum : FVec F S200000x64 .f32)
    (ccat : IVec S500000x16 32) (cnum : FVec F S500000x128 .f32) (er : FVec F S8x50000x64 .f32)
    (ec : FVec F S16x50000x64 .f32) (w : FVec F S32x1152 .f32) (b : FVec F S32 .f32) (gr br : FVec F S64 .f32)
    (gc bc : FVec F S128 .f32) : FVec F S8192x608 .f32 :=
  outOf (xrCat idx rcat er) (xrNum idx rnum gr br) (agg cidx ccat cnum ec w b gc bc)

end Cert.ReferenceIdeal.Hand

end
-- ==== Proof.Domain.lean ====
/-
  The domain on which the kernel and the reference agree, as plain facts about the fourteen argument arrays:
  every float entry is a real number, every row index names a row of the table it indexes, and every category
  code names a row of its embedding table. The precondition of the certificate says exactly this; the value
  proofs use it in this form.
-/
import Idealize.ShloMosaic.PureOps.Ideal
import Idealize.ShloMosaic.Lib.ValueIdx

noncomputable section

namespace Cert.Domain

open Idealize.ShloMosaic

/-- Every entry of a float array at the ideal instance is a real number (not an infinity). -/
def AllReal {S : Shape} (x : FVec Ideal S .f32) : Prop := ∀ i, ∃ r : ℝ, x i = (r : EReal)

/-- Every word of an index array, read signed, lies in [0, n). -/
def AllBelow {S : Shape} (n : Nat) (x : IVec S 32) : Prop := ∀ i, 0 ≤ (x i).toInt ∧ (x i).toInt < (n : Int)

/-- The agreed domain: the row indices name rows of the 200000-row root tables and of the 500000-row child
    tables, the category codes name rows of the 50000-row embedding tables, and all ten float arrays are real. -/
structure InDomain
    (idx : IVec ⟨1, ![8192]⟩ 32) (cidx : IVec ⟨1, ![131072]⟩ 32)
    (rcat : IVec ⟨2, ![200000, 8]⟩ 32) (rnum : FVec Ideal ⟨2, ![200000, 64]⟩ .f32)
    (ccat : IVec ⟨2, ![500000, 16]⟩ 32) (cnum : FVec Ideal ⟨2, ![500000, 128]⟩ .f32)
    (er : FVec Ideal ⟨3, ![8, 50000, 64]⟩ .f32) (ec : FVec Ideal ⟨3, ![16, 50000, 64]⟩ .f32)
    (w : FVec Ideal ⟨2, ![32, 1152]⟩ .f32) (b : FVec Ideal ⟨1, ![32]⟩ .f32)
    (gr : FVec Ideal ⟨1, ![64]⟩ .f32) (br : FVec Ideal ⟨1, ![64]⟩ .f32)
    (gc : FVec Ideal ⟨1, ![128]⟩ .f32) (bc : FVec Ideal ⟨1, ![128]⟩ .f32) : Prop where
  idx_lt : AllBelow 200000 idx
  cidx_lt : AllBelow 500000 cidx
  rcat_lt : AllBelow 50000 rcat
  ccat_lt : AllBelow 50000 ccat
  rnum_real : AllReal rnum
  cnum_real : AllReal cnum
  er_real : AllReal er
  ec_real : AllReal ec
  w_real : AllReal w
  b_real : AllReal b
  gr_real : AllReal gr
  br_real : AllReal br
  gc_real : AllReal gc
  bc_real : AllReal bc

end Cert.Domain

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.LibGatherPair.lean ====
/-
  jax's two-axis table lookup read at an index, for any extents.
  A stack of C tables of N rows and D columns, indexed by pairs (table, row): the gather with operand C x N x D,
  start indices R x K x 2 and result R x K x D reads, at (r, k, j), the stack's entry (t, n, j), where t and n are
  the two components of the start index at (r, k), each read signed and clamped into its axis.
-/
import Idealize.ShloMosaic.PureOps
import Idealize.ShloMosaic.Lib.ValueIdx

noncomputable section

namespace Cert.LibGatherPair

open Idealize.ShloMosaic Idealize.ShloMosaic.ValueIdx

variable {α : Type}

/-- Axis 0 of a rank-3 operand is among the axes [0, 1]. -/
private theorem zero_mem_pair : (0 : Fin 3) ∈ ([0, 1] : List (Fin 3)) := by decide
/-- Axis 1 of a rank-3 operand is among the axes [0, 1]. -/
private theorem one_mem_pair : (1 : Fin 3) ∈ ([0, 1] : List (Fin 3)) := by decide
/-- Axis 2 of a rank-3 operand is not among the axes [0, 1]. -/
private theorem two_notMem_pair : (2 : Fin 3) ∉ ([0, 1] : List (Fin 3)) := by decide

/-- The dimension numbers of stack[(t, n)] for index pairs: operand C x N x D, start indices R x K x 2, result
    R x K x D; the table axis and the row axis are both collapsed and indexed (component 0 of a pair names the
    table, component 1 the row), the column axis is the offset axis, whole rows are sliced. -/
abbrev pairTakeDims (C N D R K : Nat)
    (wf : GatherDims.WF ⟨3, ![C, N, D]⟩ ⟨3, ![R, K, 2]⟩ ⟨3, ![R, K, D]⟩ [2] [0, 1] [] [0, 1] [] 2 ![1, 1, D]) :
    GatherDims ⟨3, ![C, N, D]⟩ ⟨3, ![R, K, 2]⟩ ⟨3, ![R, K, D]⟩ where
  offsetDims := [2]
  collapsedSliceDims := [0, 1]
  operandBatchingDims := []
  startIndicesBatchingDims := []
  startIndexMap := [0, 1]
  indexVectorDim := 2
  sliceSizes := ![1, 1, D]
  wf := wf

/-- The pair gather read at (r, k, j): the stack at the clamped table and row of the pair at (r, k), column j. -/
theorem gather_pair_apply {C N D R K w : Nat} (hC : 0 < C) (hN : 0 < N)
    (wf : GatherDims.WF ⟨3, ![C, N, D]⟩ ⟨3, ![R, K, 2]⟩ ⟨3, ![R, K, D]⟩ [2] [0, 1] [] [0, 1] [] 2 ![1, 1, D])
    (x : (⟨3, ![C, N, D]⟩ : Shape).Idx → α) (idx : IVec ⟨3, ![R, K, 2]⟩ w) (r : Fin R) (k : Fin K) (j : Fin D) :
    Host.gather (pairTakeDims C N D R K wf) x idx (ix3 r k j)
      = x (ix3 (⟨min (idx (ix3 r k (0 : Fin 2))).toInt.toNat (C - 1), by omega⟩ : Fin C)
          (⟨min (idx (ix3 r k (1 : Fin 2))).toInt.toNat (N - 1), by omega⟩ : Fin N) j) := by
  -- the gather reads the stack at its operand index; the two operand indices are compared axis by axis, as
  -- numbers: on each axis the operand index is (clamped start) + (batching coordinate) + (offset coordinate)
  unfold Host.gather
  congr 1
  funext a
  refine Fin.ext ?_
  match a with
  | ⟨0, _⟩ =>
    -- axis 0, the tables: collapsed and indexed by component 0 of the pair. No batching axes, no offset on a
    -- collapsed axis, so only the start is left: component 0 at (r, k), clamped to C - 1
    show (pairTakeDims C N D R K wf).start (ix3 r k j) idx 0 + (pairTakeDims C N D R K wf).batchCoord (ix3 r k j) 0
      + (pairTakeDims C N D R K wf).offCoord (ix3 r k j) 0 = _
    rw [GatherDims.batchCoord_eq_zero _ _ _ List.not_mem_nil,
      GatherDims.offCoord_eq_zero _ _ _ (fun h => ((GatherDims.mem_sKept _ _).mp h).1 zero_mem_pair)]
    simp only [Nat.add_zero]
    unfold GatherDims.start
    rw [dif_pos (show (0 : Fin 3) ∈ (pairTakeDims C N D R K wf).startIndexMap from zero_mem_pair)]
    have hsi : (pairTakeDims C N D R K wf).siIdx (ix3 r k j)
        ⟨List.idxOf (0 : Fin 3) (pairTakeDims C N D R K wf).startIndexMap,
          List.idxOf_lt_length_iff.2 zero_mem_pair⟩ = ix3 r k (0 : Fin 2) := by
      funext b; refine Fin.ext ?_
      match b with
      | ⟨0, _⟩ => rfl
      | ⟨1, _⟩ => rfl
      | ⟨2, _⟩ => rfl
    rw [hsi]
    rfl
  | ⟨1, _⟩ =>
    -- axis 1, the rows of a table: collapsed and indexed by component 1 of the pair, clamped to N - 1
    show (pairTakeDims C N D R K wf).start (ix3 r k j) idx 1 + (pairTakeDims C N D R K wf).batchCoord (ix3 r k j) 1
      + (pairTakeDims C N D R K wf).offCoord (ix3 r k j) 1 = _
    rw [GatherDims.batchCoord_eq_zero _ _ _ List.not_mem_nil,
      GatherDims.offCoord_eq_zero _ _ _ (fun h => ((GatherDims.mem_sKept _ _).mp h).1 one_mem_pair)]
    simp only [Nat.add_zero]
    unfold GatherDims.start
    rw [dif_pos (show (1 : Fin 3) ∈ (pairTakeDims C N D R K wf).startIndexMap from one_mem_pair)]
    have hsi : (pairTakeDims C N D R K wf).siIdx (ix3 r k j)
        ⟨List.idxOf (1 : Fin 3) (pairTakeDims C N D R K wf).startIndexMap,
          List.idxOf_lt_length_iff.2 one_mem_pair⟩ = ix3 r k (1 : Fin 2) := by
      funext b; refine Fin.ext ?_
      match b with
      | ⟨0, _⟩ => rfl
      | ⟨1, _⟩ => rfl
      | ⟨2, _⟩ => rfl
    rw [hsi]
    rfl
  | ⟨2, _⟩ =>
    -- axis 2, the columns: the offset axis. Not in the start index map, so the start is 0; no batching axes; it
    -- is the only kept operand axis, paired with the result's offset axis 2, whose coordinate is j
    show (pairTakeDims C N D R K wf).start (ix3 r k j) idx 2 + (pairTakeDims C N D R K wf).batchCoord (ix3 r k j) 2
      + (pairTakeDims C N D R K wf).offCoord (ix3 r k j) 2 = j.val
    rw [GatherDims.batchCoord_eq_zero _ _ _ List.not_mem_nil]
    unfold GatherDims.start
    rw [dif_neg (show (2 : Fin 3) ∉ (pairTakeDims C N D R K wf).startIndexMap from two_notMem_pair)]
    unfold GatherDims.offCoord
    rw [dif_pos (show (2 : Fin 3) ∈ (pairTakeDims C N D R K wf).sKept from
      (GatherDims.mem_sKept _ _).mpr ⟨two_notMem_pair, List.not_mem_nil⟩)]
    simp only [Nat.zero_add]
    rfl

end Cert.LibGatherPair

end
-- ==== Proof.RefRead.lean ====
/-
  The reference's stages read at one index, on the domain where every row index and every category code names
  a row of its table. Counting an index from the end changes nothing there, so a gathered row is the table's row
  the index names; an embedding lookup at column c * 64 + d is table c at the row the code names, entry d; the
  child aggregate at (r, o) is the mean, over the sixteen children of root row r, of output unit o of the linear
  layer cut below at zero; and the result's columns are the root embeddings, then the root's numeric block, then
  the aggregate.
-/
import proofs.«409894_j6640019439760_1_alg».proof.Proof.RefVal
import proofs.«409894_j6640019439760_1_alg».proof.Proof.Spec
import proofs.«409894_j6640019439760_1_alg».proof.Proof.Domain
import proofs.«409894_j6640019439760_1_alg».proof.Proof.LibGatherRows
import proofs.«409894_j6640019439760_1_alg».proof.Proof.LibGatherPair
import Idealize.ShloMosaic.Lib.Pipeline.Value
import Idealize.ShloMosaic.Lib.ValueIdx
import Idealize.ShloMosaic.PureOps.Ideal.Laws
import Idealize.ShloMosaic.Lib.StableHlo.Predicate

noncomputable section

namespace Cert.ReferenceIdeal.Hand

open Cert.ReferenceIdeal Cert.ReferenceIdeal.Facts₀
open Idealize.ShloMosaic Idealize.ShloMosaic.ValueIdx
open scoped BigOperators

/-! ## Counting from the end leaves a word that is not below zero alone -/

/-- jnp's index normalisation on one word: "if w < 0 then w + n else w" is w when w, read signed, is not negative. -/
theorem wrapWord_of_nonneg (w n : BitVec 32) (h : 0 ≤ w.toInt) :
    Scalar.select (IntOp.cmpi .slt w 0#32) (IntOp.addi w n) w = w := by
  have hlt : w.slt 0#32 = false := by
    rw [BitVec.slt]
    simpa using h
  show (if BitVec.ofBool (w.slt 0#32) = 1#1 then IntOp.addi w n else w) = w
  rw [hlt]
  rfl

/-- The root row indices after normalisation are the indices themselves on the domain. -/
theorem rootRow_apply (idx : IVec S8192 32) (hidx : Cert.Domain.AllBelow 200000 idx) (r : Fin 8192) :
    rootRow idx (ix1 r) = idx (ix1 r) :=
  wrapWord_of_nonneg _ _ (hidx (ix1 r)).1

/-- The child row indices after normalisation are the indices themselves on the domain. -/
theorem childRow_apply (cidx : IVec S131072 32) (h : Cert.Domain.AllBelow 500000 cidx) (r : Fin 131072) :
    childRow cidx (ix1 r) = cidx (ix1 r) :=
  wrapWord_of_nonneg _ _ (h (ix1 r)).1

/-- A vector laid out as a column reads, at (r, 0), the vector at r. -/
theorem column_apply {α : Type} {n : Nat} (hn : n ≠ 1)
    (h : (⟨1, ![n]⟩ : Shape).BroadcastsInDim ⟨2, ![n, 1]⟩ ![0]) (v : (⟨1, ![n]⟩ : Shape).Idx → α) (r : Fin n) :
    broadcastInDim ⟨2, ![n, 1]⟩ ![0] h v (ix2 r (0 : Fin 1)) = v (ix1 r) := by
  refine broadcastInDim_apply _ h v _ (ix1 r) fun a => ?_
  match a with
  | ⟨0, _⟩ =>
    show r.val = if n = 1 then 0 else r.val
    rw [if_neg hn]

/-! ## The four row gathers -/

/-- A gather of table rows at a column of start indices whose word at row r is known: the table's row named by
    that word, read signed and kept inside the table. -/
theorem rows_at {α : Type} {N D R : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (col : IVec ⟨2, ![R, 1]⟩ 32) (w : BitVec 32) (r : Fin R) (j : Fin D)
    (hw : col (ix2 r (0 : Fin 1)) = w) :
    Host.gather (Cert.LibGatherRows.rowTakeDims N D R wf) x col (ix2 r j) = x (ix2 (Cert.Spec.row N hN w) j) := by
  subst hw
  exact Cert.LibGatherRows.gather_rows_apply hN wf x col r j

/-- `root_num[idx]` at (r, j): the root numeric table at the row idx r names, column j. -/
theorem rnumG_apply (idx : IVec S8192 32) (rnum : FVec Ideal S200000x64 .f32) (hidx : Cert.Domain.AllBelow 200000 idx)
    (r : Fin 8192) (j : Fin 64) :
    rnumG idx rnum (ix2 r j) = rnum (ix2 (Cert.Spec.row 200000 (by decide) (idx (ix1 r))) j) :=
  rows_at (by decide) gather_S200000x64_S8192x1_S8192x64_1_0_n_n_0_1_164_wf rnum _ _ r j
    ((column_apply (by decide) _ _ r).trans (rootRow_apply idx hidx r))

/-- `root_cat[idx]` at (r, c): the root code table at the row idx r names, column c. -/
theorem rcatG_apply (idx : IVec S8192 32) (rcat : IVec S200000x8 32) (hidx : Cert.Domain.AllBelow 200000 idx)
    (r : Fin 8192) (c : Fin 8) :
    rcatG idx rcat (ix2 r c) = rcat (ix2 (Cert.Spec.row 200000 (by decide) (idx (ix1 r))) c) :=
  rows_at (by decide) gather_S200000x8_S8192x1_S8192x8_1_0_n_n_0_1_18_wf rcat _ _ r c
    ((column_apply (by decide) _ _ r).trans (rootRow_apply idx hidx r))

/-- `child_num[child_flat_idx]` at (r, j): the child numeric table at the row the r-th child index names. -/
theorem cnumG_apply (cidx : IVec S131072 32) (cnum : FVec Ideal S500000x128 .f32)
    (h : Cert.Domain.AllBelow 500000 cidx) (r : Fin 131072) (j : Fin 128) :
    cnumG cidx cnum (ix2 r j) = cnum (ix2 (Cert.Spec.row 500000 (by decide) (cidx (ix1 r))) j) :=
  rows_at (by decide) gather_S500000x128_S131072x1_S131072x128_1_0_n_n_0_1_1128_wf cnum _ _ r j
    ((column_apply (by decide) _ _ r).trans (childRow_apply cidx h r))

/-- `child_cat[child_flat_idx]` at (r, c): the child code table at the row the r-th child index names. -/
theorem ccatG_apply (cidx : IVec S131072 32) (ccat : IVec S500000x16 32)
    (h : Cert.Domain.AllBelow 500000 cidx) (r : Fin 131072) (c : Fin 16) :
    ccatG cidx ccat (ix2 r c) = ccat (ix2 (Cert.Spec.row 500000 (by decide) (cidx (ix1 r))) c) :=
  rows_at (by decide) gather_S500000x16_S131072x1_S131072x16_1_0_n_n_0_1_116_wf ccat _ _ r c
    ((column_apply (by decide) _ _ r).trans (childRow_apply cidx h r))

/-! ## The embedding lookups: one table per category column, one row per code -/

/-- A rank-2 array given a trailing unit axis reads, at (r, c, 0), the array at (r, c). -/
theorem unitAxis_apply {α : Type} {n m : Nat} (hn : n ≠ 1) (hm : m ≠ 1)
    (h : (⟨2, ![n, m]⟩ : Shape).BroadcastsInDim ⟨3, ![n, m, 1]⟩ ![0, 1]) (v : (⟨2, ![n, m]⟩ : Shape).Idx → α)
    (r : Fin n) (c : Fin m) :
    broadcastInDim ⟨3, ![n, m, 1]⟩ ![0, 1] h v (ix3 r c (0 : Fin 1)) = v (ix2 r c) := by
  refine broadcastInDim_apply _ h v _ (ix2 r c) fun a => ?_
  match a with
  | ⟨0, _⟩ =>
    show r.val = if n = 1 then 0 else r.val
    rw [if_neg hn]
  | ⟨1, _⟩ =>
    show c.val = if m = 1 then 0 else c.val
    rw [if_neg hm]

/-- A vector laid along the columns of every row reads, at (r, c), the vector at c. -/
theorem alongRows_apply {α : Type} {n m : Nat} (hm : m ≠ 1)
    (h : (⟨1, ![m]⟩ : Shape).BroadcastsInDim ⟨2, ![n, m]⟩ ![1]) (v : (⟨1, ![m]⟩ : Shape).Idx → α)
    (r : Fin n) (c : Fin m) :
    broadcastInDim ⟨2, ![n, m]⟩ ![1] h v (ix2 r c) = v (ix1 c) := by
  refine broadcastInDim_apply _ h v _ (ix1 c) fun a => ?_
  match a with
  | ⟨0, _⟩ =>
    show c.val = if m = 1 then 0 else c.val
    rw [if_neg hm]

/-- A small column number as a word is not negative, so counting from the end leaves it alone. -/
theorem wrapWord_ofNat (c : Nat) (hc : c < 2 ^ 31) (n : BitVec 32) :
    Scalar.select (IntOp.cmpi .slt (BitVec.ofNat 32 c) 0#32) (IntOp.addi (BitVec.ofNat 32 c) n) (BitVec.ofNat 32 c)
      = BitVec.ofNat 32 c :=
  wrapWord_of_nonneg _ _ (by rw [StableHlo.Predicate.toInt_ofNat_small c hc]; omega)

/-- The pair gather at a pair whose table component is the column number t and whose row component is the word
    wd: table t, the row wd names (read signed, kept inside the table). -/
theorem pair_at {α : Type} {C N D R K : Nat} (hC : 0 < C) (hN : 0 < N) (hC31 : C ≤ 2 ^ 31)
    (wf : GatherDims.WF ⟨3, ![C, N, D]⟩ ⟨3, ![R, K, 2]⟩ ⟨3, ![R, K, D]⟩ [2] [0, 1] [] [0, 1] [] 2 ![1, 1, D])
    (x : (⟨3, ![C, N, D]⟩ : Shape).Idx → α) (pairs : IVec ⟨3, ![R, K, 2]⟩ 32) (t : Fin C) (wd : BitVec 32)
    (r : Fin R) (k : Fin K) (j : Fin D)
    (h0 : pairs (ix3 r k (0 : Fin 2)) = BitVec.ofNat 32 t.val) (h1 : pairs (ix3 r k (1 : Fin 2)) = wd) :
    Host.gather (Cert.LibGatherPair.pairTakeDims C N D R K wf) x pairs (ix3 r k j)
      = x (ix3 t (Cert.Spec.row N hN wd) j) := by
  subst h1
  rw [Cert.LibGatherPair.gather_pair_apply hC hN wf x pairs r k j]
  congr 2
  refine Fin.ext ?_
  show min (pairs (ix3 r k (0 : Fin 2))).toInt.toNat (C - 1) = t.val
  have ht := t.isLt
  rw [h0, StableHlo.Predicate.toInt_ofNat_small t.val (by omega)]
  omega

/-! ### The root's eight tables -/

/-- The table component of every root pair in column c is the column number c. -/
theorem rootTable_apply (r : Fin 8192) (c : Fin 8) : rootTable (ix3 r c (0 : Fin 1)) = BitVec.ofNat 32 c.val := by
  unfold rootTable
  rw [unitAxis_apply (by decide) (by decide), alongRows_apply (by decide)]
  exact wrapWord_ofNat c.val (by have := c.isLt; omega) _

/-- The row component of the root pair at (r, c): the code of column c in the root row idx r names. -/
theorem rootCode_apply (idx : IVec S8192 32) (rcat : IVec S200000x8 32) (hidx : Cert.Domain.AllBelow 200000 idx)
    (hrcat : Cert.Domain.AllBelow 50000 rcat) (r : Fin 8192) (c : Fin 8) :
    rootCode idx rcat (ix3 r c (0 : Fin 1)) = rcat (ix2 (Cert.Spec.row 200000 (by decide) (idx (ix1 r))) c) := by
  unfold rootCode
  rw [unitAxis_apply (by decide) (by decide)]
  show Scalar.select (IntOp.cmpi .slt (rcatG idx rcat (ix2 r c)) 0#32)
    (IntOp.addi (rcatG idx rcat (ix2 r c)) 50000#32) (rcatG idx rcat (ix2 r c)) = _
  rw [rcatG_apply idx rcat hidx r c]
  exact wrapWord_of_nonneg _ _ (hrcat _).1

/-- Component 0 of the root pair at (r, c) is the column number c. -/
theorem rootPair_table (idx : IVec S8192 32) (rcat : IVec S200000x8 32) (r : Fin 8192) (c : Fin 8) :
    rootPair idx rcat (ix3 r c (0 : Fin 2)) = BitVec.ofNat 32 c.val := by
  refine (concatenate_pair_apply_left _ rootTable (rootCode idx rcat)
    concatenates_S8192x8x1_S8192x8x1_S8192x8x2_d2 (ix3 r c (0 : Fin 2)) rfl (ix3 r c (0 : Fin 1)) fun b => ?_).trans
    (rootTable_apply r c)
  match b with
  | ⟨0, _⟩ => rfl
  | ⟨1, _⟩ => rfl
  | ⟨2, _⟩ => rfl

/-- Component 1 of the root pair at (r, c) is the code of column c in the root row idx r names. -/
theorem rootPair_code (idx : IVec S8192 32) (rcat : IVec S200000x8 32) (hidx : Cert.Domain.AllBelow 200000 idx)
    (hrcat : Cert.Domain.AllBelow 50000 rcat) (r : Fin 8192) (c : Fin 8) :
    rootPair idx rcat (ix3 r c (1 : Fin 2)) = rcat (ix2 (Cert.Spec.row 200000 (by decide) (idx (ix1 r))) c) := by
  refine (concatenate_pair_apply_right _ rootTable (rootCode idx rcat)
    concatenates_S8192x8x1_S8192x8x1_S8192x8x2_d2 (ix3 r c (1 : Fin 2)) rfl rfl (ix3 r c (0 : Fin 1))
    (fun b hb => ?_) rfl).trans (rootCode_apply idx rcat hidx hrcat r c)
  match b with
  | ⟨0, _⟩ => rfl
  | ⟨1, _⟩ => rfl
  | ⟨2, _⟩ => exact absurd rfl hb

/-- The root embeddings at (r, c * 64 + d): table c, the row the code of column c names, entry d. -/
theorem xrCat_apply (idx : IVec S8192 32) (rcat : IVec S200000x8 32) (er : FVec Ideal S8x50000x64 .f32)
    (hidx : Cert.Domain.AllBelow 200000 idx) (hrcat : Cert.Domain.AllBelow 50000 rcat)
    (r : Fin 8192) (c : Fin 8) (d : Fin 64) :
    xrCat idx rcat er (ix2 r (⟨c.val * 64 + d.val, by have := c.isLt; have := d.isLt; omega⟩ : Fin 512))
      = er (ix3 c (Cert.Spec.row 50000 (by decide)
          (rcat (ix2 (Cert.Spec.row 200000 (by decide) (idx (ix1 r))) c))) d) := by
  unfold xrCat
  refine (shapeCast_apply _ shapeCasts_S8192x8x64_S8192x512 _ (ix3 r c d) ?_).trans ?_
  · rw [Shape.rowMajor_val_three, Shape.rowMajor_val_two]
    show (r.val * 8 + c.val) * 64 + d.val = r.val * 512 + (c.val * 64 + d.val)
    omega
  · exact pair_at (by decide) (by decide) (by decide)
      gather_S8x50000x64_S8192x8x2_S8192x8x64_2_01_n_n_01_2_1164_wf er _ c _ r c d
      (rootPair_table idx rcat r c) (rootPair_code idx rcat hidx hrcat r c)

/-! ### The child's sixteen tables -/

/-- The table component of every child pair in column c is the column number c. -/
theorem childTable_apply (r : Fin 131072) (c : Fin 16) :
    childTable (ix3 r c (0 : Fin 1)) = BitVec.ofNat 32 c.val := by
  unfold childTable
  rw [unitAxis_apply (by decide) (by decide), alongRows_apply (by decide)]
  exact wrapWord_ofNat c.val (by have := c.isLt; omega) _

/-- The row component of the child pair at (r, c): the code of column c in the child row the r-th index names. -/
theorem childCode_apply (cidx : IVec S131072 32) (ccat : IVec S500000x16 32)
    (hcidx : Cert.Domain.AllBelow 500000 cidx) (hccat : Cert.Domain.AllBelow 50000 ccat) (r : Fin 131072) (c : Fin 16) :
    childCode cidx ccat (ix3 r c (0 : Fin 1)) = ccat (ix2 (Cert.Spec.row 500000 (by decide) (cidx (ix1 r))) c) := by
  unfold childCode
  rw [unitAxis_apply (by decide) (by decide)]
  show Scalar.select (IntOp.cmpi .slt (ccatG cidx ccat (ix2 r c)) 0#32)
    (IntOp.addi (ccatG cidx ccat (ix2 r c)) 50000#32) (ccatG cidx ccat (ix2 r c)) = _
  rw [ccatG_apply cidx ccat hcidx r c]
  exact wrapWord_of_nonneg _ _ (hccat _).1

/-- Component 0 of the child pair at (r, c) is the column number c. -/
theorem childPair_table (cidx : IVec S131072 32) (ccat : IVec S500000x16 32) (r : Fin 131072) (c : Fin 16) :
    childPair cidx ccat (ix3 r c (0 : Fin 2)) = BitVec.ofNat 32 c.val := by
  refine (concatenate_pair_apply_left _ childTable (childCode cidx ccat)
    concatenates_S131072x16x1_S131072x16x1_S131072x16x2_d2 (ix3 r c (0 : Fin 2)) rfl (ix3 r c (0 : Fin 1))
    fun b => ?_).trans (childTable_apply r c)
  match b with
  | ⟨0, _⟩ => rfl
  | ⟨1, _⟩ => rfl
  | ⟨2, _⟩ => rfl

/-- Component 1 of the child pair at (r, c) is the code of column c in the child row the r-th index names. -/
theorem childPair_code (cidx : IVec S131072 32) (ccat : IVec S500000x16 32)
    (hcidx : Cert.Domain.AllBelow 500000 cidx) (hccat : Cert.Domain.AllBelow 50000 ccat) (r : Fin 131072) (c : Fin 16) :
    childPair cidx ccat (ix3 r c (1 : Fin 2)) = ccat (ix2 (Cert.Spec.row 500000 (by decide) (cidx (ix1 r))) c) := by
  refine (concatenate_pair_apply_right _ childTable (childCode cidx ccat)
    concatenates_S131072x16x1_S131072x16x1_S131072x16x2_d2 (ix3 r c (1 : Fin 2)) rfl rfl (ix3 r c (0 : Fin 1))
    (fun b hb => ?_) rfl).trans (childCode_apply cidx ccat hcidx hccat r c)
  match b with
  | ⟨0, _⟩ => rfl
  | ⟨1, _⟩ => rfl
  | ⟨2, _⟩ => exact absurd rfl hb

/-- The child embeddings at (r, c * 64 + d): table c, the row the code of column c names, entry d. -/
theorem xcCat_apply (cidx : IVec S131072 32) (ccat : IVec S500000x16 32) (ec : FVec Ideal S16x50000x64 .f32)
    (hcidx : Cert.Domain.AllBelow 500000 cidx) (hccat : Cert.Domain.AllBelow 50000 ccat)
    (r : Fin 131072) (c : Fin 16) (d : Fin 64) :
    xcCat cidx ccat ec (ix2 r (⟨c.val * 64 + d.val, by have := c.isLt; have := d.isLt; omega⟩ : Fin 1024))
      = ec (ix3 c (Cert.Spec.row 50000 (by decide)
          (ccat (ix2 (Cert.Spec.row 500000 (by decide) (cidx (ix1 r))) c))) d) := by
  unfold xcCat
  refine (shapeCast_apply _ shapeCasts_S131072x16x64_S131072x1024 _ (ix3 r c d) ?_).trans ?_
  · rw [Shape.rowMajor_val_three, Shape.rowMajor_val_two]
    show (r.val * 16 + c.val) * 64 + d.val = r.val * 1024 + (c.val * 64 + d.val)
    omega
  · exact pair_at (by decide) (by decide) (by decide)
      gather_S16x50000x64_S131072x16x2_S131072x16x64_2_01_n_n_01_2_1164_wf ec _ c _ r c d
      (childPair_table cidx ccat r c) (childPair_code cidx ccat hcidx hccat r c)

/-! ## The child branch read at an index -/

/-- The two feature blocks side by side at (p, q): the embedding entry q for q < 1024, the numeric entry
    q - 1024 otherwise. -/
theorem childFeat_apply (xc : FVec Ideal S131072x1024 .f32) (xn : FVec Ideal S131072x128 .f32) (p : Fin 131072)
    (q : Fin 1152) :
    childFeat xc xn (ix2 p q)
      = Cert.Spec.feat (fun e : Fin 1024 => xc (ix2 p e)) (fun j : Fin 128 => xn (ix2 p j)) q := by
  unfold Cert.Spec.feat
  by_cases h : q.val < 1024
  · rw [dif_pos h]
    refine concatenate_pair_apply_left _ xc xn concatenates_S131072x1024_S131072x128_S131072x1152_d1 (ix2 p q) rfl
      (ix2 p (⟨q.val, h⟩ : Fin 1024)) fun b => ?_
    match b with
    | ⟨0, _⟩ => rfl
    | ⟨1, _⟩ => rfl
  · rw [dif_neg h]
    refine concatenate_pair_apply_right _ xc xn concatenates_S131072x1024_S131072x128_S131072x1152_d1 (ix2 p q) rfl rfl
      (ix2 p (⟨q.val - 1024, by have := q.isLt; omega⟩ : Fin 128)) (fun b hb => ?_) ?_
    · match b with
      | ⟨0, _⟩ => rfl
      | ⟨1, _⟩ => exact absurd rfl hb
    · show q.val - 1024 + 1024 = q.val
      omega

/-- The four coordinates the layer's contraction reads: the feature array at (row, term), the transposed weights
    at (term, unit). -/
private theorem lhs_dot_0 (j : S131072x32.Idx) (k : dot_S131072x1152_S1152x32_S131072x32_1_0_0_1_n_n.contr.Idx) :
    (dot_S131072x1152_S1152x32_S131072x32_1_0_0_1_n_n.lhsIdx j k 0).val = (j 0).val := rfl
private theorem lhs_dot_1 (j : S131072x32.Idx) (k : dot_S131072x1152_S1152x32_S131072x32_1_0_0_1_n_n.contr.Idx) :
    (dot_S131072x1152_S1152x32_S131072x32_1_0_0_1_n_n.lhsIdx j k 1).val = (k ⟨0, by decide⟩).val := rfl
private theorem rhs_dot_0 (j : S131072x32.Idx) (k : dot_S131072x1152_S1152x32_S131072x32_1_0_0_1_n_n.contr.Idx) :
    (dot_S131072x1152_S1152x32_S131072x32_1_0_0_1_n_n.rhsIdx j k 0).val = (k ⟨0, by decide⟩).val := rfl
private theorem rhs_dot_1 (j : S131072x32.Idx) (k : dot_S131072x1152_S1152x32_S131072x32_1_0_0_1_n_n.contr.Idx) :
    (dot_S131072x1152_S1152x32_S131072x32_1_0_0_1_n_n.rhsIdx j k 1).val = (j 1).val := rfl

/-- The linear layer at (p, o): the inner product of row p of the features with row o of the weights, plus
    the bias of unit o. -/
theorem childLinear_apply (h : FVec Ideal S131072x1152 .f32) (w : FVec Ideal S32x1152 .f32) (b : FVec Ideal S32 .f32)
    (p : Fin 131072) (o : Fin 32) :
    childLinear h w b (ix2 p o) = (∑ q : Fin 1152, h (ix2 p q) * w (ix2 o q)) + b (ix1 o) := by
  unfold childLinear
  rw [addf_apply]
  congr 1
  · simp only [Host.dotGeneral]
    rw [Ideal.dotGeneral_apply,
      ← Equiv.sum_comp (contrEquiv1 dot_S131072x1152_S1152x32_S131072x32_1_0_0_1_n_n 1152 rfl rfl).symm]
    refine Finset.sum_congr rfl fun q _ => ?_
    have hq := contrEquiv1_symm_val dot_S131072x1152_S1152x32_S131072x32_1_0_0_1_n_n 1152 rfl rfl q
    congr 1
    · -- the features at (p, q)
      refine congrArg h (funext fun a => Fin.ext ?_)
      match a with
      | ⟨0, _⟩ => exact lhs_dot_0 _ _
      | ⟨1, _⟩ => exact (lhs_dot_1 _ _).trans hq
    · -- the transposed weights at (q, o) are the weights at (o, q)
      refine transpose_apply _ w transposes_S32x1152_S1152x32_1_0 _ (ix2 o q) fun c => ?_
      match c with
      | ⟨0, _⟩ => exact ((rhs_dot_0 _ _).trans hq).symm
      | ⟨1, _⟩ => exact (rhs_dot_1 (ix2 p o) _).symm
  · -- the bias, laid along every row
    refine (broadcastInDim_apply _ bcast_S1x32_S131072x32_0_1 _ (ix2 p o) (ix2 (0 : Fin 1) o) fun a => ?_).trans ?_
    · match a with
      | ⟨0, _⟩ => rfl
      | ⟨1, _⟩ => rfl
    · refine broadcastInDim_apply _ bcast_S32_S1x32_1 b (ix2 (0 : Fin 1) o) (ix1 o) fun a => ?_
      match a with
      | ⟨0, _⟩ => rfl

/-- The relu at an index: the larger of the entry and the zero word. -/
theorem childRelu_apply (y : FVec Ideal S131072x32 .f32) (i : S131072x32.Idx) :
    childRelu y i = max (y i) Cert.Spec.zeroWord := rfl

/-- The mean over the sixteen children of root row r, at output unit o. -/
theorem childBagMean_apply (y : FVec Ideal S131072x32 .f32) (r : Fin 8192) (o : Fin 32) :
    childBagMean y (ix2 r o) = Cert.Spec.mean16 fun k : Fin 16 => y (ix2 (Cert.Spec.child 8192 r k) o) := by
  have hR : S8192x16x32.Reduces [1] S8192x32 := by decide
  show Ideal.div (Ideal.hostReduceAdd reducesTo_S8192x16x32_S8192x32_d1
      (shapeCast S8192x16x32 y shapeCasts_S131072x32_S8192x16x32) (Ideal.ofBits .f32 0x00000000#32) (ix2 r o))
    Cert.Spec.sixteenWord = _
  rw [Ideal.hostReduceAdd_single _ hR, Ideal.ofBits_zero_f32, zero_add]
  unfold Cert.Spec.mean16
  congr 1
  refine Finset.sum_congr rfl fun k _ => ?_
  refine shapeCast_apply y _ _ (ix2 (Cert.Spec.child 8192 r k) o) ?_
  rw [Shape.rowMajor_val_two, Shape.rowMajor_val_three]
  rfl

/-- The aggregate at (r, o): the mean over root row r's sixteen children of unit o of the layer on the child's
    1152 features (its 1024 embedding entries, then its 128 numeric entries), cut below at zero. -/
theorem aggOf_apply (xc : FVec Ideal S131072x1024 .f32) (xn : FVec Ideal S131072x128 .f32) (w : FVec Ideal S32x1152 .f32)
    (b : FVec Ideal S32 .f32) (r : Fin 8192) (o : Fin 32) :
    aggOf xc xn w b (ix2 r o) = Cert.Spec.mean16 fun k : Fin 16 => Cert.Spec.unit
      (Cert.Spec.feat (fun q : Fin 1024 => xc (ix2 (Cert.Spec.child 8192 r k) q))
        (fun j : Fin 128 => xn (ix2 (Cert.Spec.child 8192 r k) j)))
      (fun q : Fin 1152 => w (ix2 o q)) (b (ix1 o)) := by
  unfold aggOf
  rw [childBagMean_apply]
  congr 1
  funext k
  rw [childRelu_apply, childLinear_apply]
  unfold Cert.Spec.unit
  congr 2
  refine Finset.sum_congr rfl fun q _ => ?_
  rw [childFeat_apply]

/-! ## The result's three blocks -/

/-- Columns 0 to 511 of the result are the root embeddings. -/
theorem outOf_apply_cat (xr : FVec Ideal S8192x512 .f32) (xn : FVec Ideal S8192x64 .f32) (ag : FVec Ideal S8192x32 .f32)
    (r : Fin 8192) (j : Fin 512) :
    outOf xr xn ag (ix2 r (⟨j.val, by have := j.isLt; omega⟩ : Fin 608)) = xr (ix2 r j) := by
  refine concatenate_apply_piece _ [⟨S8192x512, xr⟩, ⟨S8192x64, xn⟩, ⟨S8192x32, ag⟩]
    concatenates_S8192x512_S8192x64_S8192x32_S8192x608_d1 _ 0 (by show (0 : Nat) < 3; omega)
    S8192x512 xr rfl rfl 0 rfl (ix2 r j) (fun b hb => ?_) ?_
  · match b with
    | ⟨0, _⟩ => rfl
    | ⟨1, _⟩ => exact absurd rfl hb
  · show 0 + j.val = j.val
    omega

/-- Columns 512 to 575 of the result are the root's numeric block. -/
theorem outOf_apply_num (xr : FVec Ideal S8192x512 .f32) (xn : FVec Ideal S8192x64 .f32) (ag : FVec Ideal S8192x32 .f32)
    (r : Fin 8192) (j : Fin 64) :
    outOf xr xn ag (ix2 r (⟨512 + j.val, by have := j.isLt; omega⟩ : Fin 608)) = xn (ix2 r j) := by
  refine concatenate_apply_piece _ [⟨S8192x512, xr⟩, ⟨S8192x64, xn⟩, ⟨S8192x32, ag⟩]
    concatenates_S8192x512_S8192x64_S8192x32_S8192x608_d1 _ 1 (by show (1 : Nat) < 3; omega)
    S8192x64 xn rfl rfl 512 rfl (ix2 r j) (fun b hb => ?_) ?_
  · match b with
    | ⟨0, _⟩ => rfl
    | ⟨1, _⟩ => exact absurd rfl hb
  · rfl

/-- Columns 576 to 607 of the result are the aggregate. -/
theorem outOf_apply_agg (xr : FVec Ideal S8192x512 .f32) (xn : FVec Ideal S8192x64 .f32) (ag : FVec Ideal S8192x32 .f32)
    (r : Fin 8192) (j : Fin 32) :
    outOf xr xn ag (ix2 r (⟨576 + j.val, by have := j.isLt; omega⟩ : Fin 608)) = ag (ix2 r j) := by
  refine concatenate_apply_piece _ [⟨S8192x512, xr⟩, ⟨S8192x64, xn⟩, ⟨S8192x32, ag⟩]
    concatenates_S8192x512_S8192x64_S8192x32_S8192x608_d1 _ 2 (by show (2 : Nat) < 3; omega)
    S8192x32 ag rfl rfl 576 rfl (ix2 r j) (fun b hb => ?_) ?_
  · match b with
    | ⟨0, _⟩ => rfl
    | ⟨1, _⟩ => exact absurd rfl hb
  · rfl

end Cert.ReferenceIdeal.Hand

end
-- ==== Proof.KTakeRead.lean ====
/-
  jnp.take along axis 0 on the domain where every index names a row. The program spells take(table, idx) as:
  add the row count to an index below zero; test 0 ≤ i ≤ (rows - 1); gather whole rows at the start indices
  (the gather keeps a start index inside the table); where the test holds keep the gathered row, elsewhere a
  fill. For an index word in [0, rows) nothing is added, the test holds, and the kept start index is the word
  itself, so the result at (r, j) is the table's entry (idx r, j). This is proved once for any extents, then
  read off for the six takes of the program, the gathered category codes and numerics, and the two
  concatenations of embedding look-ups.
-/
import proofs.«409894_j6640019439760_1_alg».proof.Proof.KValRootDefs
import proofs.«409894_j6640019439760_1_alg».proof.Proof.KValChildDefs
import proofs.«409894_j6640019439760_1_alg».proof.Proof.Spec
import proofs.«409894_j6640019439760_1_alg».proof.Proof.Domain
import proofs.«409894_j6640019439760_1_alg».proof.Proof.LibGatherRows
import Idealize.ShloMosaic.Lib.Affine
import Idealize.ShloMosaic.Lib.Pipeline.Value

noncomputable section

namespace Cert.KernelIdeal.Hand

open Cert.KernelIdeal
open Idealize.ShloMosaic Idealize.ShloMosaic.ValueIdx
open Cert.Domain Cert.Spec Cert.LibGatherRows

/-! ## The take, for any extents -/

section AnyExtents

variable {α : Type} {N D R : Nat}

/-- The index column of a take: the index with the row count added where it is below zero, as an R x 1 column. -/
def wrapColumn (n : BitVec 32) (idx : IVec ⟨1, ![R]⟩ 32)
    (b0 : (⟨0, ![]⟩ : Shape).BroadcastsInDim ⟨1, ![R]⟩ ![])
    (b1 : (⟨1, ![R]⟩ : Shape).BroadcastsInDim ⟨2, ![R, 1]⟩ ![0]) : IVec ⟨2, ![R, 1]⟩ 32 :=
  broadcastInDim ⟨2, ![R, 1]⟩ ![0] b1
    (select (cmpi .slt idx (broadcastInDim ⟨1, ![R]⟩ ![] b0 (constantI ⟨0, ![]⟩ 32 0#32)))
      (addi idx (broadcastInDim ⟨1, ![R]⟩ ![] b0 (constantI ⟨0, ![]⟩ 32 n))) idx)

/-- An index word that is not below zero is left as it is: the column at (r, 0) is the word of row r. -/
theorem wrapColumn_apply (n : BitVec 32) (idx : IVec ⟨1, ![R]⟩ 32) (b0) (b1)
    (i : (⟨2, ![R, 1]⟩ : Shape).Idx) (h0 : 0 ≤ (idx (ix1 (i 0))).toInt) :
    wrapColumn n idx b0 b1 i = idx (ix1 (i 0)) := by
  unfold wrapColumn
  refine (broadcastInDim_apply _ b1 _ i (ix1 (i 0)) (fun a => ?_)).trans ?_
  · match a with
    | ⟨0, _⟩ =>
      show (i 0).val = if R = 1 then 0 else (i 0).val
      have := (i 0).isLt
      split
      · next h1 => change (i 0).val < R at this; omega
      · rfl
  · -- the select's bit is the signed test (word < 0), which fails
    show Scalar.select (IntOp.cmpi .slt (idx (ix1 (i 0))) 0#32) _ (idx (ix1 (i 0))) = _
    have hbit : IntOp.cmpi .slt (idx (ix1 (i 0))) 0#32 = 0#1 := by
      refine eq_zero_of_ne_one (fun h => ?_)
      rw [IntOp.cmpi_slt] at h
      have : (0#32).toInt = 0 := by decide
      omega
    rw [hbit, select_zero]

/-- A left fold by "and" from 1 over words that are all 1 is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_ones f hf l _ (IntOp.andi_eq_one.2 ⟨h, hf a⟩)

/-- A reduction by "and" from 1 of an array of ones is 1 at every result index. -/
theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  unfold Host.reduce
  exact foldl_andi_ones (fun n => x (s.rowMajor.symm n)) (fun n => hx _) _ _ rfl

/-- The range test of a take, row by row: 0 ≤ i and i ≤ last on the index column, and-reduced over the
    column's unit axis. -/
def insideRows (last : BitVec 32) (col : IVec ⟨2, ![R, 1]⟩ 32)
    (b2 : (⟨0, ![]⟩ : Shape).BroadcastsInDim ⟨2, ![R, 1]⟩ ![])
    (b3 : (⟨2, ![1, 1]⟩ : Shape).BroadcastsInDim ⟨2, ![R, 1]⟩ ![0, 1])
    (b4 : (⟨1, ![1]⟩ : Shape).BroadcastsInDim ⟨2, ![1, 1]⟩ ![1])
    (hred : (⟨2, ![R, 1]⟩ : Shape).ReducesTo [1] ⟨1, ![R]⟩) (h0 : 0 < (⟨0, ![]⟩ : Shape).numel) : IVec ⟨1, ![R]⟩ 1 :=
  Host.reduce IntOp.andi
    (andi (cmpi .sge col (broadcastInDim ⟨2, ![R, 1]⟩ ![] b2 (constantI ⟨0, ![]⟩ 32 0#32)))
      (cmpi .sle col (broadcastInDim ⟨2, ![R, 1]⟩ ![0, 1] b3
        (broadcastInDim ⟨2, ![1, 1]⟩ ![1] b4 (constantI ⟨1, ![1]⟩ 32 last)))))
    (constantI ⟨0, ![]⟩ 1 1#1) hred h0

/-- When every word of the column lies in [0, last] the test holds in every row. -/
theorem insideRows_eq_one (last : BitVec 32) (col : IVec ⟨2, ![R, 1]⟩ 32) (b2) (b3) (b4) (hred) (h0)
    (hcol : ∀ i, 0 ≤ (col i).toInt ∧ (col i).toInt ≤ last.toInt) (j : (⟨1, ![R]⟩ : Shape).Idx) :
    insideRows last col b2 b3 b4 hred h0 j = 1#1 := by
  unfold insideRows
  refine reduce_andi_ones _ (fun i => ?_) hred h0 j
  -- at one entry both bounds are the scalars spread over the column
  show IntOp.andi (IntOp.cmpi .sge (col i) 0#32) (IntOp.cmpi .sle (col i) last) = 1#1
  refine IntOp.andi_eq_one.2 ⟨?_, ?_⟩
  · rw [IntOp.cmpi_sge]
    have : (0#32).toInt = 0 := by decide
    have := (hcol i).1
    omega
  · rw [IntOp.cmpi_sle]
    exact (hcol i).2

/-- take(table, idx) for an N x D table at R indices, as the program spells it. -/
def takeRows (n last : BitVec 32) (table : (⟨2, ![N, D]⟩ : Shape).Idx → α) (fill : (⟨0, ![]⟩ : Shape).Idx → α)
    (idx : IVec ⟨1, ![R]⟩ 32)
    (b0 : (⟨0, ![]⟩ : Shape).BroadcastsInDim ⟨1, ![R]⟩ ![])
    (b1 : (⟨1, ![R]⟩ : Shape).BroadcastsInDim ⟨2, ![R, 1]⟩ ![0])
    (b2 : (⟨0, ![]⟩ : Shape).BroadcastsInDim ⟨2, ![R, 1]⟩ ![])
    (b3 : (⟨2, ![1, 1]⟩ : Shape).BroadcastsInDim ⟨2, ![R, 1]⟩ ![0, 1])
    (b4 : (⟨1, ![1]⟩ : Shape).BroadcastsInDim ⟨2, ![1, 1]⟩ ![1])
    (hred : (⟨2, ![R, 1]⟩ : Shape).ReducesTo [1] ⟨1, ![R]⟩) (h0 : 0 < (⟨0, ![]⟩ : Shape).numel)
    (b5 : (⟨1, ![R]⟩ : Shape).BroadcastsInDim ⟨2, ![R, D]⟩ ![0])
    (b6 : (⟨0, ![]⟩ : Shape).BroadcastsInDim ⟨2, ![R, D]⟩ ![])
    (G : GatherDims ⟨2, ![N, D]⟩ ⟨2, ![R, 1]⟩ ⟨2, ![R, D]⟩) : (⟨2, ![R, D]⟩ : Shape).Idx → α :=
  select (broadcastInDim ⟨2, ![R, D]⟩ ![0] b5 (insideRows last (wrapColumn n idx b0 b1) b2 b3 b4 hred h0))
    (Host.gather G table (wrapColumn n idx b0 b1))
    (broadcastInDim ⟨2, ![R, D]⟩ ![] b6 fill)

/-- On indices that name rows the take reads the table: entry (r, j) of the result is entry (idx r, j) of the
    table. The added row count and the fill play no part; "last" is the word of N - 1. -/
theorem takeRows_apply (hN : 0 < N) (n last : BitVec 32) (hlast : last.toInt = (N : Int) - 1)
    (table : (⟨2, ![N, D]⟩ : Shape).Idx → α) (fill : (⟨0, ![]⟩ : Shape).Idx → α) (idx : IVec ⟨1, ![R]⟩ 32)
    (b0) (b1) (b2) (b3) (b4) (hred) (h0) (b5) (b6)
    (wf : GatherDims.WF ⟨2, ![N, D]⟩ ⟨2, ![R, 1]⟩ ⟨2, ![R, D]⟩ [1] [0] [] [0] [] 1 ![1, D])
    (h : AllBelow N idx) (r : Fin R) (j : Fin D) :
    takeRows n last table fill idx b0 b1 b2 b3 b4 hred h0 b5 b6 (rowTakeDims N D R wf) (ix2 r j)
      = table (ix2 (row N hN (idx (ix1 r))) j) := by
  -- the column is the index itself, row by row
  have hcol : ∀ i, wrapColumn n idx b0 b1 i = idx (ix1 (i 0)) := fun i => wrapColumn_apply n idx b0 b1 i (h _).1
  -- so the test holds everywhere
  have hin : ∀ q, insideRows last (wrapColumn n idx b0 b1) b2 b3 b4 hred h0 q = 1#1 :=
    insideRows_eq_one last _ b2 b3 b4 hred h0 (fun i => by
      rw [hcol i, hlast]
      have := h (ix1 (i 0))
      omega)
  unfold takeRows
  rw [select_apply]
  have hbit : broadcastInDim ⟨2, ![R, D]⟩ ![0] b5 (insideRows last (wrapColumn n idx b0 b1) b2 b3 b4 hred h0) (ix2 r j) = 1#1 :=
    hin _
  rw [hbit, select_one, gather_rows_apply hN wf table _ r j]
  -- the gather's kept start index is the row number of the word
  refine congrArg table (congrArg (fun q => ix2 q j) (Fin.ext ?_))
  show min (wrapColumn n idx b0 b1 (ix2 r 0)).toInt.toNat (N - 1) = min (idx (ix1 r)).toInt.toNat (N - 1)
  rw [hcol]
  rfl

/-- Column k of an R x C array, sliced out ([0:R, k:k+1]) and flattened to R entries, read at r: entry (r, k). -/
theorem columnOf_apply {C : Nat} (k : Nat) (g : (⟨2, ![R, C]⟩ : Shape).Idx → α)
    (hs : (⟨2, ![R, C]⟩ : Shape).Slices ![0, k] ⟨2, ![R, 1]⟩)
    (hc : (⟨2, ![R, 1]⟩ : Shape).ShapeCasts ⟨1, ![R]⟩) (r : Fin R) (c : Fin C) (hck : c.val = k) :
    shapeCast ⟨1, ![R]⟩ (extractStridedSlice ⟨2, ![R, 1]⟩ ![0, k] g hs) hc (ix1 r) = g (ix2 r c) := by
  -- flattening an R x 1 column keeps the row; the slice shifts the column coordinate 0 to k
  refine (shapeCast_apply _ hc (ix1 r) (ix2 r (0 : Fin 1)) ?_).trans ?_
  · rw [Shape.rowMajor_val_two, Shape.rowMajor_val_one]
    show r.val * 1 + 0 = r.val
    omega
  · exact extractStridedSlice_apply ![0, k] g hs (ix2 r (0 : Fin 1)) (ix2 r c) (fun a => match a with
      | ⟨0, _⟩ => by show r.val = 0 + r.val; omega
      | ⟨1, _⟩ => by show c.val = k + 0; omega)

/-- Table k of a stack of T tables V x E, sliced out ([k:k+1, :, :]) and reshaped to V x E, read at (v, d):
    entry (k, v, d) of the stack. -/
theorem tableOf_apply {T V E : Nat} (k : Nat) (x : (⟨3, ![T, V, E]⟩ : Shape).Idx → α)
    (hs : (⟨3, ![T, V, E]⟩ : Shape).Slices ![k, 0, 0] ⟨3, ![1, V, E]⟩)
    (hc : (⟨3, ![1, V, E]⟩ : Shape).ShapeCasts ⟨2, ![V, E]⟩) (c : Fin T) (hck : c.val = k) (v : Fin V) (d : Fin E) :
    shapeCast ⟨2, ![V, E]⟩ (extractStridedSlice ⟨3, ![1, V, E]⟩ ![k, 0, 0] x hs) hc (ix2 v d) = x (ix3 c v d) := by
  -- dropping the leading unit axis keeps (v, d); the slice shifts the table coordinate 0 to k
  refine (shapeCast_apply _ hc (ix2 v d) (ix3 (0 : Fin 1) v d) ?_).trans ?_
  · rw [Shape.rowMajor_val_two, Shape.rowMajor_val_three]
    show (0 * V + v.val) * E + d.val = v.val * E + d.val
    rw [Nat.zero_mul, Nat.zero_add]
  · exact extractStridedSlice_apply ![k, 0, 0] x hs (ix3 (0 : Fin 1) v d) (ix3 c v d) (fun a => match a with
      | ⟨0, _⟩ => by show c.val = k + 0; omega
      | ⟨1, _⟩ => by show v.val = 0 + v.val; omega
      | ⟨2, _⟩ => by show d.val = 0 + d.val; omega)

end AnyExtents

/-! ## The root side: 8192 indices -/

section Root

variable {F : FTy → Type} [FloatOps F] [Facts₀]
open Facts₀

theorem takeRows_200000x8_8192_apply (t : IVec S200000x8 32) (idx : IVec S8192 32) (h : AllBelow 200000 idx)
    (r : Fin 8192) (j : Fin 8) :
    takeRows_200000x8_8192 t idx (ix2 r j) = t (ix2 (row 200000 (by omega) (idx (ix1 r))) j) :=
  takeRows_apply (by omega) 200000#32 199999#32 (by decide) t _ idx _ _ _ _ _ _ _ _ _ _ h r j

theorem takeRows_50000x64_8192_apply (t : FVec F S50000x64 .f32) (idx : IVec S8192 32) (h : AllBelow 50000 idx)
    (r : Fin 8192) (j : Fin 64) :
    takeRows_50000x64_8192 t idx (ix2 r j) = t (ix2 (row 50000 (by omega) (idx (ix1 r))) j) :=
  takeRows_apply (by omega) 50000#32 49999#32 (by decide) t _ idx _ _ _ _ _ _ _ _ _ _ h r j

theorem takeRows_200000x64_8192_apply (t : FVec F S200000x64 .f32) (idx : IVec S8192 32) (h : AllBelow 200000 idx)
    (r : Fin 8192) (j : Fin 64) :
    takeRows_200000x64_8192 t idx (ix2 r j) = t (ix2 (row 200000 (by omega) (idx (ix1 r))) j) :=
  takeRows_apply (by omega) 200000#32 199999#32 (by decide) t _ idx _ _ _ _ _ _ _ _ _ _ h r j

/-- root_cat_g at (r, j): the code (idx r, j) of the category table. -/
theorem kRcatG_apply (idx : IVec S8192 32) (rcat : IVec S200000x8 32) (h : AllBelow 200000 idx)
    (r : Fin 8192) (j : Fin 8) :
    kRcatG idx rcat (ix2 r j) = rcat (ix2 (row 200000 (by omega) (idx (ix1 r))) j) :=
  takeRows_200000x8_8192_apply rcat idx h r j

/-- root_num_g at (r, j): entry (idx r, j) of the numeric table. -/
theorem kRnumG_apply (idx : IVec S8192 32) (rnum : FVec F S200000x64 .f32) (h : AllBelow 200000 idx)
    (r : Fin 8192) (j : Fin 64) :
    kRnumG idx rnum (ix2 r j) = rnum (ix2 (row 200000 (by omega) (idx (ix1 r))) j) :=
  takeRows_200000x64_8192_apply rnum idx h r j

/-- Column c of the gathered codes at r is the gathered code (r, c). -/
theorem kRcatCol_apply (c : Fin 8) (g : IVec S8192x8 32) (r : Fin 8192) : kRcatCol c g (ix1 r) = g (ix2 r c) :=
  match c with
  | ⟨0, _⟩ => columnOf_apply 0 g _ _ r _ rfl
  | ⟨1, _⟩ => columnOf_apply 1 g _ _ r _ rfl
  | ⟨2, _⟩ => columnOf_apply 2 g _ _ r _ rfl
  | ⟨3, _⟩ => columnOf_apply 3 g _ _ r _ rfl
  | ⟨4, _⟩ => columnOf_apply 4 g _ _ r _ rfl
  | ⟨5, _⟩ => columnOf_apply 5 g _ _ r _ rfl
  | ⟨6, _⟩ => columnOf_apply 6 g _ _ r _ rfl
  | ⟨7, _⟩ => columnOf_apply 7 g _ _ r _ rfl

/-- Embedding table c at (v, d) is entry (c, v, d) of the stacked tables. -/
theorem kEmbRootTable_apply (c : Fin 8) (er : FVec F S8x50000x64 .f32) (v : Fin 50000) (d : Fin 64) :
    kEmbRootTable c er (ix2 v d) = er (ix3 c v d) :=
  match c with
  | ⟨0, _⟩ => tableOf_apply 0 er _ _ _ rfl v d
  | ⟨1, _⟩ => tableOf_apply 1 er _ _ _ rfl v d
  | ⟨2, _⟩ => tableOf_apply 2 er _ _ _ rfl v d
  | ⟨3, _⟩ => tableOf_apply 3 er _ _ _ rfl v d
  | ⟨4, _⟩ => tableOf_apply 4 er _ _ _ rfl v d
  | ⟨5, _⟩ => tableOf_apply 5 er _ _ _ rfl v d
  | ⟨6, _⟩ => tableOf_apply 6 er _ _ _ rfl v d
  | ⟨7, _⟩ => tableOf_apply 7 er _ _ _ rfl v d

/-- The codes of column c, gathered, all name rows of an embedding table when every code of the table does. -/
theorem kRcatCol_allBelow (c : Fin 8) (idx : IVec S8192 32) (rcat : IVec S200000x8 32)
    (hidx : AllBelow 200000 idx) (hrcat : AllBelow 50000 rcat) : AllBelow 50000 (kRcatCol c (kRcatG idx rcat)) := by
  intro i
  obtain ⟨r, rfl⟩ : ∃ r : Fin 8192, i = ix1 r := ⟨i 0, eq_ix1 i⟩
  rw [kRcatCol_apply, kRcatG_apply idx rcat hidx]
  exact hrcat _

/-- cols[c] at (r, d): row "code (idx r, c)" of embedding table c, entry d. -/
theorem kErCol_apply (c : Fin 8) (idx : IVec S8192 32) (rcat : IVec S200000x8 32) (er : FVec F S8x50000x64 .f32)
    (hidx : AllBelow 200000 idx) (hrcat : AllBelow 50000 rcat) (r : Fin 8192) (d : Fin 64) :
    kErCol c idx rcat er (ix2 r d)
      = er (ix3 c (row 50000 (by omega) (rcat (ix2 (row 200000 (by omega) (idx (ix1 r))) c))) d) := by
  unfold kErCol
  rw [takeRows_50000x64_8192_apply _ _ (kRcatCol_allBelow c idx rcat hidx hrcat), kEmbRootTable_apply,
    kRcatCol_apply, kRcatG_apply idx rcat hidx]

/-- xr_cat at (r, 64 c + d): block c of the concatenation at column d, that is row "code (idx r, c)" of embedding
    table c, entry d. -/
theorem kXrCat_apply (idx : IVec S8192 32) (rcat : IVec S200000x8 32) (er : FVec F S8x50000x64 .f32)
    (hidx : AllBelow 200000 idx) (hrcat : AllBelow 50000 rcat) (r : Fin 8192) (c : Fin 8) (d : Fin 64) :
    kXrCat idx rcat er (ix2 r ⟨c.val * 64 + d.val, by have := c.isLt; have := d.isLt; omega⟩)
      = er (ix3 c (row 50000 (by omega) (rcat (ix2 (row 200000 (by omega) (idx (ix1 r))) c))) d) := by
  rw [← kErCol_apply c idx rcat er hidx hrcat r d]
  -- the eight pieces have one shape and 64 columns each: column 64 c + d lies in piece c at column d
  show concatenate S8192x512 1 (List.ofFn fun n : Fin 8 => (⟨S8192x64, kErCol n idx rcat er⟩ : (s : Shape) × (s.Idx → F .f32)))
    concatenates_S8192x64_S8192x64_S8192x64_S8192x64_S8192x64_S8192x64_S8192x64_S8192x64_S8192x512_d1 _ = _
  refine concatenate_ofFn_apply (t := S8192x512) (s₁ := S8192x64) 1 (fun n : Fin 8 => kErCol n idx rcat er) _ rfl 64 rfl _ c
    ?_ (ix2 r d) ?_ ?_
  · show (c.val * 64 + d.val) / 64 = c.val
    have := d.isLt
    omega
  · show d.val = (c.val * 64 + d.val) % 64
    have := d.isLt
    omega
  · intro b hb
    match b with
    | ⟨0, _⟩ => rfl
    | ⟨1, _⟩ => exact absurd rfl hb

end Root

/-! ## The child side: 131072 indices -/

section Child

variable {F : FTy → Type} [FloatOps F] [Facts₀]
open Facts₀

theorem takeRows_500000x16_131072_apply (t : IVec S500000x16 32) (idx : IVec S131072 32) (h : AllBelow 500000 idx)
    (r : Fin 131072) (j : Fin 16) :
    takeRows_500000x16_131072 t idx (ix2 r j) = t (ix2 (row 500000 (by omega) (idx (ix1 r))) j) :=
  takeRows_apply (by omega) 500000#32 499999#32 (by decide) t _ idx _ _ _ _ _ _ _ _ _ _ h r j

theorem takeRows_50000x64_131072_apply (t : FVec F S50000x64 .f32) (idx : IVec S131072 32) (h : AllBelow 50000 idx)
    (r : Fin 131072) (j : Fin 64) :
    takeRows_50000x64_131072 t idx (ix2 r j) = t (ix2 (row 50000 (by omega) (idx (ix1 r))) j) :=
  takeRows_apply (by omega) 50000#32 49999#32 (by decide) t _ idx _ _ _ _ _ _ _ _ _ _ h r j

theorem takeRows_500000x128_131072_apply (t : FVec F S500000x128 .f32) (idx : IVec S131072 32)
    (h : AllBelow 500000 idx) (r : Fin 131072) (j : Fin 128) :
    takeRows_500000x128_131072 t idx (ix2 r j) = t (ix2 (row 500000 (by omega) (idx (ix1 r))) j) :=
  takeRows_apply (by omega) 500000#32 499999#32 (by decide) t _ idx _ _ _ _ _ _ _ _ _ _ h r j

/-- child_cat_g at (r, j): the code (cidx r, j) of the child category table. -/
theorem kCcatG_apply (cidx : IVec S131072 32) (ccat : IVec S500000x16 32) (h : AllBelow 500000 cidx)
    (r : Fin 131072) (j : Fin 16) :
    kCcatG cidx ccat (ix2 r j) = ccat (ix2 (row 500000 (by omega) (cidx (ix1 r))) j) :=
  takeRows_500000x16_131072_apply ccat cidx h r j

/-- child_num_g at (r, j): entry (cidx r, j) of the child numeric table. -/
theorem kCnumG_apply (cidx : IVec S131072 32) (cnum : FVec F S500000x128 .f32) (h : AllBelow 500000 cidx)
    (r : Fin 131072) (j : Fin 128) :
    kCnumG cidx cnum (ix2 r j) = cnum (ix2 (row 500000 (by omega) (cidx (ix1 r))) j) :=
  takeRows_500000x128_131072_apply cnum cidx h r j

/-- Column c of the gathered child codes at r is the gathered code (r, c). -/
theorem kCcatCol_apply (c : Fin 16) (g : IVec S131072x16 32) (r : Fin 131072) : kCcatCol c g (ix1 r) = g (ix2 r c) :=
  match c with
  | ⟨0, _⟩ => columnOf_apply 0 g _ _ r _ rfl
  | ⟨1, _⟩ => columnOf_apply 1 g _ _ r _ rfl
  | ⟨2, _⟩ => columnOf_apply 2 g _ _ r _ rfl
  | ⟨3, _⟩ => columnOf_apply 3 g _ _ r _ rfl
  | ⟨4, _⟩ => columnOf_apply 4 g _ _ r _ rfl
  | ⟨5, _⟩ => columnOf_apply 5 g _ _ r _ rfl
  | ⟨6, _⟩ => columnOf_apply 6 g _ _ r _ rfl
  | ⟨7, _⟩ => columnOf_apply 7 g _ _ r _ rfl
  | ⟨8, _⟩ => columnOf_apply 8 g _ _ r _ rfl
  | ⟨9, _⟩ => columnOf_apply 9 g _ _ r _ rfl
  | ⟨10, _⟩ => columnOf_apply 10 g _ _ r _ rfl
  | ⟨11, _⟩ => columnOf_apply 11 g _ _ r _ rfl
  | ⟨12, _⟩ => columnOf_apply 12 g _ _ r _ rfl
  | ⟨13, _⟩ => columnOf_apply 13 g _ _ r _ rfl
  | ⟨14, _⟩ => columnOf_apply 14 g _ _ r _ rfl
  | ⟨15, _⟩ => columnOf_apply 15 g _ _ r _ rfl
  | ⟨_ + 16, h⟩ => absurd h (Nat.not_lt.2 (Nat.le_add_left _ _))

/-- Child embedding table c at (v, d) is entry (c, v, d) of the stacked tables. -/
theorem kEmbChildTable_apply (c : Fin 16) (ec : FVec F S16x50000x64 .f32) (v : Fin 50000) (d : Fin 64) :
    kEmbChildTable c ec (ix2 v d) = ec (ix3 c v d) :=
  match c with
  | ⟨0, _⟩ => tableOf_apply 0 ec _ _ _ rfl v d
  | ⟨1, _⟩ => tableOf_apply 1 ec _ _ _ rfl v d
  | ⟨2, _⟩ => tableOf_apply 2 ec _ _ _ rfl v d
  | ⟨3, _⟩ => tableOf_apply 3 ec _ _ _ rfl v d
  | ⟨4, _⟩ => tableOf_apply 4 ec _ _ _ rfl v d
  | ⟨5, _⟩ => tableOf_apply 5 ec _ _ _ rfl v d
  | ⟨6, _⟩ => tableOf_apply 6 ec _ _ _ rfl v d
  | ⟨7, _⟩ => tableOf_apply 7 ec _ _ _ rfl v d
  | ⟨8, _⟩ => tableOf_apply 8 ec _ _ _ rfl v d
  | ⟨9, _⟩ => tableOf_apply 9 ec _ _ _ rfl v d
  | ⟨10, _⟩ => tableOf_apply 10 ec _ _ _ rfl v d
  | ⟨11, _⟩ => tableOf_apply 11 ec _ _ _ rfl v d
  | ⟨12, _⟩ => tableOf_apply 12 ec _ _ _ rfl v d
  | ⟨13, _⟩ => tableOf_apply 13 ec _ _ _ rfl v d
  | ⟨14, _⟩ => tableOf_apply 14 ec _ _ _ rfl v d
  | ⟨15, _⟩ => tableOf_apply 15 ec _ _ _ rfl v d
  | ⟨_ + 16, h⟩ => absurd h (Nat.not_lt.2 (Nat.le_add_left _ _))

/-- The gathered child codes of column c all name rows of an embedding table when every code of the table does. -/
theorem kCcatCol_allBelow (c : Fin 16) (cidx : IVec S131072 32) (ccat : IVec S500000x16 32)
    (hcidx : AllBelow 500000 cidx) (hccat : AllBelow 50000 ccat) : AllBelow 50000 (kCcatCol c (kCcatG cidx ccat)) := by
  intro i
  obtain ⟨r, rfl⟩ : ∃ r : Fin 131072, i = ix1 r := ⟨i 0, eq_ix1 i⟩
  rw [kCcatCol_apply, kCcatG_apply cidx ccat hcidx]
  exact hccat _

/-- Embedding block c of the child rows at (r, d): row "code (cidx r, c)" of child embedding table c, entry d. -/
theorem kEcCol_apply (c : Fin 16) (cidx : IVec S131072 32) (ccat : IVec S500000x16 32) (ec : FVec F S16x50000x64 .f32)
    (hcidx : AllBelow 500000 cidx) (hccat : AllBelow 50000 ccat) (r : Fin 131072) (d : Fin 64) :
    kEcCol c cidx ccat ec (ix2 r d)
      = ec (ix3 c (row 50000 (by omega) (ccat (ix2 (row 500000 (by omega) (cidx (ix1 r))) c))) d) := by
  unfold kEcCol
  rw [takeRows_50000x64_131072_apply _ _ (kCcatCol_allBelow c cidx ccat hcidx hccat), kEmbChildTable_apply,
    kCcatCol_apply, kCcatG_apply cidx ccat hcidx]

/-- xc_cat at (r, 64 c + d): block c of the concatenation at column d, that is row "code (cidx r, c)" of child
    embedding table c, entry d. -/
theorem kXcCat_apply (cidx : IVec S131072 32) (ccat : IVec S500000x16 32) (ec : FVec F S16x50000x64 .f32)
    (hcidx : AllBelow 500000 cidx) (hccat : AllBelow 50000 ccat) (r : Fin 131072) (c : Fin 16) (d : Fin 64) :
    kXcCat cidx ccat ec (ix2 r ⟨c.val * 64 + d.val, by have := c.isLt; have := d.isLt; omega⟩)
      = ec (ix3 c (row 50000 (by omega) (ccat (ix2 (row 500000 (by omega) (cidx (ix1 r))) c))) d) := by
  rw [← kEcCol_apply c cidx ccat ec hcidx hccat r d]
  -- the sixteen pieces have one shape and 64 columns each: column 64 c + d lies in piece c at column d
  show concatenate S131072x1024 1
    (List.ofFn fun n : Fin 16 => (⟨S131072x64, kEcCol n cidx ccat ec⟩ : (s : Shape) × (s.Idx → F .f32))) _ _ = _
  refine concatenate_ofFn_apply (t := S131072x1024) (s₁ := S131072x64) 1 (fun n : Fin 16 => kEcCol n cidx ccat ec) _ rfl 64 rfl
    _ c ?_ (ix2 r d) ?_ ?_
  · show (c.val * 64 + d.val) / 64 = c.val
    have := d.isLt
    omega
  · show d.val = (c.val * 64 + d.val) % 64
    have := d.isLt
    omega
  · intro b hb
    match b with
    | ⟨0, _⟩ => rfl
    | ⟨1, _⟩ => exact absurd rfl hb

/-- The bf16 copy of xc_cat the kernel's first window reads: over the extended reals the conversion changes
    nothing, so it reads the same embedding entry. -/
theorem kXcCatBf_apply (cidx : IVec S131072 32) (ccat : IVec S500000x16 32) (ec : FVec Ideal S16x50000x64 .f32)
    (hcidx : AllBelow 500000 cidx) (hccat : AllBelow 50000 ccat) (r : Fin 131072) (c : Fin 16) (d : Fin 64) :
    kXcCatBf cidx ccat ec (ix2 r ⟨c.val * 64 + d.val, by have := c.isLt; have := d.isLt; omega⟩)
      = ec (ix3 c (row 50000 (by omega) (ccat (ix2 (row 500000 (by omega) (cidx (ix1 r))) c))) d) := by
  unfold kXcCatBf
  rw [truncf_apply]
  exact kXcCat_apply cidx ccat ec hcidx hccat r c d

end Child

end Cert.KernelIdeal.Hand

end
-- ==== Proof.Meet.lean ====
/-
  On the domain the two programs gather the same arrays. Each side's gather stage, read at an index, is the
  same entry of the same table: the row the index names, and for an embedding lookup table c at the row the
  code of column c names. A column a of the side-by-side embeddings is c * 64 + d with c = a / 64 and
  d = a % 64. A gathered entry is an entry of the table, so a gather of a real table is real.
-/
import proofs.«409894_j6640019439760_1_alg».proof.Proof.RefRead
import proofs.«409894_j6640019439760_1_alg».proof.Proof.KTakeRead
import proofs.«409894_j6640019439760_1_alg».proof.Proof.KValRootDefs
import proofs.«409894_j6640019439760_1_alg».proof.Proof.KValChildDefs
import proofs.«409894_j6640019439760_1_alg».proof.Proof.Gen.KernelIdeal
import proofs.«409894_j6640019439760_1_alg».proof.Proof.Domain
import Idealize.ShloMosaic.Lib.Pipeline.Value
import Idealize.ShloMosaic.Lib.ValueIdx

noncomputable section

namespace Cert.Meet

open Cert.KernelIdeal.Hand Cert.ReferenceIdeal.Hand Cert.Domain
open Idealize.ShloMosaic Idealize.ShloMosaic.ValueIdx

/-- A column number below K * 64 is (a / 64) * 64 + a % 64, with a / 64 below K. -/
theorem column_split (K : Nat) (a : Fin (K * 64)) :
    ∃ (c : Fin K) (d : Fin 64) (h : c.val * 64 + d.val < K * 64), (⟨c.val * 64 + d.val, h⟩ : Fin (K * 64)) = a := by
  have ha := a.isLt
  refine ⟨⟨a.val / 64, by omega⟩, ⟨a.val % 64, Nat.mod_lt _ (by decide)⟩, by show a.val / 64 * 64 + a.val % 64 < K * 64; omega,
    Fin.ext ?_⟩
  show a.val / 64 * 64 + a.val % 64 = a.val
  omega

/-- The root embeddings: the kernel program's eight lookups side by side are the reference's pair gather. -/
theorem xrCat_meet (idx : IVec ⟨1, ![8192]⟩ 32) (rcat : IVec ⟨2, ![200000, 8]⟩ 32)
    (er : FVec Ideal ⟨3, ![8, 50000, 64]⟩ .f32) (hidx : AllBelow 200000 idx) (hrcat : AllBelow 50000 rcat) :
    kXrCat idx rcat er = xrCat idx rcat er := by
  funext i
  obtain ⟨r, a, rfl⟩ : ∃ (r : Fin 8192) (a : Fin 512), i = ix2 r a := ⟨i 0, i 1, eq_ix2 i⟩
  obtain ⟨c, d, h, rfl⟩ := column_split 8 a
  exact (kXrCat_apply idx rcat er hidx hrcat r c d).trans (xrCat_apply idx rcat er hidx hrcat r c d).symm

/-- The root's gathered numeric rows agree. -/
theorem rnumG_meet (idx : IVec ⟨1, ![8192]⟩ 32) (rnum : FVec Ideal ⟨2, ![200000, 64]⟩ .f32)
    (hidx : AllBelow 200000 idx) : kRnumG idx rnum = rnumG idx rnum := by
  funext i
  obtain ⟨r, j, rfl⟩ : ∃ (r : Fin 8192) (j : Fin 64), i = ix2 r j := ⟨i 0, i 1, eq_ix2 i⟩
  exact (kRnumG_apply idx rnum hidx r j).trans (rnumG_apply idx rnum hidx r j).symm

/-- The child embeddings: the kernel program's sixteen lookups side by side, narrowed to the short float
    format (which changes no extended real), are the reference's pair gather. -/
theorem xcCat_meet (cidx : IVec ⟨1, ![131072]⟩ 32) (ccat : IVec ⟨2, ![500000, 16]⟩ 32)
    (ec : FVec Ideal ⟨3, ![16, 50000, 64]⟩ .f32) (hcidx : AllBelow 500000 cidx) (hccat : AllBelow 50000 ccat) :
    (kXcCatBf cidx ccat ec : (⟨2, ![131072, 1024]⟩ : Shape).Idx → EReal) = xcCat cidx ccat ec := by
  funext i
  obtain ⟨r, a, rfl⟩ : ∃ (r : Fin 131072) (a : Fin 1024), i = ix2 r a := ⟨i 0, i 1, eq_ix2 i⟩
  obtain ⟨c, d, h, rfl⟩ := column_split 16 a
  exact (kXcCatBf_apply cidx ccat ec hcidx hccat r c d).trans (xcCat_apply cidx ccat ec hcidx hccat r c d).symm

/-- The child's gathered numeric rows agree. -/
theorem cnumG_meet (cidx : IVec ⟨1, ![131072]⟩ 32) (cnum : FVec Ideal ⟨2, ![500000, 128]⟩ .f32)
    (hcidx : AllBelow 500000 cidx) : kCnumG cidx cnum = cnumG cidx cnum := by
  funext i
  obtain ⟨r, j, rfl⟩ : ∃ (r : Fin 131072) (j : Fin 128), i = ix2 r j := ⟨i 0, i 1, eq_ix2 i⟩
  exact (kCnumG_apply cidx cnum hcidx r j).trans (cnumG_apply cidx cnum hcidx r j).symm

/-- A gathered entry is an entry of the table: the root's gathered numeric rows are real when the table is. -/
theorem rnumG_real (idx : IVec ⟨1, ![8192]⟩ 32) (rnum : FVec Ideal ⟨2, ![200000, 64]⟩ .f32)
    (hidx : AllBelow 200000 idx) (h : AllReal rnum) : AllReal (rnumG idx rnum) := by
  intro i
  obtain ⟨r, j, rfl⟩ : ∃ (r : Fin 8192) (j : Fin 64), i = ix2 r j := ⟨i 0, i 1, eq_ix2 i⟩
  rw [rnumG_apply idx rnum hidx r j]
  exact h _

/-- The child's gathered numeric rows are real when the table is. -/
theorem cnumG_real (cidx : IVec ⟨1, ![131072]⟩ 32) (cnum : FVec Ideal ⟨2, ![500000, 128]⟩ .f32)
    (hcidx : AllBelow 500000 cidx) (h : AllReal cnum) : AllReal (cnumG cidx cnum) := by
  intro i
  obtain ⟨r, j, rfl⟩ : ∃ (r : Fin 131072) (j : Fin 128), i = ix2 r j := ⟨i 0, i 1, eq_ix2 i⟩
  rw [cnumG_apply cidx cnum hcidx r j]
  exact h _

/-- The bias as a row: the 1 x 32 array reads, at (0, o), the bias of unit o. -/
theorem kBrow_apply (b : FVec Ideal ⟨1, ![32]⟩ .f32) (o : Fin 32) : kBrow b (ix2 (0 : Fin 1) o) = b (ix1 o) := by
  unfold kBrow
  refine broadcastInDim_apply _ _ b (ix2 (0 : Fin 1) o) (ix1 o) fun a => ?_
  match a with
  | ⟨0, _⟩ => rfl

end Cert.Meet

end
-- ==== Proof.NormLaw.lean ====
/-
  The one arithmetic law of this certificate. The reference normalises a feature column as
  ((x - mean) * rsqrt(var + eps)) * gamma + beta; the kernel's host code multiplies the scale out first,
  scale = gamma * rsqrt(var + eps) and shift = beta - mean * scale, and computes x * scale + shift. Over the real
  numbers the two are equal by distributivity. Over the extended reals distributivity fails at the infinities, so the
  law is proved through ℝ: where every entry of the feature matrix is a real number, the column's mean is a real
  (a finite sum of reals over a count that is not zero), its variance is a real that is not negative (a mean of
  squares), so the variance plus epsilon is positive and its reciprocal square root is a real too; with gamma and
  beta real, both sides are images of real numbers and the real identity carries over.
  In order: real numbers inside the extended reals; the reference's mean, variance and norm read at an index as sums
  down a column, for the root features (8192 × 64) and the child features (131072 × 128), the sums kept symbolic;
  the kernel's mean and variance, which are the reference's own operations; its scale and shift read at a column;
  and the law between the two norms, entry for entry.
-/
import proofs.«409894_j6640019439760_1_alg».proof.Proof.RefVal
import proofs.«409894_j6640019439760_1_alg».proof.Proof.Domain
import proofs.«409894_j6640019439760_1_alg».proof.Proof.KValRootDefs
import proofs.«409894_j6640019439760_1_alg».proof.Proof.KValChildDefs
import proofs.«409894_j6640019439760_1_alg».proof.Proof.Gen.KernelIdeal
import Idealize.ShloMosaic.Lib.IdealHost
import Idealize.ShloMosaic.Lib.KernelVsHost
import Idealize.ShloMosaic.PureOps.Ideal.Laws

noncomputable section

namespace Cert.NormLaw

open Idealize.ShloMosaic Idealize.ShloMosaic.ValueIdx
open Cert.ReferenceIdeal Cert.ReferenceIdeal.Hand Cert.Domain
open scoped BigOperators

/-! ## Real numbers inside the extended reals -/

/-- A finite sum of real numbers, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real divided by a real that is not zero is the real quotient. -/
theorem div_real (a : ℝ) {N : ℝ} (hN : N ≠ 0) : Ideal.div (a : EReal) (N : EReal) = ((a / N : ℝ) : EReal) := by
  rw [Ideal.div_coe hN, ← EReal.coe_mul, mul_one_div]

/-- The reciprocal square root of a positive real is a real. -/
theorem rsqrt_real {r : ℝ} (hr : 0 < r) : Ideal.rsqrt (r : EReal) = (((Real.sqrt r)⁻¹ : ℝ) : EReal) := by
  rw [Ideal.rsqrt_coe, if_neg (not_lt.mpr hr.le), if_neg hr.ne']

/-- The f32 word 0x46000000 is 2¹³ = 8192. -/
theorem ofBits_8192 : Ideal.ofBits .f32 0x46000000#32 = ((8192 : ℝ) : EReal) := by
  simp [Ideal.ofBits, Ideal.ieee, -EReal.coe_mul]; norm_num

/-- The f32 word 0x48000000 is 2¹⁷ = 131072. -/
theorem ofBits_131072 : Ideal.ofBits .f32 0x48000000#32 = ((131072 : ℝ) : EReal) := by
  simp [Ideal.ofBits, Ideal.ieee, -EReal.coe_mul]; norm_num

/-- The batch norm's epsilon, the f32 nearest 1e-5: 10995116 · 2⁻⁴⁰. -/
def eps : ℝ := 10995116 / 2 ^ 40

theorem eps_pos : 0 < eps := by unfold eps; positivity

theorem ofBits_eps : Ideal.ofBits .f32 0x3727C5AC#32 = (eps : EReal) := by
  unfold eps
  simp [Ideal.ofBits, Ideal.ieee, -EReal.coe_mul]; norm_num

/-! ## Layout readings -/

/-- A vector laid out as the one row of a 1 × n matrix, read at column j, is the vector at j. -/
theorem rowOf_apply {n : Nat} (h : (⟨1, ![n]⟩ : Shape).BroadcastsInDim ⟨2, ![1, n]⟩ ![1])
    {α : Type} (y : (⟨1, ![n]⟩ : Shape).Idx → α) (j : Fin n) :
    broadcastInDim ⟨2, ![1, n]⟩ ![1] h y (ix2 (0 : Fin 1) j) = y (ix1 j) := by
  refine broadcastInDim_apply ![1] h y (ix2 (0 : Fin 1) j) (ix1 j) ?_
  intro a
  fin_cases a
  show j.val = if n = 1 then 0 else j.val
  split_ifs with hn
  · have := j.isLt; omega
  · rfl

/-- Summing an m × n matrix over its rows: the entry of column j with the row coordinate k put back is (k, j). -/
theorem lift_rows {m n : Nat} (h : (⟨2, ![m, n]⟩ : Shape).Reduces [0] ⟨1, ![n]⟩) (j : Fin n) (k : Fin m) :
    h.lift (ix1 j) k = ix2 k j := by
  funext c
  fin_cases c
  · exact Fin.ext rfl
  · exact Fin.ext rfl

/-- The host's column sums of an m × n matrix from the zero word, read at column j: the sum down the column. -/
theorem colSum_apply {m n : Nat} (x : FVec Ideal ⟨2, ![m, n]⟩ .f32) (h' : (⟨2, ![m, n]⟩ : Shape).ReducesTo [0] ⟨1, ![n]⟩)
    (h : (⟨2, ![m, n]⟩ : Shape).Reduces [0] ⟨1, ![n]⟩) (hu : 0 < (⟨0, ![]⟩ : Shape).numel) (j : Fin n) :
    Host.reduceAdd x (constant ⟨0, ![]⟩ .f32 0x00000000#32) h' hu (ix1 j) = ∑ k : Fin m, x (ix2 k j) := by
  rw [hostReduceAdd_apply, Ideal.hostReduceAdd_single h' h, constant_apply, Ideal.ofBits_zero_f32, zero_add]
  exact Finset.sum_congr rfl fun k _ => congrArg x (lift_rows h j k)

/-- The column sums of the squared deviations of an m × n matrix from a row of centres, read at column j. -/
theorem colSqDev_apply {m n : Nat} (x : FVec Ideal ⟨2, ![m, n]⟩ .f32) (c : FVec Ideal ⟨2, ![1, n]⟩ .f32)
    (hb : (⟨2, ![1, n]⟩ : Shape).BroadcastsInDim ⟨2, ![m, n]⟩ ![0, 1])
    (h' : (⟨2, ![m, n]⟩ : Shape).ReducesTo [0] ⟨1, ![n]⟩) (h : (⟨2, ![m, n]⟩ : Shape).Reduces [0] ⟨1, ![n]⟩)
    (hu : 0 < (⟨0, ![]⟩ : Shape).numel) (j : Fin n) :
    Host.reduceAdd
        (mulf (subf x (broadcastInDim ⟨2, ![m, n]⟩ ![0, 1] hb c)) (subf x (broadcastInDim ⟨2, ![m, n]⟩ ![0, 1] hb c)))
        (constant ⟨0, ![]⟩ .f32 0x00000000#32) h' hu (ix1 j)
      = ∑ k : Fin m, (x (ix2 k j) - c (ix2 (0 : Fin 1) j)) * (x (ix2 k j) - c (ix2 (0 : Fin 1) j)) := by
  rw [colSum_apply _ h' h hu]
  refine Finset.sum_congr rfl fun k _ => ?_
  rw [mulf_apply, subf_apply, broadcastInDim_oneRow_apply]

theorem hostRsqrt_apply {s : Shape} (v : FVec Ideal s .f32) (i : s.Idx) : Host.rsqrt v i = Ideal.rsqrt (v i) := rfl

/-! ## The reference's root statistics read at a column -/

theorem red_root : S8192x64.Reduces [0] S64 := by decide

theorem red_child : S131072x128.Reduces [0] S128 := by decide

/-- A 1 × 64 row repeated down 8192 rows, read at (r, j), is the row at j. -/
theorem downRows_root {α : Type} (h : S1x64.BroadcastsInDim S8192x64 ![0, 1]) (y : S1x64.Idx → α) (r : Fin 8192) (j : Fin 64) :
    broadcastInDim S8192x64 ![0, 1] h y (ix2 r j) = y (ix2 (0 : Fin 1) j) :=
  broadcastInDim_oneRow_apply h y r j

/-- A 1 × 128 row repeated down 131072 rows, read at (r, j), is the row at j. -/
theorem downRows_child {α : Type} (h : S1x128.BroadcastsInDim S131072x128 ![0, 1]) (y : S1x128.Idx → α) (r : Fin 131072)
    (j : Fin 128) : broadcastInDim S131072x128 ![0, 1] h y (ix2 r j) = y (ix2 (0 : Fin 1) j) :=
  broadcastInDim_oneRow_apply h y r j

/-- The root mean at column j: the column's sum over 8192. -/
theorem rootMean_apply (x : FVec Ideal S8192x64 .f32) (j : Fin 64) :
    rootMean x (ix2 (0 : Fin 1) j) = Ideal.div (∑ k : Fin 8192, x (ix2 k j)) ((8192 : ℝ) : EReal) := by
  unfold rootMean
  rw [hostDivf_apply, rowOf_apply, colSum_apply x _ red_root, broadcastInDim_scalar_apply, constant_apply, ofBits_8192]

/-- The divisor of the root variance is 8192. -/
theorem rootCount_eq : rootCount (F := Ideal) ix0 = ((8192 : ℝ) : EReal) := by
  unfold rootCount
  rw [subf_apply, constant_apply, sitofp_apply, ofBits_8192]
  show ((8192 : ℝ) : EReal) - ((((0#32 : BitVec 32).toInt : ℤ) : ℝ) : EReal) = _
  simp

/-- The root variance at column j: the column's summed squared deviations from its mean, over 8192 (the test of the
    select, 8192 > 0, holds). -/
theorem rootVar_apply (x : FVec Ideal S8192x64 .f32) (j : Fin 64) :
    rootVar x (ix2 (0 : Fin 1) j)
      = Ideal.div (∑ k : Fin 8192, (x (ix2 k j) - rootMean x (ix2 0 j)) * (x (ix2 k j) - rootMean x (ix2 0 j)))
          ((8192 : ℝ) : EReal) := by
  have hpos : cmpf .ogt (rootCount (F := Ideal)) (constant S_ .f32 0x00000000#32) ix0 = 1#1 := by
    rw [cmpf_apply, rootCount_eq, constant_apply, Ideal.ofBits_zero_f32, Ideal.cmpf_def]
    have h0 : (0 : EReal) < ((8192 : ℝ) : EReal) := by exact_mod_cast (by norm_num : (0 : ℝ) < 8192)
    show BitVec.ofBool (decide ((0 : EReal) < ((8192 : ℝ) : EReal))) = 1#1
    rw [decide_eq_true h0]; rfl
  unfold rootVar
  rw [select_apply, broadcastInDim_scalar_apply, hpos, select_one, hostDivf_apply, rowOf_apply,
    colSqDev_apply x _ _ _ red_root, broadcastInDim_scalar_apply, rootCount_eq]

/-- The root batch norm read at an entry, its column's statistics named. -/
theorem rootNorm_apply (x : FVec Ideal S8192x64 .f32) (g b : FVec Ideal S64 .f32) (r : Fin 8192) (j : Fin 64) :
    rootNorm x g b (ix2 r j)
      = ((x (ix2 r j) - rootMean x (ix2 0 j))
          * Ideal.rsqrt (rootVar x (ix2 0 j) + Ideal.ofBits .f32 0x3727C5AC#32)) * g (ix1 j) + b (ix1 j) := by
  unfold rootNorm
  rw [addf_apply, mulf_apply, mulf_apply, subf_apply, downRows_root, downRows_root, downRows_root, downRows_root,
    rowOf_apply, rowOf_apply, hostRsqrt_apply, addf_apply, broadcastInDim_scalar_apply, constant_apply]

/-! ## The statistics of a real column are real -/

/-- The mean of finitely many reals, over a real count that is not zero, is real. -/
theorem mean_real {ι : Type} [Fintype ι] (f : ι → EReal) (hf : ∀ i, ∃ r : ℝ, f i = (r : EReal)) {N : ℝ} (hN : N ≠ 0) :
    ∃ μ : ℝ, Ideal.div (∑ i, f i) (N : EReal) = (μ : EReal) := by
  choose r hr using hf
  refine ⟨(∑ i, r i) / N, ?_⟩
  rw [Finset.sum_congr rfl fun i _ => hr i, coe_sum, div_real _ hN]

/-- The mean squared deviation of finitely many reals from a real, over a positive count, is a real that is not
    negative. -/
theorem var_real {ι : Type} [Fintype ι] (f : ι → EReal) (hf : ∀ i, ∃ r : ℝ, f i = (r : EReal)) (μ : ℝ) {N : ℝ}
    (hN : 0 < N) :
    ∃ v : ℝ, 0 ≤ v ∧ Ideal.div (∑ i, (f i - (μ : EReal)) * (f i - (μ : EReal))) (N : EReal) = (v : EReal) := by
  choose r hr using hf
  refine ⟨(∑ i, (r i - μ) * (r i - μ)) / N, div_nonneg (Finset.sum_nonneg fun i _ => mul_self_nonneg _) hN.le, ?_⟩
  have hterm : ∀ i, (f i - (μ : EReal)) * (f i - (μ : EReal)) = (((r i - μ) * (r i - μ) : ℝ) : EReal) := fun i => by
    rw [hr i, ← EReal.coe_sub, ← EReal.coe_mul]
  rw [Finset.sum_congr rfl fun i _ => hterm i, coe_sum, div_real _ hN.ne']

/-- A real that is not negative, plus epsilon, has a real reciprocal square root. -/
theorem rsqrt_add_eps_real {v : ℝ} (hv : 0 ≤ v) :
    ∃ ρ : ℝ, Ideal.rsqrt ((v : EReal) + Ideal.ofBits .f32 0x3727C5AC#32) = (ρ : EReal) := by
  refine ⟨(Real.sqrt (v + eps))⁻¹, ?_⟩
  rw [ofBits_eps, ← EReal.coe_add, rsqrt_real (add_pos_of_nonneg_of_pos hv eps_pos)]

/-- The mean of a real root feature column is real. -/
theorem rootMean_real (x : FVec Ideal S8192x64 .f32) (hx : AllReal x) (j : Fin 64) :
    ∃ μ : ℝ, rootMean x (ix2 (0 : Fin 1) j) = (μ : EReal) := by
  rw [rootMean_apply]
  exact mean_real _ (fun k => hx (ix2 k j)) (by norm_num)

/-- The variance of a real root feature column is a real that is not negative, so with epsilon added its reciprocal
    square root is real. -/
theorem rootRs_real (x : FVec Ideal S8192x64 .f32) (hx : AllReal x) (j : Fin 64) :
    ∃ ρ : ℝ, Ideal.rsqrt (rootVar x (ix2 (0 : Fin 1) j) + Ideal.ofBits .f32 0x3727C5AC#32) = (ρ : EReal) := by
  obtain ⟨μ, hμ⟩ := rootMean_real x hx j
  obtain ⟨v, hv, hvar⟩ := var_real (fun k : Fin 8192 => x (ix2 k j)) (fun k => hx (ix2 k j)) μ (N := 8192) (by norm_num)
  rw [rootVar_apply, hμ, hvar]
  exact rsqrt_add_eps_real hv

/-! ## The law -/

/-- Normalising then scaling and shifting is one multiplication and one addition with the scale and the shift
    multiplied out beforehand. -/
theorem norm_law (x μ ρ g b : ℝ) : ((x - μ) * ρ) * g + b = x * (g * ρ) + (b - μ * (g * ρ)) := by ring

/-- The same between real numbers read in the extended reals. -/
theorem norm_law_coe (x μ ρ g b : ℝ) :
    (((x : EReal) - (μ : EReal)) * (ρ : EReal)) * (g : EReal) + (b : EReal)
      = (x : EReal) * ((g : EReal) * (ρ : EReal)) + ((b : EReal) - (μ : EReal) * ((g : EReal) * (ρ : EReal))) := by
  have h := norm_law x μ ρ g b
  exact_mod_cast h

/-! ## The reference's child statistics read at a column -/

/-- The child mean at column j: the column's sum over 131072. -/
theorem childMean_apply (x : FVec Ideal S131072x128 .f32) (j : Fin 128) :
    childMean x (ix2 (0 : Fin 1) j) = Ideal.div (∑ k : Fin 131072, x (ix2 k j)) ((131072 : ℝ) : EReal) := by
  unfold childMean
  rw [hostDivf_apply, rowOf_apply, colSum_apply x _ red_child, broadcastInDim_scalar_apply, constant_apply, ofBits_131072]

/-- The divisor of the child variance is 131072. -/
theorem childCount_eq : childCount (F := Ideal) ix0 = ((131072 : ℝ) : EReal) := by
  unfold childCount
  rw [subf_apply, constant_apply, sitofp_apply, ofBits_131072]
  show ((131072 : ℝ) : EReal) - ((((0#32 : BitVec 32).toInt : ℤ) : ℝ) : EReal) = _
  simp

/-- The child variance at column j: the column's summed squared deviations from its mean, over 131072. -/
theorem childVar_apply (x : FVec Ideal S131072x128 .f32) (j : Fin 128) :
    childVar x (ix2 (0 : Fin 1) j)
      = Ideal.div (∑ k : Fin 131072, (x (ix2 k j) - childMean x (ix2 0 j)) * (x (ix2 k j) - childMean x (ix2 0 j)))
          ((131072 : ℝ) : EReal) := by
  have hpos : cmpf .ogt (childCount (F := Ideal)) (constant S_ .f32 0x00000000#32) ix0 = 1#1 := by
    rw [cmpf_apply, childCount_eq, constant_apply, Ideal.ofBits_zero_f32, Ideal.cmpf_def]
    have h0 : (0 : EReal) < ((131072 : ℝ) : EReal) := by exact_mod_cast (by norm_num : (0 : ℝ) < 131072)
    show BitVec.ofBool (decide ((0 : EReal) < ((131072 : ℝ) : EReal))) = 1#1
    rw [decide_eq_true h0]; rfl
  unfold childVar
  rw [select_apply, broadcastInDim_scalar_apply, hpos, select_one, hostDivf_apply, rowOf_apply,
    colSqDev_apply x _ _ _ red_child, broadcastInDim_scalar_apply, childCount_eq]

/-- The child batch norm read at an entry, its column's statistics named. -/
theorem childNorm_apply (x : FVec Ideal S131072x128 .f32) (g b : FVec Ideal S128 .f32) (r : Fin 131072) (j : Fin 128) :
    childNorm x g b (ix2 r j)
      = ((x (ix2 r j) - childMean x (ix2 0 j))
          * Ideal.rsqrt (childVar x (ix2 0 j) + Ideal.ofBits .f32 0x3727C5AC#32)) * g (ix1 j) + b (ix1 j) := by
  unfold childNorm
  rw [addf_apply, mulf_apply, mulf_apply, subf_apply, downRows_child, downRows_child, downRows_child, downRows_child,
    rowOf_apply, rowOf_apply, hostRsqrt_apply, addf_apply, broadcastInDim_scalar_apply, constant_apply]

/-- The mean of a real child feature column is real. -/
theorem childMean_real (x : FVec Ideal S131072x128 .f32) (hx : AllReal x) (j : Fin 128) :
    ∃ μ : ℝ, childMean x (ix2 (0 : Fin 1) j) = (μ : EReal) := by
  rw [childMean_apply]
  exact mean_real _ (fun k => hx (ix2 k j)) (by norm_num)

/-- The reciprocal square root of a real child feature column's variance plus epsilon is real. -/
theorem childRs_real (x : FVec Ideal S131072x128 .f32) (hx : AllReal x) (j : Fin 128) :
    ∃ ρ : ℝ, Ideal.rsqrt (childVar x (ix2 (0 : Fin 1) j) + Ideal.ofBits .f32 0x3727C5AC#32) = (ρ : EReal) := by
  obtain ⟨μ, hμ⟩ := childMean_real x hx j
  obtain ⟨v, hv, hvar⟩ :=
    var_real (fun k : Fin 131072 => x (ix2 k j)) (fun k => hx (ix2 k j)) μ (N := 131072) (by norm_num)
  rw [childVar_apply, hμ, hvar]
  exact rsqrt_add_eps_real hv

/-! ## The kernel's host statistics are the reference's -/

section Same

open Cert.KernelIdeal.Hand

variable {F : FTy → Type} [FloatOps F]

/-- Both programs take the mean by the same operations: column sums from zero, over the word 8192. -/
theorem kMeanR_eq (x : FVec F S8192x64 .f32) : kMeanR x = rootMean x := rfl

/-- Both programs take the variance by the same operations. -/
theorem kVarR_eq (x : FVec F S8192x64 .f32) : kVarR x = rootVar x := rfl

theorem kMeanC_eq (x : FVec F S131072x128 .f32) : kMeanC x = childMean x := rfl

theorem kVarC_eq (x : FVec F S131072x128 .f32) : kVarC x = childVar x := rfl

end Same

/-! ## The kernel's scale, shift and norm read at an entry -/

section Entry

open Cert.KernelIdeal.Hand

/-- The root scale at column j: gamma times the reciprocal square root of the variance plus epsilon. -/
theorem kScaleR_apply (x : FVec Ideal S8192x64 .f32) (g : FVec Ideal S64 .f32) (j : Fin 64) :
    kScaleR x g (ix2 (0 : Fin 1) j)
      = g (ix1 j) * Ideal.rsqrt (rootVar x (ix2 0 j) + Ideal.ofBits .f32 0x3727C5AC#32) := by
  unfold kScaleR
  rw [mulf_apply, rowOf_apply, hostRsqrt_apply, addf_apply, broadcastInDim_scalar_apply, constant_apply, kVarR_eq]

/-- The root shift at column j: beta less the mean times the scale. -/
theorem kShiftR_apply (x : FVec Ideal S8192x64 .f32) (g b : FVec Ideal S64 .f32) (j : Fin 64) :
    kShiftR x g b (ix2 (0 : Fin 1) j) = b (ix1 j) - rootMean x (ix2 0 j) * kScaleR x g (ix2 0 j) := by
  unfold kShiftR
  rw [subf_apply, rowOf_apply, mulf_apply, kMeanR_eq]

/-- The kernel's root norm at an entry: the entry times its column's scale, plus its column's shift. -/
theorem kBnR_apply (x : FVec Ideal S8192x64 .f32) (g b : FVec Ideal S64 .f32) (r : Fin 8192) (j : Fin 64) :
    kBnR x g b (ix2 r j) = x (ix2 r j) * kScaleR x g (ix2 0 j) + kShiftR x g b (ix2 0 j) := by
  unfold kBnR
  rw [addf_apply, mulf_apply, downRows_root, downRows_root]

/-- The child scale at column j. -/
theorem kScaleC_apply (x : FVec Ideal S131072x128 .f32) (g : FVec Ideal S128 .f32) (j : Fin 128) :
    kScaleC x g (ix2 (0 : Fin 1) j)
      = g (ix1 j) * Ideal.rsqrt (childVar x (ix2 0 j) + Ideal.ofBits .f32 0x3727C5AC#32) := by
  unfold kScaleC
  rw [mulf_apply, rowOf_apply, hostRsqrt_apply, addf_apply, broadcastInDim_scalar_apply, constant_apply, kVarC_eq]

/-- The child shift at column j. -/
theorem kShiftC_apply (x : FVec Ideal S131072x128 .f32) (g b : FVec Ideal S128 .f32) (j : Fin 128) :
    kShiftC x g b (ix2 (0 : Fin 1) j) = b (ix1 j) - childMean x (ix2 0 j) * kScaleC x g (ix2 0 j) := by
  unfold kShiftC
  rw [subf_apply, rowOf_apply, mulf_apply, kMeanC_eq]

end Entry

/-! ## The law between the two programs -/

section Law

open Cert.KernelIdeal.Hand

/-- At an entry of a real root feature matrix, with gamma and beta real, the entry times the scale plus the shift is
    the reference's norm. -/
theorem bnR_apply (x : FVec Ideal S8192x64 .f32) (g b : FVec Ideal S64 .f32) (hx : AllReal x) (hg : AllReal g)
    (hb : AllReal b) (r : Fin 8192) (j : Fin 64) :
    x (ix2 r j) * kScaleR x g (ix2 (0 : Fin 1) j) + kShiftR x g b (ix2 (0 : Fin 1) j) = rootNorm x g b (ix2 r j) := by
  obtain ⟨xr, hxr⟩ := hx (ix2 r j)
  obtain ⟨μ, hμ⟩ := rootMean_real x hx j
  obtain ⟨ρ, hρ⟩ := rootRs_real x hx j
  obtain ⟨gr, hgr⟩ := hg (ix1 j)
  obtain ⟨br, hbr⟩ := hb (ix1 j)
  rw [rootNorm_apply, kShiftR_apply, kScaleR_apply, hxr, hμ, hρ, hgr, hbr]
  exact (norm_law_coe xr μ ρ gr br).symm

/-- So on real arguments the kernel's root norm is the reference's, entry for entry. -/
theorem bnR_eq (x : FVec Ideal S8192x64 .f32) (g b : FVec Ideal S64 .f32) (hx : AllReal x) (hg : AllReal g)
    (hb : AllReal b) : kBnR x g b = rootNorm x g b := by
  funext i
  obtain ⟨r, j, rfl⟩ : ∃ (r : Fin 8192) (j : Fin 64), i = ix2 r j := ⟨i 0, i 1, eq_ix2 i⟩
  rw [kBnR_apply]
  exact bnR_apply x g b hx hg hb r j

/-- The same at an entry of a real child feature matrix: the form the kernel's body computes there. -/
theorem bnC_apply (x : FVec Ideal S131072x128 .f32) (g b : FVec Ideal S128 .f32) (hx : AllReal x) (hg : AllReal g)
    (hb : AllReal b) (r : Fin 131072) (j : Fin 128) :
    x (ix2 r j) * kScaleC x g (ix2 (0 : Fin 1) j) + kShiftC x g b (ix2 (0 : Fin 1) j) = childNorm x g b (ix2 r j) := by
  obtain ⟨xr, hxr⟩ := hx (ix2 r j)
  obtain ⟨μ, hμ⟩ := childMean_real x hx j
  obtain ⟨ρ, hρ⟩ := childRs_real x hx j
  obtain ⟨gr, hgr⟩ := hg (ix1 j)
  obtain ⟨br, hbr⟩ := hb (ix1 j)
  rw [childNorm_apply, kShiftC_apply, kScaleC_apply, hxr, hμ, hρ, hgr, hbr]
  exact (norm_law_coe xr μ ρ gr br).symm

/-- The child scale and shift of real arguments are real: what the kernel's body multiplies and adds entry by entry. -/
theorem kScaleC_real (x : FVec Ideal S131072x128 .f32) (g : FVec Ideal S128 .f32) (hx : AllReal x) (hg : AllReal g)
    (j : Fin 128) : ∃ s : ℝ, kScaleC x g (ix2 (0 : Fin 1) j) = (s : EReal) := by
  obtain ⟨ρ, hρ⟩ := childRs_real x hx j
  obtain ⟨gr, hgr⟩ := hg (ix1 j)
  exact ⟨gr * ρ, by rw [kScaleC_apply, hρ, hgr, EReal.coe_mul]⟩

theorem kShiftC_real (x : FVec Ideal S131072x128 .f32) (g b : FVec Ideal S128 .f32) (hx : AllReal x) (hg : AllReal g)
    (hb : AllReal b) (j : Fin 128) : ∃ t : ℝ, kShiftC x g b (ix2 (0 : Fin 1) j) = (t : EReal) := by
  obtain ⟨μ, hμ⟩ := childMean_real x hx j
  obtain ⟨s, hs⟩ := kScaleC_real x g hx hg j
  obtain ⟨br, hbr⟩ := hb (ix1 j)
  exact ⟨br - μ * s, by rw [kShiftC_apply, hμ, hs, hbr, EReal.coe_sub, EReal.coe_mul]⟩

/-- The child norm of real arguments is real at every entry. -/
theorem childNorm_real (x : FVec Ideal S131072x128 .f32) (g b : FVec Ideal S128 .f32) (hx : AllReal x) (hg : AllReal g)
    (hb : AllReal b) : AllReal (childNorm x g b) := by
  intro i
  obtain ⟨r, j, rfl⟩ : ∃ (r : Fin 131072) (j : Fin 128), i = ix2 r j := ⟨i 0, i 1, eq_ix2 i⟩
  obtain ⟨xr, hxr⟩ := hx (ix2 r j)
  obtain ⟨s, hs⟩ := kScaleC_real x g hx hg j
  obtain ⟨t, ht⟩ := kShiftC_real x g b hx hg hb j
  exact ⟨xr * s + t, by rw [← bnC_apply x g b hx hg hb r j, hxr, hs, ht, EReal.coe_add, EReal.coe_mul]⟩

/-- The root norm of real arguments is real at every entry. -/
theorem rootNorm_real (x : FVec Ideal S8192x64 .f32) (g b : FVec Ideal S64 .f32) (hx : AllReal x) (hg : AllReal g)
    (hb : AllReal b) : AllReal (rootNorm x g b) := by
  intro i
  obtain ⟨r, j, rfl⟩ : ∃ (r : Fin 8192) (j : Fin 64), i = ix2 r j := ⟨i 0, i 1, eq_ix2 i⟩
  obtain ⟨xr, hxr⟩ := hx (ix2 r j)
  obtain ⟨μ, hμ⟩ := rootMean_real x hx j
  obtain ⟨ρ, hρ⟩ := rootRs_real x hx j
  obtain ⟨gr, hgr⟩ := hg (ix1 j)
  obtain ⟨br, hbr⟩ := hb (ix1 j)
  exact ⟨(xr - μ) * ρ * gr + br, by
    rw [rootNorm_apply, hxr, hμ, hρ, hgr, hbr, EReal.coe_add, EReal.coe_mul, EReal.coe_mul, EReal.coe_sub]⟩

end Law

end Cert.NormLaw

end
-- ==== Proof.KOut.lean ====
/-
  The kernel program's result is the reference's result, on the domain.
  The result buffer is three blocks of columns side by side. Columns 0 … 511 are the eight root embeddings of each
  row: both programs gather them, by the same rows of the same tables once every index is in range. Columns
  512 … 575 are the batch norm of the gathered root features: the kernel multiplies by a precomputed scale and adds a
  precomputed shift, the reference subtracts the mean first; the two agree on real entries. Columns 576 … 607 are the
  kernel region's output array: per root row and output unit the mean over the sixteen children of the linear layer's
  unit cut below at zero, on the child's gathered embeddings and its normalised numeric entries — the reference's
  aggregate, its batch norm again in the other form.
-/
import proofs.«409894_j6640019439760_1_alg».proof.Proof.KFinal
import proofs.«409894_j6640019439760_1_alg».proof.Proof.KTail
import proofs.«409894_j6640019439760_1_alg».proof.Proof.KValRoot
import proofs.«409894_j6640019439760_1_alg».proof.Proof.KValChild
import proofs.«409894_j6640019439760_1_alg».proof.Proof.Meet
import proofs.«409894_j6640019439760_1_alg».proof.Proof.NormLaw
import proofs.«409894_j6640019439760_1_alg».proof.Proof.RefRead
import proofs.«409894_j6640019439760_1_alg».proof.Proof.Domain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

open Cert.Domain Cert.Spec Cert.Meet Cert.NormLaw
open Cert.ReferenceIdeal.Hand (refOut outOf xrCat xrNum agg aggOf xcCat xcNum rnumG cnumG rootNorm childNorm
  aggOf_apply outOf_apply_cat outOf_apply_num outOf_apply_agg)

variable (m : (ℓ : Loc nD τ sig) → Buf (Elt Ideal) ℓ)

/-- An argument array of core `c`, as launched. -/
abbrev arg (c : Dev nD) (b : Ref sig .tc) : Buf (Elt Ideal) ((c : Thread nD τ).loc b) := m ((c : Thread nD τ).loc b)

/-- Core `c`'s fourteen arguments lie in the domain. -/
abbrev InDom (c : Dev nD) : Prop :=
  InDomain (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13)

/-- Columns 0 … 511: the root embeddings, gathered alike by both programs. -/
theorem root_cat_cols (c : Dev nD) (hd : InDom m c) (r : Fin 8192) (a : Fin 512) :
    V m c main_v41 (ix2 r a) = xrCat (F := Ideal) (arg m c main_arg0) (arg m c main_arg2) (arg m c main_arg6) (ix2 r a) := by
  rw [V_main_v41, xrCat_meet _ _ _ hd.idx_lt hd.rcat_lt]

/-- Columns 512 … 575: the root batch norm, scale-and-shift against subtract-then-scale. -/
theorem root_num_cols (c : Dev nD) (hd : InDom m c) (r : Fin 8192) (a : Fin 64) :
    V m c main_v59 (ix2 r a)
      = xrNum (F := Ideal) (arg m c main_arg0) (arg m c main_arg3) (arg m c main_arg10) (arg m c main_arg11) (ix2 r a) := by
  rw [V_main_v59]
  show kBnR (F := Ideal) (kRnumG (F := Ideal) (arg m c main_arg0) (arg m c main_arg3)) (arg m c main_arg10) (arg m c main_arg11) (ix2 r a)
    = rootNorm (F := Ideal) (rnumG (F := Ideal) (arg m c main_arg0) (arg m c main_arg3)) (arg m c main_arg10) (arg m c main_arg11) (ix2 r a)
  rw [rnumG_meet _ _ hd.idx_lt, bnR_eq _ _ _ (rnumG_real _ _ hd.idx_lt hd.rnum_real) hd.gr_real hd.br_real]

/-- Columns 576 … 607: the region's aggregate is the reference's. -/
theorem agg_cols (c : Dev nD) (hd : InDom m c) (r : Fin 8192) (o : Fin 32) :
    aggK m c (ix2 r o)
      = agg (F := Ideal) (arg m c main_arg1) (arg m c main_arg4) (arg m c main_arg5) (arg m c main_arg7) (arg m c main_arg8)
          (arg m c main_arg9) (arg m c main_arg12) (arg m c main_arg13) (ix2 r o) := by
  show aggAt (arrXc m c) (arrCn m c) (arrSc m c) (arrSh m c) (arrW m c) (arrB m c) r o
    = aggOf (F := Ideal) (xcCat (F := Ideal) (arg m c main_arg1) (arg m c main_arg4) (arg m c main_arg7))
        (xcNum (F := Ideal) (arg m c main_arg1) (arg m c main_arg5) (arg m c main_arg12) (arg m c main_arg13))
        (arg m c main_arg8) (arg m c main_arg9) (ix2 r o)
  rw [aggOf_apply]
  unfold aggAt
  have hxc : (arrXc m c : S131072x1024.Idx → EReal) = xcCat (F := Ideal) (arg m c main_arg1) (arg m c main_arg4) (arg m c main_arg7) := by
    show V m c main_v142 = _
    rw [V_main_v142]
    exact xcCat_meet _ _ _ hd.cidx_lt hd.ccat_lt
  have hcn : arrCn m c = cnumG (F := Ideal) (arg m c main_arg1) (arg m c main_arg5) := by
    show V m c main_v143 = _
    rw [V_main_v143]
    exact cnumG_meet _ _ hd.cidx_lt
  have hsc : arrSc m c = kScaleC (F := Ideal) (cnumG (F := Ideal) (arg m c main_arg1) (arg m c main_arg5)) (arg m c main_arg12) := by
    show V m c main_v153 = _
    rw [V_main_v153, cnumG_meet _ _ hd.cidx_lt]
  have hsh : arrSh m c = kShiftC (F := Ideal) (cnumG (F := Ideal) (arg m c main_arg1) (arg m c main_arg5)) (arg m c main_arg12) (arg m c main_arg13) := by
    show V m c main_v156 = _
    rw [V_main_v156, cnumG_meet _ _ hd.cidx_lt]
  have hw : arrW m c = arg m c main_arg8 := V_main_arg8 m c
  have hb : arrB m c (ix2 (0 : Fin 1) o) = arg m c main_arg9 (ix1 o) := by
    show V m c main_v157 _ = _
    rw [V_main_v157]
    exact kBrow_apply _ o
  rw [hxc, hcn, hsc, hsh, hw, hb]
  simp only [bnC_apply _ _ _ (cnumG_real _ _ hd.cidx_lt hd.cnum_real) hd.gc_real hd.bc_real]
  rfl

theorem col_left_lt (a : Fin 512) : a.val < 608 := by have := a.isLt; omega
theorem col_mid_lt (a : Fin 64) : 512 + a.val < 608 := by have := a.isLt; omega
theorem col_right_lt (a : Fin 32) : 576 + a.val < 608 := by have := a.isLt; omega

/-- THE RESULT of the kernel program on core `c` is the reference's result of the same arguments. -/
theorem kernel_out (c : Dev nD) (hd : InDom m c) :
    Pipeline.afterTail₀ cfgs (dats m) 0 (V0 m) [hostOps1] c main_v159
      = refOut (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) := by
  rw [tail_result, final6]
  funext i
  obtain ⟨r, j, rfl⟩ : ∃ (r : Fin 8192) (j : Fin 608), i = ix2 r j := ⟨i 0, i 1, eq_ix2 i⟩
  show _ = outOf (F := Ideal) (xrCat (F := Ideal) (arg m c main_arg0) (arg m c main_arg2) (arg m c main_arg6))
      (xrNum (F := Ideal) (arg m c main_arg0) (arg m c main_arg3) (arg m c main_arg10) (arg m c main_arg11))
      (agg (F := Ideal) (arg m c main_arg1) (arg m c main_arg4) (arg m c main_arg5) (arg m c main_arg7) (arg m c main_arg8)
        (arg m c main_arg9) (arg m c main_arg12) (arg m c main_arg13)) (ix2 r j)
  rcases col_cases j with ⟨a, ha⟩ | ⟨a, ha⟩ | ⟨a, ha⟩
  · obtain rfl : j = ⟨a.val, col_left_lt a⟩ := Fin.ext ha
    rw [cat3_apply_left, outOf_apply_cat]
    exact root_cat_cols m c hd r a
  · obtain rfl : j = ⟨512 + a.val, col_mid_lt a⟩ := Fin.ext ha
    rw [cat3_apply_mid, outOf_apply_num]
    exact root_num_cols m c hd r a
  · obtain rfl : j = ⟨576 + a.val, col_right_lt a⟩ := Fin.ext ha
    rw [cat3_apply_right, outOf_apply_agg]
    exact agg_cols m c hd r a

end Cert.KernelIdeal.Hand

end
-- ==== Proof.RefRun.lean ====
/-
  The reference program's run, read back: the program is one straight line of 182 array operations, every execution
  of it terminates, and at the end the result buffer holds the composition of stages of RefVal.lean applied to the
  argument arrays, which are themselves unchanged. The line is cut into eight consecutive pieces, each cut placed so
  that a concatenate reads operands computed in an earlier piece; each piece is read back on its own, over an
  arbitrary state of the buffers before it, and the pieces are then chained.
-/
import proofs.«409894_j6640019439760_1_alg».proof.Proof.RefVal
import Idealize.ShloMosaic.Lib.StableHlo.Run
import Idealize.ShloMosaic.Lib.Pipeline.Frame

noncomputable section

namespace Cert.ReferenceIdeal.Hand

open Cert.ReferenceIdeal Cert.ReferenceIdeal.Facts₀
open Idealize.ShloMosaic

open Idealize.ShloMosaic.TcCoe Idealize.SL.Sem
open Idealize.ShloMosaic.StableHlo (seq after after_cons after_nil tcRefs)

section Tame
variable {τ : Topo} {sig : RefSig} {Val : EltTy → Type}

/-- What the run asks of one operation, given a list `wr` of references: it touches TensorCore references only,
    it determines everything it writes, and what it writes is in `wr`. -/
def Tame (wr : List (Ref sig .tc)) (op : HloOp τ sig Val) : Prop :=
  op.bufs ⊆ tcRefs τ sig ∧ op.fresh = ∅ ∧ op.writes ⊆ (wr.map (Proc.devRef (τ := τ) .tc)).toFinset

theorem single_sub_map {wr : List (Ref sig .tc)} {y : Ref sig .tc} (h : y ∈ wr) :
    ({Proc.devRef (τ := τ) .tc y} : Finset (DevRef τ sig)) ⊆ (wr.map (Proc.devRef (τ := τ) .tc)).toFinset :=
  Finset.singleton_subset_iff.mpr (List.mem_toFinset.mpr (List.mem_map_of_mem h))

variable {wr : List (Ref sig .tc)} {x a b c y : Ref sig .tc}

theorem tame_nullary {v : y.ty.Contents Val} {hy} (h : y ∈ wr) : Tame wr (StableHlo.nullary (τ := τ) y v hy) :=
  ⟨StableHlo.nullary_bufs_sub .., rfl, single_sub_map h⟩
theorem tame_unary {f : x.ty.Contents Val → y.ty.Contents Val} {hx hy} (h : y ∈ wr) :
    Tame wr (StableHlo.unary (τ := τ) x y f hx hy) :=
  ⟨StableHlo.unary_bufs_sub .., rfl, single_sub_map h⟩
theorem tame_binary {f : a.ty.Contents Val → b.ty.Contents Val → y.ty.Contents Val} {ha hb hy} (h : y ∈ wr) :
    Tame wr (StableHlo.binary (τ := τ) a b y f ha hb hy) :=
  ⟨StableHlo.binary_bufs_sub .., rfl, single_sub_map h⟩
theorem tame_ternary {f : c.ty.Contents Val → a.ty.Contents Val → b.ty.Contents Val → y.ty.Contents Val} {hc ha hb hy}
    (h : y ∈ wr) : Tame wr (StableHlo.ternary (τ := τ) c a b y f hc ha hb hy) :=
  ⟨StableHlo.ternary_bufs_sub .., rfl, single_sub_map h⟩
theorem tame_reshape {he hn hx hy} (h : y ∈ wr) : Tame wr (StableHlo.reshape (τ := τ) (Val := Val) x y he hn hx hy) :=
  ⟨StableHlo.reshape_bufs_sub .., rfl, single_sub_map h⟩
theorem tame_nary {n : Nat} {xs : Fin n → Ref sig .tc} {f : ((k : Fin n) → (xs k).ty.Contents Val) → y.ty.Contents Val}
    {hxs hy} (h : y ∈ wr) : Tame wr (StableHlo.nary (τ := τ) xs y f hxs hy) :=
  ⟨StableHlo.nary_bufs_sub .., rfl, single_sub_map h⟩

/-- A reference outside `wr` keeps its contents over a line of operations that write inside `wr`. -/
theorem after_frame {ops : List (HloOp τ sig Val)} (h : ops.Forall (Tame wr)) (V : Valuation τ sig Val) {r : Ref sig .tc}
    (hr : r ∉ wr) : after ops V (Proc.devRef .tc r) = V (Proc.devRef .tc r) :=
  StableHlo.after_of_writes_sub ops V (h.imp fun _ t => t.2.2) hr

end Tame

variable {F : FTy → Type} [FloatOps F]

/-! ## The eight pieces of the line, and for each the references it writes -/

/-- The references piece 1 writes, in order. -/
def wr1 : List (Ref sig .tc) :=
  [main_c, main_v0, main_v1, main_c_0, main_v2, main_v3, main_v4, main_v5, main_v6, main_v7, main_c_1, main_v8, main_v9, main_c_2, main_v10, main_v11, main_v12, main_c_3, main_v13, main_v14, main_c_4, main_v15, main_v16, main_v17, main_v18, main_v19, main_v20]

/-- Piece 1: the row index wrapped, the root codes gathered and wrapped, the column numbers: everything the root embedding lookup is indexed by. -/
def K1 : List (HloOp τ sig (Elt F)) :=
  [ StableHlo.nullary main_c (constantI S_ 32 0#32),
    StableHlo.unary main_c main_v0 (broadcastInDim S8192 ![] bcast_S_S8192 : (⟨S_, .i32⟩ : BufTy).Contents (Elt F) → (⟨S8192, .i32⟩ : BufTy).Contents (Elt F)),
    StableHlo.binary main_arg0 main_v0 main_v1 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 200000#32),
    StableHlo.unary main_c_0 main_v2 (broadcastInDim S8192 ![] bcast_S_S8192 : (⟨S_, .i32⟩ : BufTy).Contents (Elt F) → (⟨S8192, .i32⟩ : BufTy).Contents (Elt F)),
    StableHlo.binary main_arg0 main_v2 main_v3 (addi : (⟨S8192, .i32⟩ : BufTy).Contents (Elt F) → (⟨S8192, .i32⟩ : BufTy).Contents (Elt F) → (⟨S8192, .i32⟩ : BufTy).Contents (Elt F)),
    StableHlo.ternary main_v1 main_v3 main_arg0 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v4 main_v5 (broadcastInDim S8192x1 ![0] bcast_S8192_S8192x1_0 : (⟨S8192, .i32⟩ : BufTy).Contents (Elt F) → (⟨S8192x1, .i32⟩ : BufTy).Contents (Elt F)),
    StableHlo.binary main_arg2 main_v5 main_v6 ((fun x i => Host.gather gather_S200000x8_S8192x1_S8192x8_1_0_n_n_0_1_18 x i) : (⟨S200000x8, .i32⟩ : BufTy).Contents (Elt F) → (⟨S8192x1, .i32⟩ : BufTy).Contents (Elt F) → (⟨S8192x8, .i32⟩ : BufTy).Contents (Elt F)),
    StableHlo.nullary main_v7 (iotaInDim S8 32 0),
    StableHlo.nullary main_c_1 (constantI S_ 32 0#32),
    StableHlo.unary main_c_1 main_v8 (broadcastInDim S8 ![] bcast_S_S8 : (⟨S_, .i32⟩ : BufTy).Contents (Elt F) → (⟨S8, .i32⟩ : BufTy).Contents (Elt F)),
    StableHlo.binary main_v7 main_v8 main_v9 (cmpi .slt : (⟨S8, .i32⟩ : BufTy).Contents (Elt F) → (⟨S8, .i32⟩ : BufTy).Contents (Elt F) → (⟨S8, .i1⟩ : BufTy).Contents (Elt F)),
    StableHlo.nullary main_c_2 (constantI S_ 32 8#32),
    StableHlo.unary main_c_2 main_v10 (broadcastInDim S8 ![] bcast_S_S8 : (⟨S_, .i32⟩ : BufTy).Contents (Elt F) → (⟨S8, .i32⟩ : BufTy).Contents (Elt F)),
    StableHlo.binary main_v7 main_v10 main_v11 (addi : (⟨S8, .i32⟩ : BufTy).Contents (Elt F) → (⟨S8, .i32⟩ : BufTy).Contents (Elt F) → (⟨S8, .i32⟩ : BufTy).Contents (Elt F)),
    StableHlo.ternary main_v9 main_v11 main_v7 main_v12 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_c_3 (constantI S_ 32 0#32),
    StableHlo.unary main_c_3 main_v13 (broadcastInDim S8192x8 ![] bcast_S_S8192x8 : (⟨S_, .i32⟩ : BufTy).Contents (Elt F) → (⟨S8192x8, .i32⟩ : BufTy).Contents (Elt F)),
    StableHlo.binary main_v6 main_v13 main_v14 (cmpi .slt : (⟨S8192x8, .i32⟩ : BufTy).Contents (Elt F) → (⟨S8192x8, .i32⟩ : BufTy).Contents (Elt F) → (⟨S8192x8, .i1⟩ : BufTy).Contents (Elt F)),
    StableHlo.nullary main_c_4 (constantI S_ 32 50000#32),
    StableHlo.unary main_c_4 main_v15 (broadcastInDim S8192x8 ![] bcast_S_S8192x8 : (⟨S_, .i32⟩ : BufTy).Contents (Elt F) → (⟨S8192x8, .i32⟩ : BufTy).Contents (Elt F)),
    StableHlo.binary main_v6 main_v15 main_v16 (addi : (⟨S8192x8, .i32⟩ : BufTy).Contents (Elt F) → (⟨S8192x8, .i32⟩ : BufTy).Contents (Elt F) → (⟨S8192x8, .i32⟩ : BufTy).Contents (Elt F)),
    StableHlo.ternary main_v14 main_v16 main_v6 main_v17 (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)),
    StableHlo.unary main_v12 main_v18 (broadcastInDim S8192x8 ![1] bcast_S8_S8192x8_1 : (⟨S8, .i32⟩ : BufTy).Contents (Elt F) → (⟨S8192x8, .i32⟩ : BufTy).Contents (Elt F)),
    StableHlo.unary main_v18 main_v19 (broadcastInDim S8192x8x1 ![0, 1] bcast_S8192x8_S8192x8x1_0_1 : (⟨S8192x8, .i32⟩ : BufTy).Contents (Elt F) → (⟨S8192x8x1, .i32⟩ : BufTy).Contents (Elt F)),
    StableHlo.unary main_v17 main_v20 (broadcastInDim S8192x8x1 ![0, 1] bcast_S8192x8_S8192x8x1_0_1 : (⟨S8192x8, .i32⟩ : BufTy).Contents (Elt F) → (⟨S8192x8x1, .i32⟩ : BufTy).Contents (Elt F)) ]

theorem K1_tame : (K1 (F := F)).Forall (Tame wr1) :=
  ⟨tame_nullary (by decide), tame_unary (by decide), tame_binary (by decide), tame_nullary (by decide), tame_unary (by decide), tame_binary (by decide), tame_ternary (by decide), tame_unary (by decide), tame_binary (by decide), tame_nullary (by decide), tame_nullary (by decide), tame_unary (by decide), tame_binary (by decide), tame_nullary (by decide), tame_unary (by decide), tame_binary (by decide), tame_ternary (by decide), tame_nullary (by decide), tame_unary (by decide), tame_binary (by decide), tame_nullary (by decide), tame_unary (by decide), tame_binary (by decide), tame_ternary (by decide), tame_unary (by decide), tame_unary (by decide), tame_unary (by decide)⟩

/-- The references piece 2 writes, in order. -/
def wr2 : List (Ref sig .tc) :=
  [main_v21, main_v22, main_v23, main_c_5, main_v24, main_v25, main_c_6, main_v26, main_v27, main_v28, main_v29, main_v30]

/-- Piece 2: the index pairs, the root embedding lookup and its reshape; then the gather of the root numeric features. -/
def K2 : List (HloOp τ sig (Elt F)) :=
  [ StableHlo.binary main_v19 main_v20 main_v21 ((fun a b => concatenate S8192x8x2 2 [⟨S8192x8x1, a⟩, ⟨S8192x8x1, b⟩] concatenates_S8192x8x1_S8192x8x1_S8192x8x2_d2) : (⟨S8192x8x1, .i32⟩ : BufTy).Contents (Elt F) → (⟨S8192x8x1, .i32⟩ : BufTy).Contents (Elt F) → (⟨S8192x8x2, .i32⟩ : BufTy).Contents (Elt F)),
    StableHlo.binary main_arg6 main_v21 main_v22 ((fun x i => Host.gather gather_S8x50000x64_S8192x8x2_S8192x8x64_2_01_n_n_01_2_1164 x i) : (⟨S8x50000x64, .f32⟩ : BufTy).Contents (Elt F) → (⟨S8192x8x2, .i32⟩ : BufTy).Contents (Elt F) → (⟨S8192x8x64, .f32⟩ : BufTy).Contents (Elt F)),
    StableHlo.reshape main_v22 main_v23 rfl shapeCasts_S8192x8x64_S8192x512,
    StableHlo.nullary main_c_5 (constantI S_ 32 0#32),
    StableHlo.unary main_c_5 main_v24 (broadcastInDim S8192 ![] bcast_S_S8192 : (⟨S_, .i32⟩ : BufTy).Contents (Elt F) → (⟨S8192, .i32⟩ : BufTy).Contents (Elt F)),
    StableHlo.binary main_arg0 main_v24 main_v25 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 200000#32),
    StableHlo.unary main_c_6 main_v26 (broadcastInDim S8192 ![] bcast_S_S8192 : (⟨S_, .i32⟩ : BufTy).Contents (Elt F) → (⟨S8192, .i32⟩ : BufTy).Contents (Elt F)),
    StableHlo.binary main_arg0 main_v26 main_v27 (addi : (⟨S8192, .i32⟩ : BufTy).Contents (Elt F) → (⟨S8192, .i32⟩ : BufTy).Contents (Elt F) → (⟨S8192, .i32⟩ : BufTy).Contents (Elt F)),
    StableHlo.ternary main_v25 main_v27 main_arg0 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v28 main_v29 (broadcastInDim S8192x1 ![0] bcast_S8192_S8192x1_0 : (⟨S8192, .i32⟩ : BufTy).Contents (Elt F) → (⟨S8192x1, .i32⟩ : BufTy).Contents (Elt F)),
    StableHlo.binary main_arg3 main_v29 main_v30 ((fun x i => Host.gather gather_S200000x64_S8192x1_S8192x64_1_0_n_n_0_1_164 x i) : (⟨S200000x64, .f32⟩ : BufTy).Contents (Elt F) → (⟨S8192x1, .i32⟩ : BufTy).Contents (Elt F) → (⟨S8192x64, .f32⟩ : BufTy).Contents (Elt F)) ]

theorem K2_tame : (K2 (F := F)).Forall (Tame wr2) :=
  ⟨tame_binary (by decide), tame_binary (by decide), tame_reshape (by decide), tame_nullary (by decide), tame_unary (by decide), tame_binary (by decide), tame_nullary (by decide), tame_unary (by decide), tame_binary (by decide), tame_ternary (by decide), tame_unary (by decide), tame_binary (by decide)⟩

/-- The references piece 3 writes, in order. -/
def wr3 : List (Ref sig .tc) :=
  [main_cst, main_v31, main_v32, main_cst_7, main_v33, main_v34, main_c_8, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v35, main_v36, main_v37, main_cst_9, main_v38, main_v39, main_v40, main_v41, main_v42, main_v43, main_v44, main_v45, main_v46, main_v47, main_v48]

/-- Piece 3: the root batch norm: the mean, the variance (the outlined variance and where functions, operation by operation), the scaling. -/
def K3 : List (HloOp τ sig (Elt F)) :=
  [ StableHlo.nullary main_cst (constant S_ .f32 0x00000000#32),
    StableHlo.binary main_v30 main_cst main_v31 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.unary main_v31 main_v32 (broadcastInDim S1x64 ![1] bcast_S64_S1x64_1 : (⟨S64, .f32⟩ : BufTy).Contents (Elt F) → (⟨S1x64, .f32⟩ : BufTy).Contents (Elt F)),
    StableHlo.nullary main_cst_7 (constant S_ .f32 0x46000000#32),
    StableHlo.unary main_cst_7 main_v33 (broadcastInDim S1x64 ![] bcast_S_S1x64 : (⟨S_, .f32⟩ : BufTy).Contents (Elt F) → (⟨S1x64, .f32⟩ : BufTy).Contents (Elt F)),
    StableHlo.binary main_v32 main_v33 main_v34 (Host.divf : (⟨S1x64, .f32⟩ : BufTy).Contents (Elt F) → (⟨S1x64, .f32⟩ : BufTy).Contents (Elt F) → (⟨S1x64, .f32⟩ : BufTy).Contents (Elt F)),
    StableHlo.nullary main_c_8 (constantI S_ 32 0#32),
    StableHlo.TRef.nullary main_call0.cst (constant S_ .f32 0x00000000#32),
    StableHlo.TRef.binary (.of main_v30) main_call0.cst main_call0.v0 (fun x v => Host.reduceAdd x v reducesTo_S8192x64_S64_d0 h_S_),
    StableHlo.TRef.unary main_call0.v0 main_call0.v1 (broadcastInDim S1x64 ![1] bcast_S64_S1x64_1),
    StableHlo.TRef.nullary main_call0.cst_0 (constant S_ .f32 0x46000000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S8192x64 ![0, 1] bcast_S1x64_S8192x64_0_1),
    StableHlo.TRef.binary (.of main_v30) main_call0.v4 main_call0.v5 subf,
    StableHlo.TRef.binary main_call0.v5 main_call0.v5 main_call0.v6 mulf,
    StableHlo.TRef.unary (.of main_c_8) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x64_S64_d0 h_S_),
    StableHlo.TRef.unary main_call0.v9 main_call0.v10 (broadcastInDim S1x64 ![1] bcast_S64_S1x64_1),
    StableHlo.TRef.unary main_call0.v8 main_call0.v11 (broadcastInDim S1x64 ![] bcast_S_S1x64),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x64 ![] bcast_S_S1x64),
    StableHlo.TRef.ternary main_call0.v13 main_call0.v12 main_call0.call0.v1 main_call0.call0.v2 (fun p a b => select (broadcastInDim S1x64 ![] bcast_S_S1x64 p) a b),
    StableHlo.unary main_v34 main_v36 (broadcastInDim S8192x64 ![0, 1] bcast_S1x64_S8192x64_0_1 : (⟨S1x64, .f32⟩ : BufTy).Contents (Elt F) → (⟨S8192x64, .f32⟩ : BufTy).Contents (Elt F)),
    StableHlo.binary main_v30 main_v36 main_v37 (subf : (⟨S8192x64, .f32⟩ : BufTy).Contents (Elt F) → (⟨S8192x64, .f32⟩ : BufTy).Contents (Elt F) → (⟨S8192x64, .f32⟩ : BufTy).Contents (Elt F)),
    StableHlo.nullary main_cst_9 (constant S_ .f32 0x3727C5AC#32),
    StableHlo.unary main_cst_9 main_v38 (broadcastInDim S1x64 ![] bcast_S_S1x64 : (⟨S_, .f32⟩ : BufTy).Contents (Elt F) → (⟨S1x64, .f32⟩ : BufTy).Contents (Elt F)),
    StableHlo.binary main_v35 main_v38 main_v39 (addf : (⟨S1x64, .f32⟩ : BufTy).Contents (Elt F) → (⟨S1x64, .f32⟩ : BufTy).Contents (Elt F) → (⟨S1x64, .f32⟩ : BufTy).Contents (Elt F)),
    StableHlo.unary main_v39 main_v40 (Host.rsqrt : (⟨S1x64, .f32⟩ : BufTy).Contents (Elt F) → (⟨S1x64, .f32⟩ : BufTy).Contents (Elt F)),
    StableHlo.unary main_v40 main_v41 (broadcastInDim S8192x64 ![0, 1] bcast_S1x64_S8192x64_0_1 : (⟨S1x64, .f32⟩ : BufTy).Contents (Elt F) → (⟨S8192x64, .f32⟩ : BufTy).Contents (Elt F)),
    StableHlo.binary main_v37 main_v41 main_v42 (mulf : (⟨S8192x64, .f32⟩ : BufTy).Contents (Elt F) → (⟨S8192x64, .f32⟩ : BufTy).Contents (Elt F) → (⟨S8192x64, .f32⟩ : BufTy).Contents (Elt F)),
    StableHlo.unary main_arg10 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S8192x64 ![0, 1] bcast_S1x64_S8192x64_0_1 : (⟨S1x64, .f32⟩ : BufTy).Contents (Elt F) → (⟨S8192x64, .f32⟩ : BufTy).Contents (Elt F)),
    StableHlo.binary main_v42 main_v44 main_v45 (mulf : (⟨S8192x64, .f32⟩ : BufTy).Contents (Elt F) → (⟨S8192x64, .f32⟩ : BufTy).Contents (Elt F) → (⟨S8192x64, .f32⟩ : BufTy).Contents (Elt F)),
    StableHlo.unary main_arg11 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S8192x64 ![0, 1] bcast_S1x64_S8192x64_0_1 : (⟨S1x64, .f32⟩ : BufTy).Contents (Elt F) → (⟨S8192x64, .f32⟩ : BufTy).Contents (Elt F)),
    StableHlo.binary main_v45 main_v47 main_v48 (addf : (⟨S8192x64, .f32⟩ : BufTy).Contents (Elt F) → (⟨S8192x64, .f32⟩ : BufTy).Contents (Elt F) → (⟨S8192x64, .f32⟩ : BufTy).Contents (Elt F)) ]

theorem K3_tame : (K3 (F := F)).Forall (Tame wr3) :=
  ⟨tame_nullary (by decide), tame_binary (by decide), tame_unary (by decide), tame_nullary (by decide), tame_unary (by decide), tame_binary (by decide), tame_nullary (by decide), tame_nullary (by decide), tame_binary (by decide), tame_unary (by decide), tame_nullary (by decide), tame_unary (by decide), tame_binary (by decide), tame_unary (by decide), tame_binary (by decide), tame_binary (by decide), tame_unary (by decide), tame_nullary (by decide), tame_binary (by decide), tame_nullary (by decide), tame_binary (by decide), tame_unary (by decide), tame_unary (by decide), tame_binary (by decide), tame_nullary (by decide), tame_binary (by decide), tame_nullary (by decide), tame_unary (by decide), tame_unary (by decide), tame_ternary (by decide), tame_unary (by decide), tame_binary (by decide), tame_nullary (by decide), tame_unary (by decide), tame_binary (by decide), tame_unary (by decide), tame_unary (by decide), tame_binary (by decide), tame_unary (by decide), tame_unary (by decide), tame_binary (by decide), tame_unary (by decide), tame_unary (by decide), tame_binary (by decide)⟩

/-- The references piece 4 writes, in order. -/
def wr4 : List (Ref sig .tc) :=
  [main_c_10, main_v49, main_v50, main_c_11, main_v51, main_v52, main_v53, main_v54, main_v55, main_v56, main_c_12, main_v57, main_v58, main_c_13, main_v59, main_v60, main_v61, main_c_14, main_v62, main_v63, main_c_15, main_v64, main_v65, main_v66, main_v67, main_v68, main_v69]

/-- Piece 4: the child row index wrapped, the child codes gathered and wrapped, the column numbers. -/
def K4 : List (HloOp τ sig (Elt F)) :=
  [ StableHlo.nullary main_c_10 (constantI S_ 32 0#32),
    StableHlo.unary main_c_10 main_v49 (broadcastInDim S131072 ![] bcast_S_S131072 : (⟨S_, .i32⟩ : BufTy).Contents (Elt F) → (⟨S131072, .i32⟩ : BufTy).Contents (Elt F)),
    StableHlo.binary main_arg1 main_v49 main_v50 (cmpi .slt : (⟨S131072, .i32⟩ : BufTy).Contents (Elt F) → (⟨S131072, .i32⟩ : BufTy).Contents (Elt F) → (⟨S131072, .i1⟩ : BufTy).Contents (Elt F)),
    StableHlo.nullary main_c_11 (constantI S_ 32 500000#32),
    StableHlo.unary main_c_11 main_v51 (broadcastInDim S131072 ![] bcast_S_S131072 : (⟨S_, .i32⟩ : BufTy).Contents (Elt F) → (⟨S131072, .i32⟩ : BufTy).Contents (Elt F)),
    StableHlo.binary main_arg1 main_v51 main_v52 (addi : (⟨S131072, .i32⟩ : BufTy).Contents (Elt F) → (⟨S131072, .i32⟩ : BufTy).Contents (Elt F) → (⟨S131072, .i32⟩ : BufTy).Contents (Elt F)),
    StableHlo.ternary main_v50 main_v52 main_arg1 main_v53 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v53 main_v54 (broadcastInDim S131072x1 ![0] bcast_S131072_S131072x1_0 : (⟨S131072, .i32⟩ : BufTy).Contents (Elt F) → (⟨S131072x1, .i32⟩ : BufTy).Contents (Elt F)),
    StableHlo.binary main_arg4 main_v54 main_v55 ((fun x i => Host.gather gather_S500000x16_S131072x1_S131072x16_1_0_n_n_0_1_116 x i) : (⟨S500000x16, .i32⟩ : BufTy).Contents (Elt F) → (⟨S131072x1, .i32⟩ : BufTy).Contents (Elt F) → (⟨S131072x16, .i32⟩ : BufTy).Contents (Elt F)),
    StableHlo.nullary main_v56 (iotaInDim S16 32 0),
    StableHlo.nullary main_c_12 (constantI S_ 32 0#32),
    StableHlo.unary main_c_12 main_v57 (broadcastInDim S16 ![] bcast_S_S16 : (⟨S_, .i32⟩ : BufTy).Contents (Elt F) → (⟨S16, .i32⟩ : BufTy).Contents (Elt F)),
    StableHlo.binary main_v56 main_v57 main_v58 (cmpi .slt : (⟨S16, .i32⟩ : BufTy).Contents (Elt F) → (⟨S16, .i32⟩ : BufTy).Contents (Elt F) → (⟨S16, .i1⟩ : BufTy).Contents (Elt F)),
    StableHlo.nullary main_c_13 (constantI S_ 32 16#32),
    StableHlo.unary main_c_13 main_v59 (broadcastInDim S16 ![] bcast_S_S16 : (⟨S_, .i32⟩ : BufTy).Contents (Elt F) → (⟨S16, .i32⟩ : BufTy).Contents (Elt F)),
    StableHlo.binary main_v56 main_v59 main_v60 (addi : (⟨S16, .i32⟩ : BufTy).Contents (Elt F) → (⟨S16, .i32⟩ : BufTy).Contents (Elt F) → (⟨S16, .i32⟩ : BufTy).Contents (Elt F)),
    StableHlo.ternary main_v58 main_v60 main_v56 main_v61 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_14 (constantI S_ 32 0#32),
    StableHlo.unary main_c_14 main_v62 (broadcastInDim S131072x16 ![] bcast_S_S131072x16 : (⟨S_, .i32⟩ : BufTy).Contents (Elt F) → (⟨S131072x16, .i32⟩ : BufTy).Contents (Elt F)),
    StableHlo.binary main_v55 main_v62 main_v63 (cmpi .slt : (⟨S131072x16, .i32⟩ : BufTy).Contents (Elt F) → (⟨S131072x16, .i32⟩ : BufTy).Contents (Elt F) → (⟨S131072x16, .i1⟩ : BufTy).Contents (Elt F)),
    StableHlo.nullary main_c_15 (constantI S_ 32 50000#32),
    StableHlo.unary main_c_15 main_v64 (broadcastInDim S131072x16 ![] bcast_S_S131072x16 : (⟨S_, .i32⟩ : BufTy).Contents (Elt F) → (⟨S131072x16, .i32⟩ : BufTy).Contents (Elt F)),
    StableHlo.binary main_v55 main_v64 main_v65 (addi : (⟨S131072x16, .i32⟩ : BufTy).Contents (Elt F) → (⟨S131072x16, .i32⟩ : BufTy).Contents (Elt F) → (⟨S131072x16, .i32⟩ : BufTy).Contents (Elt F)),
    StableHlo.ternary main_v63 main_v65 main_v55 main_v66 (select : (⟨S131072x16, .i1⟩ : BufTy).Contents (Elt F) → (⟨S131072x16, .i32⟩ : BufTy).Contents (Elt F) → (⟨S131072x16, .i32⟩ : BufTy).Contents (Elt F) → (⟨S131072x16, .i32⟩ : BufTy).Contents (Elt F)),
    StableHlo.unary main_v61 main_v67 (broadcastInDim S131072x16 ![1] bcast_S16_S131072x16_1 : (⟨S16, .i32⟩ : BufTy).Contents (Elt F) → (⟨S131072x16, .i32⟩ : BufTy).Contents (Elt F)),
    StableHlo.unary main_v67 main_v68 (broadcastInDim S131072x16x1 ![0, 1] bcast_S131072x16_S131072x16x1_0_1 : (⟨S131072x16, .i32⟩ : BufTy).Contents (Elt F) → (⟨S131072x16x1, .i32⟩ : BufTy).Contents (Elt F)),
    StableHlo.unary main_v66 main_v69 (broadcastInDim S131072x16x1 ![0, 1] bcast_S131072x16_S131072x16x1_0_1 : (⟨S131072x16, .i32⟩ : BufTy).Contents (Elt F) → (⟨S131072x16x1, .i32⟩ : BufTy).Contents (Elt F)) ]

theorem K4_tame : (K4 (F := F)).Forall (Tame wr4) :=
  ⟨tame_nullary (by decide), tame_unary (by decide), tame_binary (by decide), tame_nullary (by decide), tame_unary (by decide), tame_binary (by decide), tame_ternary (by decide), tame_unary (by decide), tame_binary (by decide), tame_nullary (by decide), tame_nullary (by decide), tame_unary (by decide), tame_binary (by decide), tame_nullary (by decide), tame_unary (by decide), tame_binary (by decide), tame_ternary (by decide), tame_nullary (by decide), tame_unary (by decide), tame_binary (by decide), tame_nullary (by decide), tame_unary (by decide), tame_binary (by decide), tame_ternary (by decide), tame_unary (by decide), tame_unary (by decide), tame_unary (by decide)⟩

/-- The references piece 5 writes, in order. -/
def wr5 : List (Ref sig .tc) :=
  [main_v70, main_v71, main_v72, main_c_16, main_v73, main_v74, main_c_17, main_v75, main_v76, main_v77, main_v78, main_v79]

/-- Piece 5: the index pairs, the child embedding lookup and its reshape; then the gather of the child numeric features. -/
def K5 : List (HloOp τ sig (Elt F)) :=
  [ StableHlo.binary main_v68 main_v69 main_v70 ((fun a b => concatenate S131072x16x2 2 [⟨S131072x16x1, a⟩, ⟨S131072x16x1, b⟩] concatenates_S131072x16x1_S131072x16x1_S131072x16x2_d2) : (⟨S131072x16x1, .i32⟩ : BufTy).Contents (Elt F) → (⟨S131072x16x1, .i32⟩ : BufTy).Contents (Elt F) → (⟨S131072x16x2, .i32⟩ : BufTy).Contents (Elt F)),
    StableHlo.binary main_arg7 main_v70 main_v71 ((fun x i => Host.gather gather_S16x50000x64_S131072x16x2_S131072x16x64_2_01_n_n_01_2_1164 x i) : (⟨S16x50000x64, .f32⟩ : BufTy).Contents (Elt F) → (⟨S131072x16x2, .i32⟩ : BufTy).Contents (Elt F) → (⟨S131072x16x64, .f32⟩ : BufTy).Contents (Elt F)),
    StableHlo.reshape main_v71 main_v72 rfl shapeCasts_S131072x16x64_S131072x1024,
    StableHlo.nullary main_c_16 (constantI S_ 32 0#32),
    StableHlo.unary main_c_16 main_v73 (broadcastInDim S131072 ![] bcast_S_S131072 : (⟨S_, .i32⟩ : BufTy).Contents (Elt F) → (⟨S131072, .i32⟩ : BufTy).Contents (Elt F)),
    StableHlo.binary main_arg1 main_v73 main_v74 (cmpi .slt : (⟨S131072, .i32⟩ : BufTy).Contents (Elt F) → (⟨S131072, .i32⟩ : BufTy).Contents (Elt F) → (⟨S131072, .i1⟩ : BufTy).Contents (Elt F)),
    StableHlo.nullary main_c_17 (constantI S_ 32 500000#32),
    StableHlo.unary main_c_17 main_v75 (broadcastInDim S131072 ![] bcast_S_S131072 : (⟨S_, .i32⟩ : BufTy).Contents (Elt F) → (⟨S131072, .i32⟩ : BufTy).Contents (Elt F)),
    StableHlo.binary main_arg1 main_v75 main_v76 (addi : (⟨S131072, .i32⟩ : BufTy).Contents (Elt F) → (⟨S131072, .i32⟩ : BufTy).Contents (Elt F) → (⟨S131072, .i32⟩ : BufTy).Contents (Elt F)),
    StableHlo.ternary main_v74 main_v76 main_arg1 main_v77 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v77 main_v78 (broadcastInDim S131072x1 ![0] bcast_S131072_S131072x1_0 : (⟨S131072, .i32⟩ : BufTy).Contents (Elt F) → (⟨S131072x1, .i32⟩ : BufTy).Contents (Elt F)),
    StableHlo.binary main_arg5 main_v78 main_v79 ((fun x i => Host.gather gather_S500000x128_S131072x1_S131072x128_1_0_n_n_0_1_1128 x i) : (⟨S500000x128, .f32⟩ : BufTy).Contents (Elt F) → (⟨S131072x1, .i32⟩ : BufTy).Contents (Elt F) → (⟨S131072x128, .f32⟩ : BufTy).Contents (Elt F)) ]

theorem K5_tame : (K5 (F := F)).Forall (Tame wr5) :=
  ⟨tame_binary (by decide), tame_binary (by decide), tame_reshape (by decide), tame_nullary (by decide), tame_unary (by decide), tame_binary (by decide), tame_nullary (by decide), tame_unary (by decide), tame_binary (by decide), tame_ternary (by decide), tame_unary (by decide), tame_binary (by decide)⟩

/-- The references piece 6 writes, in order. -/
def wr6 : List (Ref sig .tc) :=
  [main_cst_18, main_v80, main_v81, main_cst_19, main_v82, main_v83, main_c_20, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v84, main_v85, main_v86, main_cst_21, main_v87, main_v88, main_v89, main_v90, main_v91, main_v92, main_v93, main_v94, main_v95, main_v96, main_v97]

/-- Piece 6: the child batch norm: the mean, the variance (the outlined functions, operation by operation), the scaling. -/
def K6 : List (HloOp τ sig (Elt F)) :=
  [ StableHlo.nullary main_cst_18 (constant S_ .f32 0x00000000#32),
    StableHlo.binary main_v79 main_cst_18 main_v80 ((fun x v => Host.reduceAdd x v reducesTo_S131072x128_S128_d0 h_S_) : (⟨S131072x128, .f32⟩ : BufTy).Contents (Elt F) → (⟨S_, .f32⟩ : BufTy).Contents (Elt F) → (⟨S128, .f32⟩ : BufTy).Contents (Elt F)),
    StableHlo.unary main_v80 main_v81 (broadcastInDim S1x128 ![1] bcast_S128_S1x128_1 : (⟨S128, .f32⟩ : BufTy).Contents (Elt F) → (⟨S1x128, .f32⟩ : BufTy).Contents (Elt F)),
    StableHlo.nullary main_cst_19 (constant S_ .f32 0x48000000#32),
    StableHlo.unary main_cst_19 main_v82 (broadcastInDim S1x128 ![] bcast_S_S1x128 : (⟨S_, .f32⟩ : BufTy).Contents (Elt F) → (⟨S1x128, .f32⟩ : BufTy).Contents (Elt F)),
    StableHlo.binary main_v81 main_v82 main_v83 (Host.divf : (⟨S1x128, .f32⟩ : BufTy).Contents (Elt F) → (⟨S1x128, .f32⟩ : BufTy).Contents (Elt F) → (⟨S1x128, .f32⟩ : BufTy).Contents (Elt F)),
    StableHlo.nullary main_c_20 (constantI S_ 32 0#32),
    StableHlo.TRef.nullary main_call1.cst (constant S_ .f32 0x00000000#32),
    StableHlo.TRef.binary (.of main_v79) main_call1.cst main_call1.v0 (fun x v => Host.reduceAdd x v reducesTo_S131072x128_S128_d0 h_S_),
    StableHlo.TRef.unary main_call1.v0 main_call1.v1 (broadcastInDim S1x128 ![1] bcast_S128_S1x128_1),
    StableHlo.TRef.nullary main_call1.cst_0 (constant S_ .f32 0x48000000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S131072x128 ![0, 1] bcast_S1x128_S131072x128_0_1),
    StableHlo.TRef.binary (.of main_v79) main_call1.v4 main_call1.v5 subf,
    StableHlo.TRef.binary main_call1.v5 main_call1.v5 main_call1.v6 mulf,
    StableHlo.TRef.unary (.of main_c_20) main_call1.v7 (sitofp .f32),
    StableHlo.TRef.nullary main_call1.cst_1 (constant S_ .f32 0x48000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S131072x128_S128_d0 h_S_),
    StableHlo.TRef.unary main_call1.v9 main_call1.v10 (broadcastInDim S1x128 ![1] bcast_S128_S1x128_1),
    StableHlo.TRef.unary main_call1.v8 main_call1.v11 (broadcastInDim S1x128 ![] bcast_S_S1x128),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x128 ![] bcast_S_S1x128),
    StableHlo.TRef.ternary main_call1.v13 main_call1.v12 main_call1.call0.v1 main_call1.call0.v2 (fun p a b => select (broadcastInDim S1x128 ![] bcast_S_S1x128 p) a b),
    StableHlo.unary main_v83 main_v85 (broadcastInDim S131072x128 ![0, 1] bcast_S1x128_S131072x128_0_1 : (⟨S1x128, .f32⟩ : BufTy).Contents (Elt F) → (⟨S131072x128, .f32⟩ : BufTy).Contents (Elt F)),
    StableHlo.binary main_v79 main_v85 main_v86 (subf : (⟨S131072x128, .f32⟩ : BufTy).Contents (Elt F) → (⟨S131072x128, .f32⟩ : BufTy).Contents (Elt F) → (⟨S131072x128, .f32⟩ : BufTy).Contents (Elt F)),
    StableHlo.nullary main_cst_21 (constant S_ .f32 0x3727C5AC#32),
    StableHlo.unary main_cst_21 main_v87 (broadcastInDim S1x128 ![] bcast_S_S1x128 : (⟨S_, .f32⟩ : BufTy).Contents (Elt F) → (⟨S1x128, .f32⟩ : BufTy).Contents (Elt F)),
    StableHlo.binary main_v84 main_v87 main_v88 (addf : (⟨S1x128, .f32⟩ : BufTy).Contents (Elt F) → (⟨S1x128, .f32⟩ : BufTy).Contents (Elt F) → (⟨S1x128, .f32⟩ : BufTy).Contents (Elt F)),
    StableHlo.unary main_v88 main_v89 (Host.rsqrt : (⟨S1x128, .f32⟩ : BufTy).Contents (Elt F) → (⟨S1x128, .f32⟩ : BufTy).Contents (Elt F)),
    StableHlo.unary main_v89 main_v90 (broadcastInDim S131072x128 ![0, 1] bcast_S1x128_S131072x128_0_1 : (⟨S1x128, .f32⟩ : BufTy).Contents (Elt F) → (⟨S131072x128, .f32⟩ : BufTy).Contents (Elt F)),
    StableHlo.binary main_v86 main_v90 main_v91 (mulf : (⟨S131072x128, .f32⟩ : BufTy).Contents (Elt F) → (⟨S131072x128, .f32⟩ : BufTy).Contents (Elt F) → (⟨S131072x128, .f32⟩ : BufTy).Contents (Elt F)),
    StableHlo.unary main_arg12 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S131072x128 ![0, 1] bcast_S1x128_S131072x128_0_1 : (⟨S1x128, .f32⟩ : BufTy).Contents (Elt F) → (⟨S131072x128, .f32⟩ : BufTy).Contents (Elt F)),
    StableHlo.binary main_v91 main_v93 main_v94 (mulf : (⟨S131072x128, .f32⟩ : BufTy).Contents (Elt F) → (⟨S131072x128, .f32⟩ : BufTy).Contents (Elt F) → (⟨S131072x128, .f32⟩ : BufTy).Contents (Elt F)),
    StableHlo.unary main_arg13 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S131072x128 ![0, 1] bcast_S1x128_S131072x128_0_1 : (⟨S1x128, .f32⟩ : BufTy).Contents (Elt F) → (⟨S131072x128, .f32⟩ : BufTy).Contents (Elt F)),
    StableHlo.binary main_v94 main_v96 main_v97 (addf : (⟨S131072x128, .f32⟩ : BufTy).Contents (Elt F) → (⟨S131072x128, .f32⟩ : BufTy).Contents (Elt F) → (⟨S131072x128, .f32⟩ : BufTy).Contents (Elt F)) ]

theorem K6_tame : (K6 (F := F)).Forall (Tame wr6) :=
  ⟨tame_nullary (by decide), tame_binary (by decide), tame_unary (by decide), tame_nullary (by decide), tame_unary (by decide), tame_binary (by decide), tame_nullary (by decide), tame_nullary (by decide), tame_binary (by decide), tame_unary (by decide), tame_nullary (by decide), tame_unary (by decide), tame_binary (by decide), tame_unary (by decide), tame_binary (by decide), tame_binary (by decide), tame_unary (by decide), tame_nullary (by decide), tame_binary (by decide), tame_nullary (by decide), tame_binary (by decide), tame_unary (by decide), tame_unary (by decide), tame_binary (by decide), tame_nullary (by decide), tame_binary (by decide), tame_nullary (by decide), tame_unary (by decide), tame_unary (by decide), tame_ternary (by decide), tame_unary (by decide), tame_binary (by decide), tame_nullary (by decide), tame_unary (by decide), tame_binary (by decide), tame_unary (by decide), tame_unary (by decide), tame_binary (by decide), tame_unary (by decide), tame_unary (by decide), tame_binary (by decide), tame_unary (by decide), tame_unary (by decide), tame_binary (by decide)⟩

/-- The references piece 7 writes, in order. -/
def wr7 : List (Ref sig .tc) :=
  [main_v98, main_v99, main_v100, main_v101, main_v102, main_v103, main_call2_cst, main_call2_v0, main_v104, main_v105, main_cst_22, main_v106, main_cst_23, main_v107, main_v108]

/-- Piece 7: the two child blocks side by side, the transposed weight, the layer, the relu (outlined), the mean over sixteen children. -/
def K7 : List (HloOp τ sig (Elt F)) :=
  [ StableHlo.binary main_v72 main_v97 main_v98 ((fun a b => concatenate S131072x1152 1 [⟨S131072x1024, a⟩, ⟨S131072x128, b⟩] concatenates_S131072x1024_S131072x128_S131072x1152_d1) : (⟨S131072x1024, .f32⟩ : BufTy).Contents (Elt F) → (⟨S131072x128, .f32⟩ : BufTy).Contents (Elt F) → (⟨S131072x1152, .f32⟩ : BufTy).Contents (Elt F)),
    StableHlo.unary main_arg8 main_v99 ((transpose S1152x32 [1, 0] · transposes_S32x1152_S1152x32_1_0) : (⟨S32x1152, .f32⟩ : BufTy).Contents (Elt F) → (⟨S1152x32, .f32⟩ : BufTy).Contents (Elt F)),
    StableHlo.binary main_v98 main_v99 main_v100 ((fun l r => Host.dotGeneral dot_S131072x1152_S1152x32_S131072x32_1_0_0_1_n_n none l r) : (⟨S131072x1152, .f32⟩ : BufTy).Contents (Elt F) → (⟨S1152x32, .f32⟩ : BufTy).Contents (Elt F) → (⟨S131072x32, .f32⟩ : BufTy).Contents (Elt F)),
    StableHlo.unary main_arg9 main_v101 (broadcastInDim S1x32 ![1] bcast_S32_S1x32_1 : (⟨S32, .f32⟩ : BufTy).Contents (Elt F) → (⟨S1x32, .f32⟩ : BufTy).Contents (Elt F)),
    StableHlo.unary main_v101 main_v102 (broadcastInDim S131072x32 ![0, 1] bcast_S1x32_S131072x32_0_1 : (⟨S1x32, .f32⟩ : BufTy).Contents (Elt F) → (⟨S131072x32, .f32⟩ : BufTy).Contents (Elt F)),
    StableHlo.binary main_v100 main_v102 main_v103 (addf : (⟨S131072x32, .f32⟩ : BufTy).Contents (Elt F) → (⟨S131072x32, .f32⟩ : BufTy).Contents (Elt F) → (⟨S131072x32, .f32⟩ : BufTy).Contents (Elt F)),
    StableHlo.TRef.nullary main_call2.cst (constant S_ .f32 0x00000000#32),
    StableHlo.TRef.unary main_call2.cst main_call2.v0 (broadcastInDim S131072x32 ![] bcast_S_S131072x32),
    StableHlo.TRef.binary (.of main_v103) main_call2.v0 main_call2.v1 maximumf,
    StableHlo.reshape main_v104 main_v105 rfl shapeCasts_S131072x32_S8192x16x32,
    StableHlo.nullary main_cst_22 (constant S_ .f32 0x00000000#32),
    StableHlo.binary main_v105 main_cst_22 main_v106 ((fun x v => Host.reduceAdd x v reducesTo_S8192x16x32_S8192x32_d1 h_S_) : (⟨S8192x16x32, .f32⟩ : BufTy).Contents (Elt F) → (⟨S_, .f32⟩ : BufTy).Contents (Elt F) → (⟨S8192x32, .f32⟩ : BufTy).Contents (Elt F)),
    StableHlo.nullary main_cst_23 (constant S_ .f32 0x41800000#32),
    StableHlo.unary main_cst_23 main_v107 (broadcastInDim S8192x32 ![] bcast_S_S8192x32 : (⟨S_, .f32⟩ : BufTy).Contents (Elt F) → (⟨S8192x32, .f32⟩ : BufTy).Contents (Elt F)),
    StableHlo.binary main_v106 main_v107 main_v108 (Host.divf : (⟨S8192x32, .f32⟩ : BufTy).Contents (Elt F) → (⟨S8192x32, .f32⟩ : BufTy).Contents (Elt F) → (⟨S8192x32, .f32⟩ : BufTy).Contents (Elt F)) ]

theorem K7_tame : (K7 (F := F)).Forall (Tame wr7) :=
  ⟨tame_binary (by decide), tame_unary (by decide), tame_binary (by decide), tame_unary (by decide), tame_unary (by decide), tame_binary (by decide), tame_nullary (by decide), tame_unary (by decide), tame_binary (by decide), tame_reshape (by decide), tame_nullary (by decide), tame_binary (by decide), tame_nullary (by decide), tame_unary (by decide), tame_binary (by decide)⟩

/-- The references piece 8 writes, in order. -/
def wr8 : List (Ref sig .tc) :=
  [main_v109]

/-- Piece 8: the result: the three blocks side by side. -/
def K8 : List (HloOp τ sig (Elt F)) :=
  [ StableHlo.nary ![main_v23, main_v48, main_v108] main_v109 (fun u => concatenate S8192x608 1 [⟨S8192x512, u 0⟩, ⟨S8192x64, u 1⟩, ⟨S8192x32, u 2⟩] concatenates_S8192x512_S8192x64_S8192x32_S8192x608_d1) ]

theorem K8_tame : (K8 (F := F)).Forall (Tame wr8) :=
  tame_nary (by decide)

/-! ## Each piece read back over an arbitrary state `W` of the buffers before it -/

/-- After the first piece, the table index of every embedding lookup is the column's own number. -/
theorem K1_v19 (W : Valuation τ sig (Elt F)) : after K1 W (Proc.devRef .tc main_v19) = rootTable := by
  unfold K1; after_results_simp; rfl

/-- After the first piece, the code index is the gathered category code, wrapped into the table. -/
theorem K1_v20 (W : Valuation τ sig (Elt F)) :
    after K1 W (Proc.devRef .tc main_v20) = rootCode (W (Proc.devRef .tc main_arg0)) (W (Proc.devRef .tc main_arg2)) := by
  unfold K1; after_results_simp; rfl

/-- The second piece pairs the two indices, looks the root embeddings up and lays them side by side. -/
theorem K2_v23 (W : Valuation τ sig (Elt F)) :
    after K2 W (Proc.devRef .tc main_v23)
      = shapeCast S8192x512
          (Host.gather gather_S8x50000x64_S8192x8x2_S8192x8x64_2_01_n_n_01_2_1164 (W (Proc.devRef .tc main_arg6))
            (concatenate S8192x8x2 2 [⟨S8192x8x1, W (Proc.devRef .tc main_v19)⟩, ⟨S8192x8x1, W (Proc.devRef .tc main_v20)⟩]
              concatenates_S8192x8x1_S8192x8x1_S8192x8x2_d2))
          shapeCasts_S8192x8x64_S8192x512 := by
  unfold K2; after_results_simp; rfl

/-- The second piece also gathers the root rows' numeric features. -/
theorem K2_v30 (W : Valuation τ sig (Elt F)) :
    after K2 W (Proc.devRef .tc main_v30) = rnumG (W (Proc.devRef .tc main_arg0)) (W (Proc.devRef .tc main_arg3)) := by
  unfold K2; after_results_simp; rfl

set_option maxHeartbeats 1000000 in
/-- The third piece is the root batch norm of the gathered features. -/
theorem K3_v48 (W : Valuation τ sig (Elt F)) :
    after K3 W (Proc.devRef .tc main_v48)
      = rootNorm (W (Proc.devRef .tc main_v30)) (W (Proc.devRef .tc main_arg10)) (W (Proc.devRef .tc main_arg11)) := by
  unfold K3; after_results_simp; rfl

/-- After the fourth piece, the child lookups' table index is the column's own number. -/
theorem K4_v68 (W : Valuation τ sig (Elt F)) : after K4 W (Proc.devRef .tc main_v68) = childTable := by
  unfold K4; after_results_simp; rfl

/-- After the fourth piece, the child code index is the gathered category code, wrapped into the table. -/
theorem K4_v69 (W : Valuation τ sig (Elt F)) :
    after K4 W (Proc.devRef .tc main_v69) = childCode (W (Proc.devRef .tc main_arg1)) (W (Proc.devRef .tc main_arg4)) := by
  unfold K4; after_results_simp; rfl

/-- The fifth piece pairs the two indices, looks the child embeddings up and lays them side by side. -/
theorem K5_v72 (W : Valuation τ sig (Elt F)) :
    after K5 W (Proc.devRef .tc main_v72)
      = shapeCast S131072x1024
          (Host.gather gather_S16x50000x64_S131072x16x2_S131072x16x64_2_01_n_n_01_2_1164 (W (Proc.devRef .tc main_arg7))
            (concatenate S131072x16x2 2 [⟨S131072x16x1, W (Proc.devRef .tc main_v68)⟩, ⟨S131072x16x1, W (Proc.devRef .tc main_v69)⟩]
              concatenates_S131072x16x1_S131072x16x1_S131072x16x2_d2))
          shapeCasts_S131072x16x64_S131072x1024 := by
  unfold K5; after_results_simp; rfl

/-- The fifth piece also gathers the child rows' numeric features. -/
theorem K5_v79 (W : Valuation τ sig (Elt F)) :
    after K5 W (Proc.devRef .tc main_v79) = cnumG (W (Proc.devRef .tc main_arg1)) (W (Proc.devRef .tc main_arg5)) := by
  unfold K5; after_results_simp; rfl

set_option maxHeartbeats 1000000 in
/-- The sixth piece is the child batch norm of the gathered features. -/
theorem K6_v97 (W : Valuation τ sig (Elt F)) :
    after K6 W (Proc.devRef .tc main_v97)
      = childNorm (W (Proc.devRef .tc main_v79)) (W (Proc.devRef .tc main_arg12)) (W (Proc.devRef .tc main_arg13)) := by
  unfold K6; after_results_simp; rfl

/-- The seventh piece: the two child blocks side by side, the layer, the relu, the mean over sixteen children. -/
theorem K7_v108 (W : Valuation τ sig (Elt F)) :
    after K7 W (Proc.devRef .tc main_v108)
      = aggOf (W (Proc.devRef .tc main_v72)) (W (Proc.devRef .tc main_v97)) (W (Proc.devRef .tc main_arg8)) (W (Proc.devRef .tc main_arg9)) := by
  unfold K7; after_results_simp; rfl

/-- The last operation lays the three blocks of the result side by side. -/
theorem K8_v109 (W : Valuation τ sig (Elt F)) :
    after K8 W (Proc.devRef .tc main_v109)
      = outOf (W (Proc.devRef .tc main_v23)) (W (Proc.devRef .tc main_v48)) (W (Proc.devRef .tc main_v108)) := by
  unfold K8; after_results_simp; rfl

/-! ## The pieces chained -/

/-- The whole line: the eight pieces in order. -/
def ops : List (HloOp τ sig (Elt F)) := K1 ++ (K2 ++ (K3 ++ (K4 ++ (K5 ++ (K6 ++ (K7 ++ K8))))))

/-- What holds of every operation of every piece holds of every operation of the line. -/
theorem ops_forall {p : HloOp τ sig (Elt F) → Prop} (h1 : K1.Forall p) (h2 : K2.Forall p) (h3 : K3.Forall p) (h4 : K4.Forall p)
    (h5 : K5.Forall p) (h6 : K6.Forall p) (h7 : K7.Forall p) (h8 : K8.Forall p) : (ops (F := F)).Forall p :=
  List.forall_append.mpr ⟨h1, List.forall_append.mpr ⟨h2, List.forall_append.mpr ⟨h3, List.forall_append.mpr ⟨h4,
    List.forall_append.mpr ⟨h5, List.forall_append.mpr ⟨h6, List.forall_append.mpr ⟨h7, h8⟩⟩⟩⟩⟩⟩⟩

theorem ops_sub : (ops (F := F)).Forall fun op => op.bufs ⊆ tcRefs τ sig :=
  ops_forall (K1_tame.imp fun _ t => t.1) (K2_tame.imp fun _ t => t.1) (K3_tame.imp fun _ t => t.1) (K4_tame.imp fun _ t => t.1)
    (K5_tame.imp fun _ t => t.1) (K6_tame.imp fun _ t => t.1) (K7_tame.imp fun _ t => t.1) (K8_tame.imp fun _ t => t.1)

theorem ops_fresh : ∀ op ∈ (ops (F := F)), op.fresh = ∅ :=
  List.forall_iff_forall_mem.1 (ops_forall (K1_tame.imp fun _ t => t.2.1) (K2_tame.imp fun _ t => t.2.1) (K3_tame.imp fun _ t => t.2.1)
    (K4_tame.imp fun _ t => t.2.1) (K5_tame.imp fun _ t => t.2.1) (K6_tame.imp fun _ t => t.2.1) (K7_tame.imp fun _ t => t.2.1)
    (K8_tame.imp fun _ t => t.2.1))

/-- A reference no piece writes holds at the end what it held at the start. -/
theorem ops_keep (V : Valuation τ sig (Elt F)) {r : Ref sig .tc} (h1 : r ∉ wr1) (h2 : r ∉ wr2) (h3 : r ∉ wr3) (h4 : r ∉ wr4)
    (h5 : r ∉ wr5) (h6 : r ∉ wr6) (h7 : r ∉ wr7) (h8 : r ∉ wr8) : after ops V (Proc.devRef .tc r) = V (Proc.devRef .tc r) := by
  unfold ops
  rw [StableHlo.after_append, StableHlo.after_append, StableHlo.after_append, StableHlo.after_append, StableHlo.after_append,
    StableHlo.after_append, StableHlo.after_append, after_frame K8_tame _ h8, after_frame K7_tame _ h7, after_frame K6_tame _ h6,
    after_frame K5_tame _ h5, after_frame K4_tame _ h4, after_frame K3_tame _ h3, after_frame K2_tame _ h2, after_frame K1_tame _ h1]

/-- The result buffer at the end of the line is the reference's value of the argument buffers at its start: each piece's
    reading applied to the state the earlier pieces leave, the buffers a piece does not write carried across it. -/
theorem out_eq (V : Valuation τ sig (Elt F)) :
    after ops V (Proc.devRef .tc main_v109)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold ops
  rw [StableHlo.after_append, StableHlo.after_append, StableHlo.after_append, StableHlo.after_append, StableHlo.after_append,
    StableHlo.after_append, StableHlo.after_append, K8_v109,
    after_frame K7_tame _ (r := main_v23) (by decide), after_frame K7_tame _ (r := main_v48) (by decide), K7_v108,
    after_frame K6_tame _ (r := main_v23) (by decide), after_frame K6_tame _ (r := main_v48) (by decide),
    after_frame K6_tame _ (r := main_v72) (by decide), K6_v97,
    after_frame K6_tame _ (r := main_arg8) (by decide), after_frame K6_tame _ (r := main_arg9) (by decide),
    after_frame K5_tame _ (r := main_v23) (by decide), after_frame K5_tame _ (r := main_v48) (by decide), K5_v72, K5_v79,
    after_frame K5_tame _ (r := main_arg12) (by decide), after_frame K5_tame _ (r := main_arg13) (by decide),
    after_frame K5_tame _ (r := main_arg8) (by decide), after_frame K5_tame _ (r := main_arg9) (by decide),
    after_frame K4_tame _ (r := main_v23) (by decide), after_frame K4_tame _ (r := main_v48) (by decide), K4_v68, K4_v69,
    after_frame K4_tame _ (r := main_arg7) (by decide), after_frame K4_tame _ (r := main_arg1) (by decide),
    after_frame K4_tame _ (r := main_arg5) (by decide),
    after_frame K4_tame _ (r := main_arg12) (by decide), after_frame K4_tame _ (r := main_arg13) (by decide),
    after_frame K4_tame _ (r := main_arg8) (by decide), after_frame K4_tame _ (r := main_arg9) (by decide),
    after_frame K3_tame _ (r := main_v23) (by decide), K3_v48,
    after_frame K3_tame _ (r := main_arg1) (by decide), after_frame K3_tame _ (r := main_arg4) (by decide),
    after_frame K3_tame _ (r := main_arg7) (by decide), after_frame K3_tame _ (r := main_arg5) (by decide),
    after_frame K3_tame _ (r := main_arg12) (by decide), after_frame K3_tame _ (r := main_arg13) (by decide),
    after_frame K3_tame _ (r := main_arg8) (by decide), after_frame K3_tame _ (r := main_arg9) (by decide),
    K2_v23, K2_v30,
    after_frame K2_tame _ (r := main_arg10) (by decide), after_frame K2_tame _ (r := main_arg11) (by decide),
    after_frame K2_tame _ (r := main_arg1) (by decide), after_frame K2_tame _ (r := main_arg4) (by decide),
    after_frame K2_tame _ (r := main_arg7) (by decide), after_frame K2_tame _ (r := main_arg5) (by decide),
    after_frame K2_tame _ (r := main_arg12) (by decide), after_frame K2_tame _ (r := main_arg13) (by decide),
    after_frame K2_tame _ (r := main_arg8) (by decide), after_frame K2_tame _ (r := main_arg9) (by decide),
    K1_v19, K1_v20,
    after_frame K1_tame _ (r := main_arg6) (by decide), after_frame K1_tame _ (r := main_arg0) (by decide),
    after_frame K1_tame _ (r := main_arg3) (by decide),
    after_frame K1_tame _ (r := main_arg10) (by decide), after_frame K1_tame _ (r := main_arg11) (by decide),
    after_frame K1_tame _ (r := main_arg1) (by decide), after_frame K1_tame _ (r := main_arg4) (by decide),
    after_frame K1_tame _ (r := main_arg7) (by decide), after_frame K1_tame _ (r := main_arg5) (by decide),
    after_frame K1_tame _ (r := main_arg12) (by decide), after_frame K1_tame _ (r := main_arg13) (by decide),
    after_frame K1_tame _ (r := main_arg8) (by decide), after_frame K1_tame _ (r := main_arg9) (by decide)]
  rfl

/-! ## The program is that line, and its run -/

set_option maxRecDepth 16384 in
set_option maxHeartbeats 4000000 in
/-- @main is the line: its three windows in order, the outlined functions' bodies unfolded at their calls over the calls'
    own buffers, the sequencing reassociated. -/
theorem main_eq (c : Dev nD) : main (F := F) c = seq ops := by
  simp only [main, main_part0, main_part1, main_part2, fn_var.body, fn_where.body, fn_var_0.body, fn_where_1.body, fn_relu.body,
    ops, K1, K2, K3, K4, K5, K6, K7, K8, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the reference
    terminates with its result buffer at `refOut` of the argument arrays as launched, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v109)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v109).trans (out_eq _),
      (h c main_arg0).trans (ops_keep _ (by decide) (by decide) (by decide) (by decide) (by decide) (by decide) (by decide) (by decide)),
      (h c main_arg1).trans (ops_keep _ (by decide) (by decide) (by decide) (by decide) (by decide) (by decide) (by decide) (by decide)),
      (h c main_arg2).trans (ops_keep _ (by decide) (by decide) (by decide) (by decide) (by decide) (by decide) (by decide) (by decide)),
      (h c main_arg3).trans (ops_keep _ (by decide) (by decide) (by decide) (by decide) (by decide) (by decide) (by decide) (by decide)),
      (h c main_arg4).trans (ops_keep _ (by decide) (by decide) (by decide) (by decide) (by decide) (by decide) (by decide) (by decide)),
      (h c main_arg5).trans (ops_keep _ (by decide) (by decide) (by decide) (by decide) (by decide) (by decide) (by decide) (by decide)),
      (h c main_arg6).trans (ops_keep _ (by decide) (by decide) (by decide) (by decide) (by decide) (by decide) (by decide) (by decide)),
      (h c main_arg7).trans (ops_keep _ (by decide) (by decide) (by decide) (by decide) (by decide) (by decide) (by decide) (by decide)),
      (h c main_arg8).trans (ops_keep _ (by decide) (by decide) (by decide) (by decide) (by decide) (by decide) (by decide) (by decide)),
      (h c main_arg9).trans (ops_keep _ (by decide) (by decide) (by decide) (by decide) (by decide) (by decide) (by decide) (by decide)),
      (h c main_arg10).trans (ops_keep _ (by decide) (by decide) (by decide) (by decide) (by decide) (by decide) (by decide) (by decide)),
      (h c main_arg11).trans (ops_keep _ (by decide) (by decide) (by decide) (by decide) (by decide) (by decide) (by decide) (by decide)),
      (h c main_arg12).trans (ops_keep _ (by decide) (by decide) (by decide) (by decide) (by decide) (by decide) (by decide) (by decide)),
      (h c main_arg13).trans (ops_keep _ (by decide) (by decide) (by decide) (by decide) (by decide) (by decide) (by decide) (by decide))⟩)
    (StableHlo.run_seq scopedRefs_eq scopedSems_eq defs main (fun _ => ops) main_eq (fun _ => ops_sub) m ρ (fun _ => ops_fresh))

end Cert.ReferenceIdeal.Hand

end
-- ==== Proof.PreFacts.lean ====
/-
  The precondition of the claim is a printed predicate: a single bit, the conjunction of fourteen "for all
  entries" tests, one per argument array. For each of the ten float arrays the test is |x| < +∞ at every
  entry; for each of the four integer arrays it is 0 ≤ w ∧ w < n (both signed) at every word, with n the number
  of rows of the table the array indexes. This module reads that bit back: when it is 1, every float entry
  is a real number and every index word lies in [0, n).

  The reading has three layers. A conjunction of bits is 1 exactly when both bits are; a reduction by "and"
  from 1 over all axes is 1 only when every reduced bit is; and the bit of one entry says of that entry
  what the comparison compares. The first two are the same for all fourteen arrays; the third comes in two
  kinds, one for a float entry and one for an index word, each stated once for any shape.
-/
import proofs.«409894_j6640019439760_1_alg».proof.Pre_finite_inputs
import proofs.«409894_j6640019439760_1_alg».proof.Proof.Gen.Pre_finite_inputs
import proofs.«409894_j6640019439760_1_alg».proof.Proof.Domain
import Idealize.ShloMosaic.Lib.ReduceAll
import Idealize.ShloMosaic.PureOps.Ideal

noncomputable section

namespace Cert.PreFacts

open Idealize.ShloMosaic Cert.Domain

/-- The shape of a scalar has exactly one index, so a reduction over all axes lands on it. -/
instance scalarIdx_subsingleton : Subsingleton (⟨0, ![]⟩ : Shape).Idx := ⟨fun a b => funext fun d => d.elim0⟩

/-! ## One float entry -/

/-- The pattern 0x7F800000 (sign 0, exponent all ones, fraction 0) denotes +∞. -/
theorem posInf_pattern : Ideal.ofBits .f32 0x7F800000#32 = (⊤ : EReal) := by simp [Ideal.ofBits, Ideal.ieee]

/-- An extended real whose absolute value max x (−x) is strictly below +∞ is a real number: at either
    infinity the absolute value is +∞ itself, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A float array whose entrywise test |x| < +∞ (the bound a scalar +∞ spread over the shape) is all ones
    holds only real numbers. -/
theorem allReal_of_absTest {S : Shape} (x : FVec Ideal S .f32) (hb : (⟨0, ![]⟩ : Shape).BroadcastsInDim S ![])
    (h : ∀ i, cmpf .olt (Host.absf x) (broadcastInDim S ![] hb (constant (F := Ideal) ⟨0, ![]⟩ .f32 0x7F800000#32)) i = 1#1) :
    AllReal x := by
  intro i
  have hi := h i
  -- at one entry the spread scalar is the scalar, and the host's |·| and < are EReal's max x (−x) and <
  have entry : cmpf .olt (Host.absf x) (broadcastInDim S ![] hb (constant (F := Ideal) ⟨0, ![]⟩ .f32 0x7F800000#32)) i
      = Ideal.cmp .olt (max (x i) (-(x i))) (Ideal.ofBits .f32 0x7F800000#32) := rfl
  rw [entry, posInf_pattern] at hi
  exact real_of_abs_lt_top (x i) hi

/-! ## One index word -/

/-- An integer array whose entrywise test (w ≥ 0) ∧ (w < n), both comparisons signed and both bounds scalars
    spread over the shape, is all ones has every word in [0, n). The bound n is below 2³¹, so the word n
    reads as n. -/
theorem allBelow_of_rangeTest {S : Shape} (n : Nat) (hn : n < 2 ^ 31) (x : IVec S 32)
    (hb : (⟨0, ![]⟩ : Shape).BroadcastsInDim S ![])
    (h : ∀ i, andi (cmpi .sge x (broadcastInDim S ![] hb (constantI ⟨0, ![]⟩ 32 0#32)))
                   (cmpi .slt x (broadcastInDim S ![] hb (constantI ⟨0, ![]⟩ 32 (BitVec.ofNat 32 n)))) i = 1#1) :
    AllBelow n x := by
  intro i
  have hi : IntOp.andi (IntOp.cmpi .sge (x i) 0#32) (IntOp.cmpi .slt (x i) (BitVec.ofNat 32 n)) = 1#1 := h i
  obtain ⟨lo, hi⟩ := IntOp.andi_eq_one.1 hi
  rw [IntOp.cmpi_sge] at lo
  rw [IntOp.cmpi_slt, BitVec.toInt_ofNat', Int.bmod_eq_of_le (by omega) (by omega)] at hi
  exact ⟨by simpa using lo, hi⟩

/-! ## The conjunction -/

/-- The "and" of two bit arrays is 1 at an index exactly when both are. -/
theorem and_at {S : Shape} (c d : IVec S 1) (j : S.Idx) : andi c d j = 1#1 ↔ c j = 1#1 ∧ d j = 1#1 :=
  IntOp.andi_eq_one

open Cert.Pre_finite_inputs in
open Cert.Pre_finite_inputs.Facts in
/-- When the printed precondition is 1, the fourteen arrays lie in the domain: the four index arrays in the
    ranges of the tables they index, the ten float arrays real. The predicate accumulates its tests left to
    right — the ten float arrays in argument order, then the row indices, the child indices, the root
    categories and the child categories — so the conjunction splits in that order. -/
theorem inDomain_of_pre [Cert.Pre_finite_inputs.Facts]
    (a0 : IVec S8192 32) (a1 : IVec S131072 32) (a2 : IVec S200000x8 32) (a3 : FVec Ideal S200000x64 .f32)
    (a4 : IVec S500000x16 32) (a5 : FVec Ideal S500000x128 .f32) (a6 : FVec Ideal S8x50000x64 .f32)
    (a7 : FVec Ideal S16x50000x64 .f32) (a8 : FVec Ideal S32x1152 .f32) (a9 : FVec Ideal S32 .f32)
    (a10 a11 : FVec Ideal S64 .f32) (a12 a13 : FVec Ideal S128 .f32)
    (h : Cert.Pre_finite_inputs.fn (F := Ideal) a0 a1 a2 a3 a4 a5 a6 a7 a8 a9 a10 a11 a12 a13 = fun _ => 1#1) :
    Cert.Domain.InDomain a0 a1 a2 a3 a4 a5 a6 a7 a8 a9 a10 a11 a12 a13 := by
  have bit := congrFun h ValueIdx.ix0
  dsimp only [Cert.Pre_finite_inputs.fn, fn_part1, fn_part2, fn_part3, fn_part4] at bit
  simp only [and_at] at bit
  obtain ⟨⟨⟨⟨⟨⟨⟨⟨⟨⟨⟨⟨⟨tRnum, tCnum⟩, tEr⟩, tEc⟩, tW⟩, tB⟩, tGr⟩, tBr⟩, tGc⟩, tBc⟩, tIdx⟩, tCidx⟩, tRcat⟩, tCcat⟩ := bit
  exact
    { idx_lt := allBelow_of_rangeTest 200000 (by norm_num) a0 _ (Host.reduce_andi_all _ _ _ _ _ tIdx)
      cidx_lt := allBelow_of_rangeTest 500000 (by norm_num) a1 _ (Host.reduce_andi_all _ _ _ _ _ tCidx)
      rcat_lt := allBelow_of_rangeTest 50000 (by norm_num) a2 _ (Host.reduce_andi_all _ _ _ _ _ tRcat)
      ccat_lt := allBelow_of_rangeTest 50000 (by norm_num) a4 _ (Host.reduce_andi_all _ _ _ _ _ tCcat)
      rnum_real := allReal_of_absTest a3 _ (Host.reduce_andi_all _ _ _ _ _ tRnum)
      cnum_real := allReal_of_absTest a5 _ (Host.reduce_andi_all _ _ _ _ _ tCnum)
      er_real := allReal_of_absTest a6 _ (Host.reduce_andi_all _ _ _ _ _ tEr)
      ec_real := allReal_of_absTest a7 _ (Host.reduce_andi_all _ _ _ _ _ tEc)
      w_real := allReal_of_absTest a8 _ (Host.reduce_andi_all _ _ _ _ _ tW)
      b_real := allReal_of_absTest a9 _ (Host.reduce_andi_all _ _ _ _ _ tB)
      gr_real := allReal_of_absTest a10 _ (Host.reduce_andi_all _ _ _ _ _ tGr)
      br_real := allReal_of_absTest a11 _ (Host.reduce_andi_all _ _ _ _ _ tBr)
      gc_real := allReal_of_absTest a12 _ (Host.reduce_andi_all _ _ _ _ _ tGc)
      bc_real := allReal_of_absTest a13 _ (Host.reduce_andi_all _ _ _ _ _ tBc) }

end Cert.PreFacts

end
-- ==== Proof.lean ====
/-
  A graph-network node: for each of 8192 root rows, the eight embeddings of the row's category codes, the batch norm
  of the row's 64 numeric features, and the mean over the row's sixteen children of a linear layer with relu on the
  child's sixteen embeddings and the batch norm of its 128 numeric features.

  The kernel program gathers with jnp.take (a row outside its table would be filled with a not-a-number), folds each
  batch norm into a scale and a shift computed once, and runs the linear layer, the relu and the mean in one kernel
  region over 32 blocks of 256 root rows; the reference gathers by indexing (a row outside its table would be clamped),
  normalises as (x - mean) * rsqrt(var + eps) * gamma + beta, and uses one matrix product. Where every row index and
  every category code names a row of its table and every float entry is a real number — the precondition — the two
  results are equal over the extended reals, entry by entry:
  the gathers read the same rows; x * (gamma * rho) + (beta - mean * (gamma * rho)) = ((x - mean) * rho) * gamma + beta
  for real x, mean, rho, gamma, beta, with rho = rsqrt(var + eps) real because the variance is a mean of squares of
  reals; and the kernel's blockwise products, sums and means are the reference's sums in another grouping.
  The three frames: each program runs to its end without a fault and leaves its fourteen argument arrays as they
  were — the kernel programs by the one region's launch between the host operations around it, the reference by its
  straight line of host operations. The ideal pass rewrote nothing, so the idealization claim is empty.
-/
import proofs.«409894_j6640019439760_1_alg».proof.Defs
import proofs.«409894_j6640019439760_1_alg».proof.Proof.Gen.Kernel
import proofs.«409894_j6640019439760_1_alg».proof.Proof.Gen.KernelIdeal
import proofs.«409894_j6640019439760_1_alg».proof.Proof.Gen.ReferenceIdeal
import proofs.«409894_j6640019439760_1_alg».proof.Proof.Gen.Pre_finite_inputs
import proofs.«409894_j6640019439760_1_alg».proof.Proof.KBody
import proofs.«409894_j6640019439760_1_alg».proof.Proof.KIBody
import proofs.«409894_j6640019439760_1_alg».proof.Proof.KOut
import proofs.«409894_j6640019439760_1_alg».proof.Proof.RefRun
import proofs.«409894_j6640019439760_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- No operation was rewritten by the ideal pass. -/
theorem preserves : Cert.preserves_Kernel_KernelIdeal := trivial

/-- On arguments in the domain, both programs end holding the reference's function of the arguments. -/
theorem algebraic : Cert.algebraic_KernelIdeal_ReferenceIdeal := by
  intro m ρ m' ρ' hpre hagree
  refine ⟨fun c => Cert.ReferenceIdeal.Hand.refOut (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13)), ?_, ?_⟩
  · refine (θ_run Cert.KernelIdeal.defs _ _).mono (fun r h c =>
      ⟨?_, Cert.KernelIdeal.Hand.kept_of_post m (Cert.KernelIdeal.Hand.dats m) (Cert.KernelIdeal.Hand.A_eq m) r h c⟩)
      (Cert.KernelIdeal.Hand.run_main m ρ)
    rw [Cert.KernelIdeal.Hand.result_of_post m r h c]
    exact Cert.KernelIdeal.Hand.kernel_out m c
      (Cert.PreFacts.inDomain_of_pre _ _ _ _ _ _ _ _ _ _ _ _ _ _ (hpre c))
  · refine (θ_run Cert.ReferenceIdeal.defs _ _).mono (fun r h c => ⟨(h c).1.trans ?_, (h c).2⟩)
      (Cert.ReferenceIdeal.Hand.run (F := Ideal) m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
